-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  main_v3
-- ==== Kernel.lean ====
abbrev S256x256 : Shape := ⟨2, ![256, 256]⟩
abbrev S3x256x256 : Shape := ⟨3, ![3, 256, 256]⟩
abbrev S3x3 : Shape := ⟨2, ![3, 3]⟩
abbrev S_ : Shape := ⟨0, ![]⟩
abbrev S1x256x256 : Shape := ⟨3, ![1, 256, 256]⟩
abbrev S1x1 : Shape := ⟨2, ![1, 1]⟩
abbrev S1x96x256 : Shape := ⟨3, ![1, 96, 256]⟩
abbrev S96x256 : Shape := ⟨2, ![96, 256]⟩
abbrev S1x80x256 : Shape := ⟨3, ![1, 80, 256]⟩
abbrev S80x256 : Shape := ⟨2, ![80, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S3x256x256, .bf16⟩
  | .local _ .vmem, ⟨3, _⟩ => ⟨S3x256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v19 : BitVec 32 := Scalar.xori v2 c1_i32_14
  let c1_i32_21 : BitVec 32 := 1#32
  let v20 : BitVec 32 := Scalar.muli v19 c1_i32_21
  let v21 : BitVec 32 := Scalar.addi c0_i32_22 v20
  v21.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_27 : BitVec 32 := 3#32
  let v30 : BitVec 32 := Scalar.xori v2 c3_i32_27
  let c1_i32_34 : BitVec 32 := 1#32
  let v31 : BitVec 32 := Scalar.muli v30 c1_i32_34
  let v32 : BitVec 32 := Scalar.addi c0_i32_35 v31
  v32.toNat
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_39 : BitVec 32 := 4#32
  let v41 : BitVec 32 := Scalar.xori v2 c4_i32_39
  let c1_i32_45 : BitVec 32 := 1#32
  let v42 : BitVec 32 := Scalar.muli v41 c1_i32_45
  let v43 : BitVec 32 := Scalar.addi c0_i32_46 v42
  v43.toNat
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v84 : BitVec 32 := Scalar.xori v2 c3_i32_91
  let c1_i32_98 : BitVec 32 := 1#32
  let v85 : BitVec 32 := Scalar.muli v84 c1_i32_98
  let v86 : BitVec 32 := Scalar.addi c0_i32_99 v85
  v86.toNat
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_104 : BitVec 32 := 4#32
  let v95 : BitVec 32 := Scalar.xori v2 c4_i32_104
  let c1_i32_111 : BitVec 32 := 1#32
  let v96 : BitVec 32 := Scalar.muli v95 c1_i32_111
  let v97 : BitVec 32 := Scalar.addi c0_i32_112 v96
  v97.toNat
def k0_dev9 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_117 : BitVec 32 := 1#32
  let v106 : BitVec 32 := Scalar.xori v2 c1_i32_117
  let c1_i32_124 : BitVec 32 := 1#32
  let v107 : BitVec 32 := Scalar.muli v106 c1_i32_124
  let v108 : BitVec 32 := Scalar.addi c0_i32_125 v107
  v108.toNat
def k0_dev10 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_171 : BitVec 32 := 4#32
  let v149 : BitVec 32 := Scalar.xori v2 c4_i32_171
  let c1_i32_178 : BitVec 32 := 1#32
  let v150 : BitVec 32 := Scalar.muli v149 c1_i32_178
  let v151 : BitVec 32 := Scalar.addi c0_i32_179 v150
  v151.toNat
def k0_dev11 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_184 : BitVec 32 := 1#32
  let v160 : BitVec 32 := Scalar.xori v2 c1_i32_184
  let c1_i32_191 : BitVec 32 := 1#32
  let v161 : BitVec 32 := Scalar.muli v160 c1_i32_191
  let v162 : BitVec 32 := Scalar.addi c0_i32_192 v161
  v162.toNat
def k0_dev12 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_197 : BitVec 32 := 3#32
  let v171 : BitVec 32 := Scalar.xori v2 c3_i32_197
  let c1_i32_204 : BitVec 32 := 1#32
  let v172 : BitVec 32 := Scalar.muli v171 c1_i32_204
  let v173 : BitVec 32 := Scalar.addi c0_i32_205 v172
  v173.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  shapeCasts_S256x256_S1x256x256 : S256x256.ShapeCasts S1x256x256
  packedbf16_S3x256x256_S1x256x256_0_0_0 : (Rect.unit (s := S3x256x256) ![0, 0, 0] S1x256x256.size inb_S3x256x256_S1x256x256_0_0_0).PackedRows (EltTy.packing .bf16)
  inb_S3x3_S1x1_0_0 : ∀ a, (![0, 0] : Fin 2 → Nat) a + S1x1.size a ≤ S3x3.size a
  squeezes_S1x1_S_ : S1x1.Squeezes S_
  inb_S3x256x256_S1x96x256_0_0_0 : ∀ a, (![0, 0, 0] : Fin 3 → Nat) a + S1x96x256.size a ≤ S3x256x256.size a
  squeezes_S1x96x256_S96x256 : S1x96x256.Squeezes S96x256
  wordsbf16_S3x256x256_S1x96x256_0_0_0 : (Rect.unit (s := S3x256x256) ![0, 0, 0] S1x96x256.size inb_S3x256x256_S1x96x256_0_0_0).WholeWords (EltTy.packing .bf16)
  inb_S3x3_S1x1_0_1 : ∀ a, (![0, 1] : Fin 2 → Nat) a + S1x1.size a ≤ S3x3.size a
  inb_S3x256x256_S1x80x256_0_96_0 : ∀ a, (![0, 96, 0] : Fin 3 → Nat) a + S1x80x256.size a ≤ S3x256x256.size a
  squeezes_S1x80x256_S80x256 : S1x80x256.Squeezes S80x256
  wordsbf16_S3x256x256_S1x80x256_0_96_0 : (Rect.unit (s := S3x256x256) ![0, 96, 0] S1x80x256.size inb_S3x256x256_S1x80x256_0_96_0).WholeWords (EltTy.packing .bf16)
  inb_S3x3_S1x1_0_2 : ∀ a, (![0, 2] : Fin 2 → Nat) a + S1x1.size a ≤ S3x3.size a
  inb_S3x256x256_S1x80x256_0_176_0 : ∀ a, (![0, 176, 0] : Fin 3 → Nat) a + S1x80x256.size a ≤ S3x256x256.size a
  wordsbf16_S3x256x256_S1x80x256_0_176_0 : (Rect.unit (s := S3x256x256) ![0, 176, 0] S1x80x256.size inb_S3x256x256_S1x80x256_0_176_0).WholeWords (EltTy.packing .bf16)
  inb_S3x256x256_S1x256x256_1_0_0 : ∀ a, (![1, 0, 0] : Fin 3 → Nat) a + S1x256x256.size a ≤ S3x256x256.size a
  packedbf16_S3x256x256_S1x256x256_1_0_0 : (Rect.unit (s := S3x256x256) ![1, 0, 0] S1x256x256.size inb_S3x256x256_S1x256x256_1_0_0).PackedRows (EltTy.packing .bf16)
  inb_S3x3_S1x1_1_0 : ∀ a, (![1, 0] : Fin 2 → Nat) a + S1x1.size a ≤ S3x3.size a
  inb_S3x256x256_S1x96x256_1_0_0 : ∀ a, (![1, 0, 0] : Fin 3 → Nat) a + S1x96x256.size a ≤ S3x256x256.size a
  wordsbf16_S3x256x256_S1x96x256_1_0_0 : (Rect.unit (s := S3x256x256) ![1, 0, 0] S1x96x256.size inb_S3x256x256_S1x96x256_1_0_0).WholeWords (EltTy.packing .bf16)
  inb_S3x3_S1x1_1_1 : ∀ a, (![1, 1] : Fin 2 → Nat) a + S1x1.size a ≤ S3x3.size a
  inb_S3x256x256_S1x80x256_1_96_0 : ∀ a, (![1, 96, 0] : Fin 3 → Nat) a + S1x80x256.size a ≤ S3x256x256.size a
  wordsbf16_S3x256x256_S1x80x256_1_96_0 : (Rect.unit (s := S3x256x256) ![1, 96, 0] S1x80x256.size inb_S3x256x256_S1x80x256_1_96_0).WholeWords (EltTy.packing .bf16)
  inb_S3x3_S1x1_1_2 : ∀ a, (![1, 2] : Fin 2 → Nat) a + S1x1.size a ≤ S3x3.size a
  inb_S3x256x256_S1x80x256_1_176_0 : ∀ a, (![1, 176, 0] : Fin 3 → Nat) a + S1x80x256.size a ≤ S3x256x256.size a
  wordsbf16_S3x256x256_S1x80x256_1_176_0 : (Rect.unit (s := S3x256x256) ![1, 176, 0] S1x80x256.size inb_S3x256x256_S1x80x256_1_176_0).WholeWords (EltTy.packing .bf16)
  inb_S3x256x256_S1x256x256_2_0_0 : ∀ a, (![2, 0, 0] : Fin 3 → Nat) a + S1x256x256.size a ≤ S3x256x256.size a
  packedbf16_S3x256x256_S1x256x256_2_0_0 : (Rect.unit (s := S3x256x256) ![2, 0, 0] S1x256x256.size inb_S3x256x256_S1x256x256_2_0_0).PackedRows (EltTy.packing .bf16)
  inb_S3x3_S1x1_2_0 : ∀ a, (![2, 0] : Fin 2 → Nat) a + S1x1.size a ≤ S3x3.size a
  inb_S3x256x256_S1x96x256_2_0_0 : ∀ a, (![2, 0, 0] : Fin 3 → Nat) a + S1x96x256.size a ≤ S3x256x256.size a
  wordsbf16_S3x256x256_S1x96x256_2_0_0 : (Rect.unit (s := S3x256x256) ![2, 0, 0] S1x96x256.size inb_S3x256x256_S1x96x256_2_0_0).WholeWords (EltTy.packing .bf16)
  inb_S3x3_S1x1_2_1 : ∀ a, (![2, 1] : Fin 2 → Nat) a + S1x1.size a ≤ S3x3.size a
  inb_S3x256x256_S1x80x256_2_96_0 : ∀ a, (![2, 96, 0] : Fin 3 → Nat) a + S1x80x256.size a ≤ S3x256x256.size a
  wordsbf16_S3x256x256_S1x80x256_2_96_0 : (Rect.unit (s := S3x256x256) ![2, 96, 0] S1x80x256.size inb_S3x256x256_S1x80x256_2_96_0).WholeWords (EltTy.packing .bf16)
  inb_S3x3_S1x1_2_2 : ∀ a, (![2, 2] : Fin 2 → Nat) a + S1x1.size a ≤ S3x3.size a
  inb_S3x256x256_S1x80x256_2_176_0 : ∀ a, (![2, 176, 0] : Fin 3 → Nat) a + S1x80x256.size a ≤ S3x256x256.size a
  wordsbf16_S3x256x256_S1x80x256_2_176_0 : (Rect.unit (s := S3x256x256) ![2, 176, 0] S1x80x256.size inb_S3x256x256_S1x80x256_2_176_0).WholeWords (EltTy.packing .bf16)
  hcc0_scratch2 : 2 + S3x3.numel ≤ 20
  hcc0_scratch3 : 11 + S3x3.numel ≤ 20
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  hstage0_0 : ∀ j, (stage0_0 j).IsWhole
  hstage0_1 : ∀ j, (stage0_1 j).IsWhole

variable [Facts₀]

abbrev cc0_scratch2 : DmaSems sig S3x3 := SemArray.consecutive 2 S3x3 hcc0_scratch2
abbrev cc0_scratch3 : DmaSems sig S3x3 := SemArray.consecutive 11 S3x3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x256 : Shape := ⟨2, ![2048, 256]⟩
abbrev S8x256x256 : Shape := ⟨3, ![8, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S8x256x256, .f32⟩
  | .hbm, ⟨2, _⟩ => ⟨S_, .f32⟩
  | .hbm, ⟨3, _⟩ => ⟨S256x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S2048x256_S8x256x256 : S2048x256.ShapeCasts S8x256x256
  reducesTo_S8x256x256_S256x256_d0 : S8x256x256.ReducesTo [0] S256x256
  h_S_ : 0 < S_.numel

variable [Facts₀]

class Facts : Prop extends Facts₀ where

variable [Facts]
-- ==== Proof.Mesh.lean ====
/-
  The mesh of the all-reduce: eight devices on one axis, each exchanging with the three devices whose
  position differs from its own by the bit patterns 1, 3 and 4 (exclusive or). The three patterns are
  linearly independent over the two-element field, so the exchanges generate all eight positions.
-/
import proofs.«900696_g7700000000000697_dist_ar_v7x_i8_i_m256_n256_bf16_1_alg».proof.Proof.Gen.KernelIdeal

namespace Cert.KernelIdeal.AR

open Cert.KernelIdeal Cert.KernelIdeal.Gen
open Idealize.ShloMosaic Idealize.SL.Sem

/-- The three bit patterns. -/
def msk : Fin 3 → Nat := ![1, 3, 4]

/-- The device whose position differs from `c`'s by pattern `k`. -/
def pr (k : Fin 3) (c : Dev nD) : Dev nD := ⟨(c.val ^^^ msk k) % 8, Nat.mod_lt _ (by decide)⟩

/-- Exchanging twice by the same pattern comes back. -/
theorem pr_pr (k : Fin 3) (c : Dev nD) : pr k (pr k c) = c := by revert k c; decide
/-- A partner is another device. -/
theorem pr_ne (k : Fin 3) (c : Dev nD) : pr k c ≠ c := by revert k c; decide
/-- Different patterns lead to different partners. -/
theorem pr_inj (c : Dev nD) : Function.Injective (fun k => pr k c) := by revert c; decide
theorem pr_eq_iff (k : Fin 3) (a b : Dev nD) : pr k a = b ↔ a = pr k b := by revert k a b; decide

/-- The pattern transfer `j = 3·s + ch` (step `s`, row chunk `ch`) uses: pattern `(ch + s) mod 3`. -/
def kOf : Fin 9 → Fin 3 := ![0, 1, 2, 1, 2, 0, 2, 0, 1]
/-- The step of transfer `j`. -/
def sOf : Fin 9 → Fin 3 := ![0, 0, 0, 1, 1, 1, 2, 2, 2]
/-- The row chunk of transfer `j`. -/
def chOf : Fin 9 → Fin 3 := ![0, 1, 2, 0, 1, 2, 0, 1, 2]
/-- The transfer of step `s` that uses pattern `k`. -/
def jOf (s k : Fin 3) : Fin 9 := ![![0, 1, 2], ![5, 3, 4], ![7, 8, 6]] s k

theorem kOf_jOf (s k : Fin 3) : kOf (jOf s k) = k := by revert s k; decide
theorem sOf_jOf (s k : Fin 3) : sOf (jOf s k) = s := by revert s k; decide
theorem jOf_kOf (j : Fin 9) : jOf (sOf j) (kOf j) = j := by revert j; decide

/-- The printed device chains of the three entry signals name the three partners. -/
theorem dev1_eq (c : Dev nD) : (⟨k0_dev1 c, k0_dev1_lt c⟩ : Dev nD) = pr 0 c := by revert c; decide +kernel
theorem dev2_eq (c : Dev nD) : (⟨k0_dev2 c, k0_dev2_lt c⟩ : Dev nD) = pr 1 c := by revert c; decide +kernel
theorem dev3_eq (c : Dev nD) : (⟨k0_dev3 c, k0_dev3_lt c⟩ : Dev nD) = pr 2 c := by revert c; decide +kernel
/-- The printed device chains of the nine transfers name the partner of the transfer's pattern. -/
theorem dev4_eq (c : Dev nD) : (⟨k0_dev4 c, k0_dev4_lt c⟩ : Dev nD) = pr (kOf 0) c := by revert c; decide +kernel
theorem dev5_eq (c : Dev nD) : (⟨k0_dev5 c, k0_dev5_lt c⟩ : Dev nD) = pr (kOf 1) c := by revert c; decide +kernel
theorem dev6_eq (c : Dev nD) : (⟨k0_dev6 c, k0_dev6_lt c⟩ : Dev nD) = pr (kOf 2) c := by revert c; decide +kernel
theorem dev7_eq (c : Dev nD) : (⟨k0_dev7 c, k0_dev7_lt c⟩ : Dev nD) = pr (kOf 3) c := by revert c; decide +kernel
theorem dev8_eq (c : Dev nD) : (⟨k0_dev8 c, k0_dev8_lt c⟩ : Dev nD) = pr (kOf 4) c := by revert c; decide +kernel
theorem dev9_eq (c : Dev nD) : (⟨k0_dev9 c, k0_dev9_lt c⟩ : Dev nD) = pr (kOf 5) c := by revert c; decide +kernel
theorem dev10_eq (c : Dev nD) : (⟨k0_dev10 c, k0_dev10_lt c⟩ : Dev nD) = pr (kOf 6) c := by revert c; decide +kernel
theorem dev11_eq (c : Dev nD) : (⟨k0_dev11 c, k0_dev11_lt c⟩ : Dev nD) = pr (kOf 7) c := by revert c; decide +kernel
theorem dev12_eq (c : Dev nD) : (⟨k0_dev12 c, k0_dev12_lt c⟩ : Dev nD) = pr (kOf 8) c := by revert c; decide +kernel

end Cert.KernelIdeal.AR
-- ==== Proof.Mem.lean ====
/-
  The buffers, slices, semaphores and cells of the all-reduce. Every device holds its block of `x` and its result
  in two staged buffers, a send buffer and a receive buffer of three slabs (one per step) of 256 × 256 packed
  half-width floats, and two arrays of nine DMA semaphores. Transfer `j = 3·s + ch` copies rows chunk `ch` of slab `s` of
  the sender's send buffer into the same rows of the same slab of the partner's receive buffer.
-/
import proofs.«900696_g7700000000000697_dist_ar_v7x_i8_i_m256_n256_bf16_1_alg».proof.Proof.Mesh
import Idealize.ShloMosaic.Lib.Rounds

noncomputable section

namespace Cert.KernelIdeal.AR

open Cert.KernelIdeal Cert.KernelIdeal.Gen
open Idealize.ShloMosaic Idealize.ShloMosaic.TcCoe Idealize.SL.Sem

/-- The four buffers the body is called with. -/
abbrev xM : Memref sig .tc .vmem S256x256 .f32 := Memref.whole cc0_stg0_0
abbrev oM : Memref sig .tc .vmem S256x256 .f32 := Memref.whole cc0_stg1_0
abbrev sB : Memref sig .tc .vmem S3x256x256 .bf16 := Memref.whole cc0_scratch0
abbrev rB : Memref sig .tc .vmem S3x256x256 .bf16 := Memref.whole cc0_scratch1

/-- The first row and the number of rows of transfer `j`'s chunk: rows 0–95, 96–175, 176–255. -/
def row0 : Fin 9 → ℕ := ![0, 96, 176, 0, 96, 176, 0, 96, 176]
def nrow : Fin 9 → ℕ := ![96, 80, 80, 96, 80, 80, 96, 80, 80]

theorem inb_slab (s : Fin 3) : ∀ a, (![s.val, 0, 0] : Fin 3 → ℕ) a + (![1, 256, 256] : Fin 3 → ℕ) a ≤ S3x256x256.size a := by
  revert s; decide
theorem inb_piece (j : Fin 9) :
    ∀ a, (![(sOf j).val, row0 j, 0] : Fin 3 → ℕ) a + (![1, nrow j, 256] : Fin 3 → ℕ) a ≤ S3x256x256.size a := by
  revert j; decide

/-- Slab `s` of a scratch buffer, as the body's slab loads and stores address it. -/
abbrev slabR (s : Fin 3) : Rect S3x256x256 := Rect.unit (s := S3x256x256) ![s.val, 0, 0] ![1, 256, 256] (inb_slab s)
/-- Transfer `j`'s rows of its slab. -/
abbrev pieceR (j : Fin 9) : Rect S3x256x256 :=
  Rect.unit (s := S3x256x256) ![(sOf j).val, row0 j, 0] ![1, nrow j, 256] (inb_piece j)

/-- The shape of transfer `j`'s row chunk. -/
abbrev chS (j : Fin 9) : Shape := ⟨2, ![nrow j, 256]⟩
theorem sq_piece (j : Fin 9) : (⟨3, ![1, nrow j, 256]⟩ : Shape).Squeezes (chS j) := by revert j; decide

/-- Transfer `j`'s source: its rows of its slab of the send buffer. -/
abbrev srcM (j : Fin 9) : Memref sig .tc .vmem (chS j) .bf16 :=
  ((Memref.whole cc0_scratch0).slice (pieceR j) (fun _ => rfl)).squeeze (chS j) (sq_piece j)
/-- Transfer `j`'s destination: the same rows of the same slab of the receive buffer. -/
abbrev dstM (j : Fin 9) : Memref sig .tc .vmem (chS j) .bf16 :=
  ((Memref.whole cc0_scratch1).slice (pieceR j) (fun _ => rfl)).squeeze (chS j) (sq_piece j)

/-- The send and receive semaphores of transfer `j`, as the body's slices of the two arrays name them. -/
abbrev sSemP : Fin 9 → DmaSem sig
  | ⟨0, _⟩ => ((cc0_scratch2.slice (Rect.unit (s := S3x3) ![0, 0] S1x1.size inb_S3x3_S1x1_0_0)).squeeze S_ squeezes_S1x1_S_).sem
  | ⟨1, _⟩ => ((cc0_scratch2.slice (Rect.unit (s := S3x3) ![0, 1] S1x1.size inb_S3x3_S1x1_0_1)).squeeze S_ squeezes_S1x1_S_).sem
  | ⟨2, _⟩ => ((cc0_scratch2.slice (Rect.unit (s := S3x3) ![0, 2] S1x1.size inb_S3x3_S1x1_0_2)).squeeze S_ squeezes_S1x1_S_).sem
  | ⟨3, _⟩ => ((cc0_scratch2.slice (Rect.unit (s := S3x3) ![1, 0] S1x1.size inb_S3x3_S1x1_1_0)).squeeze S_ squeezes_S1x1_S_).sem
  | ⟨4, _⟩ => ((cc0_scratch2.slice (Rect.unit (s := S3x3) ![1, 1] S1x1.size inb_S3x3_S1x1_1_1)).squeeze S_ squeezes_S1x1_S_).sem
  | ⟨5, _⟩ => ((cc0_scratch2.slice (Rect.unit (s := S3x3) ![1, 2] S1x1.size inb_S3x3_S1x1_1_2)).squeeze S_ squeezes_S1x1_S_).sem
  | ⟨6, _⟩ => ((cc0_scratch2.slice (Rect.unit (s := S3x3) ![2, 0] S1x1.size inb_S3x3_S1x1_2_0)).squeeze S_ squeezes_S1x1_S_).sem
  | ⟨7, _⟩ => ((cc0_scratch2.slice (Rect.unit (s := S3x3) ![2, 1] S1x1.size inb_S3x3_S1x1_2_1)).squeeze S_ squeezes_S1x1_S_).sem
  | ⟨8, _⟩ => ((cc0_scratch2.slice (Rect.unit (s := S3x3) ![2, 2] S1x1.size inb_S3x3_S1x1_2_2)).squeeze S_ squeezes_S1x1_S_).sem
  | ⟨_ + 9, h⟩ => absurd h (by omega)
abbrev rSemP : Fin 9 → DmaSem sig
  | ⟨0, _⟩ => ((cc0_scratch3.slice (Rect.unit (s := S3x3) ![0, 0] S1x1.size inb_S3x3_S1x1_0_0)).squeeze S_ squeezes_S1x1_S_).sem
  | ⟨1, _⟩ => ((cc0_scratch3.slice (Rect.unit (s := S3x3) ![0, 1] S1x1.size inb_S3x3_S1x1_0_1)).squeeze S_ squeezes_S1x1_S_).sem
  | ⟨2, _⟩ => ((cc0_scratch3.slice (Rect.unit (s := S3x3) ![0, 2] S1x1.size inb_S3x3_S1x1_0_2)).squeeze S_ squeezes_S1x1_S_).sem
  | ⟨3, _⟩ => ((cc0_scratch3.slice (Rect.unit (s := S3x3) ![1, 0] S1x1.size inb_S3x3_S1x1_1_0)).squeeze S_ squeezes_S1x1_S_).sem
  | ⟨4, _⟩ => ((cc0_scratch3.slice (Rect.unit (s := S3x3) ![1, 1] S1x1.size inb_S3x3_S1x1_1_1)).squeeze S_ squeezes_S1x1_S_).sem
  | ⟨5, _⟩ => ((cc0_scratch3.slice (Rect.unit (s := S3x3) ![1, 2] S1x1.size inb_S3x3_S1x1_1_2)).squeeze S_ squeezes_S1x1_S_).sem
  | ⟨6, _⟩ => ((cc0_scratch3.slice (Rect.unit (s := S3x3) ![2, 0] S1x1.size inb_S3x3_S1x1_2_0)).squeeze S_ squeezes_S1x1_S_).sem
  | ⟨7, _⟩ => ((cc0_scratch3.slice (Rect.unit (s := S3x3) ![2, 1] S1x1.size inb_S3x3_S1x1_2_1)).squeeze S_ squeezes_S1x1_S_).sem
  | ⟨8, _⟩ => ((cc0_scratch3.slice (Rect.unit (s := S3x3) ![2, 2] S1x1.size inb_S3x3_S1x1_2_2)).squeeze S_ squeezes_S1x1_S_).sem
  | ⟨_ + 9, h⟩ => absurd h (by omega)

/-- The same semaphores in closed form: the send array starts at 2, the receive array at 11. -/
def sSem (j : Fin 9) : DmaSem sig := ⟨2 + j.val, by have := j.isLt; show 2 + j.val < 20; omega⟩
def rSem (j : Fin 9) : DmaSem sig := ⟨11 + j.val, by have := j.isLt; show 11 + j.val < 20; omega⟩

theorem sSemP_eq (j : Fin 9) : sSemP j = sSem j := by revert j; decide
theorem rSemP_eq (j : Fin 9) : rSemP j = rSem j := by revert j; decide

/-- The runtime's barrier semaphore of collective id 0. -/
abbrev barS : Sem sig := (SemArray.scalar (sig.barrier 0 rfl) : Sems sig S_).sem

abbrev barCell (c : Dev nD) : GSem nD τ sig := ((c : Thread nD τ), .reg barS)
abbrev sendCell (c : Dev nD) (j : Fin 9) : GSem nD τ sig := ((c : Thread nD τ), .dma (sSem j))
abbrev recvCell (c : Dev nD) (j : Fin 9) : GSem nD τ sig := ((c : Thread nD τ), .dma (rSem j))

/-- The credit of transfer `j`: its destination view's, which is also its source view's. -/
abbrev NN (j : Fin 9) : ℕ := (dstM j).view.dmaCredit
theorem NN_pos (j : Fin 9) : 0 < NN j := View.dmaCredit_pos _ (by revert j; decide)
theorem NN_src (j : Fin 9) : (srcM j).view.dmaCredit = NN j := by revert j; decide

theorem sSem_inj : Function.Injective sSem := fun a b h => Fin.ext (by have := congrArg Fin.val h; simp only [sSem] at this; omega)
theorem rSem_inj : Function.Injective rSem := fun a b h => Fin.ext (by have := congrArg Fin.val h; simp only [rSem] at this; omega)
theorem sSem_ne_rSem (a b : Fin 9) : sSem a ≠ rSem b := fun h => by
  have := congrArg Fin.val h; simp only [sSem, rSem] at this; have := a.isLt; omega

end Cert.KernelIdeal.AR

end
-- ==== Proof.Vals.lean ====
/-
  What every buffer holds along the all-reduce, as pure terms of the devices' blocks of `x`, generic in the float
  instance. Step `s` (0, 1, 2): every device stores its running sum, narrowed to the half-width format, as slab `s` of its
  send buffer; rows chunk `ch` of that slab goes to the partner of pattern `(ch + s) mod 3` and lands in the same rows of
  slab `s` of the partner's receive buffer; the device then adds the slab it received, widened again, to its running sum.
  After three steps every row chunk has met all three patterns, whose combinations reach all eight devices.
-/
import proofs.«900696_g7700000000000697_dist_ar_v7x_i8_i_m256_n256_bf16_1_alg».proof.Proof.Mem
import proofs.«900696_g7700000000000697_dist_ar_v7x_i8_i_m256_n256_bf16_1_alg».proof.Proof.Gen.KernelIdeal.Skeleton
import proofs.«900696_g7700000000000697_dist_ar_v7x_i8_i_m256_n256_bf16_1_alg».proof.Proof.Gen.KernelIdeal.Frame
import Idealize.ShloMosaic.Lib.ValueIdx

noncomputable section

namespace Cert.KernelIdeal.AR

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Device `c`'s block of `x`, as the pipeline stages it for the body. -/
def X (c : Dev nD) : Vec F S256x256 .f32 := Gen.iblk m c 0 Gen.t0_0

/-- The row chunk of row `r`: rows 0–95, 96–175, 176–255. -/
def chunkOfRow (r : ℕ) : ℕ := if r < 96 then 0 else if r < 176 then 1 else 2
/-- The pattern by which row `r` is exchanged at step `s`. -/
def kRow (s : Fin 3) (r : ℕ) : Fin 3 := ⟨(chunkOfRow r + s.val) % 3, Nat.mod_lt _ (by decide)⟩

/-- The running sum before step 0, and the slab stored at step 0. -/
def A0 (c : Dev nD) : FVec F S256x256 .f32 := k0_pay1 (X m c)
def sent0 (c : Dev nD) : FVec F S1x256x256 .bf16 := k0_pay2 (X m c)
/-- The slab received at step 0: row by row, the partner's stored slab. -/
def R0 (c : Dev nD) : Vec F S1x256x256 .bf16 := fun y => sent0 m (pr (kRow 0 (y 1).val) c) y
def A1 (c : Dev nD) : FVec F S256x256 .f32 := k0_pay3 (A0 m c) (R0 m c)
def sent1 (c : Dev nD) : FVec F S1x256x256 .bf16 := k0_pay4 (A0 m c) (R0 m c)
def R1 (c : Dev nD) : Vec F S1x256x256 .bf16 := fun y => sent1 m (pr (kRow 1 (y 1).val) c) y
def A2 (c : Dev nD) : FVec F S256x256 .f32 := k0_pay5 (A1 m c) (R1 m c)
def sent2 (c : Dev nD) : FVec F S1x256x256 .bf16 := k0_pay6 (A1 m c) (R1 m c)
def R2 (c : Dev nD) : Vec F S1x256x256 .bf16 := fun y => sent2 m (pr (kRow 2 (y 1).val) c) y
/-- The result. -/
def A3 (c : Dev nD) : FVec F S256x256 .f32 := k0_pay7 (A2 m c) (R2 m c)

/-- The slab stored at step `s`, and the slab received at step `s`. -/
def sent (s : Fin 3) (c : Dev nD) : FVec F S1x256x256 .bf16 :=
  match s with | ⟨0, _⟩ => sent0 m c | ⟨1, _⟩ => sent1 m c | ⟨2, _⟩ => sent2 m c | ⟨_ + 3, h⟩ => absurd h (by omega)
def rcvd (s : Fin 3) (c : Dev nD) : Vec F S1x256x256 .bf16 :=
  match s with | ⟨0, _⟩ => R0 m c | ⟨1, _⟩ => R1 m c | ⟨2, _⟩ => R2 m c | ⟨_ + 3, h⟩ => absurd h (by omega)

theorem rcvd_apply (s : Fin 3) (c : Dev nD) (y : S1x256x256.Idx) :
    rcvd m s c y = sent m s (pr (kRow s (y 1).val) c) y := by
  match s with | ⟨0, _⟩ => rfl | ⟨1, _⟩ => rfl | ⟨2, _⟩ => rfl

/-- Contents of the send buffer that are right on slab `s` once step `s` has stored: every slab of this function
    holds the slab stored at step `s` (only slab `s` of it is ever used). -/
def sbuf (s : Fin 3) (c : Dev nD) : Buf (Elt F) ((c : Thread nD τ).loc cc0_scratch0) :=
  fun i => sent m s c (ix3 (⟨0, Nat.one_pos⟩ : Fin 1) (i 1) (i 2))
/-- Contents of the receive buffer that are right on slab `s` once step `s`'s three transfers have landed. -/
def rbuf (s : Fin 3) (c : Dev nD) : Buf (Elt F) ((c : Thread nD τ).loc cc0_scratch1) :=
  fun i => rcvd m s c (ix3 (⟨0, Nat.one_pos⟩ : Fin 1) (i 1) (i 2))

end Cert.KernelIdeal.AR

end
-- ==== Proof.Geom.lean ====
/-
  The geometry of the two scratch buffers: each is three slabs (its first axis), each slab three row chunks (rows 0–95,
  96–175, 176–255). A buffer held whole splits into its slabs, a slab into its chunks, and back; a slab stored, a chunk
  landed and a slab loaded hold the contents `Vals` names.
-/
import proofs.«900696_g7700000000000697_dist_ar_v7x_i8_i_m256_n256_bf16_1_alg».proof.Proof.Vals
import Idealize.ShloMosaic.Rules.PointsTo
import Idealize.ShloMosaic.Lib.ValueLayout
import Idealize.ShloMosaic.Lib.Pipeline.Value

noncomputable section

namespace Cert.KernelIdeal.AR

open Cert.KernelIdeal Cert.KernelIdeal.Gen
open Idealize.ShloMosaic Idealize.ShloMosaic.TcCoe Idealize.SL.Sem Idealize.ShloMosaic.ValueIdx
open Idealize.SL Idealize.SL.RA Idealize.SL.BI
open scoped Idealize.SL.BI
open Idealize.SL.BI.BIBase Idealize.SL.BI.Laws

def slabSet (s : Fin 3) : Finset S3x256x256.Idx := (slabR s).set
def pieceSet (j : Fin 9) : Finset S3x256x256.Idx := (pieceR j).set

/-- The transfer of step `s` and row chunk `ch`. -/
def jAt (s ch : Fin 3) : Fin 9 := ⟨3 * s.val + ch.val, by omega⟩

theorem mem_slabSet (s : Fin 3) (i : S3x256x256.Idx) : i ∈ slabSet s ↔ (i 0).val = s.val := by
  unfold slabSet
  rw [Rect.mem_set_unit]
  have h1 : (i 1).val < 256 := (i 1).isLt
  have h2 : (i 2).val < 256 := (i 2).isLt
  constructor
  · intro h
    have a0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 256; omega
    | ⟨2, _⟩ => show 0 ≤ (i 2).val ∧ (i 2).val < 0 + 256; omega
theorem mem_pieceSet (j : Fin 9) (i : S3x256x256.Idx) :
    i ∈ pieceSet j ↔ (i 0).val = (sOf j).val ∧ row0 j ≤ (i 1).val ∧ (i 1).val < row0 j + nrow j := by
  unfold pieceSet
  rw [Rect.mem_set_unit]
  have h2 : (i 2).val < 256 := (i 2).isLt
  constructor
  · intro h
    have a0 : (sOf j).val ≤ (i 0).val ∧ (i 0).val < (sOf j).val + 1 := h 0
    have a1 : row0 j ≤ (i 1).val ∧ (i 1).val < row0 j + nrow j := h 1
    omega
  · intro h a
    match a with
    | ⟨0, _⟩ => show (sOf j).val ≤ (i 0).val ∧ (i 0).val < (sOf j).val + 1; omega
    | ⟨1, _⟩ => show row0 j ≤ (i 1).val ∧ (i 1).val < row0 j + nrow j; omega
    | ⟨2, _⟩ => show 0 ≤ (i 2).val ∧ (i 2).val < 0 + 256; omega

/-- A transfer's source and destination views cover exactly its rows of its slab. -/
theorem src_set (j : Fin 9) : (srcM j).view.set = pieceSet j := by
  simp only [Memref.view_squeeze, View.set_reshape, Memref.view_slice, Memref.view_whole, View.set_slice_whole]
  rfl
theorem dst_set (j : Fin 9) : (dstM j).view.set = pieceSet j := by
  simp only [Memref.view_squeeze, View.set_reshape, Memref.view_slice, Memref.view_whole, View.set_slice_whole]
  rfl
/-- What the slab loads and stores touch. -/
theorem loadS_sub (s : Fin 3) : sB.view.setOn (slabR s).toLoadRect.set ⊆ slabSet s := by
  show ((slabR s).toLoadRect.set.map (Function.Embedding.refl _)) ⊆ slabSet s
  rw [Finset.map_refl]
  exact Finset.Subset.refl _
theorem loadR_sub (s : Fin 3) : rB.view.setOn (slabR s).toLoadRect.set ⊆ slabSet s := by
  show ((slabR s).toLoadRect.set.map (Function.Embedding.refl _)) ⊆ slabSet s
  rw [Finset.map_refl]
  exact Finset.Subset.refl _
theorem storeS_sub (s : Fin 3) : (sB.access (slabR s)).setOn Finset.univ ⊆ slabSet s := by
  rw [View.setOn_univ]
  show ((View.whole cc0_scratch0).slice (slabR s)).set ⊆ slabSet s
  rw [View.set_slice_whole]
  exact Finset.Subset.refl _

/-- The three slabs cover the buffer and are pairwise apart; the three row chunks of a slab cover it and are pairwise apart. -/
private theorem univ_eq_slabs : (Finset.univ : Finset S3x256x256.Idx) = slabSet 0 ∪ (slabSet 1 ∪ slabSet 2) := by
  ext i
  have h0 : (i 0).val < 3 := (i 0).isLt
  simp only [Finset.mem_univ, Finset.mem_union, mem_slabSet, true_iff]
  show (i 0).val = 0 ∨ (i 0).val = 1 ∨ (i 0).val = 2
  omega
private theorem slabSet_disjoint {s t : Fin 3} (h : s ≠ t) : Disjoint (slabSet s) (slabSet t) := by
  rw [Finset.disjoint_left]
  intro i hs ht
  rw [mem_slabSet] at hs ht
  exact h (Fin.ext (hs.symm.trans ht))
private theorem slab_eq_pieces (s : Fin 3) : slabSet s = pieceSet (jAt s 0) ∪ (pieceSet (jAt s 1) ∪ pieceSet (jAt s 2)) := by
  ext i
  have h1 : (i 1).val < 256 := (i 1).isLt
  simp only [Finset.mem_union, mem_slabSet, mem_pieceSet]
  fin_cases s <;> simp only [jAt, sOf, row0, nrow] <;> simp <;> omega
private theorem pieceSet_disjoint (s : Fin 3) {a b : Fin 3} (h : a ≠ b) : Disjoint (pieceSet (jAt s a)) (pieceSet (jAt s b)) := by
  rw [Finset.disjoint_left]
  intro i ha hb
  rw [mem_pieceSet] at ha hb
  revert h ha hb
  fin_cases s <;> fin_cases a <;> fin_cases b <;> simp [jAt, sOf, row0, nrow] <;> omega

section Split
variable {Ix : Type} [DecidableEq Ix] {Val : EltTy → Type} {Name : Type} [DecidableEq Name] {U : Type} [URA U] {Lvl : Type}
local notation "𝕄" => MT nD τ sig Ix Val Name U Lvl
variable (c : Dev nD)

/-- A points-to over a union of three pairwise disjoint element sets is the three points-tos. -/
private theorem pointsTo_three {ℓ : Loc nD τ sig} (f : Buf Val ℓ) {S A B C : Finset (Idx ℓ)} (hS : S = A ∪ (B ∪ C))
    (hAB : Disjoint A B) (hAC : Disjoint A C) (hBC : Disjoint B C) :
    ((ℓ ↦[S]{fullShare} f : sProp 𝕄))
      ⊣⊢ iprop((ℓ ↦[A]{fullShare} f) ∗ (ℓ ↦[B]{fullShare} f) ∗ (ℓ ↦[C]{fullShare} f)) := by
  subst hS
  have h1 : (ℓ ↦[A ∪ (B ∪ C)]{fullShare} f : sProp 𝕄) ⊣⊢ iprop((ℓ ↦[A]{fullShare} f) ∗ ℓ ↦[B ∪ C]{fullShare} f) :=
    pointsTo_union (Finset.disjoint_union_right.mpr ⟨hAB, hAC⟩)
  have h2 : (ℓ ↦[B ∪ C]{fullShare} f : sProp 𝕄) ⊣⊢ iprop((ℓ ↦[B]{fullShare} f) ∗ ℓ ↦[C]{fullShare} f) :=
    pointsTo_union hBC
  rw [BI.equiv_iff.mp ⟨h1.1, h1.2⟩, BI.equiv_iff.mp ⟨h2.1, h2.2⟩]

/-- The send buffer held whole is its three slabs, and a slab its three row chunks. -/
theorem sbuf_slabs (f : Buf Val ((c : Thread nD τ).loc cc0_scratch0)) :
    ((((c : Thread nD τ).loc cc0_scratch0) ↦{fullShare} f : sProp 𝕄))
      ⊣⊢ iprop((((c : Thread nD τ).loc cc0_scratch0) ↦[slabSet 0]{fullShare} f) ∗ (((c : Thread nD τ).loc cc0_scratch0) ↦[slabSet 1]{fullShare} f)
          ∗ (((c : Thread nD τ).loc cc0_scratch0) ↦[slabSet 2]{fullShare} f)) := by
  exact pointsTo_three f univ_eq_slabs (slabSet_disjoint (by decide)) (slabSet_disjoint (by decide)) (slabSet_disjoint (by decide))
theorem sslab_pieces (s : Fin 3) (f : Buf Val ((c : Thread nD τ).loc cc0_scratch0)) :
    ((((c : Thread nD τ).loc cc0_scratch0) ↦[slabSet s]{fullShare} f : sProp 𝕄))
      ⊣⊢ iprop((((c : Thread nD τ).loc cc0_scratch0) ↦[pieceSet (jAt s 0)]{fullShare} f) ∗ (((c : Thread nD τ).loc cc0_scratch0) ↦[pieceSet (jAt s 1)]{fullShare} f)
          ∗ (((c : Thread nD τ).loc cc0_scratch0) ↦[pieceSet (jAt s 2)]{fullShare} f)) := by
  exact pointsTo_three f (slab_eq_pieces s) (pieceSet_disjoint s (by decide)) (pieceSet_disjoint s (by decide)) (pieceSet_disjoint s (by decide))
/-- The same for the receive buffer. -/
theorem rbuf_slabs (f : Buf Val ((c : Thread nD τ).loc cc0_scratch1)) :
    ((((c : Thread nD τ).loc cc0_scratch1) ↦{fullShare} f : sProp 𝕄))
      ⊣⊢ iprop((((c : Thread nD τ).loc cc0_scratch1) ↦[slabSet 0]{fullShare} f) ∗ (((c : Thread nD τ).loc cc0_scratch1) ↦[slabSet 1]{fullShare} f)
          ∗ (((c : Thread nD τ).loc cc0_scratch1) ↦[slabSet 2]{fullShare} f)) := by
  exact pointsTo_three f univ_eq_slabs (slabSet_disjoint (by decide)) (slabSet_disjoint (by decide)) (slabSet_disjoint (by decide))
theorem rslab_pieces (s : Fin 3) (f : Buf Val ((c : Thread nD τ).loc cc0_scratch1)) :
    ((((c : Thread nD τ).loc cc0_scratch1) ↦[slabSet s]{fullShare} f : sProp 𝕄))
      ⊣⊢ iprop((((c : Thread nD τ).loc cc0_scratch1) ↦[pieceSet (jAt s 0)]{fullShare} f) ∗ (((c : Thread nD τ).loc cc0_scratch1) ↦[pieceSet (jAt s 1)]{fullShare} f)
          ∗ (((c : Thread nD τ).loc cc0_scratch1) ↦[pieceSet (jAt s 2)]{fullShare} f)) := by
  exact pointsTo_three f (slab_eq_pieces s) (pieceSet_disjoint s (by decide)) (pieceSet_disjoint s (by decide)) (pieceSet_disjoint s (by decide))
end Split

/-- An element of slab `s` is the slab rectangle's placement of `(0, row, column)`. -/
private theorem slab_emb (s : Fin 3) (i : S3x256x256.Idx) (hi : i ∈ slabSet s) :
    (sB.access (slabR s)).emb (ix3 (⟨0, Nat.one_pos⟩ : Fin 1) (i 1) (i 2)) = i := by
  rw [mem_slabSet] at hi
  funext a
  apply Fin.ext
  match a with
  | ⟨0, _⟩ => show s.val + 1 * 0 = (i 0).val; omega
  | ⟨1, _⟩ => show 0 + 1 * (i 1).val = (i 1).val; omega
  | ⟨2, _⟩ => show 0 + 1 * (i 2).val = (i 2).val; omega

/-- An element of transfer `j`'s rows is the placement, by the source view and by the destination view alike, of the
    chunk index `(row − first row, column)`: squeezed to `(0, row − first row, column)` and then offset by the rectangle. -/
private theorem piece_emb (j : Fin 9) (i : S3x256x256.Idx) (hi : i ∈ pieceSet j) :
    ∃ x : (chS j).Idx, (dstM j).view.emb x = i ∧ (srcM j).view.emb x = i := by
  rw [mem_pieceSet] at hi
  obtain ⟨h0, h1, h2⟩ := hi
  have hr : (i 1).val - row0 j < nrow j := by omega
  have e := reshapeEquiv_ix2_1ab (a := nrow j) (b := 256) (sq_piece j).numel_eq
    (⟨(i 1).val - row0 j, hr⟩ : Fin (nrow j)) (⟨(i 2).val, (i 2).isLt⟩ : Fin 256)
  have hp : (pieceR j).emb (ix3 (⟨0, Nat.one_pos⟩ : Fin 1) (⟨(i 1).val - row0 j, hr⟩ : Fin (nrow j))
      (⟨(i 2).val, (i 2).isLt⟩ : Fin 256)) = i := by
    funext a
    apply Fin.ext
    match a with
    | ⟨0, _⟩ => show (sOf j).val + 1 * 0 = (i 0).val; omega
    | ⟨1, _⟩ => show row0 j + 1 * ((i 1).val - row0 j) = (i 1).val; omega
    | ⟨2, _⟩ => show 0 + 1 * (i 2).val = (i 2).val; omega
  exact ⟨ix2 (⟨(i 1).val - row0 j, hr⟩ : Fin (nrow j)) (⟨(i 2).val, (i 2).isLt⟩ : Fin 256),
    (congrArg (pieceR j).emb e).trans hp, (congrArg (pieceR j).emb e).trans hp⟩

section Values
variable {F : FTy → Type} [FloatOps F]
variable (m : (ℓ : Loc nD τ sig) → Buf (Elt F) ℓ)

/-- A row of transfer `j`'s chunk is exchanged, at `j`'s step, by `j`'s pattern. -/
private theorem kRow_piece (j : Fin 9) (r : ℕ) (h0 : row0 j ≤ r) (h1 : r < row0 j + nrow j) : kRow (sOf j) r = kOf j := by
  apply Fin.ext
  show (chunkOfRow r + (sOf j).val) % 3 = (kOf j).val
  unfold chunkOfRow
  revert h0 h1
  fin_cases j <;> simp [sOf, kOf, row0, nrow] <;> intros <;> split_ifs <;> omega

/-- The slab stored at step `s`: on slab `s` the send buffer holds `sbuf s`, whatever it held before. -/
theorem store_slab (s : Fin 3) (c : Dev nD) (f : Buf (Elt F) ((c : Thread nD τ).loc cc0_scratch0)) :
    ∀ i ∈ slabSet s, ((sB.access (slabR s)).write (Elt F) f (sent m s c) Finset.univ) i = sbuf m s c i := by
  intro i hi
  have h := View.write_emb_of_mem (v := sB.access (slabR s)) (Val := Elt F) f (sent m s c) (M := Finset.univ)
    (x := ix3 (⟨0, Nat.one_pos⟩ : Fin 1) (i 1) (i 2)) (Finset.mem_univ _)
  rw [slab_emb s i hi] at h
  exact h
/-- Transfer `j` landed: on its rows the partner's receive buffer holds `rbuf`, whatever it held before. -/
theorem land (j : Fin 9) (c : Dev nD) (fd : Buf (Elt F) (((pr (kOf j) c : Dev nD) : Thread nD τ).loc cc0_scratch1)) :
    ∀ i ∈ pieceSet j, ((dstM j).view.write (Elt F) fd ((srcM j).view.read (Elt F) (sbuf m (sOf j) c)) Finset.univ) i
      = rbuf m (sOf j) (pr (kOf j) c) i := by
  intro i hi
  obtain ⟨x, hd, hs⟩ := piece_emb j i hi
  have hrow := (mem_pieceSet j i).mp hi
  have h := View.write_emb_of_mem (v := (dstM j).view) (Val := Elt F) fd
    ((srcM j).view.read (Elt F) (sbuf m (sOf j) c)) (M := Finset.univ) (x := x) (Finset.mem_univ _)
  rw [hd, View.read_apply, hs] at h
  refine h.trans ?_
  show sent m (sOf j) c (ix3 (⟨0, Nat.one_pos⟩ : Fin 1) (i 1) (i 2))
    = rcvd m (sOf j) (pr (kOf j) c) (ix3 (⟨0, Nat.one_pos⟩ : Fin 1) (i 1) (i 2))
  rw [rcvd_apply]
  show _ = sent m (sOf j) (pr (kRow (sOf j) (i 1).val) (pr (kOf j) c)) _
  rw [kRow_piece j (i 1).val hrow.2.1 hrow.2.2, pr_pr]
/-- The slab loaded at step `s` from a receive buffer holding `rbuf s` on it is the slab received. -/
theorem load_slab (s : Fin 3) (c : Dev nD) :
    rB.view.readAt (Elt F) (slabR s).toLoadRect (rbuf m s c) = rcvd m s c := by
  funext y
  show rcvd m s c (ix3 (⟨0, Nat.one_pos⟩ : Fin 1) (((slabR s).toLoadRect.idx y) 1) (((slabR s).toLoadRect.idx y) 2))
    = rcvd m s c y
  congr 1
  funext a
  apply Fin.ext
  have y0 : (y 0).val < 1 := (y 0).isLt
  match a with
  | ⟨0, _⟩ => show 0 = (y 0).val; omega
  | ⟨1, _⟩ => show 0 + 1 * (y 1).val = (y 1).val; omega
  | ⟨2, _⟩ => show 0 + 1 * (y 2).val = (y 2).val; omega

/-- The two staged buffers are read and written whole. -/
abbrev r0 : Rect S256x256 := Rect.unit (s := S256x256) ![0, 0] S256x256.size inb_S256x256_S256x256_0_0
theorem read_x (f : (cc0_stg0_0 : Ref sig .tc).ty.Contents (Elt F)) : xM.view.readAt (Elt F) r0.toLoadRect f = f := by
  exact Memref.readAt_unit_zero (Elt F) cc0_stg0_0 (off := ![0, 0]) (by funext a; fin_cases a <;> rfl) _ f
theorem write_out (f w : (cc0_stg1_0 : Ref sig .tc).ty.Contents (Elt F)) :
    ((oM.access r0 : View sig .tc _ _ _).write (Elt F) f w Finset.univ) = w := by
  exact Memref.write_access_unit_zero_univ (Elt F) cc0_stg1_0 (off := ![0, 0]) (by funext a; fin_cases a <;> rfl) _ f w
end Values

end Cert.KernelIdeal.AR

/-- info: 'Cert.KernelIdeal.AR.land' depends on axioms: [propext, Classical.choice, Quot.sound] -/
#guard_msgs in #print axioms Cert.KernelIdeal.AR.land
/-- info: 'Cert.KernelIdeal.AR.sslab_pieces' depends on axioms: [propext, Classical.choice, Quot.sound] -/
#guard_msgs in #print axioms Cert.KernelIdeal.AR.sslab_pieces
/-- info: 'Cert.KernelIdeal.AR.store_slab' depends on axioms: [propext, Classical.choice, Quot.sound] -/
#guard_msgs in #print axioms Cert.KernelIdeal.AR.store_slab
/-- info: 'Cert.KernelIdeal.AR.load_slab' depends on axioms: [propext, Classical.choice, Quot.sound] -/
#guard_msgs in #print axioms Cert.KernelIdeal.AR.load_slab

end
-- ==== Proof.Sched.lean ====
/-
  The protocol under the rounds discipline, one round per cell. A device's barrier cell has three duties of one unit,
  duty `k` paid by the partner of pattern `k`, who hands over with it its three landing chunks (one per step) for the
  transfers this device will make by pattern `k`, and that it stands at round 0 of their receive cells. A send cell has
  one duty of the transfer's credit, handing the sender its source chunk back; a receive cell one duty of the same
  credit, handing the receiver its landing chunk holding the partner's stored slab on those rows.
-/
import proofs.«900696_g7700000000000697_dist_ar_v7x_i8_i_m256_n256_bf16_1_alg».proof.Proof.Geom
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's copy beside the protocol's, whose duties are named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Payloads -/

/-- A send cell's: the source chunk back, at whatever it holds (it is never read again). -/
def sendPay (c : Dev nD) (j : Fin 9) : sProp 𝕄 :=
  iprop(∃ f : Buf (Elt F) ((c : Thread nD τ).loc cc0_scratch0), ((c : Thread nD τ).loc cc0_scratch0) ↦[pieceSet j]{fullShare} f)
/-- A receive cell's: the landing chunk holding the slab received on its rows. -/
def recvPay (c : Dev nD) (j : Fin 9) : sProp 𝕄 :=
  ((c : Thread nD τ).loc cc0_scratch1) ↦[pieceSet j]{fullShare} rbuf m (sOf j) c
/-- One landing chunk of device `c'` lent to the device that will write it, with `c'`'s standing at its receive cell. -/
def slotPay (c' : Dev nD) (j : Fin 9) : sProp 𝕄 :=
  iprop((∃ f : Buf (Elt F) ((c' : Thread nD τ).loc cc0_scratch1), ((c' : Thread nD τ).loc cc0_scratch1) ↦[pieceSet j]{fullShare} f)
    ∗ reached ER (recvCell c' j) 0)
/-- Duty `k` of `c`'s barrier cell: the partner of pattern `k` hands over its landing chunks of the three steps. -/
def barPay (c : Dev nD) (k : Fin 3) : sProp 𝕄 :=
  iprop(slotPay (F := F) (pr k c) (jOf 0 k) ∗ slotPay (F := F) (pr k c) (jOf 1 k) ∗ slotPay (F := F) (pr k c) (jOf 2 k))

/-! ## The schedule -/

/-- Which transfer a DMA semaphore belongs to, and whether it is its receive semaphore. -/
def semJ : SemLoc sig → Option (Bool × Fin 9)
  | .reg _ => none
  | .dma q =>
    if h : 2 ≤ q.val ∧ q.val < 11 then some (false, ⟨q.val - 2, by omega⟩)
    else if h' : 11 ≤ q.val ∧ q.val < 20 then some (true, ⟨q.val - 11, by omega⟩) else none

theorem semJ_send (j : Fin 9) : semJ (.dma (sSem j)) = some (false, j) := by
  have hj := j.isLt
  show (if h : 2 ≤ (sSem j).val ∧ (sSem j).val < 11 then some (false, (⟨(sSem j).val - 2, by omega⟩ : Fin 9)) else _) = _
  rw [dif_pos (show 2 ≤ (sSem j).val ∧ (sSem j).val < 11 from ⟨by show 2 ≤ 2 + j.val; omega, by show 2 + j.val < 11; omega⟩)]
  exact congrArg some (Prod.ext rfl (Fin.ext (by show 2 + j.val - 2 = j.val; omega)))
theorem semJ_recv (j : Fin 9) : semJ (.dma (rSem j)) = some (true, j) := by
  have hj := j.isLt
  show (if h : 2 ≤ (rSem j).val ∧ (rSem j).val < 11 then _ else if h' : 11 ≤ (rSem j).val ∧ (rSem j).val < 20 then some (true, (⟨(rSem j).val - 11, by omega⟩ : Fin 9)) else none) = _
  rw [dif_neg (show ¬ (2 ≤ (rSem j).val ∧ (rSem j).val < 11) from fun h => by have := h.2; change 11 + j.val < 11 at this; omega),
    dif_pos (show 11 ≤ (rSem j).val ∧ (rSem j).val < 20 from ⟨by show 11 ≤ 11 + j.val; omega, by show 11 + j.val < 20; omega⟩)]
  exact congrArg some (Prod.ext rfl (Fin.ext (by show 11 + j.val - 11 = j.val; omega)))
theorem semJ_bar : semJ (.reg barS) = none := rfl

def Rd : Rounds.Schedule (GSem nD τ sig) (Fin 3) 𝕄 where
  duties g r := if r = 0 ∧ g.1.2 = .tc then (if g.2 = .reg barS then Finset.univ else if (semJ g.2).isSome then {0} else ∅) else ∅
  unitless _ := False
  amount g _ _ := match semJ g.2 with | some (_, j) => NN j | none => 1
  payload g _ d :=
    if g.2 = .reg barS then barPay g.1.1 d
    else match semJ g.2 with
      | some (false, j) => sendPay g.1.1 j
      | some (true, j) => recvPay m g.1.1 j
      | none => iprop(emp)
  amount_pos g _ _ _ := by
    cases h : semJ g.2 with
    | none => simp only [h]; exact Nat.one_pos
    | some bj => simp only [h]; exact NN_pos bj.2

instance Rd_payload_storable (g : GSem nD τ sig) (r : ℕ) (d : Fin 3) :
    BI.Storable (upEmb : UEmb _ 𝕄) ((Rd (F := F) m).payload g r d) := by
  show BI.Storable upEmb (if g.2 = .reg barS then barPay g.1.1 d
    else match semJ g.2 with
      | some (false, j) => sendPay g.1.1 j
      | some (true, j) => recvPay m g.1.1 j
      | none => iprop(emp))
  unfold barPay slotPay sendPay recvPay
  (repeat' split) <;> infer_instance

section Tables
variable (c : Dev nD) (j : Fin 9)

theorem send_ne_bar : (SemLoc.dma (sSem j) : SemLoc sig) ≠ .reg barS := fun h => by cases h
theorem recv_ne_bar : (SemLoc.dma (rSem j) : SemLoc sig) ≠ .reg barS := fun h => by cases h

theorem duties_bar : (Rd (F := F) m).duties (barCell c) 0 = Finset.univ := by
  dsimp only [Rd]; rw [if_pos ⟨rfl, rfl⟩, if_pos rfl]
theorem duties_send : (Rd (F := F) m).duties (sendCell c j) 0 = {0} := by
  dsimp only [Rd]; rw [if_pos ⟨rfl, rfl⟩, if_neg (send_ne_bar j), semJ_send]; rfl
theorem duties_recv : (Rd (F := F) m).duties (recvCell c j) 0 = {0} := by
  dsimp only [Rd]; rw [if_pos ⟨rfl, rfl⟩, if_neg (recv_ne_bar j), semJ_recv]; rfl
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (barCell c) 0 d = 1 := by dsimp only [Rd]; rw [semJ_bar]
theorem amount_send (d : Fin 3) : (Rd (F := F) m).amount (sendCell c j) 0 d = NN j := by dsimp only [Rd]; rw [semJ_send]
theorem amount_recv (d : Fin 3) : (Rd (F := F) m).amount (recvCell c j) 0 d = NN j := by dsimp only [Rd]; rw [semJ_recv]

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c j) 0 = NN j := by
  unfold Schedule.expect Schedule.amountOf; rw [duties_send, Finset.sum_singleton, amount_send]
theorem expect_recv : (Rd (F := F) m).expect (recvCell c j) 0 = NN j := by
  unfold Schedule.expect Schedule.amountOf; rw [duties_recv, Finset.sum_singleton, amount_recv]

theorem payload_bar (k : Fin 3) : (Rd (F := F) m).payload (barCell c) 0 k = barPay c k := by dsimp only [Rd]; rw [if_pos rfl]
theorem payload_send (d : Fin 3) : (Rd (F := F) m).payload (sendCell c j) 0 d = sendPay c j := by
  dsimp only [Rd]; rw [if_neg (send_ne_bar j), semJ_send]
theorem payload_recv (d : Fin 3) : (Rd (F := F) m).payload (recvCell c j) 0 d = recvPay m c j := by
  dsimp only [Rd]; rw [if_neg (recv_ne_bar j), semJ_recv]

/-- The rest of a barrier cell's round, no duty taken: the three partners' payloads. -/
theorem rest_bar : bigSep ((Rd (F := F) m).duties (barCell c) 0 \ ∅) (fun d => (Rd (F := F) m).payload (barCell c) 0 d)
    = iprop(barPay (F := F) c 0 ∗ barPay (F := F) c 1 ∗ barPay (F := F) c 2) := by
  rw [Finset.sdiff_empty, duties_bar, bigSep_univ_eq_bigSepL [(0 : Fin 3), 1, 2] (by decide) (by decide), bigSepL_cons_cons, bigSepL_cons_cons,
    bigSepL_singleton, payload_bar, payload_bar, payload_bar]
  rfl
theorem rest_send : bigSep ((Rd (F := F) m).duties (sendCell c j) 0 \ ∅) (fun d => (Rd (F := F) m).payload (sendCell c j) 0 d) = sendPay c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]

end Tables

end Cert.KernelIdeal.AR

end
-- ==== Proof.State.lean ====
/-
  The state of one device's body between its printed parts. Everything a device holds is grouped by the transfers it
  concerns, and each group is indexed by the list of transfers still in that state: tokens of transfers not yet sent,
  the partners' landing chunks for them, positions and credit of receive waits to come, chunks landed, slabs joined,
  source chunks stored or back, send cells waited. A state between two parts is one choice of these lists.
-/
import proofs.«900696_g7700000000000697_dist_ar_v7x_i8_i_m256_n256_bf16_1_alg».proof.Proof.Sched

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What a device owes -/

/-- The credit of transfer `j` on the partner's receive cell, and one unit on the partner's barrier cell. -/
def sendTally (c : Dev nD) (j : Fin 9) : CellTallies nD τ sig Unit := tallyAt (recvCell (pr (kOf j) c) j) () (NN j)
def barTally (c : Dev nD) (k : Fin 3) : CellTallies nD τ sig Unit := tallyAt (barCell (pr k c)) () 1
/-- What is owed with the last `r` transfers still to send: summed so that each send peels the last summand. -/
def OR (c : Dev nD) : ℕ → CellTallies nD τ sig Unit
  | 0 => 0
  | r + 1 => OR c r + sendTally c ⟨9 - (r + 1), by omega⟩
/-- The same with the last `r` entry signals still to send, all nine transfers beneath them. -/
def OBr (c : Dev nD) : ℕ → CellTallies nD τ sig Unit
  | 0 => OR c 9
  | r + 1 => OBr c r + barTally c ⟨3 - (r + 1), by omega⟩
/-- What a device owes at launch. -/
def O₀ (c : Dev nD) : CellTallies nD τ sig Unit := OBr c 3

/-! ## Levels: barrier cells at 1, the receive cells of step `s` at `2 + s`, everything else at 0 -/

def L (g : GSem nD τ sig) : Finset Unit := if g.1.2 = .tc then {()} else ∅
def lv (g : GSem nD τ sig) (_ : Unit) : ℕ :=
  if g.2 = .reg barS then 1 else match semJ g.2 with | some (true, j) => 2 + (sOf j).val | _ => 0

/-! ## The cells of one device, numbered: 0 the barrier's, 1 + j transfer j's send cell, 10 + j its receive cell -/

def csem (i : Fin 19) : SemLoc sig :=
  if i.val = 0 then .reg barS
  else if h : i.val < 10 then .dma (sSem ⟨i.val - 1, by omega⟩)
  else .dma (rSem ⟨i.val - 10, by omega⟩)
abbrev kcell (ck : Dev nD × Fin 19) : GSem nD τ sig := ((ck.1 : Thread nD τ), csem ck.2)
def iBar : Fin 19 := 0
def iSend (j : Fin 9) : Fin 19 := ⟨1 + j.val, by omega⟩
def iRecv (j : Fin 9) : Fin 19 := ⟨10 + j.val, by omega⟩
theorem kcell_bar (c : Dev nD) : kcell (c, iBar) = barCell c := rfl
theorem kcell_send (c : Dev nD) (j : Fin 9) : kcell (c, iSend j) = sendCell c j := by
  have := j.isLt
  show ((c : Thread nD τ), csem (iSend j)) = _
  unfold csem iSend
  rw [if_neg (by simp only []; omega), dif_pos (by simp only []; omega)]
  exact congrArg (fun q : Fin 9 => ((c : Thread nD τ), SemLoc.dma (sSem q))) (Fin.ext (by simp only []; omega))
theorem kcell_recv (c : Dev nD) (j : Fin 9) : kcell (c, iRecv j) = recvCell c j := by
  have := j.isLt
  show ((c : Thread nD τ), csem (iRecv j)) = _
  unfold csem iRecv
  rw [if_neg (by simp only []; omega), dif_neg (by simp only []; omega)]
  exact congrArg (fun q : Fin 9 => ((c : Thread nD τ), SemLoc.dma (rSem q))) (Fin.ext (by simp only []; omega))

/-- Every cell's invariant, under the names the launch allocated them at, and that round 0 of every cell is reached. -/
def records (K : Dev nD × Fin 19 → ℕ) : sProp 𝕄 :=
  iprop((bigSep Finset.univ fun ck : Dev nD × Fin 19 => cellInv ER (Rd m) (K ck) (kcell ck))
    ∗ bigSep Finset.univ fun ck : Dev nD × Fin 19 => reached ER (kcell ck) 0)

instance records_persistent (K : Dev nD × Fin 19 → ℕ) : BI.Persistent (records m K) := by unfold records; infer_instance

theorem inv_at (K : Dev nD × Fin 19 → ℕ) (ck : Dev nD × Fin 19) : records m K ⊢ cellInv ER (Rd m) (K ck) (kcell ck) :=
  (sep_elim_left (PROP := sProp 𝕄)).trans (bigSep_elim (Finset.mem_univ ck))
theorem reached_at (K : Dev nD × Fin 19 → ℕ) (ck : Dev nD × Fin 19) : records m K ⊢ (reached ER (kcell ck) 0 : sProp 𝕄) :=
  (sep_elim_right (PROP := sProp 𝕄)).trans (bigSep_elim (Finset.mem_univ ck))
theorem inv_bar (K : Dev nD × Fin 19 → ℕ) (c : Dev nD) : records m K ⊢ cellInv ER (Rd m) (K (c, iBar)) (barCell c) := inv_at m K (c, iBar)
theorem inv_send (K : Dev nD × Fin 19 → ℕ) (c : Dev nD) (j : Fin 9) : records m K ⊢ cellInv ER (Rd m) (K (c, iSend j)) (sendCell c j) := by
  rw [← kcell_send]; exact inv_at m K (c, iSend j)
theorem inv_recv (K : Dev nD × Fin 19 → ℕ) (c : Dev nD) (j : Fin 9) : records m K ⊢ cellInv ER (Rd m) (K (c, iRecv j)) (recvCell c j) := by
  rw [← kcell_recv]; exact inv_at m K (c, iRecv j)
theorem rch_bar (K : Dev nD × Fin 19 → ℕ) (c : Dev nD) : records m K ⊢ (reached ER (barCell c) 0 : sProp 𝕄) := reached_at m K (c, iBar)
theorem rch_send (K : Dev nD × Fin 19 → ℕ) (c : Dev nD) (j : Fin 9) : records m K ⊢ (reached ER (sendCell c j) 0 : sProp 𝕄) := by
  rw [← kcell_send]; exact reached_at m K (c, iSend j)
theorem rch_recv (K : Dev nD × Fin 19 → ℕ) (c : Dev nD) (j : Fin 9) : records m K ⊢ (reached ER (recvCell c j) 0 : sProp 𝕄) := by
  rw [← kcell_recv]; exact reached_at m K (c, iRecv j)

/-! ## The groups -/

section Groups
variable (c : Dev nD)

abbrev loc0 : Loc nD τ sig := (c : Thread nD τ).loc cc0_scratch0
abbrev loc1 : Loc nD τ sig := (c : Thread nD τ).loc cc0_scratch1
abbrev allJ : List (Fin 9) := [0, 1, 2, 3, 4, 5, 6, 7, 8]

/-- Entry signals to come: the tokens of the partners' barrier duties, and this device's own landing chunks to lend. -/
def gBar (ks : List (Fin 3)) : sProp 𝕄 := bigSepL ks fun k =>
  iprop(dutyTok ER (barCell (pr k c)) 0 k
    ∗ (∃ f : Buf (Elt F) (loc1 c), loc1 c ↦[pieceSet (jOf 0 k)]{fullShare} f)
    ∗ (∃ f : Buf (Elt F) (loc1 c), loc1 c ↦[pieceSet (jOf 1 k)]{fullShare} f)
    ∗ (∃ f : Buf (Elt F) (loc1 c), loc1 c ↦[pieceSet (jOf 2 k)]{fullShare} f))
/-- Transfers not yet sent: the two duty tokens each pays with. -/
def gTok (js : List (Fin 9)) : sProp 𝕄 := bigSepL js fun j =>
  iprop(dutyTok ER (recvCell (pr (kOf j) c) j) 0 0 ∗ dutyTok ER (sendCell c j) 0 0)
/-- Transfers not yet sent, once the entry wait is passed: the partner's landing chunk and its standing. -/
def gSlot (js : List (Fin 9)) : sProp 𝕄 := bigSepL js fun j => slotPay (F := F) (pr (kOf j) c) j
/-- Receive waits to come: position and credit. -/
def gRW (js : List (Fin 9)) : sProp 𝕄 := bigSepL js fun j =>
  iprop(atPos ER (recvCell c j) 0 ∅ 0 ∗ cred (tallyAt (recvCell c j) () (NN j)))
/-- Receive waits done. -/
def gRD (js : List (Fin 9)) : sProp 𝕄 := bigSepL js fun j => atPos ER (recvCell c j) 1 ∅ 0
/-- Chunks landed and not yet joined into their slab. -/
def gLand (js : List (Fin 9)) : sProp 𝕄 := bigSepL js fun j => recvPay m c j
/-- Received slabs joined. -/
def gRSlab (ss : List (Fin 3)) : sProp 𝕄 := bigSepL ss fun s => loc1 c ↦[slabSet s]{fullShare} rbuf m s c
/-- Source chunks stored and not yet sent. -/
def gSPiece (js : List (Fin 9)) : sProp 𝕄 := bigSepL js fun j => loc0 c ↦[pieceSet j]{fullShare} sbuf m (sOf j) c
/-- Send slabs not yet stored. -/
def gSSlab (ss : List (Fin 3)) : sProp 𝕄 := bigSepL ss fun s => iprop(∃ f : Buf (Elt F) (loc0 c), loc0 c ↦[slabSet s]{fullShare} f)
/-- Sent, send wait to come: the credit the transfer returned. -/
def gCred (js : List (Fin 9)) : sProp 𝕄 := bigSepL js fun j => cred (tallyAt (sendCell c j) () (NN j))
/-- Send cells not yet waited. -/
def gSW (js : List (Fin 9)) : sProp 𝕄 := bigSepL js fun j => atPos ER (sendCell c j) 0 ∅ 0
/-- Send waits done: the cell a round on, the source chunk back. -/
def gSD (js : List (Fin 9)) : sProp 𝕄 := bigSepL js fun j => iprop(atPos ER (sendCell c j) 1 ∅ 0 ∗ sendPay (F := F) c j)

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The barrier cell: before the entry wait its position at round 0 and the three units' credit, after it round 1. -/
def gBarPos (done : Bool) : sProp 𝕄 :=
  if done then atPos ER (barCell c) 1 ∅ 0 else iprop(atPos ER (barCell c) 0 ∅ 0 ∗ cred (tallyAt (barCell c) () 3))
/-- The result's staging buffer: anything before the final store, the result after it. -/
def gOut (done : Bool) : sProp 𝕄 :=
  if done then stg c cc0_stg1_0 (A3 m c) else iprop(∃ f : Buf (Elt F) ((c : Thread nD τ).loc cc0_stg1_0), ((c : Thread nD τ).loc cc0_stg1_0) ↦{fullShare} f)

/-- A choice of the lists. -/
structure Prg where
  O : CellTallies nD τ sig Unit
  bar : List (Fin 3)
  barDone : Bool
  tok : List (Fin 9)
  slot : List (Fin 9)
  rw : List (Fin 9)
  rd : List (Fin 9)
  land : List (Fin 9)
  rslab : List (Fin 3)
  spiece : List (Fin 9)
  sslab : List (Fin 3)
  cr : List (Fin 9)
  sw : List (Fin 9)
  sd : List (Fin 9)
  out : Bool

/-- The state of device `c`'s body at progress `P`. -/
def St (K : Dev nD × Fin 19 → ℕ) (P : Prg) : sProp 𝕄 :=
  iprop(records m K ∗ levAts L lv ∗ (∃ W : Waits sig Unit, owes (c : Thread nD τ) P.O W)
    ∗ gBar (F := F) c P.bar ∗ gBarPos (F := F) c P.barDone ∗ gTok (F := F) c P.tok ∗ gSlot (F := F) c P.slot
    ∗ gRW (F := F) c P.rw ∗ gRD (F := F) c P.rd ∗ gLand m c P.land ∗ gRSlab m c P.rslab
    ∗ gSPiece m c P.spiece ∗ gSSlab (F := F) c P.sslab ∗ gCred (F := F) c P.cr ∗ gSW (F := F) c P.sw ∗ gSD (F := F) c P.sd
    ∗ stg c cc0_stg0_0 (X m c) ∗ gOut m c P.out)

/-- The states between the parts: `B i` is the state before part `i + 1` (`B 11` before the last wait, `B 12` after it). -/
def B (i : ℕ) : Prg :=
  match i with
  | 0 => ⟨OBr c 3, [0, 1, 2], false, allJ, [], allJ, [], [], [], [], [0, 1, 2], [], allJ, [], false⟩
  | 1 => ⟨OR c 9, [], true, allJ, allJ, allJ, [], [], [], [0, 1, 2], [1, 2], [], allJ, [], false⟩
  | 2 => ⟨OR c 7, [], true, [2, 3, 4, 5, 6, 7, 8], [2, 3, 4, 5, 6, 7, 8], allJ, [], [], [], [2], [1, 2], [0, 1], allJ, [], false⟩
  | 3 => ⟨OR c 6, [], true, [3, 4, 5, 6, 7, 8], [3, 4, 5, 6, 7, 8], [2, 3, 4, 5, 6, 7, 8], [0, 1], [0, 1], [], [], [1, 2], [0, 1, 2], allJ, [], false⟩
  | 4 => ⟨OR c 5, [], true, [4, 5, 6, 7, 8], [4, 5, 6, 7, 8], [3, 4, 5, 6, 7, 8], [0, 1, 2], [], [0], [4, 5], [2], [0, 1, 2, 3], allJ, [], false⟩
  | 5 => ⟨OR c 3, [], true, [6, 7, 8], [6, 7, 8], [4, 5, 6, 7, 8], [0, 1, 2, 3], [3], [0], [], [2], [0, 1, 2, 3, 4, 5], allJ, [], false⟩
  | 6 => ⟨OR c 3, [], true, [6, 7, 8], [6, 7, 8], [6, 7, 8], [0, 1, 2, 3, 4, 5], [], [0, 1], [6, 7, 8], [], [0, 1, 2, 3, 4, 5], allJ, [], false⟩
  | 7 => ⟨OR c 1, [], true, [8], [8], [6, 7, 8], [0, 1, 2, 3, 4, 5], [], [0, 1], [8], [], [0, 1, 2, 3, 4, 5, 6, 7], allJ, [], false⟩
  | 8 => ⟨OR c 0, [], true, [], [], [8], [0, 1, 2, 3, 4, 5, 6, 7], [6, 7], [0, 1], [], [], allJ, allJ, [], false⟩
  | 9 => ⟨OR c 0, [], true, [], [], [], allJ, [], [0, 1, 2], [], [], [2, 3, 4, 5, 6, 7, 8], [2, 3, 4, 5, 6, 7, 8], [0, 1], true⟩
  | 10 => ⟨OR c 0, [], true, [], [], [], allJ, [], [0, 1, 2], [], [], [5, 6, 7, 8], [5, 6, 7, 8], [0, 1, 2, 3, 4], true⟩
  | 11 => ⟨OR c 0, [], true, [], [], [], allJ, [], [0, 1, 2], [], [], [8], [8], [0, 1, 2, 3, 4, 5, 6, 7], true⟩
  | _ => ⟨OR c 0, [], true, [], [], [], allJ, [], [0, 1, 2], [], [], [], [], allJ, true⟩

end Groups

/-! ## The pipeline's proof data -/

/-- The ghost state a device's body starts from: the records; its positions at round 0 of its nineteen cells; the
    tokens of the duties it pays — a unit on each partner's barrier cell, and per transfer the partner's receive duty
    and its own send duty. -/
def ghost (K : Dev nD × Fin 19 → ℕ) (c : Dev nD) : sProp 𝕄 :=
  iprop(records m K
    ∗ atPos ER (barCell c) 0 ∅ 0
    ∗ (bigSepL allJ fun j => atPos ER (sendCell c j) 0 ∅ 0)
    ∗ (bigSepL allJ fun j => atPos ER (recvCell c j) 0 ∅ 0)
    ∗ (bigSepL [(0 : Fin 3), 1, 2] fun k => dutyTok ER (barCell (pr k c)) 0 k)
    ∗ gTok (F := F) c allJ)

/-- What a device's body starts from: that at some names, the credit the launch dealt its barrier cell and its nine
    receive cells, and the level facts. -/
def start (c : Dev nD) : sProp 𝕄 :=
  iprop((∃ K, ghost m K c) ∗ cred (tallyAt (barCell c) () 3)
    ∗ (bigSepL allJ fun j => cred (tallyAt (recvCell c j) () (NN j))) ∗ levAts L lv)

def Φ₀ (c : Dev nD) : sProp 𝕄 :=
  iprop(start m c ∗ (∃ f : Buf (Elt F) (loc0 c), loc0 c ↦{fullShare} f) ∗ (∃ f : Buf (Elt F) (loc1 c), loc1 c ↦{fullShare} f))
/-- After the point: the two scratch buffers whole, the eighteen own cells at zero, closed. -/
def Φ₁ (c : Dev nD) : sProp 𝕄 :=
  iprop((∃ f : Buf (Elt F) (loc0 c), loc0 c ↦{fullShare} f) ∗ (∃ f : Buf (Elt F) (loc1 c), loc1 c ↦{fullShare} f)
    ∗ (bigSepL allJ fun j => semVal (sendCell c j) 0) ∗ (bigSepL allJ fun j => semVal (recvCell c j) 0))

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => A3 m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- What the body obligation hands the body at the one point, and what it wants back. -/
def bodyPre (K : Dev nD × Fin 19 → ℕ) (c : Dev nD) : sProp 𝕄 :=
  iprop((ghost m K c ∗ cred (tallyAt (barCell c) () 3) ∗ (bigSepL allJ fun j => cred (tallyAt (recvCell c j) () (NN j))) ∗ levAts L lv
      ∗ (∃ f : Buf (Elt F) (loc0 c), loc0 c ↦{fullShare} f) ∗ (∃ f : Buf (Elt F) (loc1 c), loc1 c ↦{fullShare} f))
    ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ (F := F) c ∗ (dats m 0 c).owesAt () t0_0.succ ∗ stg c cc0_stg0_0 (X m c) ∗ stg c cc0_stg1_0 (A3 m c))

end Cert.KernelIdeal.AR

end
-- ==== Proof.Levels.lean ====
/-
  The deadlock argument: every wait is on a cell at a level below everything the waiter still owes. Barrier cells sit at
  level 1, the receive cells of step s at level 2 + s, the staging and send cells at 0; a device waits on its barrier cell
  owing only receive credit, on a receive cell of step s owing only the receive credit of later steps, and on everything
  else owing nothing or at level 0.
-/
import proofs.«900696_g7700000000000697_dist_ar_v7x_i8_i_m256_n256_bf16_1_alg».proof.Proof.State

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem L_of_ne (g : GSem nD τ sig) (h : g.1.2 ≠ .tc) : L g = ∅ := if_neg h
theorem L_tc (c : Dev nD) (sm : SemLoc sig) : L ((c : Thread nD τ), sm) = {()} := if_pos rfl

/-- The step of transfer `j` is `j / 3`. -/
private theorem sOf_val (j : Fin 9) : (sOf j).val = j.val / 3 := by revert j; decide

/-- What is owed with the last `r` transfers to send is owed on the partners' receive cells of those transfers only. -/
private theorem OR_pos (c : Dev nD) : ∀ (r : ℕ) {g : GSem nD τ sig} {u : Unit}, 0 < OR c r g u →
    ∃ j : Fin 9, 9 - r ≤ j.val ∧ g = recvCell (pr (kOf j) c) j
  | 0, g, u, h => absurd h (Nat.lt_irrefl 0)
  | r + 1, g, u, h => by
    rcases Pipeline.add_pos_cases (D₁ := OR c r) (D₂ := sendTally c ⟨9 - (r + 1), by omega⟩) h with h | h
    · obtain ⟨j, hj, hg⟩ := OR_pos c r h
      exact ⟨j, by omega, hg⟩
    · unfold sendTally at h
      rw [tallyAt_apply] at h
      by_cases hh : g = recvCell (pr (kOf ⟨9 - (r + 1), by omega⟩) c) ⟨9 - (r + 1), by omega⟩ ∧ u = ()
      · exact ⟨⟨9 - (r + 1), by omega⟩, le_refl _, hh.1⟩
      · rw [if_neg hh] at h; exact absurd h (Nat.lt_irrefl 0)

/-- What is owed at launch is owed on partners' barrier cells and on partners' receive cells only. -/
private theorem OBr_pos (c : Dev nD) : ∀ (r : ℕ) {g : GSem nD τ sig} {u : Unit}, 0 < OBr c r g u →
    (∃ k : Fin 3, g = barCell (pr k c)) ∨ ∃ j : Fin 9, g = recvCell (pr (kOf j) c) j
  | 0, g, u, h => by obtain ⟨j, -, hg⟩ := OR_pos c 9 h; exact Or.inr ⟨j, hg⟩
  | r + 1, g, u, h => by
    rcases Pipeline.add_pos_cases (D₁ := OBr c r) (D₂ := barTally c ⟨3 - (r + 1), by omega⟩) h with h | h
    · exact OBr_pos c r h
    · unfold barTally at h
      rw [tallyAt_apply] at h
      by_cases hh : g = barCell (pr ⟨3 - (r + 1), by omega⟩ c) ∧ u = ()
      · exact Or.inl ⟨_, hh.1⟩
      · rw [if_neg hh] at h; exact absurd h (Nat.lt_irrefl 0)

/-- A barrier cell sits at level 1, the receive cell of transfer `j` at level 2 plus its step. -/
private theorem lv_bar (c' : Dev nD) : lv (barCell c') () = 1 := by dsimp only [lv]; rw [if_pos rfl]
private theorem lv_recv (c' : Dev nD) (j : Fin 9) : lv (recvCell c' j) () = 2 + (sOf j).val := by
  dsimp only [lv]; rw [if_neg (recv_ne_bar j), semJ_recv]
/-- The two DMA semaphores below the transfers' arrays belong to no transfer, so their cells sit at level 0. -/
private theorem lv_low (c' : Dev nD) (q : DmaSem sig) (hq : q.val < 2) : lv ((c' : Thread nD τ), .dma q) () = 0 := by
  have hs : semJ (.dma q) = none := by
    show (if h : 2 ≤ q.val ∧ q.val < 11 then some (false, (⟨q.val - 2, by omega⟩ : Fin 9))
      else if h' : 11 ≤ q.val ∧ q.val < 20 then some (true, (⟨q.val - 11, by omega⟩ : Fin 9)) else none) = none
    rw [dif_neg (fun h => by omega), dif_neg (fun h => by omega)]
  dsimp only [lv]; rw [if_neg (fun h => by cases h), hs]

/-- At its entry wait a device owes the nine transfers' receive credit: receive cells, above its barrier cell. -/
theorem mayWait_bar (c : Dev nD) : (levAts L lv : sProp 𝕄) ⊢ MayWait (c : Thread nD τ) (.reg barS) () (OR c 9) :=
  MayOwe.of_cut (L := L) (lev := lv) 1
    (fun p hp => by rw [Finset.mem_singleton.mp hp, L_tc]; exact Finset.mem_singleton_self _)
    (fun g u hg => by obtain ⟨j, -, rfl⟩ := OR_pos c 9 hg; rw [L_tc]; exact Finset.mem_singleton_self _)
    (fun p hp => by rw [Finset.mem_singleton.mp hp]; exact le_of_eq (lv_bar c))
    (fun g u hg => by obtain ⟨j, -, rfl⟩ := OR_pos c 9 hg; rw [lv_recv]; omega)
/-- At the receive wait of transfer `j` (step `s`) a device owes the receive credit of the later steps' transfers only. -/
theorem mayWait_recv (c : Dev nD) (j : Fin 9) :
    (levAts L lv : sProp 𝕄) ⊢ MayWait (c : Thread nD τ) (.dma (rSem j)) () (OR c (6 - 3 * (sOf j).val)) :=
  MayOwe.of_cut (L := L) (lev := lv) (2 + (sOf j).val)
    (fun p hp => by rw [Finset.mem_singleton.mp hp, L_tc]; exact Finset.mem_singleton_self _)
    (fun g u hg => by obtain ⟨j', -, rfl⟩ := OR_pos c _ hg; rw [L_tc]; exact Finset.mem_singleton_self _)
    (fun p hp => by rw [Finset.mem_singleton.mp hp]; exact le_of_eq (lv_recv c j))
    (fun g u hg => by
      obtain ⟨j', hj', rfl⟩ := OR_pos c _ hg
      have h1 := sOf_val j; have h2 := sOf_val j'; have := j.isLt
      rw [lv_recv]; omega)
/-- The pipeline's two staging cells sit at level 0, below everything a device owes at launch. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases OBr_pos c 3 hg with ⟨k, rfl⟩ | ⟨j, rfl⟩ <;> (rw [L_tc]; exact Finset.mem_singleton_self _))
      (fun p hp => by rw [Finset.mem_singleton.mp hp]; exact le_of_eq (lv_low c q hq))
      (fun g u hg => by
        rcases OBr_pos c 3 hg with ⟨k, rfl⟩ | ⟨j, rfl⟩
        · rw [lv_bar]; decide
        · rw [lv_recv]; omega)
  · rw [MayWait_zero]; iintro -; iempintro

end Cert.KernelIdeal.AR

end
-- ==== Proof.Alloc.lean ====
/-
  The launch's ghost allocation: from the launch element of the rounds algebra — every cell's round state, positions and
  reached-marks, and the duty tokens as minted on their own cells — to every device's starting ghost state, the
  nineteen invariants of each device allocated under one update and the tokens dealt to the devices that pay them.
-/
import proofs.«900696_g7700000000000697_dist_ar_v7x_i8_i_m256_n256_bf16_1_alg».proof.Proof.Levels

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Chains over lists -/

omit [FloatOps F] in
theorem bigSepL_append {I : Type} (l₁ l₂ : List I) (Φ : I → sProp 𝕄) :
    bigSepL (l₁ ++ l₂) Φ = iprop(bigSepL l₁ Φ ∗ bigSepL l₂ Φ) := by
  induction l₁ with
  | nil => exact (equiv_iff.mp BI.emp_sep).symm
  | cons i l ih => rw [List.cons_append, bigSepL_cons, ih, bigSepL_cons]; exact Entails.antisymm BI.sep_assoc' BI.sep_assoc

omit [FloatOps F] in
theorem bigSepL_map {I J : Type} (f : J → I) (l : List J) (Φ : I → sProp 𝕄) :
    bigSepL (l.map f) Φ = bigSepL l fun j => Φ (f j) := by
  induction l with
  | nil => rfl
  | cons j l ih => rw [List.map_cons, bigSepL_cons, bigSepL_cons, ih]

/-! ## The cells and the tokens of the launch element -/

/-- The eighteen own semaphores: cells 1 to 18 of the numbering. -/
abbrev osem (i : Fin 18) : SemLoc sig := csem i.succ

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 19 → GSem nD τ sig) := by
  rintro ⟨c, i⟩ ⟨c', i'⟩ h
  have h1 : c = c' := congrArg (fun g : GSem nD τ sig => g.1.1) h
  subst h1
  have h2 : i = i' := csem_injective (congrArg Prod.snd h)
  subst h2; rfl

def allCells : Finset (GSem nD τ sig) := Finset.univ.map ⟨kcell, kcell_injective⟩

/-- The duty tokens as minted, by device and cell: the barrier cell's three, each send cell's one, each receive cell's one. -/
abbrev TokIx : Type := Fin 3 ⊕ (Fin 9 ⊕ Fin 9)
abbrev tokOf (ct : Dev nD × TokIx) : GSem nD τ sig × ℕ × Fin 3 := match ct.2 with
  | .inl k => (barCell ct.1, 0, k)
  | .inr (.inl j) => (sendCell ct.1 j, 0, 0)
  | .inr (.inr j) => (recvCell ct.1 j, 0, 0)

theorem tokOf_injective : Function.Injective (tokOf : Dev nD × TokIx → GSem nD τ sig × ℕ × Fin 3) := by
  rintro ⟨c, t⟩ ⟨c', t'⟩ h
  have h1 : c = c' := by
    have := congrArg (fun x : GSem nD τ sig × ℕ × Fin 3 => x.1.1.1) h
    rcases t with k | j | j <;> rcases t' with k' | j' | j' <;> exact this
  subst h1
  have h2 : t = t' := by
    have hs := congrArg (fun x : GSem nD τ sig × ℕ × Fin 3 => x.1.2) h
    have hd := congrArg (fun x : GSem nD τ sig × ℕ × Fin 3 => x.2.2) h
    rcases t with k | j | j <;> rcases t' with k' | j' | j'
    · exact congrArg Sum.inl hd
    · exact absurd hs (fun h' => by cases h')
    · exact absurd hs (fun h' => by cases h')
    · exact absurd hs (fun h' => by cases h')
    · exact congrArg (fun q => Sum.inr (Sum.inl q)) (sSem_inj (SemLoc.dma.inj hs))
    · exact absurd (SemLoc.dma.inj hs) (sSem_ne_rSem j j')
    · exact absurd hs (fun h' => by cases h')
    · exact absurd (SemLoc.dma.inj hs).symm (sSem_ne_rSem j' j)
    · exact congrArg (fun q => Sum.inr (Sum.inr q)) (rSem_inj (SemLoc.dma.inj hs))
  subst h2; rfl

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun k : Fin 3 => dutyTok ER (barCell c) 0 k)
    ∗ (bigSep Finset.univ fun j : Fin 9 => dutyTok ER (sendCell c j) 0 0)
    ∗ (bigSep Finset.univ fun j : Fin 9 => dutyTok ER (recvCell c j) 0 0))

/-- What the launch element deals device `c`. -/
def G (c : Dev nD) : sProp 𝕄 :=
  iprop((bigSep Finset.univ fun i : Fin 19 => roundState ER (Rd m) (kcell (c, i)) 0)
    ∗ (bigSep Finset.univ fun i : Fin 19 => iprop(atPos ER (kcell (c, i)) 0 ∅ 0 ∗ reached ER (kcell (c, i)) 0)) ∗ toks (F := F) c)

/-- What the global step makes of it. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Fin 19 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant allocated -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem univ19 : (Finset.univ : Finset (Fin 19)).erase 0 = Finset.univ.map ⟨Fin.succ, Fin.succ_injective 18⟩ := by decide

omit [FloatOps F] in
theorem bigSep_fin19 (Ψ : Fin 19 → sProp 𝕄) : bigSep Finset.univ Ψ = iprop(Ψ 0 ∗ bigSep Finset.univ fun k : Fin 18 => Ψ k.succ) := by
  rw [bigSep_univ_at Ψ 0, univ19, bigSep_map]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 19 => semVal (kcell (c, i)) 0 : sProp 𝕄) := by
  rw [unscopedSems0_eq, bigSep_fin19]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (Rd m) κ (kcell (c, i))))
          ∗ (bigSep Finset.univ fun i : Fin 19 => iprop(atPos ER (kcell (c, i)) 0 ∅ 0 ∗ reached ER (kcell (c, i)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun i : Fin 19 => semVal (kcell (c, i)) 0) ∗ bigSep Finset.univ fun i : Fin 19 => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay them -/

/-- The tokens of the duties device `c` pays: duty `k` of the barrier cell of its partner of pattern `k`, and per
    transfer the partner's receive duty and its own send duty. -/
def payToks (c : Dev nD) : sProp 𝕄 :=
  iprop((bigSep Finset.univ fun k : Fin 3 => dutyTok ER (barCell (pr k c)) 0 k)
    ∗ (bigSep Finset.univ fun j : Fin 9 => iprop(dutyTok ER (recvCell (pr (kOf j) c) j) 0 0 ∗ dutyTok ER (sendCell c j) 0 0)))

/-- What stays with device `c`: its positions, and the tokens of the duties it pays. -/
def linear (c : Dev nD) : sProp 𝕄 :=
  iprop((bigSep Finset.univ fun i : Fin 19 => atPos ER (kcell (c, i)) 0 ∅ 0) ∗ payToks (F := F) c)

/-- Exchanging by pattern `k` is an involution of the devices. -/
def prE (k : Fin 3) : Dev nD ≃ Dev nD := ⟨pr k, pr k, pr_pr k, pr_pr k⟩

omit [FloatOps F] in
/-- A family over devices and an index, re-dealt by a permutation of the devices for each index. -/
theorem deal {J : Type} [Fintype J] (e : J → Dev nD ≃ Dev nD) (Φ : Dev nD → J → sProp 𝕄) :
    (bigSep Finset.univ fun c => bigSep Finset.univ fun j => Φ c j)
      = bigSep Finset.univ fun c => bigSep Finset.univ fun j => Φ (e j c) j := by
  rw [← bigSep_univ_prod (fun cj : Dev nD × J => Φ cj.1 cj.2), ← bigSep_univ_prod (fun cj : Dev nD × J => Φ (e cj.2 cj.1) cj.2)]
  exact bigSep_univ_equiv (⟨fun cj => (e cj.2 cj.1, cj.2), fun cj => ((e cj.2).symm cj.1, cj.2), fun cj => by simp, fun cj => by simp⟩ : Dev nD × J ≃ Dev nD × J) _

omit [FloatOps F] in
theorem toks_around : (bigSep Finset.univ fun c : Dev nD => (toks c : sProp 𝕄)) ⊢ bigSep Finset.univ fun c : Dev nD => payToks c := by
  have hL : (bigSep Finset.univ fun c : Dev nD => (toks c : sProp 𝕄))
      = iprop((bigSep Finset.univ fun c : Dev nD => bigSep Finset.univ fun k : Fin 3 => (dutyTok ER (barCell c) 0 k : sProp 𝕄))
        ∗ (bigSep Finset.univ fun c : Dev nD => bigSep Finset.univ fun j : Fin 9 => (dutyTok ER (sendCell c j) 0 0 : sProp 𝕄))
        ∗ (bigSep Finset.univ fun c : Dev nD => bigSep Finset.univ fun j : Fin 9 => (dutyTok ER (recvCell c j) 0 0 : sProp 𝕄))) := by
    unfold toks; rw [bigSep_sep', bigSep_sep']
  have hR : (bigSep Finset.univ fun c : Dev nD => (payToks c : sProp 𝕄))
      = iprop((bigSep Finset.univ fun c : Dev nD => bigSep Finset.univ fun k : Fin 3 => (dutyTok ER (barCell (pr k c)) 0 k : sProp 𝕄))
        ∗ (bigSep Finset.univ fun c : Dev nD => bigSep Finset.univ fun j : Fin 9 => (dutyTok ER (recvCell (pr (kOf j) c) j) 0 0 : sProp 𝕄))
        ∗ (bigSep Finset.univ fun c : Dev nD => bigSep Finset.univ fun j : Fin 9 => (dutyTok ER (sendCell c j) 0 0 : sProp 𝕄))) := by
    unfold payToks
    rw [bigSep_sep', bigSep_congr (s := Finset.univ) (fun (c : Dev nD) _ => bigSep_sep' Finset.univ
      (fun j : Fin 9 => (dutyTok ER (recvCell (pr (kOf j) c) j) 0 0 : sProp 𝕄)) (fun j => dutyTok ER (sendCell c j) 0 0)), bigSep_sep']
  rw [hL, hR, deal prE (fun c k => (dutyTok ER (barCell c) 0 k : sProp 𝕄)),
    deal (fun j => prE (kOf j)) (fun c j => (dutyTok ER (recvCell c j) 0 0 : sProp 𝕄))]
  iintro ⟨H1, H2, H3⟩
  isplitl [H1]; · iexact H1
  isplitl [H3]; · iexact H3
  iexact H2

/-! ## A device's nineteen cells, listed by kind -/

def cellIxs : List (Fin 19) := iBar :: (allJ.map iSend ++ allJ.map iRecv)

omit [FloatOps F] in
theorem cells_split (c : Dev nD) (Ψ : GSem nD τ sig → sProp 𝕄) :
    (bigSep Finset.univ fun i : Fin 19 => Ψ (kcell (c, i)))
      = iprop(Ψ (barCell c) ∗ (bigSepL allJ fun j => Ψ (sendCell c j)) ∗ (bigSepL allJ fun j => Ψ (recvCell c j))) := by
  rw [bigSep_univ_eq_bigSepL cellIxs (by decide) (by decide)]
  unfold cellIxs
  rw [bigSepL_cons, bigSepL_append, bigSepL_map, bigSepL_map]
  simp only [kcell_send, kcell_recv, kcell_bar]
  rfl

theorem ghost_intro (K : Dev nD × Fin 19 → ℕ) (c : Dev nD) : iprop(records m K ∗ linear (F := F) c) ⊢ G' m c := by
  unfold linear payToks G' ghost gTok
  rw [cells_split c (fun g => atPos ER g 0 ∅ 0), bigSep_univ_eq_bigSepL [(0 : Fin 3), 1, 2] (by decide) (by decide),
    bigSep_univ_eq_bigSepL allJ (by decide) (by decide)]
  iintro ⟨#HR, ⟨HaB, HaS, HaV⟩, HtB, HtJ⟩
  iexists K
  isplitr; · iexact HR
  isplitl [HaB]; · iexact HaB
  isplitl [HaS]; · iexact HaS
  isplitl [HaV]; · iexact HaV
  isplitl [HtB]; · iexact HtB
  iexact HtJ

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (Rd m) κ (kcell (c, i))))
          ∗ (bigSep Finset.univ fun i : Fin 19 => iprop(atPos ER (kcell (c, i)) 0 ∅ 0 ∗ reached ER (kcell (c, i)) 0)) ∗ toks (F := F) c) : sProp 𝕄)
      ⊢ bigSep Finset.univ (G' m) := by
  rw [bigSep_sep', bigSep_sep', ← bigSep_univ_prod (fun ck : Dev nD × Fin 19 => iprop(∃ κ : ℕ, cellInv ER (Rd m) κ (kcell ck))),
    bigSep_congr (s := Finset.univ) (fun (c : Dev nD) _ => bigSep_sep' Finset.univ (fun i : Fin 19 => (atPos ER (kcell (c, i)) 0 ∅ 0 : sProp 𝕄)) (fun i => reached ER (kcell (c, i)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun i : Fin 19 => (atPos ER (kcell (c, i)) 0 ∅ 0 : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.AR

end
-- ==== Proof.Steps.lean ====
/-
  The protocol's steps, each stated once: an entry signal, the entry wait, a transfer, a receive wait, a send wait. Each
  takes what the step consumes out of a device's state and hands the continuation what the step leaves.
-/
import proofs.«900696_g7700000000000697_dist_ar_v7x_i8_i_m256_n256_bf16_1_alg».proof.Proof.Levels

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- The signal's table entry with the partner's partner resolved and the payload spelt out. -/
private theorem payload_bar_res (k : Fin 3) : (Rd (F := F) m).payload (barCell (pr k c)) 0 k
    = iprop((∃ f : Buf (Elt F) (loc1 c), loc1 c ↦[pieceSet (jOf 0 k)]{fullShare} f) ∗ reached ER (recvCell c (jOf 0 k)) 0
      ∗ (∃ f : Buf (Elt F) (loc1 c), loc1 c ↦[pieceSet (jOf 1 k)]{fullShare} f) ∗ reached ER (recvCell c (jOf 1 k)) 0
      ∗ (∃ f : Buf (Elt F) (loc1 c), loc1 c ↦[pieceSet (jOf 2 k)]{fullShare} f) ∗ reached ER (recvCell c (jOf 2 k)) 0) := by
  rw [payload_bar]
  unfold barPay
  rw [pr_pr]
  unfold slotPay
  have h1 : iprop(((∃ f : Buf (Elt F) (loc1 c), loc1 c ↦[pieceSet (jOf 0 k)]{fullShare} f) ∗ reached ER (recvCell c (jOf 0 k)) 0)
      ∗ ((∃ f : Buf (Elt F) (loc1 c), loc1 c ↦[pieceSet (jOf 1 k)]{fullShare} f) ∗ reached ER (recvCell c (jOf 1 k)) 0)
      ∗ ((∃ f : Buf (Elt F) (loc1 c), loc1 c ↦[pieceSet (jOf 2 k)]{fullShare} f) ∗ (reached ER (recvCell c (jOf 2 k)) 0 : sProp 𝕄)))
      ⊢ iprop((∃ f : Buf (Elt F) (loc1 c), loc1 c ↦[pieceSet (jOf 0 k)]{fullShare} f) ∗ reached ER (recvCell c (jOf 0 k)) 0
      ∗ (∃ f : Buf (Elt F) (loc1 c), loc1 c ↦[pieceSet (jOf 1 k)]{fullShare} f) ∗ reached ER (recvCell c (jOf 1 k)) 0
      ∗ (∃ f : Buf (Elt F) (loc1 c), loc1 c ↦[pieceSet (jOf 2 k)]{fullShare} f) ∗ (reached ER (recvCell c (jOf 2 k)) 0 : sProp 𝕄)) := by
    iintro ⟨⟨A, B⟩, ⟨C, D⟩, ⟨E', G⟩⟩
    isplitl [A]; · iexact A
    isplitl [B]; · iexact B
    isplitl [C]; · iexact C
    isplitl [D]; · iexact D
    isplitl [E']; · iexact E'
    iexact G
  have h2 : iprop((∃ f : Buf (Elt F) (loc1 c), loc1 c ↦[pieceSet (jOf 0 k)]{fullShare} f) ∗ reached ER (recvCell c (jOf 0 k)) 0
      ∗ (∃ f : Buf (Elt F) (loc1 c), loc1 c ↦[pieceSet (jOf 1 k)]{fullShare} f) ∗ reached ER (recvCell c (jOf 1 k)) 0
      ∗ (∃ f : Buf (Elt F) (loc1 c), loc1 c ↦[pieceSet (jOf 2 k)]{fullShare} f) ∗ (reached ER (recvCell c (jOf 2 k)) 0 : sProp 𝕄))
      ⊢ iprop(((∃ f : Buf (Elt F) (loc1 c), loc1 c ↦[pieceSet (jOf 0 k)]{fullShare} f) ∗ reached ER (recvCell c (jOf 0 k)) 0)
      ∗ ((∃ f : Buf (Elt F) (loc1 c), loc1 c ↦[pieceSet (jOf 1 k)]{fullShare} f) ∗ reached ER (recvCell c (jOf 1 k)) 0)
      ∗ ((∃ f : Buf (Elt F) (loc1 c), loc1 c ↦[pieceSet (jOf 2 k)]{fullShare} f) ∗ (reached ER (recvCell c (jOf 2 k)) 0 : sProp 𝕄))) := by
    iintro ⟨A, B, C, D, E', G⟩
    isplitl [A B]
    · isplitl [A]; · iexact A
      iexact B
    isplitl [C D]
    · isplitl [C]; · iexact C
      iexact D
    · isplitl [E']; · iexact E'
      iexact G
  exact equiv_iff.mp ⟨h1, h2⟩

/-- A send cell's expected amount, as its wait states it: the source view's credit. -/
private theorem expect_send_src (j : Fin 9) : (Rd (F := F) m).expect (sendCell c j) 0 = (srcM j).view.dmaCredit := by
  rw [expect_send, NN_src]

attribute [local sl_rounds] duties_bar duties_send duties_recv amount_bar amount_send amount_recv expect_bar expect_send_src expect_recv
  payload_bar_res payload_send payload_recv

/-- The entry signal to the partner of pattern `k`: it pays duty `k` of the partner's barrier cell with this device's
    three landing chunks for the transfers the partner will make by that pattern. -/
theorem step_signal (k : Fin 3) {α : Type} {Q : α → sProp 𝕄} {kk : PUnit → Prog (TpuEff nD τ sig (Elt F) Λ₀ .tc) α}
    (O : CellTallies nD τ sig Unit) (W : Waits sig Unit) (n : ℕ) (hn : 1 = n) :
    iprop(records m K ∗ owes (c : Thread nD τ) (O + barTally c k) W ∗ dutyTok ER (barCell (pr k c)) 0 k
        ∗ (∃ f : Buf (Elt F) (loc1 c), loc1 c ↦[pieceSet (jOf 0 k)]{fullShare} f)
        ∗ (∃ f : Buf (Elt F) (loc1 c), loc1 c ↦[pieceSet (jOf 1 k)]{fullShare} f)
        ∗ (∃ f : Buf (Elt F) (loc1 c), loc1 c ↦[pieceSet (jOf 2 k)]{fullShare} f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal ((pr k c : Dev nD) : Thread nD τ) barS n) kk) Q) := by
  subst hn
  unfold barTally
  iintro ⟨#Hrec, HL, Htok, Hf0, Hf1, Hf2⟩ Hk
  ihave #Hinv := (inv_bar m K (pr k c)) $$ Hrec
  ihave #Hrb := (rch_bar m K (pr k c)) $$ Hrec
  ihave #Hr0 := (rch_recv m K c (jOf 0 k)) $$ Hrec
  ihave #Hr1 := (rch_recv m K c (jOf 1 k)) $$ Hrec
  ihave #Hr2 := (rch_recv m K c (jOf 2 k)) $$ Hrec
  sl_exec
  iapply Hk
  iassumption

/-- The three partners' payloads are the nine lent landing chunks, one per transfer. -/
private theorem bar_rest_slots :
    iprop(barPay (F := F) c 0 ∗ barPay (F := F) c 1 ∗ barPay (F := F) c 2) ⊢ gSlot (F := F) c allJ := by
  show _ ⊢ iprop(slotPay (F := F) (pr (kOf 0) c) 0 ∗ slotPay (F := F) (pr (kOf 1) c) 1 ∗ slotPay (F := F) (pr (kOf 2) c) 2
    ∗ slotPay (F := F) (pr (kOf 3) c) 3 ∗ slotPay (F := F) (pr (kOf 4) c) 4 ∗ slotPay (F := F) (pr (kOf 5) c) 5
    ∗ slotPay (F := F) (pr (kOf 6) c) 6 ∗ slotPay (F := F) (pr (kOf 7) c) 7 ∗ slotPay (F := F) (pr (kOf 8) c) 8)
  unfold barPay
  iintro ⟨⟨H0, H5, H7⟩, ⟨H1, H3, H8⟩, ⟨H2, H4, H6⟩⟩
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  · iexact H8

/-- The entry wait for the three partners' units: their landing chunks come with it. -/
theorem step_barwait {α : Type} {Q : α → sProp 𝕄} {kk : PUnit → Prog (TpuEff nD τ sig (Elt F) Λ₀ .tc) α}
    (W : Waits sig Unit) (n : ℕ) (hn : 3 = n) :
    iprop(records m K ∗ levAts L lv ∗ atPos ER (barCell c) 0 ∅ 0 ∗ cred (tallyAt (barCell c) () 3) ∗ owes (c : Thread nD τ) (OR c 9) W)
      ⊢ iprop(((owes (c : Thread nD τ) (OR c 9) (insert (SemLoc.reg barS, ()) W) ∗ atPos ER (barCell c) 1 ∅ 0 ∗ gSlot (F := F) c allJ)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS n) kk) Q) := by
  subst hn
  have hrest : bigSep Finset.univ (fun d => (Rd (F := F) m).payload (barCell c) 0 d) ⊢ gSlot (F := F) c allJ := by
    rw [bigSep_univ_eq_bigSepL [(0 : Fin 3), 1, 2] (by decide) (by decide), bigSepL_cons_cons, bigSepL_cons_cons, bigSepL_singleton,
      payload_bar, payload_bar, payload_bar]
    exact bar_rest_slots c
  iintro ⟨#Hrec, #Hlev, Hat, Hcr, HL⟩ Hk
  ihave #Hinv := (inv_bar m K c) $$ Hrec
  ihave #Hmw := (mayWait_bar c) $$ Hlev
  sl_exec
  iapply Hk
  isplitl [HL]
  · iexact HL
  isplitl [Hat]
  · iexact Hat
  · iapply hrest $$ Hat_pay1

/-- The stored source chunk makes the send cell's payload. -/
private theorem send_pay (j : Fin 9) :
    (((srcM j).view.loc (c : Thread nD τ)) ↦[(srcM j).view.set]{fullShare} (sbuf m (sOf j) c) : sProp 𝕄)
      ⊢ (Rd (F := F) m).payload (sendCell c j) 0 0 := by
  rw [payload_send, src_set]
  unfold sendPay
  iintro H
  iexists (sbuf m (sOf j) c)
  iexact H

/-- The partner's landing chunk, written with the stored source chunk, makes the partner's receive cell's payload. -/
private theorem recv_pay (j : Fin 9) (fd : Buf (Elt F) (((pr (kOf j) c : Dev nD) : Thread nD τ).loc cc0_scratch1)) :
    (((dstM j).view.loc ((pr (kOf j) c : Dev nD) : Thread nD τ)) ↦[(dstM j).view.set]{fullShare}
        ((dstM j).view.write (Elt F) fd ((srcM j).view.read (Elt F) (sbuf m (sOf j) c)) Finset.univ) : sProp 𝕄)
      ⊢ (Rd (F := F) m).payload (recvCell (pr (kOf j) c) j) 0 0 := by
  rw [payload_recv, dst_set]
  unfold recvPay
  rw [pointsTo_congr (land m j c fd)]

/-- Sending transfer \`j\` with \`r\` transfers still to send after it peels its credit off what is owed. -/
private theorem OR_peel (j : Fin 9) (r : ℕ) (hr : r + j.val = 8) :
    OR c (r + 1) = OR c r + tallyAt (recvCell (pr (kOf j) c) j) () (NN j) := by
  have hj : (⟨9 - (r + 1), by omega⟩ : Fin 9) = j := Fin.ext (by show 9 - (r + 1) = j.val; omega)
  show OR c r + sendTally c ⟨9 - (r + 1), _⟩ = _
  rw [hj]
  rfl

/-- Transfer `j`, addressed to `n = pr (kOf j) c`: the stored source chunk is lent to the send cell, the partner's landing
    chunk is written and handed to its receive cell, the transfer's credit comes off what is owed. -/
theorem step_send (j : Fin 9) (n : Dev nD) (hn : n = pr (kOf j) c)
    {hsc : (dstM j : Memref sig (Dev.tc n : Thread nD τ).2.kind .vmem (chS j) .bf16).view.ref.isScScratch = false}
    {hsrc : (srcM j).view.WordExact} {hdst : (dstM j).view.WordExact}
    {hsem : DmaTarget.Typed .vmem (.dma (rSem j)) (.remote (Dev.tc n : Thread nD τ) (dstM j) (.dma (sSem j)) hsc)}
    {α : Type} {Q : α → sProp 𝕄} {kk : PUnit → Prog (TpuEff nD τ sig (Elt F) Λ₀ .tc) α}
    (r : ℕ) (hr : r + j.val = 8) (W : Waits sig Unit) :
    iprop(records m K ∗ (loc0 c ↦[pieceSet j]{fullShare} sbuf m (sOf j) c) ∗ slotPay (F := F) (pr (kOf j) c) j
        ∗ owes (c : Thread nD τ) (OR c (r + 1)) W
        ∗ dutyTok ER (recvCell (pr (kOf j) c) j) 0 0 ∗ dutyTok ER (sendCell c j) 0 0)
      ⊢ iprop(((cred (tallyAt (sendCell c j) () (NN j)) ∗ owes (c : Thread nD τ) (OR c r) W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (srcM j) (.remote (Dev.tc n : Thread nD τ) (dstM j) (.dma (sSem j)) hsc) (.dma (rSem j)) hsrc hdst hsem) kk) Q) := by
  subst hn
  have hs : (loc0 c ↦[pieceSet j]{fullShare} sbuf m (sOf j) c : sProp 𝕄)
      ⊢ ((srcM j).view.loc (c : Thread nD τ) ↦[(srcM j).view.set]{fullShare} sbuf m (sOf j) c) := by
    rw [src_set]
  have hd : ∀ fd : Buf (Elt F) (((pr (kOf j) c : Dev nD) : Thread nD τ).loc cc0_scratch1),
      ((((pr (kOf j) c : Dev nD) : Thread nD τ).loc cc0_scratch1) ↦[pieceSet j]{fullShare} fd : sProp 𝕄)
        ⊢ ((dstM j).view.loc ((pr (kOf j) c : Dev nD) : Thread nD τ) ↦[(dstM j).view.set]{fullShare} fd) := by
    intro fd
    rw [dst_set]
  iintro ⟨#Hrec, Hsrc, Hslot, HL, Htok2, Htok1⟩ Hk
  unfold slotPay
  icases Hslot with ⟨⟨%fd, Hdst⟩, #Hr2⟩
  iapply (Rounds.wp_send_pointsTo 𝒱₀ ER (Rd (F := F) m) (c : Thread nD τ) none (c' := ((pr (kOf j) c : Dev nD) : Thread nD τ))
    (src := srcM j) (dst := dstM j) (sS := .dma (sSem j)) (sem := .dma (rSem j)) (q := fullShare) (fs := sbuf m (sOf j) c) (fd := fd)
    (κ₁ := K (c, iSend j)) (κ₂ := K (pr (kOf j) c, iRecv j)) (r₁ := 0) (r₂ := 0) (d₁ := 0) (d₂ := 0)
    (by rw [duties_send]; exact Finset.mem_singleton_self _) (by rw [duties_recv]; exact Finset.mem_singleton_self _)
    () () (NN j) rfl (amount_send m c j 0) (amount_recv m (pr (kOf j) c) j 0) (OR c r) (OR_peel c j r hr)
    (send_pay m c j) (recv_pay m c j fd)) $$ [Hsrc Hdst HL Htok1 Htok2] [Hk]
  · isplitr
    · iapply (inv_send m K c j) $$ Hrec
    isplitr
    · iapply (inv_recv m K (pr (kOf j) c) j) $$ Hrec
    isplitl [Hsrc]
    · iapply hs $$ Hsrc
    isplitl [Hdst]
    · iapply (hd fd) $$ Hdst
    isplitl [HL]
    · iexact HL
    isplitl [Htok1]
    · iexact Htok1
    isplitr
    · iapply (rch_send m K c j) $$ Hrec
    isplitl [Htok2]
    · iexact Htok2
    · iexact Hr2
  · iexact Hk

/-- The receive wait of transfer `j`: the landing chunk comes back holding the slab received on its rows. -/
theorem step_rwait (j : Fin 9) {sp' : Space} {s' : Shape} {e' : EltTy} {src : Memref sig .tc sp' s' e'}
    {hsrc : src.view.WordExact} {hdst : (dstM j).view.WordExact}
    {α : Type} {Q : α → sProp 𝕄} {kk : PUnit → Prog (TpuEff nD τ sig (Elt F) Λ₀ .tc) α}
    (O : CellTallies nD τ sig Unit) (hO : O = OR c (6 - 3 * (sOf j).val)) (W : Waits sig Unit) :
    iprop(records m K ∗ levAts L lv ∗ atPos ER (recvCell c j) 0 ∅ 0 ∗ cred (tallyAt (recvCell c j) () (NN j)) ∗ owes (c : Thread nD τ) O W)
      ⊢ iprop(((owes (c : Thread nD τ) O (insert (SemLoc.dma (rSem j), ()) W) ∗ atPos ER (recvCell c j) 1 ∅ 0 ∗ recvPay m c j)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rSem j) src (dstM j) hsrc hdst) kk) Q) := by
  subst hO
  iintro ⟨#Hrec, #Hlev, Hat, Hcr, HL⟩ Hk
  ihave #Hinv := (inv_recv m K c j) $$ Hrec
  ihave #Hmw := (mayWait_recv c j) $$ Hlev
  sl_exec
  iapply Hk
  isplitl [HL]
  · iexact HL
  isplitl [Hat]
  · iexact Hat
  · iexact Hat_pay1

/-- The send wait of transfer `j`, owing nothing: the source chunk comes back. -/
theorem step_swait (j : Fin 9) {sp' : Space} {s' : Shape} {e' : EltTy} {src : Memref sig .tc sp' s' e'}
    {hsrc : src.view.WordExact} {hdst : (srcM j).view.WordExact}
    {α : Type} {Q : α → sProp 𝕄} {kk : PUnit → Prog (TpuEff nD τ sig (Elt F) Λ₀ .tc) α}
    (W : Waits sig Unit) :
    iprop(records m K ∗ atPos ER (sendCell c j) 0 ∅ 0 ∗ cred (tallyAt (sendCell c j) () (NN j)) ∗ owes (c : Thread nD τ) (OR c 0) W)
      ⊢ iprop(((owes (c : Thread nD τ) (OR c 0) (insert (SemLoc.dma (sSem j), ()) W) ∗ atPos ER (sendCell c j) 1 ∅ 0 ∗ sendPay (F := F) c j)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sSem j) src (srcM j) hsrc hdst) kk) Q) := by
  have hmw : ⊢ (MayWait (c : Thread nD τ) (.dma (sSem j)) () (OR c 0) : sProp 𝕄) := by
    have hz : (MayWait (c : Thread nD τ) (.dma (sSem j)) () (OR c 0) : sProp 𝕄) = BI.emp := MayWait_zero _ _ _
    rw [hz]
    exact .rfl
  have hcr : (cred (tallyAt (sendCell c j) () (NN j)) : sProp 𝕄) ⊢ cred (tallyAt (sendCell c j) () (srcM j).view.dmaCredit) := by
    rw [NN_src]
  iintro ⟨#Hrec, Hat, Hcr, HL⟩ Hk
  ihave #Hinv := (inv_send m K c j) $$ Hrec
  ihave #Hmw := hmw
  ihave Hcr := hcr $$ Hcr
  sl_exec
  iapply Hk
  isplitl [HL]
  · iexact HL
  isplitl [Hat]
  · iexact Hat
  · iexact Hat_pay1

end Cert.KernelIdeal.AR

end
-- ==== Proof.Init.lean ====
/-
  What the body obligation hands a device's body is the first state: the send buffer cut into its slabs, the receive buffer
  into the nine landing chunks the three entry signals lend out, the ghost state regrouped by transfer.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain is its head beside the chain of the rest; the empty chain is `emp`. -/
private theorem bsl_cc {I : Type} (i j : I) (l : List I) (Φ : I → sProp 𝕄) :
    bigSepL (i :: j :: l) Φ = iprop(Φ i ∗ bigSepL (j :: l) Φ) := rfl
private theorem bsl_nil {I : Type} (Φ : I → sProp 𝕄) : bigSepL [] Φ = iprop(emp) := rfl

/-- The receive buffer whole is its nine landing chunks, grouped by the pattern of the transfer that will write each. -/
private theorem rbuf_chunks (f : Buf (Elt F) (loc1 c)) :
    (loc1 c ↦{fullShare} f : sProp 𝕄) ⊢
      iprop(((loc1 c ↦[pieceSet (jOf 0 0)]{fullShare} f) ∗ (loc1 c ↦[pieceSet (jOf 1 0)]{fullShare} f) ∗ (loc1 c ↦[pieceSet (jOf 2 0)]{fullShare} f))
        ∗ ((loc1 c ↦[pieceSet (jOf 0 1)]{fullShare} f) ∗ (loc1 c ↦[pieceSet (jOf 1 1)]{fullShare} f) ∗ (loc1 c ↦[pieceSet (jOf 2 1)]{fullShare} f))
        ∗ ((loc1 c ↦[pieceSet (jOf 0 2)]{fullShare} f) ∗ (loc1 c ↦[pieceSet (jOf 1 2)]{fullShare} f) ∗ (loc1 c ↦[pieceSet (jOf 2 2)]{fullShare} f))) := by
  have h0 : (loc1 c ↦[slabSet 0]{fullShare} f : sProp 𝕄) ⊢ _ := (rslab_pieces c 0 f).1
  have h1 : (loc1 c ↦[slabSet 1]{fullShare} f : sProp 𝕄) ⊢ _ := (rslab_pieces c 1 f).1
  have h2 : (loc1 c ↦[slabSet 2]{fullShare} f : sProp 𝕄) ⊢ _ := (rslab_pieces c 2 f).1
  rw [show jAt 0 0 = jOf 0 0 from by decide, show jAt 0 1 = jOf 0 1 from by decide, show jAt 0 2 = jOf 0 2 from by decide] at h0
  rw [show jAt 1 0 = jOf 1 1 from by decide, show jAt 1 1 = jOf 1 2 from by decide, show jAt 1 2 = jOf 1 0 from by decide] at h1
  rw [show jAt 2 0 = jOf 2 2 from by decide, show jAt 2 1 = jOf 2 0 from by decide, show jAt 2 2 = jOf 2 1 from by decide] at h2
  have hw : (loc1 c ↦{fullShare} f : sProp 𝕄) ⊢ _ := (rbuf_slabs c f).1
  iintro H
  ihave H := hw $$ H
  icases H with ⟨H0, H1, H2⟩
  ihave H0 := h0 $$ H0
  ihave H1 := h1 $$ H1
  ihave H2 := h2 $$ H2
  icases H0 with ⟨A0, A1, A2⟩
  icases H1 with ⟨B1, B2, B0⟩
  icases H2 with ⟨C2, C0, C1⟩
  isplitl [A0 B0 C0]
  · isplitl [A0]; · iexact A0
    isplitl [B0]; · iexact B0
    iexact C0
  isplitl [A1 B1 C1]
  · isplitl [A1]; · iexact A1
    isplitl [B1]; · iexact B1
    iexact C1
  isplitl [A2]; · iexact A2
  isplitl [B2]; · iexact B2
  iexact C2

theorem init_state : bodyPre m K c ⊢ St m c K (B c 0) := by
  unfold bodyPre ghost St B
  simp only []
  unfold gBar gBarPos gTok gSlot gRW gRD gLand gRSlab gSPiece gSSlab gCred gSW gSD gOut Dat.owesAt Pipeline.owesWithin
  simp only [bsl_cc, bigSepL_singleton, bsl_nil, Bool.false_eq_true, ↓reduceIte]
  have hs : ∀ fs : Buf (Elt F) (loc0 c), (loc0 c ↦{fullShare} fs : sProp 𝕄) ⊢ _ := fun fs => (sbuf_slabs c fs).1
  iintro ⟨⟨⟨#Hrec, Hbar, Hsw, ⟨Hr0, Hr1, Hr2, Hr3, Hr4, Hr5, Hr6, Hr7, Hr8⟩, ⟨Ht0, Ht1, Ht2⟩, HgTok⟩, Hcb,
    ⟨Hc0, Hc1, Hc2, Hc3, Hc4, Hc5, Hc6, Hc7, Hc8⟩, #Hlev, ⟨%fs, Hsb⟩, ⟨%fr, Hrb⟩⟩, ⟨%W, %hW, HO⟩, ⟨%d0, %g0, %hg0, Hx⟩, ⟨%d1, %g1, %hg1, Hout⟩⟩
  have hx : g0 = X m c := by rw [hg0]; unfold Dat.before; rw [if_pos (Gen.fetch0_0 t0_0)]; rfl
  subst hx
  ihave Hs := (hs fs) $$ Hsb
  icases Hs with ⟨HS0, HS1, HS2⟩
  ihave Hr := (rbuf_chunks c fr) $$ Hrb
  icases Hr with ⟨⟨A0, B0, C0⟩, ⟨A1, B1, C1⟩, ⟨A2, B2, C2⟩⟩
  isplitr; · iexact Hrec
  isplitr; · iexact Hlev
  isplitl [HO]; · iexists W; iexact HO
  isplitl [Ht0 Ht1 Ht2 A0 B0 C0 A1 B1 C1 A2 B2 C2]
  · isplitl [Ht0 A0 B0 C0]
    · isplitl [Ht0]; · iexact Ht0
      isplitl [A0]; · iexists fr; iexact A0
      isplitl [B0]; · iexists fr; iexact B0
      iexists fr; iexact C0
    isplitl [Ht1 A1 B1 C1]
    · isplitl [Ht1]; · iexact Ht1
      isplitl [A1]; · iexists fr; iexact A1
      isplitl [B1]; · iexists fr; iexact B1
      iexists fr; iexact C1
    isplitl [Ht2]; · iexact Ht2
    isplitl [A2]; · iexists fr; iexact A2
    isplitl [B2]; · iexists fr; iexact B2
    iexists fr; iexact C2
  isplitl [Hbar Hcb]
  · isplitl [Hbar]; · iexact Hbar
    iexact Hcb
  isplitl [HgTok]; · iexact HgTok
  isplitr; · iempintro
  isplitl [Hr0 Hr1 Hr2 Hr3 Hr4 Hr5 Hr6 Hr7 Hr8 Hc0 Hc1 Hc2 Hc3 Hc4 Hc5 Hc6 Hc7 Hc8]
  · isplitl [Hr0 Hc0]; · (isplitl [Hr0]; · iexact Hr0); iexact Hc0
    isplitl [Hr1 Hc1]; · (isplitl [Hr1]; · iexact Hr1); iexact Hc1
    isplitl [Hr2 Hc2]; · (isplitl [Hr2]; · iexact Hr2); iexact Hc2
    isplitl [Hr3 Hc3]; · (isplitl [Hr3]; · iexact Hr3); iexact Hc3
    isplitl [Hr4 Hc4]; · (isplitl [Hr4]; · iexact Hr4); iexact Hc4
    isplitl [Hr5 Hc5]; · (isplitl [Hr5]; · iexact Hr5); iexact Hc5
    isplitl [Hr6 Hc6]; · (isplitl [Hr6]; · iexact Hr6); iexact Hc6
    isplitl [Hr7 Hc7]; · (isplitl [Hr7]; · iexact Hr7); iexact Hc7
    (isplitl [Hr8]; · iexact Hr8); iexact Hc8
  isplitr; · iempintro
  isplitr; · iempintro
  isplitr; · iempintro
  isplitr; · iempintro
  isplitl [HS0 HS1 HS2]
  · isplitl [HS0]; · iexists fs; iexact HS0
    isplitl [HS1]; · iexists fs; iexact HS1
    iexists fs; iexact HS2
  isplitr; · iempintro
  isplitl [Hsw]; · iexact Hsw
  isplitr; · iempintro
  isplitl [Hx]
  · iexists _; isplitr; · (ipureintro; rfl)
    iexact Hx
  iexists g1; iexact Hout

/-- info: 'Cert.KernelIdeal.AR.init_state' depends on axioms: [propext, Classical.choice, Quot.sound] -/
#guard_msgs in #print axioms init_state

end Cert.KernelIdeal.AR

end
-- ==== Proof.Fin.lean ====
/-
  The last state gives the body's post: the eighteen own cells, each a round on with no round left, close and hand their
  counters back at zero; the nine source chunks and the three received slabs rejoin into the two scratch buffers.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain is its head beside the chain of the rest; the empty chain is `emp`. -/
private theorem bsl_cc {I : Type} (i j : I) (l : List I) (Φ : I → sProp 𝕄) :
    bigSepL (i :: j :: l) Φ = iprop(Φ i ∗ bigSepL (j :: l) Φ) := rfl
private theorem bsl_nil {I : Type} (Φ : I → sProp 𝕄) : bigSepL [] Φ = iprop(emp) := rfl

/-- A receive cell a round on, with no round left, closes: its counter comes back at zero. -/
private theorem close_recv (j : Fin 9) :
    iprop(records m K ∗ atPos ER (recvCell c j) 1 ∅ 0) ⊢ (iprop(|={Set.univ}=> semVal (recvCell c j) 0) : sProp 𝕄) := by
  have hi := inv_recv m K c j
  have hc := Rounds.cell_close ER (Rd m) (Set.mem_univ (K (c, iRecv j))) (fun h => h) (R := 0 + 1) (duties_later m (recvCell c j))
  iintro ⟨#Hrec, Hat⟩
  iapply hc
  isplitr
  · iapply hi; iexact Hrec
  iexact Hat

/-- A send cell a round on, with no round left, closes the same way. -/
private theorem close_send (j : Fin 9) :
    iprop(records m K ∗ atPos ER (sendCell c j) 1 ∅ 0) ⊢ (iprop(|={Set.univ}=> semVal (sendCell c j) 0) : sProp 𝕄) := by
  have hi := inv_send m K c j
  have hc := Rounds.cell_close ER (Rd m) (Set.mem_univ (K (c, iSend j))) (fun h => h) (R := 0 + 1) (duties_later m (sendCell c j))
  iintro ⟨#Hrec, Hat⟩
  iapply hc
  isplitr
  · iapply hi; iexact Hrec
  iexact Hat

/-- Every receive cell of a list closes. -/
private theorem close_recvs (js : List (Fin 9)) :
    iprop(records m K ∗ gRD (F := F) c js) ⊢ (iprop(|={Set.univ}=> (bigSepL js fun j => semVal (recvCell c j) 0)) : sProp 𝕄) := by
  unfold gRD
  induction js with
  | nil => iintro -; imodintro; rw [bsl_nil]; iempintro
  | cons j js ih =>
    rw [bigSepL_cons, bigSepL_cons]
    have h1 := close_recv m K c j
    refine (show iprop(records m K ∗ (atPos ER (recvCell c j) 1 ∅ 0) ∗ bigSepL js fun j => atPos ER (recvCell c j) 1 ∅ 0)
      ⊢ iprop(|={Set.univ}=> ((semVal (recvCell c j) 0) ∗ bigSepL js fun j => semVal (recvCell c j) 0)) from ?_)
    iintro ⟨#Hrec, Hat, Hrest⟩
    imod h1 $$ [Hat] with Hz
    · isplitr; · iexact Hrec
      iexact Hat
    imod ih $$ [Hrest] with Hzs
    · isplitr; · iexact Hrec
      iexact Hrest
    imodintro
    isplitl [Hz]; · iexact Hz
    iexact Hzs

/-- Every send cell of a list closes, and the source chunks it handed back stay. -/
private theorem close_sends (js : List (Fin 9)) :
    iprop(records m K ∗ gSD (F := F) c js)
      ⊢ (iprop(|={Set.univ}=> ((bigSepL js fun j => semVal (sendCell c j) 0) ∗ bigSepL js fun j => sendPay (F := F) c j)) : sProp 𝕄) := by
  unfold gSD
  induction js with
  | nil => iintro -; imodintro; rw [bsl_nil, bsl_nil]; isplitr <;> iempintro
  | cons j js ih =>
    rw [bigSepL_cons, bigSepL_cons, bigSepL_cons]
    have h1 := close_send m K c j
    refine (show iprop(records m K ∗ (atPos ER (sendCell c j) 1 ∅ 0 ∗ sendPay (F := F) c j) ∗ bigSepL js fun j => iprop(atPos ER (sendCell c j) 1 ∅ 0 ∗ sendPay (F := F) c j))
      ⊢ iprop(|={Set.univ}=> (((semVal (sendCell c j) 0) ∗ bigSepL js fun j => semVal (sendCell c j) 0) ∗ ((sendPay (F := F) c j) ∗ bigSepL js fun j => sendPay (F := F) c j))) from ?_)
    iintro ⟨#Hrec, ⟨Hat, Hp⟩, Hrest⟩
    imod h1 $$ [Hat] with Hz
    · isplitr; · iexact Hrec
      iexact Hat
    imod ih $$ [Hrest] with ⟨Hzs, Hps⟩
    · isplitr; · iexact Hrec
      iexact Hrest
    imodintro
    isplitl [Hz Hzs]
    · isplitl [Hz]; · iexact Hz
      iexact Hzs
    isplitl [Hp]; · iexact Hp
    iexact Hps

/-- The rows of the three chunks of a slab. -/
private theorem rows0 (s : Fin 3) : row0 (jAt s 0) = 0 ∧ nrow (jAt s 0) = 96 := by revert s; decide
private theorem rows1 (s : Fin 3) : row0 (jAt s 1) = 96 ∧ nrow (jAt s 1) = 80 := by revert s; decide
private theorem rows2 (s : Fin 3) : row0 (jAt s 2) = 176 ∧ nrow (jAt s 2) = 80 := by revert s; decide

/-- Three row chunks of one slab of the send buffer, each at whatever it holds, are the slab at some contents. -/
private theorem join_chunks (s : Fin 3) (fa fb fc : Buf (Elt F) (loc0 c)) :
    iprop((loc0 c ↦[pieceSet (jAt s 0)]{fullShare} fa) ∗ (loc0 c ↦[pieceSet (jAt s 1)]{fullShare} fb) ∗ (loc0 c ↦[pieceSet (jAt s 2)]{fullShare} fc))
      ⊢ (iprop(∃ g : Buf (Elt F) (loc0 c), loc0 c ↦[slabSet s]{fullShare} g) : sProp 𝕄) := by
  let g : Buf (Elt F) (loc0 c) := fun i => if (i 1).val < 96 then fa i else if (i 1).val < 176 then fb i else fc i
  have ea : (loc0 c ↦[pieceSet (jAt s 0)]{fullShare} fa : sProp 𝕄) = loc0 c ↦[pieceSet (jAt s 0)]{fullShare} g :=
    pointsTo_congr fun i hi => by
      have h := (mem_pieceSet (jAt s 0) i).mp hi
      have r := rows0 s
      rw [r.1, r.2] at h
      show fa i = if (i 1).val < 96 then fa i else if (i 1).val < 176 then fb i else fc i
      rw [if_pos (by omega)]
  have eb : (loc0 c ↦[pieceSet (jAt s 1)]{fullShare} fb : sProp 𝕄) = loc0 c ↦[pieceSet (jAt s 1)]{fullShare} g :=
    pointsTo_congr fun i hi => by
      have h := (mem_pieceSet (jAt s 1) i).mp hi
      have r := rows1 s
      rw [r.1, r.2] at h
      show fb i = if (i 1).val < 96 then fa i else if (i 1).val < 176 then fb i else fc i
      rw [if_neg (by omega), if_pos (by omega)]
  have ec : (loc0 c ↦[pieceSet (jAt s 2)]{fullShare} fc : sProp 𝕄) = loc0 c ↦[pieceSet (jAt s 2)]{fullShare} g :=
    pointsTo_congr fun i hi => by
      have h := (mem_pieceSet (jAt s 2) i).mp hi
      have r := rows2 s
      rw [r.1, r.2] at h
      show fc i = if (i 1).val < 96 then fa i else if (i 1).val < 176 then fb i else fc i
      rw [if_neg (by omega), if_neg (by omega)]
  have hj : _ ⊢ (loc0 c ↦[slabSet s]{fullShare} g : sProp 𝕄) := (sslab_pieces c s g).2
  rw [ea, eb, ec]
  iintro H
  iexists g
  iapply hj
  iexact H

/-- The three slabs of the send buffer, each at whatever it holds, are the buffer at some contents. -/
private theorem join_sslabs (f0 f1 f2 : Buf (Elt F) (loc0 c)) :
    iprop((loc0 c ↦[slabSet 0]{fullShare} f0) ∗ (loc0 c ↦[slabSet 1]{fullShare} f1) ∗ (loc0 c ↦[slabSet 2]{fullShare} f2))
      ⊢ (iprop(∃ g : Buf (Elt F) (loc0 c), loc0 c ↦{fullShare} g) : sProp 𝕄) := by
  let g : Buf (Elt F) (loc0 c) := fun i => if (i 0).val = 0 then f0 i else if (i 0).val = 1 then f1 i else f2 i
  have e0 : (loc0 c ↦[slabSet 0]{fullShare} f0 : sProp 𝕄) = loc0 c ↦[slabSet 0]{fullShare} g :=
    pointsTo_congr fun i hi => by
      have h : (i 0).val = 0 := (mem_slabSet 0 i).mp hi
      show f0 i = if (i 0).val = 0 then f0 i else if (i 0).val = 1 then f1 i else f2 i
      rw [if_pos h]
  have e1 : (loc0 c ↦[slabSet 1]{fullShare} f1 : sProp 𝕄) = loc0 c ↦[slabSet 1]{fullShare} g :=
    pointsTo_congr fun i hi => by
      have h : (i 0).val = 1 := (mem_slabSet 1 i).mp hi
      show f1 i = if (i 0).val = 0 then f0 i else if (i 0).val = 1 then f1 i else f2 i
      rw [if_neg (by omega), if_pos h]
  have e2 : (loc0 c ↦[slabSet 2]{fullShare} f2 : sProp 𝕄) = loc0 c ↦[slabSet 2]{fullShare} g :=
    pointsTo_congr fun i hi => by
      have h : (i 0).val = 2 := (mem_slabSet 2 i).mp hi
      show f2 i = if (i 0).val = 0 then f0 i else if (i 0).val = 1 then f1 i else f2 i
      rw [if_neg (by omega), if_neg (by omega)]
  have hj : _ ⊢ (loc0 c ↦{fullShare} g : sProp 𝕄) := (sbuf_slabs c g).2
  rw [e0, e1, e2]
  iintro H
  iexists g
  iapply hj
  iexact H

/-- The three slabs of the receive buffer, each at what it received, are the buffer at some contents. -/
private theorem join_rslabs (f0 f1 f2 : Buf (Elt F) (loc1 c)) :
    iprop((loc1 c ↦[slabSet 0]{fullShare} f0) ∗ (loc1 c ↦[slabSet 1]{fullShare} f1) ∗ (loc1 c ↦[slabSet 2]{fullShare} f2))
      ⊢ (iprop(∃ g : Buf (Elt F) (loc1 c), loc1 c ↦{fullShare} g) : sProp 𝕄) := by
  let g : Buf (Elt F) (loc1 c) := fun i => if (i 0).val = 0 then f0 i else if (i 0).val = 1 then f1 i else f2 i
  have e0 : (loc1 c ↦[slabSet 0]{fullShare} f0 : sProp 𝕄) = loc1 c ↦[slabSet 0]{fullShare} g :=
    pointsTo_congr fun i hi => by
      have h : (i 0).val = 0 := (mem_slabSet 0 i).mp hi
      show f0 i = if (i 0).val = 0 then f0 i else if (i 0).val = 1 then f1 i else f2 i
      rw [if_pos h]
  have e1 : (loc1 c ↦[slabSet 1]{fullShare} f1 : sProp 𝕄) = loc1 c ↦[slabSet 1]{fullShare} g :=
    pointsTo_congr fun i hi => by
      have h : (i 0).val = 1 := (mem_slabSet 1 i).mp hi
      show f1 i = if (i 0).val = 0 then f0 i else if (i 0).val = 1 then f1 i else f2 i
      rw [if_neg (by omega), if_pos h]
  have e2 : (loc1 c ↦[slabSet 2]{fullShare} f2 : sProp 𝕄) = loc1 c ↦[slabSet 2]{fullShare} g :=
    pointsTo_congr fun i hi => by
      have h : (i 0).val = 2 := (mem_slabSet 2 i).mp hi
      show f2 i = if (i 0).val = 0 then f0 i else if (i 0).val = 1 then f1 i else f2 i
      rw [if_neg (by omega), if_neg (by omega)]
  have hj : _ ⊢ (loc1 c ↦{fullShare} g : sProp 𝕄) := (rbuf_slabs c g).2
  rw [e0, e1, e2]
  iintro H
  iexists g
  iapply hj
  iexact H

/-- The nine source chunks back, each at whatever it holds, are the send buffer whole. -/
private theorem join_sends :
    (bigSepL allJ fun j => sendPay (F := F) c j) ⊢ (iprop(∃ g : Buf (Elt F) (loc0 c), loc0 c ↦{fullShare} g) : sProp 𝕄) := by
  unfold sendPay
  simp only [bsl_cc, bigSepL_singleton]
  have h0 := fun fa fb fc => join_chunks (F := F) c 0 fa fb fc
  have h1 := fun fa fb fc => join_chunks (F := F) c 1 fa fb fc
  have h2 := fun fa fb fc => join_chunks (F := F) c 2 fa fb fc
  iintro ⟨⟨%f0, P0⟩, ⟨%f1, P1⟩, ⟨%f2, P2⟩, ⟨%f3, P3⟩, ⟨%f4, P4⟩, ⟨%f5, P5⟩, ⟨%f6, P6⟩, ⟨%f7, P7⟩, ⟨%f8, P8⟩⟩
  ihave S0 := (h0 f0 f1 f2) $$ [P0 P1 P2]
  · isplitl [P0]; · iexact P0
    isplitl [P1]; · iexact P1
    iexact P2
  ihave S1 := (h1 f3 f4 f5) $$ [P3 P4 P5]
  · isplitl [P3]; · iexact P3
    isplitl [P4]; · iexact P4
    iexact P5
  ihave S2 := (h2 f6 f7 f8) $$ [P6 P7 P8]
  · isplitl [P6]; · iexact P6
    isplitl [P7]; · iexact P7
    iexact P8
  icases S0 with ⟨%g0, S0⟩
  icases S1 with ⟨%g1, S1⟩
  icases S2 with ⟨%g2, S2⟩
  iapply (join_sslabs c g0 g1 g2)
  isplitl [S0]; · iexact S0
  isplitl [S1]; · iexact S1
  iexact S2

/-- The three received slabs are the receive buffer whole. -/
private theorem join_recvs :
    gRSlab m c [0, 1, 2] ⊢ (iprop(∃ g : Buf (Elt F) (loc1 c), loc1 c ↦{fullShare} g) : sProp 𝕄) := by
  unfold gRSlab
  simp only [bsl_cc, bigSepL_singleton]
  exact join_rslabs c (rbuf m 0 c) (rbuf m 1 c) (rbuf m 2 c)

theorem fin_state :
    St m c K (B c 12) ⊢ wp frame (wpE (defs₀ (F := F)) 𝒱₀ (c : Thread nD τ) none) Set.univ (Prog.ret ⟨⟩ : Prog (TpuEff nD τ sig (Elt F) Λ₀ .tc) PUnit) (fun _ => bodyPost m c) := by
  rw [wp_ret]
  unfold St B bodyPost Φ₁ Dat.owesAt Pipeline.owesWithin gOut
  simp only [↓reduceIte]
  rw [show (dats m 0 c).owed t0_0.succ = 0 from rfl, show OR c 0 = 0 from rfl]
  have hr := close_recvs m K c allJ
  have hs := close_sends m K c allJ
  have jr := join_recvs m c
  have js := join_sends (F := F) c
  iintro ⟨#Hrec, -, ⟨%W, HO⟩, -, -, -, -, -, Hrd, -, Hrs, -, -, -, -, Hsd, Hx, Hout⟩
  imod hr $$ [Hrd] with Hzr
  · isplitr; · iexact Hrec
    iexact Hrd
  imod hs $$ [Hsd] with ⟨Hzs, Hps⟩
  · isplitr; · iexact Hrec
    iexact Hsd
  imodintro
  ihave Hsb := js $$ Hps
  ihave Hrb := jr $$ Hrs
  isplitl [Hsb Hrb Hzs Hzr]
  · isplitl [Hsb]; · iexact Hsb
    isplitl [Hrb]; · iexact Hrb
    isplitl [Hzs]; · iexact Hzs
    iexact Hzr
  isplitl [HO]
  · iexists W
    isplitr; · ipureintro; exact fun _ _ => Or.inl trivial
    iexact HO
  isplitl [Hx]; · iexact Hx
  iexact Hout

/-- info: 'Cert.KernelIdeal.AR.fin_state' depends on axioms: [propext, Classical.choice, Quot.sound] -/
#guard_msgs in #print axioms fin_state

end Cert.KernelIdeal.AR

end
-- ==== Proof.Part1.lean ====
/-
  Part 1 of the body on device c: the three entry signals, the entry wait, the load of the block, and the store of slab 0 (its load first), which is then cut into its three row chunks.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- The model's separating conjunction and unit are the connectives the notation names. -/
private theorem sep_fold (P Q : sProp 𝕄) : _root_.Idealize.SL.BI.sep P Q = iprop(P ∗ Q) := rfl
private theorem emp_fold : (_root_.Idealize.SL.BI.emp : sProp 𝕄) = iprop(emp) := rfl

/-- The slab stored at step 0, cut into its three row chunks. -/
private theorem cut0 (f : Buf (Elt F) (loc0 c)) :
    (loc0 c ↦[slabSet 0]{fullShare} ((sB.access (slabR 0)).write (Elt F) f (k0_pay2 (xM.view.readAt (Elt F) r0.toLoadRect (X m c))) Finset.univ) : sProp 𝕄)
      ⊢ iprop((loc0 c ↦[pieceSet 0]{fullShare} sbuf m (sOf 0) c) ∗ (loc0 c ↦[pieceSet 1]{fullShare} sbuf m (sOf 1) c)
          ∗ (loc0 c ↦[pieceSet 2]{fullShare} sbuf m (sOf 2) c)) := by
  have e : (loc0 c ↦[slabSet 0]{fullShare} ((sB.access (slabR 0)).write (Elt F) f (sent m 0 c) Finset.univ) : sProp 𝕄)
      = (loc0 c ↦[slabSet 0]{fullShare} sbuf m 0 c) := pointsTo_congr (store_slab m 0 c f)
  rw [read_x]
  show (loc0 c ↦[slabSet 0]{fullShare} ((sB.access (slabR 0)).write (Elt F) f (sent m 0 c) Finset.univ) : sProp 𝕄) ⊢ _
  rw [e]
  exact (sslab_pieces c 0 _).1

theorem part1_run  :
    St m c K (B c 0)
      ⊢ wp frame (wpE (defs₀ (F := F)) 𝒱₀ (c : Thread nD τ) none) Set.univ (k0_part1 xM (Memref.isWhole_whole _) oM (Memref.isWhole_whole _) sB (Memref.isWhole_whole _) rB (Memref.isWhole_whole _) cc0_scratch2 cc0_scratch3)
          (fun r => iprop(⌜r.1 = c ∧ r.2.2.1 = A0 m c⌝ ∗ St m c K (B c 1))) := by
  simp only [k0_part1_eq_skeleton]
  unfold k0_part1_skel
  simp only [semSignalWord, semWaitWord, Prog.lift, Prog.bind_op, Prog.bind_ret, Prog.pure_eq_ret, wp_deviceId]
  simp only [dev1_eq c, dev2_eq c, dev3_eq c]
  unfold St
  simp only [B]
  unfold gBar gBarPos gSSlab gSPiece
  simp only [bigSepL_cons_cons, bigSepL_singleton, bigSepL_nil, sep_fold, emp_fold, Bool.false_eq_true, ↓reduceIte]
  rw [show OBr c 3 = OR c 9 + barTally c 2 + barTally c 1 + barTally c 0 from rfl]
  iintro ⟨#Hrec, #Hlev, ⟨%W, HO⟩, ⟨⟨Ht0, Ha0, Hb0, Hc0⟩, ⟨Ht1, Ha1, Hb1, Hc1⟩, ⟨Ht2, Ha2, Hb2, Hc2⟩⟩, ⟨HatB, HcB⟩, Htok, -, HRW, HRD, Hland, Hrslab, -, ⟨⟨%f0, Hs0⟩, Hs1, Hs2⟩, Hcr, Hsw, Hsd, ⟨%fx, %hfx, Hx⟩, Hout⟩
  subst hfx
  iapply (step_signal m K c 0 (OR c 9 + barTally c 2 + barTally c 1) W _ rfl) $$ [HO Ht0 Ha0 Hb0 Hc0]
  · isplitr; · iexact Hrec
    isplitl [HO]; · iexact HO
    isplitl [Ht0]; · iexact Ht0
    isplitl [Ha0]; · iexact Ha0
    isplitl [Hb0]; · iexact Hb0
    iexact Hc0
  iintro HO
  iapply (step_signal m K c 1 (OR c 9 + barTally c 2) W _ rfl) $$ [HO Ht1 Ha1 Hb1 Hc1]
  · isplitr; · iexact Hrec
    isplitl [HO]; · iexact HO
    isplitl [Ht1]; · iexact Ht1
    isplitl [Ha1]; · iexact Ha1
    isplitl [Hb1]; · iexact Hb1
    iexact Hc1
  iintro HO
  iapply (step_signal m K c 2 (OR c 9) W _ rfl) $$ [HO Ht2 Ha2 Hb2 Hc2]
  · isplitr; · iexact Hrec
    isplitl [HO]; · iexact HO
    isplitl [Ht2]; · iexact Ht2
    isplitl [Ha2]; · iexact Ha2
    isplitl [Hb2]; · iexact Hb2
    iexact Hc2
  iintro HO
  iapply (step_barwait m K c W _ rfl) $$ [HatB HcB HO]
  · isplitr; · iexact Hrec
    isplitr; · iexact Hlev
    isplitl [HatB]; · iexact HatB
    isplitl [HcB]; · iexact HcB
    iexact HO
  iintro ⟨HO, HatB, Hslot⟩
  have hx : (c.tc.loc cc0_stg0_0 ↦{fullShare} X m c : sProp 𝕄) ⊢ (xM.view.loc (c : Thread nD τ) ↦{fullShare} X m c) := .rfl
  have hs : (loc0 c ↦[slabSet 0]{fullShare} f0 : sProp 𝕄) ⊢ ((sB.slice (slabR 0) (fun _ => rfl)).view.loc (c : Thread nD τ) ↦[(sB.slice (slabR 0) (fun _ => rfl)).view.set]{fullShare} f0) := by
    simp only [Memref.view_slice, Memref.view_whole, View.set_slice_whole]; exact .rfl
  ihave Hx' := hx $$ Hx
  ihave Hs0' := hs $$ Hs0
  sl_exec
  have hcut : ((sB.slice (slabR 0) (fun _ => rfl)).view.loc (c : Thread nD τ) ↦[(sB.slice (slabR 0) (fun _ => rfl)).view.set]{fullShare} part1_run.sl.Hs0'_w1 m c f0 : sProp 𝕄)
      ⊢ iprop((loc0 c ↦[pieceSet 0]{fullShare} sbuf m (sOf 0) c) ∗ (loc0 c ↦[pieceSet 1]{fullShare} sbuf m (sOf 1) c)
          ∗ (loc0 c ↦[pieceSet 2]{fullShare} sbuf m (sOf 2) c)) := by
    unfold part1_run.sl.Hs0'_w1
    simp only [Memref.view_slice, Memref.view_whole, View.set_slice_whole]
    exact cut0 m c f0
  have hxb : (xM.view.loc (c : Thread nD τ) ↦{fullShare} X m c : sProp 𝕄) ⊢ (c.tc.loc cc0_stg0_0 ↦{fullShare} X m c) := .rfl
  ihave Hp := hcut $$ Hs0'
  icases Hp with ⟨Hp0, Hp1, Hp2⟩
  ihave Hx := hxb $$ Hx'
  iapply (le_wp_ret _ _)
  isplitr
  · ipureintro; exact ⟨rfl, congrArg k0_pay1 (read_x (F := F) (X m c))⟩
  isplitr; · iexact Hrec
  isplitr; · iexact Hlev
  isplitl [HO]; · iexists _; iexact HO
  isplitr; · iempintro
  isplitl [HatB]; · iexact HatB
  isplitl [Htok]; · iexact Htok
  isplitl [Hslot]; · iexact Hslot
  isplitl [HRW]; · iexact HRW
  isplitl [HRD]; · iexact HRD
  isplitl [Hland]; · iexact Hland
  isplitl [Hrslab]; · iexact Hrslab
  isplitl [Hp0 Hp1 Hp2]
  · isplitl [Hp0]; · iexact Hp0
    isplitl [Hp1]; · iexact Hp1
    iexact Hp2
  isplitl [Hs1 Hs2]
  · isplitl [Hs1]; · iexact Hs1
    iexact Hs2
  isplitl [Hcr]; · iexact Hcr
  isplitl [Hsw]; · iexact Hsw
  isplitl [Hsd]; · iexact Hsd
  isplitl [Hx]
  · iexists _; isplitr; · (ipureintro; rfl)
    iexact Hx
  iexact Hout

end Cert.KernelIdeal.AR

end
-- ==== Proof.Part2.lean ====
/-
  Part 2 of the body on device c: transfers 0 and 1.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain opened at its head, spelt with the separating conjunction. -/
private theorem sepL_cc {I : Type} (i j : I) (l : List I) (Φ : I → sProp 𝕄) :
    bigSepL (i :: j :: l) Φ = iprop(Φ i ∗ bigSepL (j :: l) Φ) := rfl
private theorem sepL_one {I : Type} (i : I) (Φ : I → sProp 𝕄) : bigSepL [i] Φ = Φ i := rfl
private theorem sepL_nil {I : Type} (Φ : I → sProp 𝕄) : bigSepL [] Φ = iprop(emp) := rfl

theorem part2_run (v2 : BitVec 32) :
    St m c K (B c 1)
      ⊢ wp frame (wpE (defs₀ (F := F)) 𝒱₀ (c : Thread nD τ) none) Set.univ (k0_part2 xM (Memref.isWhole_whole _) oM (Memref.isWhole_whole _) sB (Memref.isWhole_whole _) rB (Memref.isWhole_whole _) cc0_scratch2 cc0_scratch3 c v2)
          (fun _ => St m c K (B c 2)) := by
  simp only [k0_part2_eq_skeleton]
  unfold k0_part2_skel
  simp only [semSignalWord, semWaitWord, Prog.lift, Prog.bind_op, Prog.bind_ret, Prog.pure_eq_ret, wp_deviceId]
  have es0 : ((cc0_scratch2.slice (Rect.unit (s := S3x3) ![0, 0] ![1, 1] inb_S3x3_S1x1_0_0)).squeeze S_ squeezes_S1x1_S_).sem = sSem 0 := sSemP_eq 0
  have er0 : ((cc0_scratch3.slice (Rect.unit (s := S3x3) ![0, 0] ![1, 1] inb_S3x3_S1x1_0_0)).squeeze S_ squeezes_S1x1_S_).sem = rSem 0 := rSemP_eq 0
  have es1 : ((cc0_scratch2.slice (Rect.unit (s := S3x3) ![0, 1] ![1, 1] inb_S3x3_S1x1_0_1)).squeeze S_ squeezes_S1x1_S_).sem = sSem 1 := sSemP_eq 1
  have er1 : ((cc0_scratch3.slice (Rect.unit (s := S3x3) ![0, 1] ![1, 1] inb_S3x3_S1x1_0_1)).squeeze S_ squeezes_S1x1_S_).sem = rSem 1 := rSemP_eq 1
  simp only [es0, er0, es1, er1]
  unfold St B
  simp only []
  unfold gTok gSlot gSPiece gCred
  simp only [sepL_cc, sepL_one, sepL_nil]
  iintro ⟨#Hrec, #Hlev, ⟨%W, HO⟩, Hbar, Hbarpos, ⟨⟨Htr0, Hts0⟩, ⟨Htr1, Hts1⟩, Htok⟩, ⟨Hs0, Hs1, Hslot⟩, Hrw, Hrd, Hland, Hrslab, ⟨Hp0, Hp1, Hp2⟩, Hsslab, -, Hsw, Hsd, Hx, Hout⟩
  iapply (step_send m K c 0 ⟨k0_dev4 c, k0_dev4_lt c⟩ (dev4_eq c) 8 rfl W) $$ [Hp0 Hs0 HO Htr0 Hts0]
  · isplitr; · iexact Hrec
    isplitl [Hp0]; · iexact Hp0
    isplitl [Hs0]; · iexact Hs0
    isplitl [HO]; · iexact HO
    isplitl [Htr0]; · iexact Htr0
    iexact Hts0
  iintro ⟨Hc0, HO⟩
  iapply (step_send m K c 1 ⟨k0_dev5 c, k0_dev5_lt c⟩ (dev5_eq c) 7 rfl W) $$ [Hp1 Hs1 HO Htr1 Hts1]
  · isplitr; · iexact Hrec
    isplitl [Hp1]; · iexact Hp1
    isplitl [Hs1]; · iexact Hs1
    isplitl [HO]; · iexact HO
    isplitl [Htr1]; · iexact Htr1
    iexact Hts1
  iintro ⟨Hc1, HO⟩
  rw [wp_ret]; imodintro
  isplitr; · iexact Hrec
  isplitr; · iexact Hlev
  isplitl [HO]; · iexists W; iexact HO
  isplitl [Hbar]; · iexact Hbar
  isplitl [Hbarpos]; · iexact Hbarpos
  isplitl [Htok]; · iexact Htok
  isplitl [Hslot]; · iexact Hslot
  isplitl [Hrw]; · iexact Hrw
  isplitl [Hrd]; · iexact Hrd
  isplitl [Hland]; · iexact Hland
  isplitl [Hrslab]; · iexact Hrslab
  isplitl [Hp2]; · iexact Hp2
  isplitl [Hsslab]; · iexact Hsslab
  isplitl [Hc0 Hc1]
  · isplitl [Hc0]; · iexact Hc0
    iexact Hc1
  isplitl [Hsw]; · iexact Hsw
  isplitl [Hsd]; · iexact Hsd
  isplitl [Hx]; · iexact Hx
  iexact Hout

end Cert.KernelIdeal.AR

end
-- ==== Proof.Part3.lean ====
/-
  Part 3 of the body on device c: transfer 2 and the receive waits of transfers 0 and 1.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain opened at its head, spelt with the separating conjunction. -/
private theorem sepL_cc {I : Type} (i j : I) (l : List I) (Φ : I → sProp 𝕄) :
    bigSepL (i :: j :: l) Φ = iprop(Φ i ∗ bigSepL (j :: l) Φ) := rfl
private theorem sepL_one {I : Type} (i : I) (Φ : I → sProp 𝕄) : bigSepL [i] Φ = Φ i := rfl
private theorem sepL_nil {I : Type} (Φ : I → sProp 𝕄) : bigSepL [] Φ = iprop(emp) := rfl

theorem part3_run (v19 v30 v41 : BitVec 32) :
    St m c K (B c 2)
      ⊢ wp frame (wpE (defs₀ (F := F)) 𝒱₀ (c : Thread nD τ) none) Set.univ (k0_part3 xM (Memref.isWhole_whole _) oM (Memref.isWhole_whole _) sB (Memref.isWhole_whole _) rB (Memref.isWhole_whole _) cc0_scratch2 cc0_scratch3 c v19 v30 v41)
          (fun _ => St m c K (B c 3)) := by
  simp only [k0_part3_eq_skeleton]
  unfold k0_part3_skel
  simp only [semSignalWord, semWaitWord, Prog.lift, Prog.bind_op, Prog.bind_ret, Prog.pure_eq_ret, wp_deviceId]
  have es2 : ((cc0_scratch2.slice (Rect.unit (s := S3x3) ![0, 2] ![1, 1] inb_S3x3_S1x1_0_2)).squeeze S_ squeezes_S1x1_S_).sem = sSem 2 := sSemP_eq 2
  have er2 : ((cc0_scratch3.slice (Rect.unit (s := S3x3) ![0, 2] ![1, 1] inb_S3x3_S1x1_0_2)).squeeze S_ squeezes_S1x1_S_).sem = rSem 2 := rSemP_eq 2
  have er0 : ((cc0_scratch3.slice (Rect.unit (s := S3x3) ![0, 0] ![1, 1] inb_S3x3_S1x1_0_0)).squeeze S_ squeezes_S1x1_S_).sem = rSem 0 := rSemP_eq 0
  have er1 : ((cc0_scratch3.slice (Rect.unit (s := S3x3) ![0, 1] ![1, 1] inb_S3x3_S1x1_0_1)).squeeze S_ squeezes_S1x1_S_).sem = rSem 1 := rSemP_eq 1
  simp only [es2, er2, er0, er1]
  unfold St B
  simp only []
  unfold gTok gSlot gSPiece gCred gRW gRD gLand
  simp only [sepL_cc, sepL_one, sepL_nil]
  iintro ⟨#Hrec, #Hlev, ⟨%W, HO⟩, Hbar, Hbarpos, ⟨⟨Htr2, Hts2⟩, Htok⟩, ⟨Hs2, Hslot⟩, ⟨⟨Hat0, Hrc0⟩, ⟨Hat1, Hrc1⟩, Hrw⟩, -, -, Hrslab, Hp2, Hsslab, ⟨Hc0, Hc1⟩, Hsw, Hsd, Hx, Hout⟩
  iapply (step_send m K c 2 ⟨k0_dev6 c, k0_dev6_lt c⟩ (dev6_eq c) 6 rfl W) $$ [Hp2 Hs2 HO Htr2 Hts2]
  · isplitr; · iexact Hrec
    isplitl [Hp2]; · iexact Hp2
    isplitl [Hs2]; · iexact Hs2
    isplitl [HO]; · iexact HO
    isplitl [Htr2]; · iexact Htr2
    iexact Hts2
  iintro ⟨Hc2, HO⟩
  iapply (step_rwait m K c 0 (OR c 6) rfl W) $$ [Hat0 Hrc0 HO]
  · isplitr; · iexact Hrec
    isplitr; · iexact Hlev
    isplitl [Hat0]; · iexact Hat0
    isplitl [Hrc0]; · iexact Hrc0
    iexact HO
  iintro ⟨HO, Hat0, Hl0⟩
  iapply (step_rwait m K c 1 (OR c 6) rfl (insert (SemLoc.dma (rSem 0), ()) W)) $$ [Hat1 Hrc1 HO]
  · isplitr; · iexact Hrec
    isplitr; · iexact Hlev
    isplitl [Hat1]; · iexact Hat1
    isplitl [Hrc1]; · iexact Hrc1
    iexact HO
  iintro ⟨HO, Hat1, Hl1⟩
  rw [wp_ret]; imodintro
  isplitr; · iexact Hrec
  isplitr; · iexact Hlev
  isplitl [HO]; · iexists _; iexact HO
  isplitl [Hbar]; · iexact Hbar
  isplitl [Hbarpos]; · iexact Hbarpos
  isplitl [Htok]; · iexact Htok
  isplitl [Hslot]; · iexact Hslot
  isplitl [Hrw]; · iexact Hrw
  isplitl [Hat0 Hat1]
  · isplitl [Hat0]; · iexact Hat0
    iexact Hat1
  isplitl [Hl0 Hl1]
  · isplitl [Hl0]; · iexact Hl0
    iexact Hl1
  isplitl [Hrslab]; · iexact Hrslab
  isplitr; · iempintro
  isplitl [Hsslab]; · iexact Hsslab
  isplitl [Hc0 Hc1 Hc2]
  · isplitl [Hc0]; · iexact Hc0
    isplitl [Hc1]; · iexact Hc1
    iexact Hc2
  isplitl [Hsw]; · iexact Hsw
  isplitl [Hsd]; · iexact Hsd
  isplitl [Hx]; · iexact Hx
  iexact Hout

end Cert.KernelIdeal.AR

end
-- ==== Proof.Part4.lean ====
/-
  Part 4 of the body on device c: the receive wait of transfer 2, the three landed chunks joined into slab 0 and loaded, slab 1 stored and cut, transfer 3.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain, spelt with the separating conjunction of the logic. -/
private theorem chain_cons {I : Type} (i j : I) (l : List I) (Φ : I → sProp 𝕄) :
    bigSepL (i :: j :: l) Φ = iprop(Φ i ∗ bigSepL (j :: l) Φ) := rfl
private theorem chain_nil {I : Type} (Φ : I → sProp 𝕄) : bigSepL [] Φ = iprop(emp) := rfl

/-- The three chunks landed at step 0 are slab 0 of the receive buffer, holding the slab received. -/
private theorem join0 :
    iprop(recvPay m c 0 ∗ recvPay m c 1 ∗ recvPay m c 2) ⊢ (loc1 c ↦[slabSet 0]{fullShare} rbuf m 0 c : sProp 𝕄) :=
  (rslab_pieces c 0 (rbuf m 0 c)).2

/-- Slab 1 of the send buffer, stored with the slab of step 1, cut into its three row chunks. -/
private theorem cut1 (f : Buf (Elt F) (loc0 c)) (w : FVec F S1x256x256 .bf16) (hw : w = sent m 1 c) :
    (loc0 c ↦[slabSet 1]{fullShare} ((sB.access (slabR 1)).write (Elt F) f w Finset.univ) : sProp 𝕄)
      ⊢ iprop((loc0 c ↦[pieceSet 3]{fullShare} sbuf m (sOf 3) c) ∗ (loc0 c ↦[pieceSet 4]{fullShare} sbuf m (sOf 4) c)
          ∗ (loc0 c ↦[pieceSet 5]{fullShare} sbuf m (sOf 5) c)) := by
  subst hw
  rw [pointsTo_congr (store_slab m 1 c f)]
  exact (sslab_pieces c 1 (sbuf m 1 c)).1

theorem part4_run (v2 : BitVec 32) :
    St m c K (B c 3)
      ⊢ wp frame (wpE (defs₀ (F := F)) 𝒱₀ (c : Thread nD τ) none) Set.univ (k0_part4 xM (Memref.isWhole_whole _) oM (Memref.isWhole_whole _) sB (Memref.isWhole_whole _) rB (Memref.isWhole_whole _) cc0_scratch2 cc0_scratch3 c v2 (A0 m c))
          (fun r => iprop(⌜r.1 = A1 m c⌝ ∗ St m c K (B c 4))) := by
  simp only [k0_part4_eq_skeleton]
  unfold k0_part4_skel
  simp only [semSignalWord, semWaitWord, Prog.lift, Prog.bind_op, Prog.bind_ret, Prog.pure_eq_ret, wp_deviceId]
  unfold St B gTok gSlot gRW gRD gLand gRSlab gSPiece gSSlab gCred
  simp only [chain_cons, bigSepL_singleton, chain_nil]
  -- the semaphores of the receive wait of transfer 2 and of transfer 3, in closed form
  have er2 : ((SemArray.slice cc0_scratch3 (Rect.unit (s := S3x3) ![0, 2] S1x1.size inb_S3x3_S1x1_0_2)).squeeze S_ squeezes_S1x1_S_).sem = rSem 2 := rSemP_eq 2
  have es3 : ((SemArray.slice cc0_scratch2 (Rect.unit (s := S3x3) ![1, 0] S1x1.size inb_S3x3_S1x1_1_0)).squeeze S_ squeezes_S1x1_S_).sem = sSem 3 := sSemP_eq 3
  have er3 : ((SemArray.slice cc0_scratch3 (Rect.unit (s := S3x3) ![1, 0] S1x1.size inb_S3x3_S1x1_1_0)).squeeze S_ squeezes_S1x1_S_).sem = rSem 3 := rSemP_eq 3
  simp only [er2, es3, er3]
  iintro ⟨#Hrec, #Hlev, ⟨%W, HO⟩, HgBar, HgBarPos, ⟨⟨HtR3, HtS3⟩, Htok⟩, ⟨Hsl3, Hslot⟩, ⟨⟨Hat2, Hrc2⟩, Hrw⟩, ⟨Hrd0, Hrd1⟩,
    ⟨Hl0, Hl1⟩, -, -, ⟨⟨%f1, Hss1⟩, Hss2⟩, ⟨Hcr0, Hcr1, Hcr2⟩, Hsw, Hsd, Hx, Hout⟩
  -- the receive wait of transfer 2: the last landing chunk of step 0 comes back
  iapply (step_rwait m K c 2 (OR c 6) rfl W) $$ [HO Hat2 Hrc2]
  · isplitr; · iexact Hrec
    isplitr; · iexact Hlev
    isplitl [Hat2]; · iexact Hat2
    isplitl [Hrc2]; · iexact Hrc2
    iexact HO
  iintro ⟨HO, Hrd2, Hl2⟩
  -- the three landed chunks are slab 0 of the receive buffer
  ihave Hrs := (join0 m c) $$ [Hl0 Hl1 Hl2]
  · isplitl [Hl0]; · iexact Hl0
    isplitl [Hl1]; · iexact Hl1
    iexact Hl2
  -- the load of slab 0 of the receive buffer: the slab received at step 0
  iapply (wp_load 𝒱₀ (c : Thread nD τ) none Set.univ (m := rB) (loadR_sub 0)) $$ Hrs; iintro Hrs
  -- the load of slab 1 of the send buffer, whose value is not used
  iapply (wp_load 𝒱₀ (c : Thread nD τ) none Set.univ (m := sB) (loadS_sub 1)) $$ Hss1; iintro Hss1
  -- the store of the slab of step 1, then its three row chunks
  iapply (wp_store 𝒱₀ (c : Thread nD τ) none Set.univ (m := sB) (r := slabR 1) (Mk := Finset.univ) (storeS_sub 1)) $$ Hss1; iintro Hss1
  ihave Hp := (cut1 m c f1 _ (congrArg (k0_pay4 (A0 m c)) (load_slab m 0 c))) $$ Hss1
  icases Hp with ⟨Hsp3, Hsp4, Hsp5⟩
  -- transfer 3: row chunk 0 of slab 1, to the partner of pattern 1
  iapply (step_send m K c 3 ⟨k0_dev7 c, k0_dev7_lt c⟩ (dev7_eq c) 5 rfl (insert (SemLoc.dma (rSem 2), ()) W)) $$ [HO Hsp3 Hsl3 HtR3 HtS3]
  · isplitr; · iexact Hrec
    isplitl [Hsp3]; · iexact Hsp3
    isplitl [Hsl3]; · iexact Hsl3
    isplitl [HO]; · iexact HO
    isplitl [HtR3]; · iexact HtR3
    iexact HtS3
  iintro ⟨Hcr3, HO⟩
  rw [wp_ret]; imodintro
  isplitr; · ipureintro; exact congrArg (k0_pay3 (A0 m c)) (load_slab m 0 c)
  isplitr; · iexact Hrec
  isplitr; · iexact Hlev
  isplitl [HO]; · iexists _; iexact HO
  isplitl [HgBar]; · iexact HgBar
  isplitl [HgBarPos]; · iexact HgBarPos
  isplitl [Htok]; · iexact Htok
  isplitl [Hslot]; · iexact Hslot
  isplitl [Hrw]; · iexact Hrw
  isplitl [Hrd0 Hrd1 Hrd2]
  · isplitl [Hrd0]; · iexact Hrd0
    isplitl [Hrd1]; · iexact Hrd1
    iexact Hrd2
  isplitr; · iempintro
  isplitl [Hrs]; · iexact Hrs
  isplitl [Hsp4 Hsp5]
  · isplitl [Hsp4]; · iexact Hsp4
    iexact Hsp5
  isplitl [Hss2]; · iexact Hss2
  isplitl [Hcr0 Hcr1 Hcr2 Hcr3]
  · isplitl [Hcr0]; · iexact Hcr0
    isplitl [Hcr1]; · iexact Hcr1
    isplitl [Hcr2]; · iexact Hcr2
    iexact Hcr3
  isplitl [Hsw]; · iexact Hsw
  isplitl [Hsd]; · iexact Hsd
  isplitl [Hx]; · iexact Hx
  iexact Hout

end Cert.KernelIdeal.AR

end
-- ==== Proof.Part5.lean ====
/-
  Part 5 of the body on device c: transfers 4 and 5 and the receive wait of transfer 3.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain, spelt with the separating conjunction of the logic. -/
private theorem chain_cons {I : Type} (i j : I) (l : List I) (Φ : I → sProp 𝕄) :
    bigSepL (i :: j :: l) Φ = iprop(Φ i ∗ bigSepL (j :: l) Φ) := rfl
private theorem chain_nil {I : Type} (Φ : I → sProp 𝕄) : bigSepL [] Φ = iprop(emp) := rfl

theorem part5_run (v2 v84 : BitVec 32) :
    St m c K (B c 4)
      ⊢ wp frame (wpE (defs₀ (F := F)) 𝒱₀ (c : Thread nD τ) none) Set.univ (k0_part5 xM (Memref.isWhole_whole _) oM (Memref.isWhole_whole _) sB (Memref.isWhole_whole _) rB (Memref.isWhole_whole _) cc0_scratch2 cc0_scratch3 c v2 v84)
          (fun _ => St m c K (B c 5)) := by
  simp only [k0_part5_eq_skeleton]
  unfold k0_part5_skel
  simp only [semSignalWord, semWaitWord, Prog.lift, Prog.bind_op, Prog.bind_ret, Prog.pure_eq_ret, wp_deviceId]
  unfold St B gTok gSlot gRW gRD gLand gSPiece gCred
  simp only [chain_cons, bigSepL_singleton, chain_nil]
  -- the semaphores of transfers 4, 5 and 3, in closed form
  have es4 : ((SemArray.slice cc0_scratch2 (Rect.unit (s := S3x3) ![1, 1] S1x1.size inb_S3x3_S1x1_1_1)).squeeze S_ squeezes_S1x1_S_).sem = sSem 4 := sSemP_eq 4
  have er4 : ((SemArray.slice cc0_scratch3 (Rect.unit (s := S3x3) ![1, 1] S1x1.size inb_S3x3_S1x1_1_1)).squeeze S_ squeezes_S1x1_S_).sem = rSem 4 := rSemP_eq 4
  have es5 : ((SemArray.slice cc0_scratch2 (Rect.unit (s := S3x3) ![1, 2] S1x1.size inb_S3x3_S1x1_1_2)).squeeze S_ squeezes_S1x1_S_).sem = sSem 5 := sSemP_eq 5
  have er5 : ((SemArray.slice cc0_scratch3 (Rect.unit (s := S3x3) ![1, 2] S1x1.size inb_S3x3_S1x1_1_2)).squeeze S_ squeezes_S1x1_S_).sem = rSem 5 := rSemP_eq 5
  have er3 : ((SemArray.slice cc0_scratch3 (Rect.unit (s := S3x3) ![1, 0] S1x1.size inb_S3x3_S1x1_1_0)).squeeze S_ squeezes_S1x1_S_).sem = rSem 3 := rSemP_eq 3
  simp only [es4, er4, es5, er5, er3]
  iintro ⟨#Hrec, #Hlev, ⟨%W, HO⟩, HgBar, HgBarPos, ⟨⟨HtR4, HtS4⟩, ⟨HtR5, HtS5⟩, Htok⟩, ⟨Hsl4, Hsl5, Hslot⟩,
    ⟨⟨Hat3, Hrc3⟩, Hrw⟩, ⟨Hrd0, Hrd1, Hrd2⟩, -, Hrslab, ⟨Hsp4, Hsp5⟩, Hsslab, ⟨Hcr0, Hcr1, Hcr2, Hcr3⟩, Hsw, Hsd, Hx, Hout⟩
  -- transfer 4: row chunk 1 of slab 1, to the partner of pattern 2
  iapply (step_send m K c 4 ⟨k0_dev8 c, k0_dev8_lt c⟩ (dev8_eq c) 4 rfl W) $$ [HO Hsp4 Hsl4 HtR4 HtS4]
  · isplitr; · iexact Hrec
    isplitl [Hsp4]; · iexact Hsp4
    isplitl [Hsl4]; · iexact Hsl4
    isplitl [HO]; · iexact HO
    isplitl [HtR4]; · iexact HtR4
    iexact HtS4
  iintro ⟨Hcr4, HO⟩
  -- transfer 5: row chunk 2 of slab 1, to the partner of pattern 0
  iapply (step_send m K c 5 ⟨k0_dev9 c, k0_dev9_lt c⟩ (dev9_eq c) 3 rfl W) $$ [HO Hsp5 Hsl5 HtR5 HtS5]
  · isplitr; · iexact Hrec
    isplitl [Hsp5]; · iexact Hsp5
    isplitl [Hsl5]; · iexact Hsl5
    isplitl [HO]; · iexact HO
    isplitl [HtR5]; · iexact HtR5
    iexact HtS5
  iintro ⟨Hcr5, HO⟩
  -- the receive wait of transfer 3: its landing chunk comes back holding the slab received on rows 0–95
  iapply (step_rwait m K c 3 (OR c 3) rfl W) $$ [HO Hat3 Hrc3]
  · isplitr; · iexact Hrec
    isplitr; · iexact Hlev
    isplitl [Hat3]; · iexact Hat3
    isplitl [Hrc3]; · iexact Hrc3
    iexact HO
  iintro ⟨HO, Hrd3, Hland3⟩
  rw [wp_ret]; imodintro
  isplitr; · iexact Hrec
  isplitr; · iexact Hlev
  isplitl [HO]; · iexists _; iexact HO
  isplitl [HgBar]; · iexact HgBar
  isplitl [HgBarPos]; · iexact HgBarPos
  isplitl [Htok]; · iexact Htok
  isplitl [Hslot]; · iexact Hslot
  isplitl [Hrw]; · iexact Hrw
  isplitl [Hrd0 Hrd1 Hrd2 Hrd3]
  · isplitl [Hrd0]; · iexact Hrd0
    isplitl [Hrd1]; · iexact Hrd1
    isplitl [Hrd2]; · iexact Hrd2
    iexact Hrd3
  isplitl [Hland3]; · iexact Hland3
  isplitl [Hrslab]; · iexact Hrslab
  isplitr; · iempintro
  isplitl [Hsslab]; · iexact Hsslab
  isplitl [Hcr0 Hcr1 Hcr2 Hcr3 Hcr4 Hcr5]
  · isplitl [Hcr0]; · iexact Hcr0
    isplitl [Hcr1]; · iexact Hcr1
    isplitl [Hcr2]; · iexact Hcr2
    isplitl [Hcr3]; · iexact Hcr3
    isplitl [Hcr4]; · iexact Hcr4
    iexact Hcr5
  isplitl [Hsw]; · iexact Hsw
  isplitl [Hsd]; · iexact Hsd
  isplitl [Hx]; · iexact Hx
  iexact Hout

end Cert.KernelIdeal.AR

end
-- ==== Proof.Part6.lean ====
/-
  Part 6 of the body on device c: the receive waits of transfers 4 and 5, slab 1 joined and loaded, slab 2 stored and cut.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain opened at its head, spelt with the separating conjunction. -/
private theorem sepL_cc {I : Type} (i j : I) (l : List I) (Φ : I → sProp 𝕄) :
    bigSepL (i :: j :: l) Φ = iprop(Φ i ∗ bigSepL (j :: l) Φ) := rfl
private theorem sepL_one {I : Type} (i : I) (Φ : I → sProp 𝕄) : bigSepL [i] Φ = Φ i := rfl
private theorem sepL_nil {I : Type} (Φ : I → sProp 𝕄) : bigSepL [] Φ = iprop(emp) := rfl

theorem part6_run (v2 v95 v106 : BitVec 32) :
    St m c K (B c 5)
      ⊢ wp frame (wpE (defs₀ (F := F)) 𝒱₀ (c : Thread nD τ) none) Set.univ (k0_part6 xM (Memref.isWhole_whole _) oM (Memref.isWhole_whole _) sB (Memref.isWhole_whole _) rB (Memref.isWhole_whole _) cc0_scratch2 cc0_scratch3 v2 (A1 m c) v95 v106)
          (fun r => iprop(⌜r.1 = A2 m c⌝ ∗ St m c K (B c 6))) := by
  simp only [k0_part6_eq_skeleton]
  unfold k0_part6_skel
  simp only [semSignalWord, semWaitWord, Prog.lift, Prog.bind_op, Prog.bind_ret, Prog.pure_eq_ret, wp_deviceId]
  have er4 : ((cc0_scratch3.slice (Rect.unit (s := S3x3) ![1, 1] ![1, 1] inb_S3x3_S1x1_1_1)).squeeze S_ squeezes_S1x1_S_).sem = rSem 4 := rSemP_eq 4
  have er5 : ((cc0_scratch3.slice (Rect.unit (s := S3x3) ![1, 2] ![1, 1] inb_S3x3_S1x1_1_2)).squeeze S_ squeezes_S1x1_S_).sem = rSem 5 := rSemP_eq 5
  simp only [er4, er5]
  have hjoin : iprop(recvPay m c 3 ∗ recvPay m c 4 ∗ recvPay m c 5) ⊢ (loc1 c ↦[slabSet 1]{fullShare} rbuf m 1 c : sProp 𝕄) :=
    (rslab_pieces c 1 (rbuf m 1 c)).2
  have hcut : ∀ f : Buf (Elt F) (loc0 c),
      (loc0 c ↦[slabSet 2]{fullShare} ((sB.access (slabR 2)).write (Elt F) f (sent m 2 c) Finset.univ) : sProp 𝕄)
        ⊢ iprop((loc0 c ↦[pieceSet 6]{fullShare} sbuf m (sOf 6) c) ∗ (loc0 c ↦[pieceSet 7]{fullShare} sbuf m (sOf 7) c)
            ∗ (loc0 c ↦[pieceSet 8]{fullShare} sbuf m (sOf 8) c)) := by
    intro f
    rw [pointsTo_congr (store_slab m 2 c f)]
    exact (sslab_pieces c 2 (sbuf m 2 c)).1
  unfold St B
  simp only []
  unfold gRW gRD gLand gRSlab gSPiece gSSlab
  simp only [sepL_cc, sepL_one, sepL_nil]
  iintro ⟨#Hrec, #Hlev, ⟨%W, HO⟩, Hbar, Hbarpos, Htok, Hslot, ⟨⟨Hat4, Hrc4⟩, ⟨Hat5, Hrc5⟩, Hrw⟩, ⟨Hd0, Hd1, Hd2, Hd3⟩, Hl3, Hrs0, -, ⟨%f2, Hss⟩, Hcr, Hsw, Hsd, Hx, Hout⟩
  iapply (step_rwait m K c 4 (OR c 3) rfl W) $$ [Hat4 Hrc4 HO]
  · isplitr; · iexact Hrec
    isplitr; · iexact Hlev
    isplitl [Hat4]; · iexact Hat4
    isplitl [Hrc4]; · iexact Hrc4
    iexact HO
  iintro ⟨HO, Hat4, Hl4⟩
  iapply (step_rwait m K c 5 (OR c 3) rfl (insert (SemLoc.dma (rSem 4), ()) W)) $$ [Hat5 Hrc5 HO]
  · isplitr; · iexact Hrec
    isplitr; · iexact Hlev
    isplitl [Hat5]; · iexact Hat5
    isplitl [Hrc5]; · iexact Hrc5
    iexact HO
  iintro ⟨HO, Hat5, Hl5⟩
  ihave Hrs1 := hjoin $$ [Hl3 Hl4 Hl5]
  · isplitl [Hl3]; · iexact Hl3
    isplitl [Hl4]; · iexact Hl4
    iexact Hl5
  iapply (wp_load 𝒱₀ (c : Thread nD τ) none Set.univ (m := rB) (loadR_sub 1)) $$ Hrs1; iintro Hrs1
  rw [load_slab m 1 c]
  iapply (wp_load 𝒱₀ (c : Thread nD τ) none Set.univ (m := sB) (loadS_sub 2)) $$ Hss; iintro Hss
  iapply (wp_store 𝒱₀ (c : Thread nD τ) none Set.univ (m := sB) (r := slabR 2) (Mk := Finset.univ) (storeS_sub 2)) $$ Hss; iintro Hss
  ihave Hps := (hcut f2) $$ [Hss]
  · iexact Hss
  icases Hps with ⟨Hp6, Hp7, Hp8⟩
  rw [wp_ret]; imodintro
  isplitr; · ipureintro; rfl
  isplitr; · iexact Hrec
  isplitr; · iexact Hlev
  isplitl [HO]; · iexists _; iexact HO
  isplitl [Hbar]; · iexact Hbar
  isplitl [Hbarpos]; · iexact Hbarpos
  isplitl [Htok]; · iexact Htok
  isplitl [Hslot]; · iexact Hslot
  isplitl [Hrw]; · iexact Hrw
  isplitl [Hd0 Hd1 Hd2 Hd3 Hat4 Hat5]
  · isplitl [Hd0]; · iexact Hd0
    isplitl [Hd1]; · iexact Hd1
    isplitl [Hd2]; · iexact Hd2
    isplitl [Hd3]; · iexact Hd3
    isplitl [Hat4]; · iexact Hat4
    iexact Hat5
  isplitr; · iempintro
  isplitl [Hrs0 Hrs1]
  · isplitl [Hrs0]; · iexact Hrs0
    iexact Hrs1
  isplitl [Hp6 Hp7 Hp8]
  · isplitl [Hp6]; · iexact Hp6
    isplitl [Hp7]; · iexact Hp7
    iexact Hp8
  isplitr; · iempintro
  isplitl [Hcr]; · iexact Hcr
  isplitl [Hsw]; · iexact Hsw
  isplitl [Hsd]; · iexact Hsd
  isplitl [Hx]; · iexact Hx
  iexact Hout

end Cert.KernelIdeal.AR

end
-- ==== Proof.Part7.lean ====
/-
  Part 7 of the body on device c: transfers 6 and 7.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed separating product, one factor at a time. -/
private theorem bsl_cc {I : Type} (i j : I) (l : List I) (Φ : I → sProp 𝕄) :
    bigSepL (i :: j :: l) Φ = iprop(Φ i ∗ bigSepL (j :: l) Φ) := rfl
private theorem bsl_nil {I : Type} (Φ : I → sProp 𝕄) : bigSepL [] Φ = iprop(emp) := rfl

theorem part7_run (v2 v149 : BitVec 32) :
    St m c K (B c 6)
      ⊢ wp frame (wpE (defs₀ (F := F)) 𝒱₀ (c : Thread nD τ) none) Set.univ (k0_part7 xM (Memref.isWhole_whole _) oM (Memref.isWhole_whole _) sB (Memref.isWhole_whole _) rB (Memref.isWhole_whole _) cc0_scratch2 cc0_scratch3 c v2 v149)
          (fun _ => St m c K (B c 7)) := by
  simp only [k0_part7_eq_skeleton]
  unfold k0_part7_skel
  simp only [semSignalWord, semWaitWord, Prog.lift, Prog.bind_op, Prog.bind_ret, Prog.pure_eq_ret, wp_deviceId]
  have e6s : ((cc0_scratch2.slice (Rect.unit (s := S3x3) ![2, 0] S1x1.size inb_S3x3_S1x1_2_0)).squeeze S_ squeezes_S1x1_S_).sem = sSem 6 := sSemP_eq 6
  have e6r : ((cc0_scratch3.slice (Rect.unit (s := S3x3) ![2, 0] S1x1.size inb_S3x3_S1x1_2_0)).squeeze S_ squeezes_S1x1_S_).sem = rSem 6 := rSemP_eq 6
  have e7s : ((cc0_scratch2.slice (Rect.unit (s := S3x3) ![2, 1] S1x1.size inb_S3x3_S1x1_2_1)).squeeze S_ squeezes_S1x1_S_).sem = sSem 7 := sSemP_eq 7
  have e7r : ((cc0_scratch3.slice (Rect.unit (s := S3x3) ![2, 1] S1x1.size inb_S3x3_S1x1_2_1)).squeeze S_ squeezes_S1x1_S_).sem = rSem 7 := rSemP_eq 7
  simp only [e6s, e6r, e7s, e7r]
  unfold St B
  unfold gTok gSlot gSPiece gCred
  simp only [bsl_cc, bigSepL_singleton]
  iintro ⟨#Hrec, #Hlev, ⟨%W, HO⟩, Hbar, Hbp, ⟨⟨Ht6r, Ht6s⟩, ⟨Ht7r, Ht7s⟩, Ht8⟩, ⟨Hs6, Hs7, Hs8⟩, Hrw, Hrd, Hland, Hrslab, ⟨Hp6, Hp7, Hp8⟩, Hsslab,
    ⟨Hc0, Hc1, Hc2, Hc3, Hc4, Hc5⟩, Hsw, Hsd, Hx, Hout⟩
  -- transfer 6: rows 0–95 of slab 2, to the partner of pattern 2
  iapply (step_send m K c 6 ⟨k0_dev10 c, k0_dev10_lt c⟩ (dev10_eq c) 2 rfl W) $$ [Hp6 Hs6 HO Ht6r Ht6s]
  · isplitr; · iexact Hrec
    isplitl [Hp6]; · iexact Hp6
    isplitl [Hs6]; · iexact Hs6
    isplitl [HO]; · iexact HO
    isplitl [Ht6r]; · iexact Ht6r
    iexact Ht6s
  iintro ⟨Hc6, HO⟩
  -- transfer 7: rows 96–175 of slab 2, to the partner of pattern 0
  iapply (step_send m K c 7 ⟨k0_dev11 c, k0_dev11_lt c⟩ (dev11_eq c) 1 rfl W) $$ [Hp7 Hs7 HO Ht7r Ht7s]
  · isplitr; · iexact Hrec
    isplitl [Hp7]; · iexact Hp7
    isplitl [Hs7]; · iexact Hs7
    isplitl [HO]; · iexact HO
    isplitl [Ht7r]; · iexact Ht7r
    iexact Ht7s
  iintro ⟨Hc7, HO⟩
  rw [wp_ret]; imodintro
  isplitr; · iexact Hrec
  isplitr; · iexact Hlev
  isplitl [HO]; · iexists W; iexact HO
  isplitl [Hbar]; · iexact Hbar
  isplitl [Hbp]; · iexact Hbp
  isplitl [Ht8]; · iexact Ht8
  isplitl [Hs8]; · iexact Hs8
  isplitl [Hrw]; · iexact Hrw
  isplitl [Hrd]; · iexact Hrd
  isplitl [Hland]; · iexact Hland
  isplitl [Hrslab]; · iexact Hrslab
  isplitl [Hp8]; · iexact Hp8
  isplitl [Hsslab]; · iexact Hsslab
  isplitl [Hc0 Hc1 Hc2 Hc3 Hc4 Hc5 Hc6 Hc7]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  isplitl [Hsw]; · iexact Hsw
  isplitl [Hsd]; · iexact Hsd
  isplitl [Hx]; · iexact Hx
  iexact Hout

end Cert.KernelIdeal.AR

end
-- ==== Proof.Part8.lean ====
/-
  Part 8 of the body on device c: transfer 8 and the receive waits of transfers 6 and 7.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed separating product, one factor at a time. -/
private theorem bsl_cc {I : Type} (i j : I) (l : List I) (Φ : I → sProp 𝕄) :
    bigSepL (i :: j :: l) Φ = iprop(Φ i ∗ bigSepL (j :: l) Φ) := rfl
private theorem bsl_nil {I : Type} (Φ : I → sProp 𝕄) : bigSepL [] Φ = iprop(emp) := rfl

theorem part8_run (v149 v160 v171 : BitVec 32) :
    St m c K (B c 7)
      ⊢ wp frame (wpE (defs₀ (F := F)) 𝒱₀ (c : Thread nD τ) none) Set.univ (k0_part8 xM (Memref.isWhole_whole _) oM (Memref.isWhole_whole _) sB (Memref.isWhole_whole _) rB (Memref.isWhole_whole _) cc0_scratch2 cc0_scratch3 c v149 v160 v171)
          (fun _ => St m c K (B c 8)) := by
  simp only [k0_part8_eq_skeleton]
  unfold k0_part8_skel
  simp only [semSignalWord, semWaitWord, Prog.lift, Prog.bind_op, Prog.bind_ret, Prog.pure_eq_ret, wp_deviceId]
  have e8s : ((cc0_scratch2.slice (Rect.unit (s := S3x3) ![2, 2] S1x1.size inb_S3x3_S1x1_2_2)).squeeze S_ squeezes_S1x1_S_).sem = sSem 8 := sSemP_eq 8
  have e8r : ((cc0_scratch3.slice (Rect.unit (s := S3x3) ![2, 2] S1x1.size inb_S3x3_S1x1_2_2)).squeeze S_ squeezes_S1x1_S_).sem = rSem 8 := rSemP_eq 8
  have e6r : ((cc0_scratch3.slice (Rect.unit (s := S3x3) ![2, 0] S1x1.size inb_S3x3_S1x1_2_0)).squeeze S_ squeezes_S1x1_S_).sem = rSem 6 := rSemP_eq 6
  have e7r : ((cc0_scratch3.slice (Rect.unit (s := S3x3) ![2, 1] S1x1.size inb_S3x3_S1x1_2_1)).squeeze S_ squeezes_S1x1_S_).sem = rSem 7 := rSemP_eq 7
  simp only [e8s, e8r, e6r, e7r]
  unfold St B
  unfold gTok gSlot gRW gRD gLand gSPiece gCred allJ
  simp only [bsl_cc, bigSepL_singleton, bsl_nil]
  iintro ⟨#Hrec, #Hlev, ⟨%W, HO⟩, Hbar, Hbp, ⟨Ht8r, Ht8s⟩, Hs8, ⟨⟨Hat6, Hcr6⟩, ⟨Hat7, Hcr7⟩, Hrw8⟩, ⟨Hd0, Hd1, Hd2, Hd3, Hd4, Hd5⟩, -, Hrslab, Hp8, Hsslab,
    ⟨Hc0, Hc1, Hc2, Hc3, Hc4, Hc5, Hc6, Hc7⟩, Hsw, Hsd, Hx, Hout⟩
  -- transfer 8: rows 176–255 of slab 2, to the partner of pattern 1
  iapply (step_send m K c 8 ⟨k0_dev12 c, k0_dev12_lt c⟩ (dev12_eq c) 0 rfl W) $$ [Hp8 Hs8 HO Ht8r Ht8s]
  · isplitr; · iexact Hrec
    isplitl [Hp8]; · iexact Hp8
    isplitl [Hs8]; · iexact Hs8
    isplitl [HO]; · iexact HO
    isplitl [Ht8r]; · iexact Ht8r
    iexact Ht8s
  iintro ⟨Hc8, HO⟩
  -- the receive wait of transfer 6: rows 0–95 of slab 2 have landed
  iapply (step_rwait m K c 6 (OR c 0) rfl W) $$ [Hat6 Hcr6 HO]
  · isplitr; · iexact Hrec
    isplitr; · iexact Hlev
    isplitl [Hat6]; · iexact Hat6
    isplitl [Hcr6]; · iexact Hcr6
    iexact HO
  iintro ⟨HO, Hat6, Hl6⟩
  -- the receive wait of transfer 7: rows 96–175 of slab 2 have landed
  iapply (step_rwait m K c 7 (OR c 0) rfl (insert (SemLoc.dma (rSem 6), ()) W)) $$ [Hat7 Hcr7 HO]
  · isplitr; · iexact Hrec
    isplitr; · iexact Hlev
    isplitl [Hat7]; · iexact Hat7
    isplitl [Hcr7]; · iexact Hcr7
    iexact HO
  iintro ⟨HO, Hat7, Hl7⟩
  rw [wp_ret]; imodintro
  isplitr; · iexact Hrec
  isplitr; · iexact Hlev
  isplitl [HO]; · iexists _; iexact HO
  isplitl [Hbar]; · iexact Hbar
  isplitl [Hbp]; · iexact Hbp
  isplitr; · iempintro
  isplitr; · iempintro
  isplitl [Hrw8]; · iexact Hrw8
  isplitl [Hd0 Hd1 Hd2 Hd3 Hd4 Hd5 Hat6 Hat7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hat6]; · iexact Hat6
    iexact Hat7
  isplitl [Hl6 Hl7]
  · isplitl [Hl6]; · iexact Hl6
    iexact Hl7
  isplitl [Hrslab]; · iexact Hrslab
  isplitr; · iempintro
  isplitl [Hsslab]; · iexact Hsslab
  isplitl [Hc0 Hc1 Hc2 Hc3 Hc4 Hc5 Hc6 Hc7 Hc8]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hc8
  isplitl [Hsw]; · iexact Hsw
  isplitl [Hsd]; · iexact Hsd
  isplitl [Hx]; · iexact Hx
  iexact Hout

end Cert.KernelIdeal.AR

end
-- ==== Proof.Part9.lean ====
/-
  Part 9 of the body on device c: the receive wait of transfer 8, slab 2 joined and loaded, the result stored, the send waits of transfers 0 and 1.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain's head splits off as a separating conjunct. -/
private theorem sepL_cc {I : Type} (i j : I) (l : List I) (Φ : I → sProp 𝕄) :
    bigSepL (i :: j :: l) Φ = iprop(Φ i ∗ bigSepL (j :: l) Φ) := rfl
private theorem sepL_nil {I : Type} (Φ : I → sProp 𝕄) : bigSepL [] Φ = iprop(emp) := rfl

/-- The result's staging buffer before and after the final store. -/
private theorem gOut_false : gOut m c false
    = iprop(∃ f : Buf (Elt F) ((c : Thread nD τ).loc cc0_stg1_0), ((c : Thread nD τ).loc cc0_stg1_0) ↦{fullShare} f) := rfl
private theorem gOut_true : gOut m c true = stg c cc0_stg1_0 (A3 m c) := rfl

/-- The three chunks landed at step 2 are slab 2 of the receive buffer. -/
private theorem join2 : iprop(recvPay m c 6 ∗ recvPay m c 7 ∗ recvPay m c 8)
    ⊢ ((loc1 c) ↦[slabSet 2]{fullShare} rbuf m 2 c : sProp 𝕄) :=
  (rslab_pieces c 2 (rbuf m 2 c)).2

theorem part9_run  :
    St m c K (B c 8)
      ⊢ wp frame (wpE (defs₀ (F := F)) 𝒱₀ (c : Thread nD τ) none) Set.univ (k0_part9 xM (Memref.isWhole_whole _) oM (Memref.isWhole_whole _) sB (Memref.isWhole_whole _) rB (Memref.isWhole_whole _) cc0_scratch2 cc0_scratch3 (A2 m c))
          (fun _ => St m c K (B c 9)) := by
  simp only [k0_part9_eq_skeleton]
  unfold k0_part9_skel
  simp only [semSignalWord, semWaitWord, Prog.lift, Prog.bind_op, Prog.bind_ret, Prog.pure_eq_ret, wp_deviceId]
  unfold St B gRW gRD gLand gRSlab gCred gSW gSD
  simp only [allJ, gOut_false, gOut_true, sepL_cc, bigSepL_singleton, sepL_nil]
  iintro ⟨#Hrec, #Hlev, ⟨%W, HO⟩, Hbar, Hbp, Htok, Hslot, ⟨Hrw8, Hrc8⟩, ⟨Hr0, Hr1, Hr2, Hr3, Hr4, Hr5, Hr6, Hr7⟩, ⟨Hl6, Hl7⟩, ⟨Hs0, Hs1⟩, Hsp, Hss, ⟨Hc0, Hc1, Hc2⟩, ⟨Hw0, Hw1, Hw2⟩, -, Hx, ⟨%fo, Hout⟩⟩
  -- the receive wait of transfer 8: its landing chunk comes back holding the slab received on its rows
  iapply (step_rwait m K c 8 (OR c 0) rfl W) $$ [Hrw8 Hrc8 HO]
  · isplitr; · iexact Hrec
    isplitr; · iexact Hlev
    isplitl [Hrw8]; · iexact Hrw8
    isplitl [Hrc8]; · iexact Hrc8
    iexact HO
  iintro ⟨HO, Hr8, Hl8⟩
  -- the three chunks of step 2 joined
  ihave Hslab := (join2 m c) $$ [Hl6 Hl7 Hl8]
  · isplitl [Hl6]; · iexact Hl6
    isplitl [Hl7]; · iexact Hl7
    iexact Hl8
  -- slab 2 of the receive buffer read, the result's buffer read and written whole
  iapply (wp_load 𝒱₀ (c : Thread nD τ) none Set.univ (m := rB) (loadR_sub 2)) $$ Hslab; iintro Hslab
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  -- the send waits of transfers 0 and 1
  iapply (step_swait m K c 0 _) $$ [Hw0 Hc0 HO]
  · isplitr; · iexact Hrec
    isplitl [Hw0]; · iexact Hw0
    isplitl [Hc0]; · iexact Hc0
    iexact HO
  iintro ⟨HO, Hw0, Hp0⟩
  iapply (step_swait m K c 1 _) $$ [Hw1 Hc1 HO]
  · isplitr; · iexact Hrec
    isplitl [Hw1]; · iexact Hw1
    isplitl [Hc1]; · iexact Hc1
    iexact HO
  iintro ⟨HO, Hw1, Hp1⟩
  rw [wp_ret]; imodintro
  isplitr; · iexact Hrec
  isplitr; · iexact Hlev
  isplitl [HO]; · iexists _; iexact HO
  isplitl [Hbar]; · iexact Hbar
  isplitl [Hbp]; · iexact Hbp
  isplitl [Htok]; · iexact Htok
  isplitl [Hslot]; · iexact Hslot
  isplitr; · iempintro
  isplitl [Hr0 Hr1 Hr2 Hr3 Hr4 Hr5 Hr6 Hr7 Hr8]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    iexact Hr8
  isplitr; · iempintro
  isplitl [Hs0 Hs1 Hslab]
  · isplitl [Hs0]; · iexact Hs0
    isplitl [Hs1]; · iexact Hs1
    iexact Hslab
  isplitl [Hsp]; · iexact Hsp
  isplitl [Hss]; · iexact Hss
  isplitl [Hc2]; · iexact Hc2
  isplitl [Hw2]; · iexact Hw2
  isplitl [Hw0 Hp0 Hw1 Hp1]
  · isplitl [Hw0 Hp0]; · isplitl [Hw0]; · iexact Hw0
                         iexact Hp0
    isplitl [Hw1]; · iexact Hw1
    iexact Hp1
  isplitl [Hx]; · iexact Hx
  iexists _
  isplitr
  rotate_left
  · iexact Hout
  · ipureintro
    exact (write_out _ _).trans (congrArg (k0_pay7 (A2 m c)) (load_slab m 2 c))

end Cert.KernelIdeal.AR

end
-- ==== Proof.Part10.lean ====
/-
  Part 10 of the body on device c: the send waits of transfers 2, 3 and 4.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain's head splits off as a separating conjunct. -/
private theorem sepL_cc {I : Type} (i j : I) (l : List I) (Φ : I → sProp 𝕄) :
    bigSepL (i :: j :: l) Φ = iprop(Φ i ∗ bigSepL (j :: l) Φ) := rfl

theorem part10_run  :
    St m c K (B c 9)
      ⊢ wp frame (wpE (defs₀ (F := F)) 𝒱₀ (c : Thread nD τ) none) Set.univ (k0_part10 xM (Memref.isWhole_whole _) oM (Memref.isWhole_whole _) sB (Memref.isWhole_whole _) rB (Memref.isWhole_whole _) cc0_scratch2 cc0_scratch3)
          (fun _ => St m c K (B c 10)) := by
  simp only [k0_part10_eq_skeleton]
  unfold k0_part10_skel
  simp only [semSignalWord, semWaitWord, Prog.lift, Prog.bind_op, Prog.bind_ret, Prog.pure_eq_ret, wp_deviceId]
  unfold St B gCred gSW gSD
  simp only [sepL_cc, bigSepL_singleton, bigSepL_nil]
  iintro ⟨#Hrec, #Hlev, ⟨%W, HO⟩, Hbar, Hbp, Htok, Hslot, Hrw, Hrd, Hland, Hrslab, Hsp, Hss, ⟨Hc2, Hc3, Hc4, Hc5⟩, ⟨Hw2, Hw3, Hw4, Hw5⟩, ⟨Hd0, Hd1⟩, Hx, Hout⟩
  -- the send wait of transfer 2: its source chunk comes back
  iapply (step_swait m K c 2 W) $$ [Hw2 Hc2 HO]
  · isplitr; · iexact Hrec
    isplitl [Hw2]; · iexact Hw2
    isplitl [Hc2]; · iexact Hc2
    iexact HO
  iintro ⟨HO, Hw2, Hp2⟩
  -- of transfer 3
  iapply (step_swait m K c 3 _) $$ [Hw3 Hc3 HO]
  · isplitr; · iexact Hrec
    isplitl [Hw3]; · iexact Hw3
    isplitl [Hc3]; · iexact Hc3
    iexact HO
  iintro ⟨HO, Hw3, Hp3⟩
  -- of transfer 4
  iapply (step_swait m K c 4 _) $$ [Hw4 Hc4 HO]
  · isplitr; · iexact Hrec
    isplitl [Hw4]; · iexact Hw4
    isplitl [Hc4]; · iexact Hc4
    iexact HO
  iintro ⟨HO, Hw4, Hp4⟩
  rw [wp_ret]; imodintro
  isplitr; · iexact Hrec
  isplitr; · iexact Hlev
  isplitl [HO]; · iexists _; iexact HO
  isplitl [Hbar]; · iexact Hbar
  isplitl [Hbp]; · iexact Hbp
  isplitl [Htok]; · iexact Htok
  isplitl [Hslot]; · iexact Hslot
  isplitl [Hrw]; · iexact Hrw
  isplitl [Hrd]; · iexact Hrd
  isplitl [Hland]; · iexact Hland
  isplitl [Hrslab]; · iexact Hrslab
  isplitl [Hsp]; · iexact Hsp
  isplitl [Hss]; · iexact Hss
  isplitl [Hc5]; · iexact Hc5
  isplitl [Hw5]; · iexact Hw5
  isplitr [Hx Hout]
  · isplitl [Hd0]; · iexact Hd0
    isplitl [Hd1]; · iexact Hd1
    isplitl [Hw2 Hp2]; · isplitl [Hw2]; · iexact Hw2
                         iexact Hp2
    isplitl [Hw3 Hp3]; · isplitl [Hw3]; · iexact Hw3
                         iexact Hp3
    isplitl [Hw4]; · iexact Hw4
    iexact Hp4
  isplitl [Hx]; · iexact Hx
  iexact Hout

end Cert.KernelIdeal.AR

end
-- ==== Proof.Part11.lean ====
/-
  Part 11 of the body on device c: the send waits of transfers 5, 6 and 7.
-/
import proofs.«900696_g7700000000000697_dist_ar_v7x_i8_i_m256_n256_bf16_1_alg».proof.Proof.Steps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain's head splits off as a separating conjunct. -/
private theorem sepL_cc {I : Type} (i j : I) (l : List I) (Φ : I → sProp 𝕄) :
    bigSepL (i :: j :: l) Φ = iprop(Φ i ∗ bigSepL (j :: l) Φ) := rfl

theorem part11_run  :
    St m c K (B c 10)
      ⊢ wp frame (wpE (defs₀ (F := F)) 𝒱₀ (c : Thread nD τ) none) Set.univ (k0_part11 xM (Memref.isWhole_whole _) oM (Memref.isWhole_whole _) sB (Memref.isWhole_whole _) rB (Memref.isWhole_whole _) cc0_scratch2 cc0_scratch3)
          (fun _ => St m c K (B c 11)) := by
  simp only [k0_part11_eq_skeleton]
  unfold k0_part11_skel
  simp only [semSignalWord, semWaitWord, Prog.lift, Prog.bind_op, Prog.bind_ret, Prog.pure_eq_ret, wp_deviceId]
  unfold St B gCred gSW gSD
  simp only [sepL_cc, bigSepL_singleton, bigSepL_nil]
  iintro ⟨#Hrec, #Hlev, ⟨%W, HO⟩, Hbar, Hbp, Htok, Hslot, Hrw, Hrd, Hland, Hrslab, Hsp, Hss, ⟨Hc5, Hc6, Hc7, Hc8⟩, ⟨Hw5, Hw6, Hw7, Hw8⟩, ⟨Hd0, Hd1, Hd2, Hd3, Hd4⟩, Hx, Hout⟩
  -- the send wait of transfer 5: its source chunk comes back
  iapply (step_swait m K c 5 W) $$ [Hw5 Hc5 HO]
  · isplitr; · iexact Hrec
    isplitl [Hw5]; · iexact Hw5
    isplitl [Hc5]; · iexact Hc5
    iexact HO
  iintro ⟨HO, Hw5, Hp5⟩
  -- of transfer 6
  iapply (step_swait m K c 6 _) $$ [Hw6 Hc6 HO]
  · isplitr; · iexact Hrec
    isplitl [Hw6]; · iexact Hw6
    isplitl [Hc6]; · iexact Hc6
    iexact HO
  iintro ⟨HO, Hw6, Hp6⟩
  -- of transfer 7
  iapply (step_swait m K c 7 _) $$ [Hw7 Hc7 HO]
  · isplitr; · iexact Hrec
    isplitl [Hw7]; · iexact Hw7
    isplitl [Hc7]; · iexact Hc7
    iexact HO
  iintro ⟨HO, Hw7, Hp7⟩
  rw [wp_ret]; imodintro
  isplitr; · iexact Hrec
  isplitr; · iexact Hlev
  isplitl [HO]; · iexists _; iexact HO
  isplitl [Hbar]; · iexact Hbar
  isplitl [Hbp]; · iexact Hbp
  isplitl [Htok]; · iexact Htok
  isplitl [Hslot]; · iexact Hslot
  isplitl [Hrw]; · iexact Hrw
  isplitl [Hrd]; · iexact Hrd
  isplitl [Hland]; · iexact Hland
  isplitl [Hrslab]; · iexact Hrslab
  isplitl [Hsp]; · iexact Hsp
  isplitl [Hss]; · iexact Hss
  isplitl [Hc8]; · iexact Hc8
  isplitl [Hw8]; · iexact Hw8
  isplitr [Hx Hout]
  · isplitl [Hd0]; · iexact Hd0
    isplitl [Hd1]; · iexact Hd1
    isplitl [Hd2]; · iexact Hd2
    isplitl [Hd3]; · iexact Hd3
    isplitl [Hd4]; · iexact Hd4
    isplitl [Hw5 Hp5]; · isplitl [Hw5]; · iexact Hw5
                         iexact Hp5
    isplitl [Hw6 Hp6]; · isplitl [Hw6]; · iexact Hw6
                         iexact Hp6
    isplitl [Hw7]; · iexact Hw7
    iexact Hp7
  isplitl [Hx]; · iexact Hx
  iexact Hout

end Cert.KernelIdeal.AR

end
-- ==== Proof.Body.lean ====
/-
  The body of one device, composed of its parts along the printed root sequence, and the library's body obligation.
-/
import proofs.«900696_g7700000000000697_dist_ar_v7x_i8_i_m256_n256_bf16_1_alg».proof.Proof.Init
import proofs.«900696_g7700000000000697_dist_ar_v7x_i8_i_m256_n256_bf16_1_alg».proof.Proof.Fin
import proofs.«900696_g7700000000000697_dist_ar_v7x_i8_i_m256_n256_bf16_1_alg».proof.Proof.Part1
import proofs.«900696_g7700000000000697_dist_ar_v7x_i8_i_m256_n256_bf16_1_alg».proof.Proof.Part2
import proofs.«900696_g7700000000000697_dist_ar_v7x_i8_i_m256_n256_bf16_1_alg».proof.Proof.Part3
import proofs.«900696_g7700000000000697_dist_ar_v7x_i8_i_m256_n256_bf16_1_alg».proof.Proof.Part4
import proofs.«900696_g7700000000000697_dist_ar_v7x_i8_i_m256_n256_bf16_1_alg».proof.Proof.Part5
import proofs.«900696_g7700000000000697_dist_ar_v7x_i8_i_m256_n256_bf16_1_alg».proof.Proof.Part6
import proofs.«900696_g7700000000000697_dist_ar_v7x_i8_i_m256_n256_bf16_1_alg».proof.Proof.Part7
import proofs.«900696_g7700000000000697_dist_ar_v7x_i8_i_m256_n256_bf16_1_alg».proof.Proof.Part8
import proofs.«900696_g7700000000000697_dist_ar_v7x_i8_i_m256_n256_bf16_1_alg».proof.Proof.Part9
import proofs.«900696_g7700000000000697_dist_ar_v7x_i8_i_m256_n256_bf16_1_alg».proof.Proof.Part10
import proofs.«900696_g7700000000000697_dist_ar_v7x_i8_i_m256_n256_bf16_1_alg».proof.Proof.Part11

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A pure fact beside a state is used and dropped. -/
theorem pure_sep_elim {φ : Prop} {P Q : sProp 𝕄} (h : φ → P ⊢ Q) : iprop(⌜φ⌝ ∗ P) ⊢ Q := by
  iintro ⟨%hφ, H⟩
  iapply (h hφ) $$ H

/-- A listed chain, spelt with the separating conjunction of the logic. -/
private theorem chain_cons {I : Type} (i j : I) (l : List I) (Φ : I → sProp 𝕄) :
    bigSepL (i :: j :: l) Φ = iprop(Φ i ∗ bigSepL (j :: l) Φ) := rfl
private theorem chain_nil {I : Type} (Φ : I → sProp 𝕄) : bigSepL [] Φ = iprop(emp) := rfl

/-- The last effect: the send wait of transfer 8; then the cells close. -/
theorem tail_run
    {hsrc : (dstM 8).view.WordExact} {hdst : (srcM 8).view.WordExact} :
    St m c K (B c 11)
      ⊢ wp frame (wpE (defs₀ (F := F)) 𝒱₀ (c : Thread nD τ) none) Set.univ
          (Prog.lift (TpuEff.waitDma2 (sSemP 8) (dstM 8) (srcM 8) hsrc hdst))
          (fun _ => wp frame (wpE (defs₀ (F := F)) 𝒱₀ (c : Thread nD τ) none) Set.univ (Pure.pure PUnit.unit : Prog (TpuEff nD τ sig (Elt F) Λ₀ .tc) PUnit) (fun _ => bodyPost m c)) := by
  simp only [Prog.lift, Prog.pure_eq_ret]
  rw [sSemP_eq]
  unfold St B gCred gSW gSD
  simp only [chain_cons, bigSepL_singleton, chain_nil]
  iintro ⟨#Hrec, #Hlev, ⟨%W, HO⟩, HgBar, HgBarPos, Htok, Hslot, Hrw, Hrd, Hland, Hrslab, Hsp, Hsslab, Hcr8, Hsw8,
    ⟨Hsd0, Hsd1, Hsd2, Hsd3, Hsd4, Hsd5, Hsd6, Hsd7⟩, Hx, Hout⟩
  -- the send wait of transfer 8: its source chunk comes back
  iapply (step_swait m K c 8 W) $$ [HO Hsw8 Hcr8]
  · isplitr; · iexact Hrec
    isplitl [Hsw8]; · iexact Hsw8
    isplitl [Hcr8]; · iexact Hcr8
    iexact HO
  iintro ⟨HO, Hat8, Hpay8⟩
  rw [wp_ret]; imodintro
  iapply (fin_state m K c)
  unfold St B gCred gSW gSD
  simp only [chain_cons, bigSepL_singleton, chain_nil]
  isplitr; · iexact Hrec
  isplitr; · iexact Hlev
  isplitl [HO]; · iexists _; iexact HO
  isplitl [HgBar]; · iexact HgBar
  isplitl [HgBarPos]; · iexact HgBarPos
  isplitl [Htok]; · iexact Htok
  isplitl [Hslot]; · iexact Hslot
  isplitl [Hrw]; · iexact Hrw
  isplitl [Hrd]; · iexact Hrd
  isplitl [Hland]; · iexact Hland
  isplitl [Hrslab]; · iexact Hrslab
  isplitl [Hsp]; · iexact Hsp
  isplitl [Hsslab]; · iexact Hsslab
  isplitr; · iempintro
  isplitr; · iempintro
  isplitl [Hsd0 Hsd1 Hsd2 Hsd3 Hsd4 Hsd5 Hsd6 Hsd7 Hat8 Hpay8]
  · isplitl [Hsd0]; · iexact Hsd0
    isplitl [Hsd1]; · iexact Hsd1
    isplitl [Hsd2]; · iexact Hsd2
    isplitl [Hsd3]; · iexact Hsd3
    isplitl [Hsd4]; · iexact Hsd4
    isplitl [Hsd5]; · iexact Hsd5
    isplitl [Hsd6]; · iexact Hsd6
    isplitl [Hsd7]; · iexact Hsd7
    isplitl [Hat8]; · iexact Hat8
    iexact Hpay8
  isplitl [Hx]; · iexact Hx
  iexact Hout

set_option maxRecDepth 8000 in
/-- The body from what the obligation hands it to its post. -/
theorem sound_body :
    bodyPre m K c ⊢ wp frame (wpE (defs₀ (F := F)) 𝒱₀ (c : Thread nD τ) none) Set.univ (cc0_body xM (Memref.isWhole_whole _) oM (Memref.isWhole_whole _) sB (Memref.isWhole_whole _) rB (Memref.isWhole_whole _) cc0_scratch2 cc0_scratch3) (fun _ => bodyPost m c) := by
  refine (init_state m K c).trans ?_
  simp only [cc0_body_eq_skeleton]
  unfold cc0_body_skel
  simp only [wp_bind]
  refine (part1_run m K c).trans (wp_mono _ _ _ fun r => ?_)
  obtain ⟨d0, v2, v14, v19⟩ := r
  refine pure_sep_elim fun h => ?_
  obtain ⟨h1, h2⟩ := h
  simp only at h1 h2
  subst h1; subst h2
  dsimp only
  refine (part2_run m K d0 v2).trans (wp_mono _ _ _ fun r2 => ?_)
  refine (part3_run m K d0 v19 r2.1 r2.2).trans (wp_mono _ _ _ fun _ => ?_)
  refine (part4_run m K d0 v2).trans (wp_mono _ _ _ fun r4 => ?_)
  obtain ⟨v79, v84, v95⟩ := r4
  refine pure_sep_elim fun h => ?_
  simp only at h
  subst h
  dsimp only
  refine (part5_run m K d0 v2 v84).trans (wp_mono _ _ _ fun v106 => ?_)
  refine (part6_run m K d0 v2 v95 v106).trans (wp_mono _ _ _ fun r6 => ?_)
  obtain ⟨v144, v149⟩ := r6
  refine pure_sep_elim fun h => ?_
  simp only at h
  subst h
  dsimp only
  refine (part7_run m K d0 v2 v149).trans (wp_mono _ _ _ fun r7 => ?_)
  refine (part8_run m K d0 v149 r7.1 r7.2).trans (wp_mono _ _ _ fun _ => ?_)
  refine (part9_run m K d0).trans (wp_mono _ _ _ fun _ => ?_)
  refine (part10_run m K d0).trans (wp_mono _ _ _ fun _ => ?_)
  refine (part11_run m K d0).trans (wp_mono _ _ _ fun _ => ?_)
  exact tail_run m K d0

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ (c : Thread nD τ) none) Set.univ (cc0_body xM (Memref.isWhole_whole _) oM (Memref.isWhole_whole _) sB (Memref.isWhole_whole _) rB (Memref.isWhole_whole _) cc0_scratch2 cc0_scratch3) (fun _ => bodyPost m c)
  unfold bodyPre' Φ₀ start
  iintro ⟨⟨⟨⟨%K, Hg⟩, Hc1, Hc2, Hlev⟩, Hs0, Hs1⟩, Ho, Hx, Hout⟩
  iapply (sound_body m K c)
  unfold bodyPre
  isplitl [Hg Hc1 Hc2 Hlev Hs0 Hs1]
  · isplitl [Hg]; · iexact Hg
    isplitl [Hc1]; · iexact Hc1
    isplitl [Hc2]; · iexact Hc2
    isplitl [Hlev]; · iexact Hlev
    isplitl [Hs0]; · iexact Hs0
    iexact Hs1
  isplitl [Ho]; · iexact Ho
  isplitl [Hx] <;> iassumption

end Cert.KernelIdeal.AR

end
-- ==== Proof.Run.lean ====
/-
  The run of the all-reduce on the eight devices: every fair interleaving terminates, nothing faults, every device's
  result array ends at the three-step sum and its block of `x` unchanged.

  The launch deals every device the credit its partners owe its barrier cell and its nine receive cells, the ghost
  allocation hands it its starting ghost state, and the one point's body does the rest; the result array is then the
  body's result written back whole, and the argument array is never written.
-/
import proofs.«900696_g7700000000000697_dist_ar_v7x_i8_i_m256_n256_bf16_1_alg».proof.Proof.Alloc
import proofs.«900696_g7700000000000697_dist_ar_v7x_i8_i_m256_n256_bf16_1_alg».proof.Proof.Body

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch credit -/

omit [FloatOps F] in
/-- What every device owes at launch, summand by summand. -/
theorem O₀_eq : (O₀ : Dev nD → CellTallies nD τ sig Unit) = fun d =>
    ((((((((((((0 + sendTally d 8) + sendTally d 7) + sendTally d 6) + sendTally d 5) + sendTally d 4) + sendTally d 3)
      + sendTally d 2) + sendTally d 1) + sendTally d 0) + barTally d 2) + barTally d 1) + barTally d 0) := rfl

omit [FloatOps F] in
/-- The partners of pattern `k` owe a device's barrier cell one unit, one each. -/
theorem bar_cred (k : Fin 3) (c : Dev nD) :
    (Pipeline.launchCred (fun d => barTally d k) c : sProp 𝕄) ⊢ cred (tallyAt (barCell c) () 1) :=
  Pipeline.launchCred_tallyAt (.reg barS) (pr k) (pr k) (pr_pr k) (pr_pr k) () 1 c

omit [FloatOps F] in
/-- The partner of transfer `j`'s pattern owes a device's receive cell of `j` the transfer's credit. -/
theorem recv_cred (j : Fin 9) (c : Dev nD) :
    (Pipeline.launchCred (fun d => sendTally d j) c : sProp 𝕄) ⊢ cred (tallyAt (recvCell c j) () (NN j)) :=
  Pipeline.launchCred_tallyAt (.dma (rSem j)) (pr (kOf j)) (pr (kOf j)) (pr_pr _) (pr_pr _) () (NN j) c

omit [FloatOps F] in
theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  exact (sep_mono_right (cred_add _ _).2).trans (cred_add _ _).2

omit [FloatOps F] in
theorem creds (c : Dev nD) :
    (Pipeline.launchCred O₀ c : sProp 𝕄)
      ⊢ iprop(cred (tallyAt (barCell c) () 3) ∗ bigSepL allJ fun j => cred (tallyAt (recvCell c j) () (NN j))) := by
  rw [O₀_eq]
  simp only [Pipeline.launchCred_add]
  show _ ⊢ iprop(cred (tallyAt (barCell c) () 3) ∗ cred (tallyAt (recvCell c 0) () (NN 0)) ∗ cred (tallyAt (recvCell c 1) () (NN 1))
    ∗ cred (tallyAt (recvCell c 2) () (NN 2)) ∗ cred (tallyAt (recvCell c 3) () (NN 3)) ∗ cred (tallyAt (recvCell c 4) () (NN 4))
    ∗ cred (tallyAt (recvCell c 5) () (NN 5)) ∗ cred (tallyAt (recvCell c 6) () (NN 6)) ∗ cred (tallyAt (recvCell c 7) () (NN 7))
    ∗ cred (tallyAt (recvCell c 8) () (NN 8)))
  iintro ⟨⟨⟨⟨⟨⟨⟨⟨⟨⟨⟨⟨-, H8⟩, H7⟩, H6⟩, H5⟩, H4⟩, H3⟩, H2⟩, H1⟩, H0⟩, B2⟩, B1⟩, B0⟩
  ihave B0' := (bar_cred (F := F) 0 c) $$ B0
  ihave B1' := (bar_cred (F := F) 1 c) $$ B1
  ihave B2' := (bar_cred (F := F) 2 c) $$ B2
  ihave H0' := (recv_cred (F := F) 0 c) $$ H0
  ihave H1' := (recv_cred (F := F) 1 c) $$ H1
  ihave H2' := (recv_cred (F := F) 2 c) $$ H2
  ihave H3' := (recv_cred (F := F) 3 c) $$ H3
  ihave H4' := (recv_cred (F := F) 4 c) $$ H4
  ihave H5' := (recv_cred (F := F) 5 c) $$ H5
  ihave H6' := (recv_cred (F := F) 6 c) $$ H6
  ihave H7' := (recv_cred (F := F) 7 c) $$ H7
  ihave H8' := (recv_cred (F := F) 8 c) $$ H8
  isplitl [B0' B1' B2']
  · iapply (cred_three (F := F) (barCell c))
    isplitl [B0']; · iexact B0'
    isplitl [B1']; · iexact B1'
    iexact B2'
  isplitl [H0']; · iexact H0'
  isplitl [H1']; · iexact H1'
  isplitl [H2']; · iexact H2'
  isplitl [H3']; · iexact H3'
  isplitl [H4']; · iexact H4'
  isplitl [H5']; · iexact H5'
  isplitl [H6']; · iexact H6'
  isplitl [H7']; · iexact H7'
  iexact H8'

/-! ## The launch theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨H0, H1⟩⟩
  isplitl [Hs]; · iexact Hs
  isplitl [H0]; · iexact H0
  iexact H1

/-- The eighteen own cells, listed by kind. -/
def iS (j : Fin 9) : Fin 18 := ⟨j.val, by omega⟩
def iR (j : Fin 9) : Fin 18 := ⟨9 + j.val, by omega⟩
theorem succ_iS (j : Fin 9) : (iS j).succ = iSend j := Fin.ext (Nat.add_comm _ _)
theorem succ_iR (j : Fin 9) : (iR j).succ = iRecv j := Fin.ext (by show 9 + j.val + 1 = 10 + j.val; omega)
def ownIxs : List (Fin 18) := allJ.map iS ++ allJ.map iR

omit [FloatOps F] in
theorem own_split (c : Dev nD) (Ψ : GSem nD τ sig → sProp 𝕄) :
    (bigSep Finset.univ fun k : Fin 18 => Ψ (kcell (c, k.succ)))
      = iprop((bigSepL allJ fun j => Ψ (sendCell c j)) ∗ (bigSepL allJ fun j => Ψ (recvCell c j))) := by
  rw [bigSep_univ_eq_bigSepL ownIxs (by decide) (by decide)]
  unfold ownIxs
  rw [bigSepL_append, bigSepL_map, bigSepL_map]
  simp only [succ_iS, succ_iR, kcell_send, kcell_recv]

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq,
    show (Pipeline.ownSems0 (Ix := Unit) (Name := ℕ) (U := UU) (Lvl := ℕ) (Val := Elt F) (τ := τ) osem c : sProp 𝕄)
      = bigSep Finset.univ fun k : Fin 18 => semVal (kcell (c, k.succ)) 0 from rfl,
    own_split c (fun g => semVal g 0)]
  unfold Φ₁
  iintro ⟨H0, H1, HzS, HzV⟩
  isplitr; · iempintro
  isplitl [HzS HzV]
  · isplitl [HzS] <;> iassumption
  isplitl [H0]; · iexact H0
  iexact H1

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The arrays after the run -/

/-- The result array ends at the body's result: the one point writes its whole block back. -/
theorem final_out (c : Dev nD) : (dats m 0 c).arrAt (1 : Fin 2) cfg0.N = A3 m c := by
  have h := (dats m 0 c).arrAt_succ (1 : Fin 2) t0_0
  rw [flush0_1 t0_0, if_pos rfl] at h
  refine (show (dats m 0 c).arrAt (1 : Fin 2) cfg0.N = (dats m 0 c).arrAt (1 : Fin 2) (t0_0.val + 1) from rfl).trans (h.trans ?_)
  exact Memref.write_access_unit_zero_univ (Elt F) main_v1 (funext fun a => Nat.zero_mul _) _ _ _

/-- The argument array ends as it was: an input window is never written back. -/
theorem final_in (c : Dev nD) : (dats m 0 c).arrAt (0 : Fin 2) cfg0.N = m ((c.tc : Thread nD τ).loc main_arg0) :=
  (dats m 0 c).arrAt_in (0 : Fin 2) rfl _

/-! ## The run -/

set_option maxRecDepth 8000 in
/-- The run, from the body obligation of every device. -/
theorem run_of_body (hb : ∀ c : Dev nD, BodyObligation (dats (F := F) m 0 c) (defs₀ (F := F)) 𝒱₀ () Set.univ) (ρ : Dev nD → PrngReg) :
    θ_run (defs (F := F)) (onTc (τ := τ) (main (F := F))) ⟨m, fun _ => 0, ρ⟩ (fun r => ∀ c : Dev nD,
      r.2.mem ((c.tc : Thread nD τ).loc main_v1) = A3 m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hb c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨((h c).1 1).trans (final_out m c), ((h c).1 0).trans (final_in m c)⟩)

/-- info: 'Cert.KernelIdeal.AR.run_of_body' depends on axioms: [propext, Classical.choice, Quot.sound] -/
#guard_msgs in #print axioms run_of_body

/-- At the compiled mesh of eight devices, for any float values, from any memory with zero counters: every weakly fair
    execution of @main terminates, and every final state has each device's result array at the three-step sum and its
    block of `x` unchanged. -/
theorem run_main (ρ : Dev nD → PrngReg) :
    θ_run (defs (F := F)) (onTc (τ := τ) (main (F := F))) ⟨m, fun _ => 0, ρ⟩ (fun r => ∀ c : Dev nD,
      r.2.mem ((c.tc : Thread nD τ).loc main_v1) = A3 m c
      ∧ r.2.mem ((c.tc : Thread nD τ).loc main_arg0) = m ((c.tc : Thread nD τ).loc main_arg0)) :=
  run_of_body m (fun c => body_obligation m c) ρ

end Cert.KernelIdeal.AR

end
-- ==== Proof.K.Mesh.lean ====
/-
  The mesh of the all-reduce: eight devices on one axis, each exchanging with the three devices whose
  position differs from its own by the bit patterns 1, 3 and 4 (exclusive or). The three patterns are
  linearly independent over the two-element field, so the exchanges generate all eight positions.
-/
import proofs.«900696_g7700000000000697_dist_ar_v7x_i8_i_m256_n256_bf16_1_alg».proof.Proof.Gen.Kernel

namespace Cert.Kernel.AR

open Cert.Kernel Cert.Kernel.Gen
open Idealize.ShloMosaic Idealize.SL.Sem

/-- The three bit patterns. -/
def msk : Fin 3 → Nat := ![1, 3, 4]

/-- The device whose position differs from `c`'s by pattern `k`. -/
def pr (k : Fin 3) (c : Dev nD) : Dev nD := ⟨(c.val ^^^ msk k) % 8, Nat.mod_lt _ (by decide)⟩

/-- Exchanging twice by the same pattern comes back. -/
theorem pr_pr (k : Fin 3) (c : Dev nD) : pr k (pr k c) = c := by revert k c; decide
/-- A partner is another device. -/
theorem pr_ne (k : Fin 3) (c : Dev nD) : pr k c ≠ c := by revert k c; decide
/-- Different patterns lead to different partners. -/
theorem pr_inj (c : Dev nD) : Function.Injective (fun k => pr k c) := by revert c; decide
theorem pr_eq_iff (k : Fin 3) (a b : Dev nD) : pr k a = b ↔ a = pr k b := by revert k a b; decide

/-- The pattern transfer `j = 3·s + ch` (step `s`, row chunk `ch`) uses: pattern `(ch + s) mod 3`. -/
def kOf : Fin 9 → Fin 3 := ![0, 1, 2, 1, 2, 0, 2, 0, 1]
/-- The step of transfer `j`. -/
def sOf : Fin 9 → Fin 3 := ![0, 0, 0, 1, 1, 1, 2, 2, 2]
/-- The row chunk of transfer `j`. -/
def chOf : Fin 9 → Fin 3 := ![0, 1, 2, 0, 1, 2, 0, 1, 2]
/-- The transfer of step `s` that uses pattern `k`. -/
def jOf (s k : Fin 3) : Fin 9 := ![![0, 1, 2], ![5, 3, 4], ![7, 8, 6]] s k

theorem kOf_jOf (s k : Fin 3) : kOf (jOf s k) = k := by revert s k; decide
theorem sOf_jOf (s k : Fin 3) : sOf (jOf s k) = s := by revert s k; decide
theorem jOf_kOf (j : Fin 9) : jOf (sOf j) (kOf j) = j := by revert j; decide

/-- The printed device chains of the three entry signals name the three partners. -/
theorem dev1_eq (c : Dev nD) : (⟨k0_dev1 c, k0_dev1_lt c⟩ : Dev nD) = pr 0 c := by revert c; decide +kernel
theorem dev2_eq (c : Dev nD) : (⟨k0_dev2 c, k0_dev2_lt c⟩ : Dev nD) = pr 1 c := by revert c; decide +kernel
theorem dev3_eq (c : Dev nD) : (⟨k0_dev3 c, k0_dev3_lt c⟩ : Dev nD) = pr 2 c := by revert c; decide +kernel
/-- The printed device chains of the nine transfers name the partner of the transfer's pattern. -/
theorem dev4_eq (c : Dev nD) : (⟨k0_dev4 c, k0_dev4_lt c⟩ : Dev nD) = pr (kOf 0) c := by revert c; decide +kernel
theorem dev5_eq (c : Dev nD) : (⟨k0_dev5 c, k0_dev5_lt c⟩ : Dev nD) = pr (kOf 1) c := by revert c; decide +kernel
theorem dev6_eq (c : Dev nD) : (⟨k0_dev6 c, k0_dev6_lt c⟩ : Dev nD) = pr (kOf 2) c := by revert c; decide +kernel
theorem dev7_eq (c : Dev nD) : (⟨k0_dev7 c, k0_dev7_lt c⟩ : Dev nD) = pr (kOf 3) c := by revert c; decide +kernel
theorem dev8_eq (c : Dev nD) : (⟨k0_dev8 c, k0_dev8_lt c⟩ : Dev nD) = pr (kOf 4) c := by revert c; decide +kernel
theorem dev9_eq (c : Dev nD) : (⟨k0_dev9 c, k0_dev9_lt c⟩ : Dev nD) = pr (kOf 5) c := by revert c; decide +kernel
theorem dev10_eq (c : Dev nD) : (⟨k0_dev10 c, k0_dev10_lt c⟩ : Dev nD) = pr (kOf 6) c := by revert c; decide +kernel
theorem dev11_eq (c : Dev nD) : (⟨k0_dev11 c, k0_dev11_lt c⟩ : Dev nD) = pr (kOf 7) c := by revert c; decide +kernel
theorem dev12_eq (c : Dev nD) : (⟨k0_dev12 c, k0_dev12_lt c⟩ : Dev nD) = pr (kOf 8) c := by revert c; decide +kernel

end Cert.Kernel.AR
-- ==== Proof.K.Mem.lean ====
/-
  The buffers, slices, semaphores and cells of the all-reduce. Every device holds its block of `x` and its result
  in two staged buffers, a send buffer and a receive buffer of three slabs (one per step) of 256 × 256 packed
  half-width floats, and two arrays of nine DMA semaphores. Transfer `j = 3·s + ch` copies rows chunk `ch` of slab `s` of
  the sender's send buffer into the same rows of the same slab of the partner's receive buffer.
-/
import proofs.«900696_g7700000000000697_dist_ar_v7x_i8_i_m256_n256_bf16_1_alg».proof.Proof.K.Mesh
import Idealize.ShloMosaic.Lib.Rounds

noncomputable section

namespace Cert.Kernel.AR

open Cert.Kernel Cert.Kernel.Gen
open Idealize.ShloMosaic Idealize.ShloMosaic.TcCoe Idealize.SL.Sem

/-- The four buffers the body is called with. -/
abbrev xM : Memref sig .tc .vmem S256x256 .f32 := Memref.whole cc0_stg0_0
abbrev oM : Memref sig .tc .vmem S256x256 .f32 := Memref.whole cc0_stg1_0
abbrev sB : Memref sig .tc .vmem S3x256x256 .bf16 := Memref.whole cc0_scratch0
abbrev rB : Memref sig .tc .vmem S3x256x256 .bf16 := Memref.whole cc0_scratch1

/-- The first row and the number of rows of transfer `j`'s chunk: rows 0–95, 96–175, 176–255. -/
def row0 : Fin 9 → ℕ := ![0, 96, 176, 0, 96, 176, 0, 96, 176]
def nrow : Fin 9 → ℕ := ![96, 80, 80, 96, 80, 80, 96, 80, 80]

theorem inb_slab (s : Fin 3) : ∀ a, (![s.val, 0, 0] : Fin 3 → ℕ) a + (![1, 256, 256] : Fin 3 → ℕ) a ≤ S3x256x256.size a := by
  revert s; decide
theorem inb_piece (j : Fin 9) :
    ∀ a, (![(sOf j).val, row0 j, 0] : Fin 3 → ℕ) a + (![1, nrow j, 256] : Fin 3 → ℕ) a ≤ S3x256x256.size a := by
  revert j; decide

/-- Slab `s` of a scratch buffer, as the body's slab loads and stores address it. -/
abbrev slabR (s : Fin 3) : Rect S3x256x256 := Rect.unit (s := S3x256x256) ![s.val, 0, 0] ![1, 256, 256] (inb_slab s)
/-- Transfer `j`'s rows of its slab. -/
abbrev pieceR (j : Fin 9) : Rect S3x256x256 :=
  Rect.unit (s := S3x256x256) ![(sOf j).val, row0 j, 0] ![1, nrow j, 256] (inb_piece j)

/-- The shape of transfer `j`'s row chunk. -/
abbrev chS (j : Fin 9) : Shape := ⟨2, ![nrow j, 256]⟩
theorem sq_piece (j : Fin 9) : (⟨3, ![1, nrow j, 256]⟩ : Shape).Squeezes (chS j) := by revert j; decide

/-- Transfer `j`'s source: its rows of its slab of the send buffer. -/
abbrev srcM (j : Fin 9) : Memref sig .tc .vmem (chS j) .bf16 :=
  ((Memref.whole cc0_scratch0).slice (pieceR j) (fun _ => rfl)).squeeze (chS j) (sq_piece j)
/-- Transfer `j`'s destination: the same rows of the same slab of the receive buffer. -/
abbrev dstM (j : Fin 9) : Memref sig .tc .vmem (chS j) .bf16 :=
  ((Memref.whole cc0_scratch1).slice (pieceR j) (fun _ => rfl)).squeeze (chS j) (sq_piece j)

/-- The send and receive semaphores of transfer `j`, as the body's slices of the two arrays name them. -/
abbrev sSemP : Fin 9 → DmaSem sig
  | ⟨0, _⟩ => ((cc0_scratch2.slice (Rect.unit (s := S3x3) ![0, 0] S1x1.size inb_S3x3_S1x1_0_0)).squeeze S_ squeezes_S1x1_S_).sem
  | ⟨1, _⟩ => ((cc0_scratch2.slice (Rect.unit (s := S3x3) ![0, 1] S1x1.size inb_S3x3_S1x1_0_1)).squeeze S_ squeezes_S1x1_S_).sem
  | ⟨2, _⟩ => ((cc0_scratch2.slice (Rect.unit (s := S3x3) ![0, 2] S1x1.size inb_S3x3_S1x1_0_2)).squeeze S_ squeezes_S1x1_S_).sem
  | ⟨3, _⟩ => ((cc0_scratch2.slice (Rect.unit (s := S3x3) ![1, 0] S1x1.size inb_S3x3_S1x1_1_0)).squeeze S_ squeezes_S1x1_S_).sem
  | ⟨4, _⟩ => ((cc0_scratch2.slice (Rect.unit (s := S3x3) ![1, 1] S1x1.size inb_S3x3_S1x1_1_1)).squeeze S_ squeezes_S1x1_S_).sem
  | ⟨5, _⟩ => ((cc0_scratch2.slice (Rect.unit (s := S3x3) ![1, 2] S1x1.size inb_S3x3_S1x1_1_2)).squeeze S_ squeezes_S1x1_S_).sem
  | ⟨6, _⟩ => ((cc0_scratch2.slice (Rect.unit (s := S3x3) ![2, 0] S1x1.size inb_S3x3_S1x1_2_0)).squeeze S_ squeezes_S1x1_S_).sem
  | ⟨7, _⟩ => ((cc0_scratch2.slice (Rect.unit (s := S3x3) ![2, 1] S1x1.size inb_S3x3_S1x1_2_1)).squeeze S_ squeezes_S1x1_S_).sem
  | ⟨8, _⟩ => ((cc0_scratch2.slice (Rect.unit (s := S3x3) ![2, 2] S1x1.size inb_S3x3_S1x1_2_2)).squeeze S_ squeezes_S1x1_S_).sem
  | ⟨_ + 9, h⟩ => absurd h (by omega)
abbrev rSemP : Fin 9 → DmaSem sig
  | ⟨0, _⟩ => ((cc0_scratch3.slice (Rect.unit (s := S3x3) ![0, 0] S1x1.size inb_S3x3_S1x1_0_0)).squeeze S_ squeezes_S1x1_S_).sem
  | ⟨1, _⟩ => ((cc0_scratch3.slice (Rect.unit (s := S3x3) ![0, 1] S1x1.size inb_S3x3_S1x1_0_1)).squeeze S_ squeezes_S1x1_S_).sem
  | ⟨2, _⟩ => ((cc0_scratch3.slice (Rect.unit (s := S3x3) ![0, 2] S1x1.size inb_S3x3_S1x1_0_2)).squeeze S_ squeezes_S1x1_S_).sem
  | ⟨3, _⟩ => ((cc0_scratch3.slice (Rect.unit (s := S3x3) ![1, 0] S1x1.size inb_S3x3_S1x1_1_0)).squeeze S_ squeezes_S1x1_S_).sem
  | ⟨4, _⟩ => ((cc0_scratch3.slice (Rect.unit (s := S3x3) ![1, 1] S1x1.size inb_S3x3_S1x1_1_1)).squeeze S_ squeezes_S1x1_S_).sem
  | ⟨5, _⟩ => ((cc0_scratch3.slice (Rect.unit (s := S3x3) ![1, 2] S1x1.size inb_S3x3_S1x1_1_2)).squeeze S_ squeezes_S1x1_S_).sem
  | ⟨6, _⟩ => ((cc0_scratch3.slice (Rect.unit (s := S3x3) ![2, 0] S1x1.size inb_S3x3_S1x1_2_0)).squeeze S_ squeezes_S1x1_S_).sem
  | ⟨7, _⟩ => ((cc0_scratch3.slice (Rect.unit (s := S3x3) ![2, 1] S1x1.size inb_S3x3_S1x1_2_1)).squeeze S_ squeezes_S1x1_S_).sem
  | ⟨8, _⟩ => ((cc0_scratch3.slice (Rect.unit (s := S3x3) ![2, 2] S1x1.size inb_S3x3_S1x1_2_2)).squeeze S_ squeezes_S1x1_S_).sem
  | ⟨_ + 9, h⟩ => absurd h (by omega)

/-- The same semaphores in closed form: the send array starts at 2, the receive array at 11. -/
def sSem (j : Fin 9) : DmaSem sig := ⟨2 + j.val, by have := j.isLt; show 2 + j.val < 20; omega⟩
def rSem (j : Fin 9) : DmaSem sig := ⟨11 + j.val, by have := j.isLt; show 11 + j.val < 20; omega⟩

theorem sSemP_eq (j : Fin 9) : sSemP j = sSem j := by revert j; decide
theorem rSemP_eq (j : Fin 9) : rSemP j = rSem j := by revert j; decide

/-- The runtime's barrier semaphore of collective id 0. -/
abbrev barS : Sem sig := (SemArray.scalar (sig.barrier 0 rfl) : Sems sig S_).sem

abbrev barCell (c : Dev nD) : GSem nD τ sig := ((c : Thread nD τ), .reg barS)
abbrev sendCell (c : Dev nD) (j : Fin 9) : GSem nD τ sig := ((c : Thread nD τ), .dma (sSem j))
abbrev recvCell (c : Dev nD) (j : Fin 9) : GSem nD τ sig := ((c : Thread nD τ), .dma (rSem j))

/-- The credit of transfer `j`: its destination view's, which is also its source view's. -/
abbrev NN (j : Fin 9) : ℕ := (dstM j).view.dmaCredit
theorem NN_pos (j : Fin 9) : 0 < NN j := View.dmaCredit_pos _ (by revert j; decide)
theorem NN_src (j : Fin 9) : (srcM j).view.dmaCredit = NN j := by revert j; decide

theorem sSem_inj : Function.Injective sSem := fun a b h => Fin.ext (by have := congrArg Fin.val h; simp only [sSem] at this; omega)
theorem rSem_inj : Function.Injective rSem := fun a b h => Fin.ext (by have := congrArg Fin.val h; simp only [rSem] at this; omega)
theorem sSem_ne_rSem (a b : Fin 9) : sSem a ≠ rSem b := fun h => by
  have := congrArg Fin.val h; simp only [sSem, rSem] at this; have := a.isLt; omega

end Cert.Kernel.AR

end
-- ==== Proof.K.Vals.lean ====
/-
  What every buffer holds along the all-reduce, as pure terms of the devices' blocks of `x`, generic in the float
  instance. Step `s` (0, 1, 2): every device stores its running sum, narrowed to the half-width format, as slab `s` of its
  send buffer; rows chunk `ch` of that slab goes to the partner of pattern `(ch + s) mod 3` and lands in the same rows of
  slab `s` of the partner's receive buffer; the device then adds the slab it received, widened again, to its running sum.
  After three steps every row chunk has met all three patterns, whose combinations reach all eight devices.
-/
import proofs.«900696_g7700000000000697_dist_ar_v7x_i8_i_m256_n256_bf16_1_alg».proof.Proof.K.Mem
import proofs.«900696_g7700000000000697_dist_ar_v7x_i8_i_m256_n256_bf16_1_alg».proof.Proof.Gen.Kernel.Skeleton
import proofs.«900696_g7700000000000697_dist_ar_v7x_i8_i_m256_n256_bf16_1_alg».proof.Proof.Gen.Kernel.Frame
import Idealize.ShloMosaic.Lib.ValueIdx

noncomputable section

namespace Cert.Kernel.AR

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Device `c`'s block of `x`, as the pipeline stages it for the body. -/
def X (c : Dev nD) : Vec F S256x256 .f32 := Gen.iblk m c 0 Gen.t0_0

/-- The row chunk of row `r`: rows 0–95, 96–175, 176–255. -/
def chunkOfRow (r : ℕ) : ℕ := if r < 96 then 0 else if r < 176 then 1 else 2
/-- The pattern by which row `r` is exchanged at step `s`. -/
def kRow (s : Fin 3) (r : ℕ) : Fin 3 := ⟨(chunkOfRow r + s.val) % 3, Nat.mod_lt _ (by decide)⟩

/-- The running sum before step 0, and the slab stored at step 0. -/
def A0 (c : Dev nD) : FVec F S256x256 .f32 := k0_pay1 (X m c)
def sent0 (c : Dev nD) : FVec F S1x256x256 .bf16 := k0_pay2 (X m c)
/-- The slab received at step 0: row by row, the partner's stored slab. -/
def R0 (c : Dev nD) : Vec F S1x256x256 .bf16 := fun y => sent0 m (pr (kRow 0 (y 1).val) c) y
def A1 (c : Dev nD) : FVec F S256x256 .f32 := k0_pay3 (A0 m c) (R0 m c)
def sent1 (c : Dev nD) : FVec F S1x256x256 .bf16 := k0_pay4 (A0 m c) (R0 m c)
def R1 (c : Dev nD) : Vec F S1x256x256 .bf16 := fun y => sent1 m (pr (kRow 1 (y 1).val) c) y
def A2 (c : Dev nD) : FVec F S256x256 .f32 := k0_pay5 (A1 m c) (R1 m c)
def sent2 (c : Dev nD) : FVec F S1x256x256 .bf16 := k0_pay6 (A1 m c) (R1 m c)
def R2 (c : Dev nD) : Vec F S1x256x256 .bf16 := fun y => sent2 m (pr (kRow 2 (y 1).val) c) y
/-- The result. -/
def A3 (c : Dev nD) : FVec F S256x256 .f32 := k0_pay7 (A2 m c) (R2 m c)

/-- The slab stored at step `s`, and the slab received at step `s`. -/
def sent (s : Fin 3) (c : Dev nD) : FVec F S1x256x256 .bf16 :=
  match s with | ⟨0, _⟩ => sent0 m c | ⟨1, _⟩ => sent1 m c | ⟨2, _⟩ => sent2 m c | ⟨_ + 3, h⟩ => absurd h (by omega)
def rcvd (s : Fin 3) (c : Dev nD) : Vec F S1x256x256 .bf16 :=
  match s with | ⟨0, _⟩ => R0 m c | ⟨1, _⟩ => R1 m c | ⟨2, _⟩ => R2 m c | ⟨_ + 3, h⟩ => absurd h (by omega)

theorem rcvd_apply (s : Fin 3) (c : Dev nD) (y : S1x256x256.Idx) :
    rcvd m s c y = sent m s (pr (kRow s (y 1).val) c) y := by
  match s with | ⟨0, _⟩ => rfl | ⟨1, _⟩ => rfl | ⟨2, _⟩ => rfl

/-- Contents of the send buffer that are right on slab `s` once step `s` has stored: every slab of this function
    holds the slab stored at step `s` (only slab `s` of it is ever used). -/
def sbuf (s : Fin 3) (c : Dev nD) : Buf (Elt F) ((c : Thread nD τ).loc cc0_scratch0) :=
  fun i => sent m s c (ix3 (⟨0, Nat.one_pos⟩ : Fin 1) (i 1) (i 2))
/-- Contents of the receive buffer that are right on slab `s` once step `s`'s three transfers have landed. -/
def rbuf (s : Fin 3) (c : Dev nD) : Buf (Elt F) ((c : Thread nD τ).loc cc0_scratch1) :=
  fun i => rcvd m s c (ix3 (⟨0, Nat.one_pos⟩ : Fin 1) (i 1) (i 2))

end Cert.Kernel.AR

end
-- ==== Proof.K.Geom.lean ====
/-
  The geometry of the two scratch buffers: each is three slabs (its first axis), each slab three row chunks (rows 0–95,
  96–175, 176–255). A buffer held whole splits into its slabs, a slab into its chunks, and back; a slab stored, a chunk
  landed and a slab loaded hold the contents `Vals` names.
-/
import proofs.«900696_g7700000000000697_dist_ar_v7x_i8_i_m256_n256_bf16_1_alg».proof.Proof.K.Vals
import Idealize.ShloMosaic.Rules.PointsTo
import Idealize.ShloMosaic.Lib.ValueLayout
import Idealize.ShloMosaic.Lib.Pipeline.Value

noncomputable section

namespace Cert.Kernel.AR

open Cert.Kernel Cert.Kernel.Gen
open Idealize.ShloMosaic Idealize.ShloMosaic.TcCoe Idealize.SL.Sem Idealize.ShloMosaic.ValueIdx
open Idealize.SL Idealize.SL.RA Idealize.SL.BI
open scoped Idealize.SL.BI
open Idealize.SL.BI.BIBase Idealize.SL.BI.Laws

def slabSet (s : Fin 3) : Finset S3x256x256.Idx := (slabR s).set
def pieceSet (j : Fin 9) : Finset S3x256x256.Idx := (pieceR j).set

/-- The transfer of step `s` and row chunk `ch`. -/
def jAt (s ch : Fin 3) : Fin 9 := ⟨3 * s.val + ch.val, by omega⟩

theorem mem_slabSet (s : Fin 3) (i : S3x256x256.Idx) : i ∈ slabSet s ↔ (i 0).val = s.val := by
  unfold slabSet
  rw [Rect.mem_set_unit]
  have h1 : (i 1).val < 256 := (i 1).isLt
  have h2 : (i 2).val < 256 := (i 2).isLt
  constructor
  · intro h
    have a0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 256; omega
    | ⟨2, _⟩ => show 0 ≤ (i 2).val ∧ (i 2).val < 0 + 256; omega
theorem mem_pieceSet (j : Fin 9) (i : S3x256x256.Idx) :
    i ∈ pieceSet j ↔ (i 0).val = (sOf j).val ∧ row0 j ≤ (i 1).val ∧ (i 1).val < row0 j + nrow j := by
  unfold pieceSet
  rw [Rect.mem_set_unit]
  have h2 : (i 2).val < 256 := (i 2).isLt
  constructor
  · intro h
    have a0 : (sOf j).val ≤ (i 0).val ∧ (i 0).val < (sOf j).val + 1 := h 0
    have a1 : row0 j ≤ (i 1).val ∧ (i 1).val < row0 j + nrow j := h 1
    omega
  · intro h a
    match a with
    | ⟨0, _⟩ => show (sOf j).val ≤ (i 0).val ∧ (i 0).val < (sOf j).val + 1; omega
    | ⟨1, _⟩ => show row0 j ≤ (i 1).val ∧ (i 1).val < row0 j + nrow j; omega
    | ⟨2, _⟩ => show 0 ≤ (i 2).val ∧ (i 2).val < 0 + 256; omega

/-- A transfer's source and destination views cover exactly its rows of its slab. -/
theorem src_set (j : Fin 9) : (srcM j).view.set = pieceSet j := by
  simp only [Memref.view_squeeze, View.set_reshape, Memref.view_slice, Memref.view_whole, View.set_slice_whole]
  rfl
theorem dst_set (j : Fin 9) : (dstM j).view.set = pieceSet j := by
  simp only [Memref.view_squeeze, View.set_reshape, Memref.view_slice, Memref.view_whole, View.set_slice_whole]
  rfl
/-- What the slab loads and stores touch. -/
theorem loadS_sub (s : Fin 3) : sB.view.setOn (slabR s).toLoadRect.set ⊆ slabSet s := by
  show ((slabR s).toLoadRect.set.map (Function.Embedding.refl _)) ⊆ slabSet s
  rw [Finset.map_refl]
  exact Finset.Subset.refl _
theorem loadR_sub (s : Fin 3) : rB.view.setOn (slabR s).toLoadRect.set ⊆ slabSet s := by
  show ((slabR s).toLoadRect.set.map (Function.Embedding.refl _)) ⊆ slabSet s
  rw [Finset.map_refl]
  exact Finset.Subset.refl _
theorem storeS_sub (s : Fin 3) : (sB.access (slabR s)).setOn Finset.univ ⊆ slabSet s := by
  rw [View.setOn_univ]
  show ((View.whole cc0_scratch0).slice (slabR s)).set ⊆ slabSet s
  rw [View.set_slice_whole]
  exact Finset.Subset.refl _

/-- The three slabs cover the buffer and are pairwise apart; the three row chunks of a slab cover it and are pairwise apart. -/
private theorem univ_eq_slabs : (Finset.univ : Finset S3x256x256.Idx) = slabSet 0 ∪ (slabSet 1 ∪ slabSet 2) := by
  ext i
  have h0 : (i 0).val < 3 := (i 0).isLt
  simp only [Finset.mem_univ, Finset.mem_union, mem_slabSet, true_iff]
  show (i 0).val = 0 ∨ (i 0).val = 1 ∨ (i 0).val = 2
  omega
private theorem slabSet_disjoint {s t : Fin 3} (h : s ≠ t) : Disjoint (slabSet s) (slabSet t) := by
  rw [Finset.disjoint_left]
  intro i hs ht
  rw [mem_slabSet] at hs ht
  exact h (Fin.ext (hs.symm.trans ht))
private theorem slab_eq_pieces (s : Fin 3) : slabSet s = pieceSet (jAt s 0) ∪ (pieceSet (jAt s 1) ∪ pieceSet (jAt s 2)) := by
  ext i
  have h1 : (i 1).val < 256 := (i 1).isLt
  simp only [Finset.mem_union, mem_slabSet, mem_pieceSet]
  fin_cases s <;> simp only [jAt, sOf, row0, nrow] <;> simp <;> omega
private theorem pieceSet_disjoint (s : Fin 3) {a b : Fin 3} (h : a ≠ b) : Disjoint (pieceSet (jAt s a)) (pieceSet (jAt s b)) := by
  rw [Finset.disjoint_left]
  intro i ha hb
  rw [mem_pieceSet] at ha hb
  revert h ha hb
  fin_cases s <;> fin_cases a <;> fin_cases b <;> simp [jAt, sOf, row0, nrow] <;> omega

section Split
variable {Ix : Type} [DecidableEq Ix] {Val : EltTy → Type} {Name : Type} [DecidableEq Name] {U : Type} [URA U] {Lvl : Type}
local notation "𝕄" => MT nD τ sig Ix Val Name U Lvl
variable (c : Dev nD)

/-- A points-to over a union of three pairwise disjoint element sets is the three points-tos. -/
private theorem pointsTo_three {ℓ : Loc nD τ sig} (f : Buf Val ℓ) {S A B C : Finset (Idx ℓ)} (hS : S = A ∪ (B ∪ C))
    (hAB : Disjoint A B) (hAC : Disjoint A C) (hBC : Disjoint B C) :
    ((ℓ ↦[S]{fullShare} f : sProp 𝕄))
      ⊣⊢ iprop((ℓ ↦[A]{fullShare} f) ∗ (ℓ ↦[B]{fullShare} f) ∗ (ℓ ↦[C]{fullShare} f)) := by
  subst hS
  have h1 : (ℓ ↦[A ∪ (B ∪ C)]{fullShare} f : sProp 𝕄) ⊣⊢ iprop((ℓ ↦[A]{fullShare} f) ∗ ℓ ↦[B ∪ C]{fullShare} f) :=
    pointsTo_union (Finset.disjoint_union_right.mpr ⟨hAB, hAC⟩)
  have h2 : (ℓ ↦[B ∪ C]{fullShare} f : sProp 𝕄) ⊣⊢ iprop((ℓ ↦[B]{fullShare} f) ∗ ℓ ↦[C]{fullShare} f) :=
    pointsTo_union hBC
  rw [BI.equiv_iff.mp ⟨h1.1, h1.2⟩, BI.equiv_iff.mp ⟨h2.1, h2.2⟩]

/-- The send buffer held whole is its three slabs, and a slab its three row chunks. -/
theorem sbuf_slabs (f : Buf Val ((c : Thread nD τ).loc cc0_scratch0)) :
    ((((c : Thread nD τ).loc cc0_scratch0) ↦{fullShare} f : sProp 𝕄))
      ⊣⊢ iprop((((c : Thread nD τ).loc cc0_scratch0) ↦[slabSet 0]{fullShare} f) ∗ (((c : Thread nD τ).loc cc0_scratch0) ↦[slabSet 1]{fullShare} f)
          ∗ (((c : Thread nD τ).loc cc0_scratch0) ↦[slabSet 2]{fullShare} f)) := by
  exact pointsTo_three f univ_eq_slabs (slabSet_disjoint (by decide)) (slabSet_disjoint (by decide)) (slabSet_disjoint (by decide))
theorem sslab_pieces (s : Fin 3) (f : Buf Val ((c : Thread nD τ).loc cc0_scratch0)) :
    ((((c : Thread nD τ).loc cc0_scratch0) ↦[slabSet s]{fullShare} f : sProp 𝕄))
      ⊣⊢ iprop((((c : Thread nD τ).loc cc0_scratch0) ↦[pieceSet (jAt s 0)]{fullShare} f) ∗ (((c : Thread nD τ).loc cc0_scratch0) ↦[pieceSet (jAt s 1)]{fullShare} f)
          ∗ (((c : Thread nD τ).loc cc0_scratch0) ↦[pieceSet (jAt s 2)]{fullShare} f)) := by
  exact pointsTo_three f (slab_eq_pieces s) (pieceSet_disjoint s (by decide)) (pieceSet_disjoint s (by decide)) (pieceSet_disjoint s (by decide))
/-- The same for the receive buffer. -/
theorem rbuf_slabs (f : Buf Val ((c : Thread nD τ).loc cc0_scratch1)) :
    ((((c : Thread nD τ).loc cc0_scratch1) ↦{fullShare} f : sProp 𝕄))
      ⊣⊢ iprop((((c : Thread nD τ).loc cc0_scratch1) ↦[slabSet 0]{fullShare} f) ∗ (((c : Thread nD τ).loc cc0_scratch1) ↦[slabSet 1]{fullShare} f)
          ∗ (((c : Thread nD τ).loc cc0_scratch1) ↦[slabSet 2]{fullShare} f)) := by
  exact pointsTo_three f univ_eq_slabs (slabSet_disjoint (by decide)) (slabSet_disjoint (by decide)) (slabSet_disjoint (by decide))
theorem rslab_pieces (s : Fin 3) (f : Buf Val ((c : Thread nD τ).loc cc0_scratch1)) :
    ((((c : Thread nD τ).loc cc0_scratch1) ↦[slabSet s]{fullShare} f : sProp 𝕄))
      ⊣⊢ iprop((((c : Thread nD τ).loc cc0_scratch1) ↦[pieceSet (jAt s 0)]{fullShare} f) ∗ (((c : Thread nD τ).loc cc0_scratch1) ↦[pieceSet (jAt s 1)]{fullShare} f)
          ∗ (((c : Thread nD τ).loc cc0_scratch1) ↦[pieceSet (jAt s 2)]{fullShare} f)) := by
  exact pointsTo_three f (slab_eq_pieces s) (pieceSet_disjoint s (by decide)) (pieceSet_disjoint s (by decide)) (pieceSet_disjoint s (by decide))
end Split

/-- An element of slab `s` is the slab rectangle's placement of `(0, row, column)`. -/
private theorem slab_emb (s : Fin 3) (i : S3x256x256.Idx) (hi : i ∈ slabSet s) :
    (sB.access (slabR s)).emb (ix3 (⟨0, Nat.one_pos⟩ : Fin 1) (i 1) (i 2)) = i := by
  rw [mem_slabSet] at hi
  funext a
  apply Fin.ext
  match a with
  | ⟨0, _⟩ => show s.val + 1 * 0 = (i 0).val; omega
  | ⟨1, _⟩ => show 0 + 1 * (i 1).val = (i 1).val; omega
  | ⟨2, _⟩ => show 0 + 1 * (i 2).val = (i 2).val; omega

/-- An element of transfer `j`'s rows is the placement, by the source view and by the destination view alike, of the
    chunk index `(row − first row, column)`: squeezed to `(0, row − first row, column)` and then offset by the rectangle. -/
private theorem piece_emb (j : Fin 9) (i : S3x256x256.Idx) (hi : i ∈ pieceSet j) :
    ∃ x : (chS j).Idx, (dstM j).view.emb x = i ∧ (srcM j).view.emb x = i := by
  rw [mem_pieceSet] at hi
  obtain ⟨h0, h1, h2⟩ := hi
  have hr : (i 1).val - row0 j < nrow j := by omega
  have e := reshapeEquiv_ix2_1ab (a := nrow j) (b := 256) (sq_piece j).numel_eq
    (⟨(i 1).val - row0 j, hr⟩ : Fin (nrow j)) (⟨(i 2).val, (i 2).isLt⟩ : Fin 256)
  have hp : (pieceR j).emb (ix3 (⟨0, Nat.one_pos⟩ : Fin 1) (⟨(i 1).val - row0 j, hr⟩ : Fin (nrow j))
      (⟨(i 2).val, (i 2).isLt⟩ : Fin 256)) = i := by
    funext a
    apply Fin.ext
    match a with
    | ⟨0, _⟩ => show (sOf j).val + 1 * 0 = (i 0).val; omega
    | ⟨1, _⟩ => show row0 j + 1 * ((i 1).val - row0 j) = (i 1).val; omega
    | ⟨2, _⟩ => show 0 + 1 * (i 2).val = (i 2).val; omega
  exact ⟨ix2 (⟨(i 1).val - row0 j, hr⟩ : Fin (nrow j)) (⟨(i 2).val, (i 2).isLt⟩ : Fin 256),
    (congrArg (pieceR j).emb e).trans hp, (congrArg (pieceR j).emb e).trans hp⟩

section Values
variable {F : FTy → Type} [FloatOps F]
variable (m : (ℓ : Loc nD τ sig) → Buf (Elt F) ℓ)

/-- A row of transfer `j`'s chunk is exchanged, at `j`'s step, by `j`'s pattern. -/
private theorem kRow_piece (j : Fin 9) (r : ℕ) (h0 : row0 j ≤ r) (h1 : r < row0 j + nrow j) : kRow (sOf j) r = kOf j := by
  apply Fin.ext
  show (chunkOfRow r + (sOf j).val) % 3 = (kOf j).val
  unfold chunkOfRow
  revert h0 h1
  fin_cases j <;> simp [sOf, kOf, row0, nrow] <;> intros <;> split_ifs <;> omega

/-- The slab stored at step `s`: on slab `s` the send buffer holds `sbuf s`, whatever it held before. -/
theorem store_slab (s : Fin 3) (c : Dev nD) (f : Buf (Elt F) ((c : Thread nD τ).loc cc0_scratch0)) :
    ∀ i ∈ slabSet s, ((sB.access (slabR s)).write (Elt F) f (sent m s c) Finset.univ) i = sbuf m s c i := by
  intro i hi
  have h := View.write_emb_of_mem (v := sB.access (slabR s)) (Val := Elt F) f (sent m s c) (M := Finset.univ)
    (x := ix3 (⟨0, Nat.one_pos⟩ : Fin 1) (i 1) (i 2)) (Finset.mem_univ _)
  rw [slab_emb s i hi] at h
  exact h
/-- Transfer `j` landed: on its rows the partner's receive buffer holds `rbuf`, whatever it held before. -/
theorem land (j : Fin 9) (c : Dev nD) (fd : Buf (Elt F) (((pr (kOf j) c : Dev nD) : Thread nD τ).loc cc0_scratch1)) :
    ∀ i ∈ pieceSet j, ((dstM j).view.write (Elt F) fd ((srcM j).view.read (Elt F) (sbuf m (sOf j) c)) Finset.univ) i
      = rbuf m (sOf j) (pr (kOf j) c) i := by
  intro i hi
  obtain ⟨x, hd, hs⟩ := piece_emb j i hi
  have hrow := (mem_pieceSet j i).mp hi
  have h := View.write_emb_of_mem (v := (dstM j).view) (Val := Elt F) fd
    ((srcM j).view.read (Elt F) (sbuf m (sOf j) c)) (M := Finset.univ) (x := x) (Finset.mem_univ _)
  rw [hd, View.read_apply, hs] at h
  refine h.trans ?_
  show sent m (sOf j) c (ix3 (⟨0, Nat.one_pos⟩ : Fin 1) (i 1) (i 2))
    = rcvd m (sOf j) (pr (kOf j) c) (ix3 (⟨0, Nat.one_pos⟩ : Fin 1) (i 1) (i 2))
  rw [rcvd_apply]
  show _ = sent m (sOf j) (pr (kRow (sOf j) (i 1).val) (pr (kOf j) c)) _
  rw [kRow_piece j (i 1).val hrow.2.1 hrow.2.2, pr_pr]
/-- The slab loaded at step `s` from a receive buffer holding `rbuf s` on it is the slab received. -/
theorem load_slab (s : Fin 3) (c : Dev nD) :
    rB.view.readAt (Elt F) (slabR s).toLoadRect (rbuf m s c) = rcvd m s c := by
  funext y
  show rcvd m s c (ix3 (⟨0, Nat.one_pos⟩ : Fin 1) (((slabR s).toLoadRect.idx y) 1) (((slabR s).toLoadRect.idx y) 2))
    = rcvd m s c y
  congr 1
  funext a
  apply Fin.ext
  have y0 : (y 0).val < 1 := (y 0).isLt
  match a with
  | ⟨0, _⟩ => show 0 = (y 0).val; omega
  | ⟨1, _⟩ => show 0 + 1 * (y 1).val = (y 1).val; omega
  | ⟨2, _⟩ => show 0 + 1 * (y 2).val = (y 2).val; omega

/-- The two staged buffers are read and written whole. -/
abbrev r0 : Rect S256x256 := Rect.unit (s := S256x256) ![0, 0] S256x256.size inb_S256x256_S256x256_0_0
theorem read_x (f : (cc0_stg0_0 : Ref sig .tc).ty.Contents (Elt F)) : xM.view.readAt (Elt F) r0.toLoadRect f = f := by
  exact Memref.readAt_unit_zero (Elt F) cc0_stg0_0 (off := ![0, 0]) (by funext a; fin_cases a <;> rfl) _ f
theorem write_out (f w : (cc0_stg1_0 : Ref sig .tc).ty.Contents (Elt F)) :
    ((oM.access r0 : View sig .tc _ _ _).write (Elt F) f w Finset.univ) = w := by
  exact Memref.write_access_unit_zero_univ (Elt F) cc0_stg1_0 (off := ![0, 0]) (by funext a; fin_cases a <;> rfl) _ f w
end Values

end Cert.Kernel.AR

/-- info: 'Cert.Kernel.AR.land' depends on axioms: [propext, Classical.choice, Quot.sound] -/
#guard_msgs in #print axioms Cert.Kernel.AR.land
/-- info: 'Cert.Kernel.AR.sslab_pieces' depends on axioms: [propext, Classical.choice, Quot.sound] -/
#guard_msgs in #print axioms Cert.Kernel.AR.sslab_pieces
/-- info: 'Cert.Kernel.AR.store_slab' depends on axioms: [propext, Classical.choice, Quot.sound] -/
#guard_msgs in #print axioms Cert.Kernel.AR.store_slab
/-- info: 'Cert.Kernel.AR.load_slab' depends on axioms: [propext, Classical.choice, Quot.sound] -/
#guard_msgs in #print axioms Cert.Kernel.AR.load_slab

end
-- ==== Proof.K.Sched.lean ====
/-
  The protocol under the rounds discipline, one round per cell. A device's barrier cell has three duties of one unit,
  duty `k` paid by the partner of pattern `k`, who hands over with it its three landing chunks (one per step) for the
  transfers this device will make by pattern `k`, and that it stands at round 0 of their receive cells. A send cell has
  one duty of the transfer's credit, handing the sender its source chunk back; a receive cell one duty of the same
  credit, handing the receiver its landing chunk holding the partner's stored slab on those rows.
-/
import proofs.«900696_g7700000000000697_dist_ar_v7x_i8_i_m256_n256_bf16_1_alg».proof.Proof.K.Geom
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's copy beside the protocol's, whose duties are named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Payloads -/

/-- A send cell's: the source chunk back, at whatever it holds (it is never read again). -/
def sendPay (c : Dev nD) (j : Fin 9) : sProp 𝕄 :=
  iprop(∃ f : Buf (Elt F) ((c : Thread nD τ).loc cc0_scratch0), ((c : Thread nD τ).loc cc0_scratch0) ↦[pieceSet j]{fullShare} f)
/-- A receive cell's: the landing chunk holding the slab received on its rows. -/
def recvPay (c : Dev nD) (j : Fin 9) : sProp 𝕄 :=
  ((c : Thread nD τ).loc cc0_scratch1) ↦[pieceSet j]{fullShare} rbuf m (sOf j) c
/-- One landing chunk of device `c'` lent to the device that will write it, with `c'`'s standing at its receive cell. -/
def slotPay (c' : Dev nD) (j : Fin 9) : sProp 𝕄 :=
  iprop((∃ f : Buf (Elt F) ((c' : Thread nD τ).loc cc0_scratch1), ((c' : Thread nD τ).loc cc0_scratch1) ↦[pieceSet j]{fullShare} f)
    ∗ reached ER (recvCell c' j) 0)
/-- Duty `k` of `c`'s barrier cell: the partner of pattern `k` hands over its landing chunks of the three steps. -/
def barPay (c : Dev nD) (k : Fin 3) : sProp 𝕄 :=
  iprop(slotPay (F := F) (pr k c) (jOf 0 k) ∗ slotPay (F := F) (pr k c) (jOf 1 k) ∗ slotPay (F := F) (pr k c) (jOf 2 k))

/-! ## The schedule -/

/-- Which transfer a DMA semaphore belongs to, and whether it is its receive semaphore. -/
def semJ : SemLoc sig → Option (Bool × Fin 9)
  | .reg _ => none
  | .dma q =>
    if h : 2 ≤ q.val ∧ q.val < 11 then some (false, ⟨q.val - 2, by omega⟩)
    else if h' : 11 ≤ q.val ∧ q.val < 20 then some (true, ⟨q.val - 11, by omega⟩) else none

theorem semJ_send (j : Fin 9) : semJ (.dma (sSem j)) = some (false, j) := by
  have hj := j.isLt
  show (if h : 2 ≤ (sSem j).val ∧ (sSem j).val < 11 then some (false, (⟨(sSem j).val - 2, by omega⟩ : Fin 9)) else _) = _
  rw [dif_pos (show 2 ≤ (sSem j).val ∧ (sSem j).val < 11 from ⟨by show 2 ≤ 2 + j.val; omega, by show 2 + j.val < 11; omega⟩)]
  exact congrArg some (Prod.ext rfl (Fin.ext (by show 2 + j.val - 2 = j.val; omega)))
theorem semJ_recv (j : Fin 9) : semJ (.dma (rSem j)) = some (true, j) := by
  have hj := j.isLt
  show (if h : 2 ≤ (rSem j).val ∧ (rSem j).val < 11 then _ else if h' : 11 ≤ (rSem j).val ∧ (rSem j).val < 20 then some (true, (⟨(rSem j).val - 11, by omega⟩ : Fin 9)) else none) = _
  rw [dif_neg (show ¬ (2 ≤ (rSem j).val ∧ (rSem j).val < 11) from fun h => by have := h.2; change 11 + j.val < 11 at this; omega),
    dif_pos (show 11 ≤ (rSem j).val ∧ (rSem j).val < 20 from ⟨by show 11 ≤ 11 + j.val; omega, by show 11 + j.val < 20; omega⟩)]
  exact congrArg some (Prod.ext rfl (Fin.ext (by show 11 + j.val - 11 = j.val; omega)))
theorem semJ_bar : semJ (.reg barS) = none := rfl

def Rd : Rounds.Schedule (GSem nD τ sig) (Fin 3) 𝕄 where
  duties g r := if r = 0 ∧ g.1.2 = .tc then (if g.2 = .reg barS then Finset.univ else if (semJ g.2).isSome then {0} else ∅) else ∅
  unitless _ := False
  amount g _ _ := match semJ g.2 with | some (_, j) => NN j | none => 1
  payload g _ d :=
    if g.2 = .reg barS then barPay g.1.1 d
    else match semJ g.2 with
      | some (false, j) => sendPay g.1.1 j
      | some (true, j) => recvPay m g.1.1 j
      | none => iprop(emp)
  amount_pos g _ _ _ := by
    cases h : semJ g.2 with
    | none => simp only [h]; exact Nat.one_pos
    | some bj => simp only [h]; exact NN_pos bj.2

instance Rd_payload_storable (g : GSem nD τ sig) (r : ℕ) (d : Fin 3) :
    BI.Storable (upEmb : UEmb _ 𝕄) ((Rd (F := F) m).payload g r d) := by
  show BI.Storable upEmb (if g.2 = .reg barS then barPay g.1.1 d
    else match semJ g.2 with
      | some (false, j) => sendPay g.1.1 j
      | some (true, j) => recvPay m g.1.1 j
      | none => iprop(emp))
  unfold barPay slotPay sendPay recvPay
  (repeat' split) <;> infer_instance

section Tables
variable (c : Dev nD) (j : Fin 9)

theorem send_ne_bar : (SemLoc.dma (sSem j) : SemLoc sig) ≠ .reg barS := fun h => by cases h
theorem recv_ne_bar : (SemLoc.dma (rSem j) : SemLoc sig) ≠ .reg barS := fun h => by cases h

theorem duties_bar : (Rd (F := F) m).duties (barCell c) 0 = Finset.univ := by
  dsimp only [Rd]; rw [if_pos ⟨rfl, rfl⟩, if_pos rfl]
theorem duties_send : (Rd (F := F) m).duties (sendCell c j) 0 = {0} := by
  dsimp only [Rd]; rw [if_pos ⟨rfl, rfl⟩, if_neg (send_ne_bar j), semJ_send]; rfl
theorem duties_recv : (Rd (F := F) m).duties (recvCell c j) 0 = {0} := by
  dsimp only [Rd]; rw [if_pos ⟨rfl, rfl⟩, if_neg (recv_ne_bar j), semJ_recv]; rfl
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (barCell c) 0 d = 1 := by dsimp only [Rd]; rw [semJ_bar]
theorem amount_send (d : Fin 3) : (Rd (F := F) m).amount (sendCell c j) 0 d = NN j := by dsimp only [Rd]; rw [semJ_send]
theorem amount_recv (d : Fin 3) : (Rd (F := F) m).amount (recvCell c j) 0 d = NN j := by dsimp only [Rd]; rw [semJ_recv]

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c j) 0 = NN j := by
  unfold Schedule.expect Schedule.amountOf; rw [duties_send, Finset.sum_singleton, amount_send]
theorem expect_recv : (Rd (F := F) m).expect (recvCell c j) 0 = NN j := by
  unfold Schedule.expect Schedule.amountOf; rw [duties_recv, Finset.sum_singleton, amount_recv]

theorem payload_bar (k : Fin 3) : (Rd (F := F) m).payload (barCell c) 0 k = barPay c k := by dsimp only [Rd]; rw [if_pos rfl]
theorem payload_send (d : Fin 3) : (Rd (F := F) m).payload (sendCell c j) 0 d = sendPay c j := by
  dsimp only [Rd]; rw [if_neg (send_ne_bar j), semJ_send]
theorem payload_recv (d : Fin 3) : (Rd (F := F) m).payload (recvCell c j) 0 d = recvPay m c j := by
  dsimp only [Rd]; rw [if_neg (recv_ne_bar j), semJ_recv]

/-- The rest of a barrier cell's round, no duty taken: the three partners' payloads. -/
theorem rest_bar : bigSep ((Rd (F := F) m).duties (barCell c) 0 \ ∅) (fun d => (Rd (F := F) m).payload (barCell c) 0 d)
    = iprop(barPay (F := F) c 0 ∗ barPay (F := F) c 1 ∗ barPay (F := F) c 2) := by
  rw [Finset.sdiff_empty, duties_bar, bigSep_univ_eq_bigSepL [(0 : Fin 3), 1, 2] (by decide) (by decide), bigSepL_cons_cons, bigSepL_cons_cons,
    bigSepL_singleton, payload_bar, payload_bar, payload_bar]
  rfl
theorem rest_send : bigSep ((Rd (F := F) m).duties (sendCell c j) 0 \ ∅) (fun d => (Rd (F := F) m).payload (sendCell c j) 0 d) = sendPay c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]

end Tables

end Cert.Kernel.AR

end
-- ==== Proof.K.State.lean ====
/-
  The state of one device's body between its printed parts. Everything a device holds is grouped by the transfers it
  concerns, and each group is indexed by the list of transfers still in that state: tokens of transfers not yet sent,
  the partners' landing chunks for them, positions and credit of receive waits to come, chunks landed, slabs joined,
  source chunks stored or back, send cells waited. A state between two parts is one choice of these lists.
-/
import proofs.«900696_g7700000000000697_dist_ar_v7x_i8_i_m256_n256_bf16_1_alg».proof.Proof.K.Sched

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What a device owes -/

/-- The credit of transfer `j` on the partner's receive cell, and one unit on the partner's barrier cell. -/
def sendTally (c : Dev nD) (j : Fin 9) : CellTallies nD τ sig Unit := tallyAt (recvCell (pr (kOf j) c) j) () (NN j)
def barTally (c : Dev nD) (k : Fin 3) : CellTallies nD τ sig Unit := tallyAt (barCell (pr k c)) () 1
/-- What is owed with the last `r` transfers still to send: summed so that each send peels the last summand. -/
def OR (c : Dev nD) : ℕ → CellTallies nD τ sig Unit
  | 0 => 0
  | r + 1 => OR c r + sendTally c ⟨9 - (r + 1), by omega⟩
/-- The same with the last `r` entry signals still to send, all nine transfers beneath them. -/
def OBr (c : Dev nD) : ℕ → CellTallies nD τ sig Unit
  | 0 => OR c 9
  | r + 1 => OBr c r + barTally c ⟨3 - (r + 1), by omega⟩
/-- What a device owes at launch. -/
def O₀ (c : Dev nD) : CellTallies nD τ sig Unit := OBr c 3

/-! ## Levels: barrier cells at 1, the receive cells of step `s` at `2 + s`, everything else at 0 -/

def L (g : GSem nD τ sig) : Finset Unit := if g.1.2 = .tc then {()} else ∅
def lv (g : GSem nD τ sig) (_ : Unit) : ℕ :=
  if g.2 = .reg barS then 1 else match semJ g.2 with | some (true, j) => 2 + (sOf j).val | _ => 0

/-! ## The cells of one device, numbered: 0 the barrier's, 1 + j transfer j's send cell, 10 + j its receive cell -/

def csem (i : Fin 19) : SemLoc sig :=
  if i.val = 0 then .reg barS
  else if h : i.val < 10 then .dma (sSem ⟨i.val - 1, by omega⟩)
  else .dma (rSem ⟨i.val - 10, by omega⟩)
abbrev kcell (ck : Dev nD × Fin 19) : GSem nD τ sig := ((ck.1 : Thread nD τ), csem ck.2)
def iBar : Fin 19 := 0
def iSend (j : Fin 9) : Fin 19 := ⟨1 + j.val, by omega⟩
def iRecv (j : Fin 9) : Fin 19 := ⟨10 + j.val, by omega⟩
theorem kcell_bar (c : Dev nD) : kcell (c, iBar) = barCell c := rfl
theorem kcell_send (c : Dev nD) (j : Fin 9) : kcell (c, iSend j) = sendCell c j := by
  have := j.isLt
  show ((c : Thread nD τ), csem (iSend j)) = _
  unfold csem iSend
  rw [if_neg (by simp only []; omega), dif_pos (by simp only []; omega)]
  exact congrArg (fun q : Fin 9 => ((c : Thread nD τ), SemLoc.dma (sSem q))) (Fin.ext (by simp only []; omega))
theorem kcell_recv (c : Dev nD) (j : Fin 9) : kcell (c, iRecv j) = recvCell c j := by
  have := j.isLt
  show ((c : Thread nD τ), csem (iRecv j)) = _
  unfold csem iRecv
  rw [if_neg (by simp only []; omega), dif_neg (by simp only []; omega)]
  exact congrArg (fun q : Fin 9 => ((c : Thread nD τ), SemLoc.dma (rSem q))) (Fin.ext (by simp only []; omega))

/-- Every cell's invariant, under the names the launch allocated them at, and that round 0 of every cell is reached. -/
def records (K : Dev nD × Fin 19 → ℕ) : sProp 𝕄 :=
  iprop((bigSep Finset.univ fun ck : Dev nD × Fin 19 => cellInv ER (Rd m) (K ck) (kcell ck))
    ∗ bigSep Finset.univ fun ck : Dev nD × Fin 19 => reached ER (kcell ck) 0)

instance records_persistent (K : Dev nD × Fin 19 → ℕ) : BI.Persistent (records m K) := by unfold records; infer_instance

theorem inv_at (K : Dev nD × Fin 19 → ℕ) (ck : Dev nD × Fin 19) : records m K ⊢ cellInv ER (Rd m) (K ck) (kcell ck) :=
  (sep_elim_left (PROP := sProp 𝕄)).trans (bigSep_elim (Finset.mem_univ ck))
theorem reached_at (K : Dev nD × Fin 19 → ℕ) (ck : Dev nD × Fin 19) : records m K ⊢ (reached ER (kcell ck) 0 : sProp 𝕄) :=
  (sep_elim_right (PROP := sProp 𝕄)).trans (bigSep_elim (Finset.mem_univ ck))
theorem inv_bar (K : Dev nD × Fin 19 → ℕ) (c : Dev nD) : records m K ⊢ cellInv ER (Rd m) (K (c, iBar)) (barCell c) := inv_at m K (c, iBar)
theorem inv_send (K : Dev nD × Fin 19 → ℕ) (c : Dev nD) (j : Fin 9) : records m K ⊢ cellInv ER (Rd m) (K (c, iSend j)) (sendCell c j) := by
  rw [← kcell_send]; exact inv_at m K (c, iSend j)
theorem inv_recv (K : Dev nD × Fin 19 → ℕ) (c : Dev nD) (j : Fin 9) : records m K ⊢ cellInv ER (Rd m) (K (c, iRecv j)) (recvCell c j) := by
  rw [← kcell_recv]; exact inv_at m K (c, iRecv j)
theorem rch_bar (K : Dev nD × Fin 19 → ℕ) (c : Dev nD) : records m K ⊢ (reached ER (barCell c) 0 : sProp 𝕄) := reached_at m K (c, iBar)
theorem rch_send (K : Dev nD × Fin 19 → ℕ) (c : Dev nD) (j : Fin 9) : records m K ⊢ (reached ER (sendCell c j) 0 : sProp 𝕄) := by
  rw [← kcell_send]; exact reached_at m K (c, iSend j)
theorem rch_recv (K : Dev nD × Fin 19 → ℕ) (c : Dev nD) (j : Fin 9) : records m K ⊢ (reached ER (recvCell c j) 0 : sProp 𝕄) := by
  rw [← kcell_recv]; exact reached_at m K (c, iRecv j)

/-! ## The groups -/

section Groups
variable (c : Dev nD)

abbrev loc0 : Loc nD τ sig := (c : Thread nD τ).loc cc0_scratch0
abbrev loc1 : Loc nD τ sig := (c : Thread nD τ).loc cc0_scratch1
abbrev allJ : List (Fin 9) := [0, 1, 2, 3, 4, 5, 6, 7, 8]

/-- Entry signals to come: the tokens of the partners' barrier duties, and this device's own landing chunks to lend. -/
def gBar (ks : List (Fin 3)) : sProp 𝕄 := bigSepL ks fun k =>
  iprop(dutyTok ER (barCell (pr k c)) 0 k
    ∗ (∃ f : Buf (Elt F) (loc1 c), loc1 c ↦[pieceSet (jOf 0 k)]{fullShare} f)
    ∗ (∃ f : Buf (Elt F) (loc1 c), loc1 c ↦[pieceSet (jOf 1 k)]{fullShare} f)
    ∗ (∃ f : Buf (Elt F) (loc1 c), loc1 c ↦[pieceSet (jOf 2 k)]{fullShare} f))
/-- Transfers not yet sent: the two duty tokens each pays with. -/
def gTok (js : List (Fin 9)) : sProp 𝕄 := bigSepL js fun j =>
  iprop(dutyTok ER (recvCell (pr (kOf j) c) j) 0 0 ∗ dutyTok ER (sendCell c j) 0 0)
/-- Transfers not yet sent, once the entry wait is passed: the partner's landing chunk and its standing. -/
def gSlot (js : List (Fin 9)) : sProp 𝕄 := bigSepL js fun j => slotPay (F := F) (pr (kOf j) c) j
/-- Receive waits to come: position and credit. -/
def gRW (js : List (Fin 9)) : sProp 𝕄 := bigSepL js fun j =>
  iprop(atPos ER (recvCell c j) 0 ∅ 0 ∗ cred (tallyAt (recvCell c j) () (NN j)))
/-- Receive waits done. -/
def gRD (js : List (Fin 9)) : sProp 𝕄 := bigSepL js fun j => atPos ER (recvCell c j) 1 ∅ 0
/-- Chunks landed and not yet joined into their slab. -/
def gLand (js : List (Fin 9)) : sProp 𝕄 := bigSepL js fun j => recvPay m c j
/-- Received slabs joined. -/
def gRSlab (ss : List (Fin 3)) : sProp 𝕄 := bigSepL ss fun s => loc1 c ↦[slabSet s]{fullShare} rbuf m s c
/-- Source chunks stored and not yet sent. -/
def gSPiece (js : List (Fin 9)) : sProp 𝕄 := bigSepL js fun j => loc0 c ↦[pieceSet j]{fullShare} sbuf m (sOf j) c
/-- Send slabs not yet stored. -/
def gSSlab (ss : List (Fin 3)) : sProp 𝕄 := bigSepL ss fun s => iprop(∃ f : Buf (Elt F) (loc0 c), loc0 c ↦[slabSet s]{fullShare} f)
/-- Sent, send wait to come: the credit the transfer returned. -/
def gCred (js : List (Fin 9)) : sProp 𝕄 := bigSepL js fun j => cred (tallyAt (sendCell c j) () (NN j))
/-- Send cells not yet waited. -/
def gSW (js : List (Fin 9)) : sProp 𝕄 := bigSepL js fun j => atPos ER (sendCell c j) 0 ∅ 0
/-- Send waits done: the cell a round on, the source chunk back. -/
def gSD (js : List (Fin 9)) : sProp 𝕄 := bigSepL js fun j => iprop(atPos ER (sendCell c j) 1 ∅ 0 ∗ sendPay (F := F) c j)

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The barrier cell: before the entry wait its position at round 0 and the three units' credit, after it round 1. -/
def gBarPos (done : Bool) : sProp 𝕄 :=
  if done then atPos ER (barCell c) 1 ∅ 0 else iprop(atPos ER (barCell c) 0 ∅ 0 ∗ cred (tallyAt (barCell c) () 3))
/-- The result's staging buffer: anything before the final store, the result after it. -/
def gOut (done : Bool) : sProp 𝕄 :=
  if done then stg c cc0_stg1_0 (A3 m c) else iprop(∃ f : Buf (Elt F) ((c : Thread nD τ).loc cc0_stg1_0), ((c : Thread nD τ).loc cc0_stg1_0) ↦{fullShare} f)

/-- A choice of the lists. -/
structure Prg where
  O : CellTallies nD τ sig Unit
  bar : List (Fin 3)
  barDone : Bool
  tok : List (Fin 9)
  slot : List (Fin 9)
  rw : List (Fin 9)
  rd : List (Fin 9)
  land : List (Fin 9)
  rslab : List (Fin 3)
  spiece : List (Fin 9)
  sslab : List (Fin 3)
  cr : List (Fin 9)
  sw : List (Fin 9)
  sd : List (Fin 9)
  out : Bool

/-- The state of device `c`'s body at progress `P`. -/
def St (K : Dev nD × Fin 19 → ℕ) (P : Prg) : sProp 𝕄 :=
  iprop(records m K ∗ levAts L lv ∗ (∃ W : Waits sig Unit, owes (c : Thread nD τ) P.O W)
    ∗ gBar (F := F) c P.bar ∗ gBarPos (F := F) c P.barDone ∗ gTok (F := F) c P.tok ∗ gSlot (F := F) c P.slot
    ∗ gRW (F := F) c P.rw ∗ gRD (F := F) c P.rd ∗ gLand m c P.land ∗ gRSlab m c P.rslab
    ∗ gSPiece m c P.spiece ∗ gSSlab (F := F) c P.sslab ∗ gCred (F := F) c P.cr ∗ gSW (F := F) c P.sw ∗ gSD (F := F) c P.sd
    ∗ stg c cc0_stg0_0 (X m c) ∗ gOut m c P.out)

/-- The states between the parts: `B i` is the state before part `i + 1` (`B 11` before the last wait, `B 12` after it). -/
def B (i : ℕ) : Prg :=
  match i with
  | 0 => ⟨OBr c 3, [0, 1, 2], false, allJ, [], allJ, [], [], [], [], [0, 1, 2], [], allJ, [], false⟩
  | 1 => ⟨OR c 9, [], true, allJ, allJ, allJ, [], [], [], [0, 1, 2], [1, 2], [], allJ, [], false⟩
  | 2 => ⟨OR c 7, [], true, [2, 3, 4, 5, 6, 7, 8], [2, 3, 4, 5, 6, 7, 8], allJ, [], [], [], [2], [1, 2], [0, 1], allJ, [], false⟩
  | 3 => ⟨OR c 6, [], true, [3, 4, 5, 6, 7, 8], [3, 4, 5, 6, 7, 8], [2, 3, 4, 5, 6, 7, 8], [0, 1], [0, 1], [], [], [1, 2], [0, 1, 2], allJ, [], false⟩
  | 4 => ⟨OR c 5, [], true, [4, 5, 6, 7, 8], [4, 5, 6, 7, 8], [3, 4, 5, 6, 7, 8], [0, 1, 2], [], [0], [4, 5], [2], [0, 1, 2, 3], allJ, [], false⟩
  | 5 => ⟨OR c 3, [], true, [6, 7, 8], [6, 7, 8], [4, 5, 6, 7, 8], [0, 1, 2, 3], [3], [0], [], [2], [0, 1, 2, 3, 4, 5], allJ, [], false⟩
  | 6 => ⟨OR c 3, [], true, [6, 7, 8], [6, 7, 8], [6, 7, 8], [0, 1, 2, 3, 4, 5], [], [0, 1], [6, 7, 8], [], [0, 1, 2, 3, 4, 5], allJ, [], false⟩
  | 7 => ⟨OR c 1, [], true, [8], [8], [6, 7, 8], [0, 1, 2, 3, 4, 5], [], [0, 1], [8], [], [0, 1, 2, 3, 4, 5, 6, 7], allJ, [], false⟩
  | 8 => ⟨OR c 0, [], true, [], [], [8], [0, 1, 2, 3, 4, 5, 6, 7], [6, 7], [0, 1], [], [], allJ, allJ, [], false⟩
  | 9 => ⟨OR c 0, [], true, [], [], [], allJ, [], [0, 1, 2], [], [], [2, 3, 4, 5, 6, 7, 8], [2, 3, 4, 5, 6, 7, 8], [0, 1], true⟩
  | 10 => ⟨OR c 0, [], true, [], [], [], allJ, [], [0, 1, 2], [], [], [5, 6, 7, 8], [5, 6, 7, 8], [0, 1, 2, 3, 4], true⟩
  | 11 => ⟨OR c 0, [], true, [], [], [], allJ, [], [0, 1, 2], [], [], [8], [8], [0, 1, 2, 3, 4, 5, 6, 7], true⟩
  | _ => ⟨OR c 0, [], true, [], [], [], allJ, [], [0, 1, 2], [], [], [], [], allJ, true⟩

end Groups

/-! ## The pipeline's proof data -/

/-- The ghost state a device's body starts from: the records; its positions at round 0 of its nineteen cells; the
    tokens of the duties it pays — a unit on each partner's barrier cell, and per transfer the partner's receive duty
    and its own send duty. -/
def ghost (K : Dev nD × Fin 19 → ℕ) (c : Dev nD) : sProp 𝕄 :=
  iprop(records m K
    ∗ atPos ER (barCell c) 0 ∅ 0
    ∗ (bigSepL allJ fun j => atPos ER (sendCell c j) 0 ∅ 0)
    ∗ (bigSepL allJ fun j => atPos ER (recvCell c j) 0 ∅ 0)
    ∗ (bigSepL [(0 : Fin 3), 1, 2] fun k => dutyTok ER (barCell (pr k c)) 0 k)
    ∗ gTok (F := F) c allJ)

/-- What a device's body starts from: that at some names, the credit the launch dealt its barrier cell and its nine
    receive cells, and the level facts. -/
def start (c : Dev nD) : sProp 𝕄 :=
  iprop((∃ K, ghost m K c) ∗ cred (tallyAt (barCell c) () 3)
    ∗ (bigSepL allJ fun j => cred (tallyAt (recvCell c j) () (NN j))) ∗ levAts L lv)

def Φ₀ (c : Dev nD) : sProp 𝕄 :=
  iprop(start m c ∗ (∃ f : Buf (Elt F) (loc0 c), loc0 c ↦{fullShare} f) ∗ (∃ f : Buf (Elt F) (loc1 c), loc1 c ↦{fullShare} f))
/-- After the point: the two scratch buffers whole, the eighteen own cells at zero, closed. -/
def Φ₁ (c : Dev nD) : sProp 𝕄 :=
  iprop((∃ f : Buf (Elt F) (loc0 c), loc0 c ↦{fullShare} f) ∗ (∃ f : Buf (Elt F) (loc1 c), loc1 c ↦{fullShare} f)
    ∗ (bigSepL allJ fun j => semVal (sendCell c j) 0) ∗ (bigSepL allJ fun j => semVal (recvCell c j) 0))

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => A3 m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- What the body obligation hands the body at the one point, and what it wants back. -/
def bodyPre (K : Dev nD × Fin 19 → ℕ) (c : Dev nD) : sProp 𝕄 :=
  iprop((ghost m K c ∗ cred (tallyAt (barCell c) () 3) ∗ (bigSepL allJ fun j => cred (tallyAt (recvCell c j) () (NN j))) ∗ levAts L lv
      ∗ (∃ f : Buf (Elt F) (loc0 c), loc0 c ↦{fullShare} f) ∗ (∃ f : Buf (Elt F) (loc1 c), loc1 c ↦{fullShare} f))
    ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ (F := F) c ∗ (dats m 0 c).owesAt () t0_0.succ ∗ stg c cc0_stg0_0 (X m c) ∗ stg c cc0_stg1_0 (A3 m c))

end Cert.Kernel.AR

end
-- ==== Proof.K.Levels.lean ====
/-
  The deadlock argument: every wait is on a cell at a level below everything the waiter still owes. Barrier cells sit at
  level 1, the receive cells of step s at level 2 + s, the staging and send cells at 0; a device waits on its barrier cell
  owing only receive credit, on a receive cell of step s owing only the receive credit of later steps, and on everything
  else owing nothing or at level 0.
-/
import proofs.«900696_g7700000000000697_dist_ar_v7x_i8_i_m256_n256_bf16_1_alg».proof.Proof.K.State

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem L_of_ne (g : GSem nD τ sig) (h : g.1.2 ≠ .tc) : L g = ∅ := if_neg h
theorem L_tc (c : Dev nD) (sm : SemLoc sig) : L ((c : Thread nD τ), sm) = {()} := if_pos rfl

/-- The step of transfer `j` is `j / 3`. -/
private theorem sOf_val (j : Fin 9) : (sOf j).val = j.val / 3 := by revert j; decide

/-- What is owed with the last `r` transfers to send is owed on the partners' receive cells of those transfers only. -/
private theorem OR_pos (c : Dev nD) : ∀ (r : ℕ) {g : GSem nD τ sig} {u : Unit}, 0 < OR c r g u →
    ∃ j : Fin 9, 9 - r ≤ j.val ∧ g = recvCell (pr (kOf j) c) j
  | 0, g, u, h => absurd h (Nat.lt_irrefl 0)
  | r + 1, g, u, h => by
    rcases Pipeline.add_pos_cases (D₁ := OR c r) (D₂ := sendTally c ⟨9 - (r + 1), by omega⟩) h with h | h
    · obtain ⟨j, hj, hg⟩ := OR_pos c r h
      exact ⟨j, by omega, hg⟩
    · unfold sendTally at h
      rw [tallyAt_apply] at h
      by_cases hh : g = recvCell (pr (kOf ⟨9 - (r + 1), by omega⟩) c) ⟨9 - (r + 1), by omega⟩ ∧ u = ()
      · exact ⟨⟨9 - (r + 1), by omega⟩, le_refl _, hh.1⟩
      · rw [if_neg hh] at h; exact absurd h (Nat.lt_irrefl 0)

/-- What is owed at launch is owed on partners' barrier cells and on partners' receive cells only. -/
private theorem OBr_pos (c : Dev nD) : ∀ (r : ℕ) {g : GSem nD τ sig} {u : Unit}, 0 < OBr c r g u →
    (∃ k : Fin 3, g = barCell (pr k c)) ∨ ∃ j : Fin 9, g = recvCell (pr (kOf j) c) j
  | 0, g, u, h => by obtain ⟨j, -, hg⟩ := OR_pos c 9 h; exact Or.inr ⟨j, hg⟩
  | r + 1, g, u, h => by
    rcases Pipeline.add_pos_cases (D₁ := OBr c r) (D₂ := barTally c ⟨3 - (r + 1), by omega⟩) h with h | h
    · exact OBr_pos c r h
    · unfold barTally at h
      rw [tallyAt_apply] at h
      by_cases hh : g = barCell (pr ⟨3 - (r + 1), by omega⟩ c) ∧ u = ()
      · exact Or.inl ⟨_, hh.1⟩
      · rw [if_neg hh] at h; exact absurd h (Nat.lt_irrefl 0)

/-- A barrier cell sits at level 1, the receive cell of transfer `j` at level 2 plus its step. -/
private theorem lv_bar (c' : Dev nD) : lv (barCell c') () = 1 := by dsimp only [lv]; rw [if_pos rfl]
private theorem lv_recv (c' : Dev nD) (j : Fin 9) : lv (recvCell c' j) () = 2 + (sOf j).val := by
  dsimp only [lv]; rw [if_neg (recv_ne_bar j), semJ_recv]
/-- The two DMA semaphores below the transfers' arrays belong to no transfer, so their cells sit at level 0. -/
private theorem lv_low (c' : Dev nD) (q : DmaSem sig) (hq : q.val < 2) : lv ((c' : Thread nD τ), .dma q) () = 0 := by
  have hs : semJ (.dma q) = none := by
    show (if h : 2 ≤ q.val ∧ q.val < 11 then some (false, (⟨q.val - 2, by omega⟩ : Fin 9))
      else if h' : 11 ≤ q.val ∧ q.val < 20 then some (true, (⟨q.val - 11, by omega⟩ : Fin 9)) else none) = none
    rw [dif_neg (fun h => by omega), dif_neg (fun h => by omega)]
  dsimp only [lv]; rw [if_neg (fun h => by cases h), hs]

/-- At its entry wait a device owes the nine transfers' receive credit: receive cells, above its barrier cell. -/
theorem mayWait_bar (c : Dev nD) : (levAts L lv : sProp 𝕄) ⊢ MayWait (c : Thread nD τ) (.reg barS) () (OR c 9) :=
  MayOwe.of_cut (L := L) (lev := lv) 1
    (fun p hp => by rw [Finset.mem_singleton.mp hp, L_tc]; exact Finset.mem_singleton_self _)
    (fun g u hg => by obtain ⟨j, -, rfl⟩ := OR_pos c 9 hg; rw [L_tc]; exact Finset.mem_singleton_self _)
    (fun p hp => by rw [Finset.mem_singleton.mp hp]; exact le_of_eq (lv_bar c))
    (fun g u hg => by obtain ⟨j, -, rfl⟩ := OR_pos c 9 hg; rw [lv_recv]; omega)
/-- At the receive wait of transfer `j` (step `s`) a device owes the receive credit of the later steps' transfers only. -/
theorem mayWait_recv (c : Dev nD) (j : Fin 9) :
    (levAts L lv : sProp 𝕄) ⊢ MayWait (c : Thread nD τ) (.dma (rSem j)) () (OR c (6 - 3 * (sOf j).val)) :=
  MayOwe.of_cut (L := L) (lev := lv) (2 + (sOf j).val)
    (fun p hp => by rw [Finset.mem_singleton.mp hp, L_tc]; exact Finset.mem_singleton_self _)
    (fun g u hg => by obtain ⟨j', -, rfl⟩ := OR_pos c _ hg; rw [L_tc]; exact Finset.mem_singleton_self _)
    (fun p hp => by rw [Finset.mem_singleton.mp hp]; exact le_of_eq (lv_recv c j))
    (fun g u hg => by
      obtain ⟨j', hj', rfl⟩ := OR_pos c _ hg
      have h1 := sOf_val j; have h2 := sOf_val j'; have := j.isLt
      rw [lv_recv]; omega)
/-- The pipeline's two staging cells sit at level 0, below everything a device owes at launch. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases OBr_pos c 3 hg with ⟨k, rfl⟩ | ⟨j, rfl⟩ <;> (rw [L_tc]; exact Finset.mem_singleton_self _))
      (fun p hp => by rw [Finset.mem_singleton.mp hp]; exact le_of_eq (lv_low c q hq))
      (fun g u hg => by
        rcases OBr_pos c 3 hg with ⟨k, rfl⟩ | ⟨j, rfl⟩
        · rw [lv_bar]; decide
        · rw [lv_recv]; omega)
  · rw [MayWait_zero]; iintro -; iempintro

end Cert.Kernel.AR

end
-- ==== Proof.K.Alloc.lean ====
/-
  The launch's ghost allocation: from the launch element of the rounds algebra — every cell's round state, positions and
  reached-marks, and the duty tokens as minted on their own cells — to every device's starting ghost state, the
  nineteen invariants of each device allocated under one update and the tokens dealt to the devices that pay them.
-/
import proofs.«900696_g7700000000000697_dist_ar_v7x_i8_i_m256_n256_bf16_1_alg».proof.Proof.K.Levels

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Chains over lists -/

omit [FloatOps F] in
theorem bigSepL_append {I : Type} (l₁ l₂ : List I) (Φ : I → sProp 𝕄) :
    bigSepL (l₁ ++ l₂) Φ = iprop(bigSepL l₁ Φ ∗ bigSepL l₂ Φ) := by
  induction l₁ with
  | nil => exact (equiv_iff.mp BI.emp_sep).symm
  | cons i l ih => rw [List.cons_append, bigSepL_cons, ih, bigSepL_cons]; exact Entails.antisymm BI.sep_assoc' BI.sep_assoc

omit [FloatOps F] in
theorem bigSepL_map {I J : Type} (f : J → I) (l : List J) (Φ : I → sProp 𝕄) :
    bigSepL (l.map f) Φ = bigSepL l fun j => Φ (f j) := by
  induction l with
  | nil => rfl
  | cons j l ih => rw [List.map_cons, bigSepL_cons, bigSepL_cons, ih]

/-! ## The cells and the tokens of the launch element -/

/-- The eighteen own semaphores: cells 1 to 18 of the numbering. -/
abbrev osem (i : Fin 18) : SemLoc sig := csem i.succ

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 19 → GSem nD τ sig) := by
  rintro ⟨c, i⟩ ⟨c', i'⟩ h
  have h1 : c = c' := congrArg (fun g : GSem nD τ sig => g.1.1) h
  subst h1
  have h2 : i = i' := csem_injective (congrArg Prod.snd h)
  subst h2; rfl

def allCells : Finset (GSem nD τ sig) := Finset.univ.map ⟨kcell, kcell_injective⟩

/-- The duty tokens as minted, by device and cell: the barrier cell's three, each send cell's one, each receive cell's one. -/
abbrev TokIx : Type := Fin 3 ⊕ (Fin 9 ⊕ Fin 9)
abbrev tokOf (ct : Dev nD × TokIx) : GSem nD τ sig × ℕ × Fin 3 := match ct.2 with
  | .inl k => (barCell ct.1, 0, k)
  | .inr (.inl j) => (sendCell ct.1 j, 0, 0)
  | .inr (.inr j) => (recvCell ct.1 j, 0, 0)

theorem tokOf_injective : Function.Injective (tokOf : Dev nD × TokIx → GSem nD τ sig × ℕ × Fin 3) := by
  rintro ⟨c, t⟩ ⟨c', t'⟩ h
  have h1 : c = c' := by
    have := congrArg (fun x : GSem nD τ sig × ℕ × Fin 3 => x.1.1.1) h
    rcases t with k | j | j <;> rcases t' with k' | j' | j' <;> exact this
  subst h1
  have h2 : t = t' := by
    have hs := congrArg (fun x : GSem nD τ sig × ℕ × Fin 3 => x.1.2) h
    have hd := congrArg (fun x : GSem nD τ sig × ℕ × Fin 3 => x.2.2) h
    rcases t with k | j | j <;> rcases t' with k' | j' | j'
    · exact congrArg Sum.inl hd
    · exact absurd hs (fun h' => by cases h')
    · exact absurd hs (fun h' => by cases h')
    · exact absurd hs (fun h' => by cases h')
    · exact congrArg (fun q => Sum.inr (Sum.inl q)) (sSem_inj (SemLoc.dma.inj hs))
    · exact absurd (SemLoc.dma.inj hs) (sSem_ne_rSem j j')
    · exact absurd hs (fun h' => by cases h')
    · exact absurd (SemLoc.dma.inj hs).symm (sSem_ne_rSem j' j)
    · exact congrArg (fun q => Sum.inr (Sum.inr q)) (rSem_inj (SemLoc.dma.inj hs))
  subst h2; rfl

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun k : Fin 3 => dutyTok ER (barCell c) 0 k)
    ∗ (bigSep Finset.univ fun j : Fin 9 => dutyTok ER (sendCell c j) 0 0)
    ∗ (bigSep Finset.univ fun j : Fin 9 => dutyTok ER (recvCell c j) 0 0))

/-- What the launch element deals device `c`. -/
def G (c : Dev nD) : sProp 𝕄 :=
  iprop((bigSep Finset.univ fun i : Fin 19 => roundState ER (Rd m) (kcell (c, i)) 0)
    ∗ (bigSep Finset.univ fun i : Fin 19 => iprop(atPos ER (kcell (c, i)) 0 ∅ 0 ∗ reached ER (kcell (c, i)) 0)) ∗ toks (F := F) c)

/-- What the global step makes of it. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Fin 19 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant allocated -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem univ19 : (Finset.univ : Finset (Fin 19)).erase 0 = Finset.univ.map ⟨Fin.succ, Fin.succ_injective 18⟩ := by decide

omit [FloatOps F] in
theorem bigSep_fin19 (Ψ : Fin 19 → sProp 𝕄) : bigSep Finset.univ Ψ = iprop(Ψ 0 ∗ bigSep Finset.univ fun k : Fin 18 => Ψ k.succ) := by
  rw [bigSep_univ_at Ψ 0, univ19, bigSep_map]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 19 => semVal (kcell (c, i)) 0 : sProp 𝕄) := by
  rw [unscopedSems0_eq, bigSep_fin19]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (Rd m) κ (kcell (c, i))))
          ∗ (bigSep Finset.univ fun i : Fin 19 => iprop(atPos ER (kcell (c, i)) 0 ∅ 0 ∗ reached ER (kcell (c, i)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun i : Fin 19 => semVal (kcell (c, i)) 0) ∗ bigSep Finset.univ fun i : Fin 19 => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay them -/

/-- The tokens of the duties device `c` pays: duty `k` of the barrier cell of its partner of pattern `k`, and per
    transfer the partner's receive duty and its own send duty. -/
def payToks (c : Dev nD) : sProp 𝕄 :=
  iprop((bigSep Finset.univ fun k : Fin 3 => dutyTok ER (barCell (pr k c)) 0 k)
    ∗ (bigSep Finset.univ fun j : Fin 9 => iprop(dutyTok ER (recvCell (pr (kOf j) c) j) 0 0 ∗ dutyTok ER (sendCell c j) 0 0)))

/-- What stays with device `c`: its positions, and the tokens of the duties it pays. -/
def linear (c : Dev nD) : sProp 𝕄 :=
  iprop((bigSep Finset.univ fun i : Fin 19 => atPos ER (kcell (c, i)) 0 ∅ 0) ∗ payToks (F := F) c)

/-- Exchanging by pattern `k` is an involution of the devices. -/
def prE (k : Fin 3) : Dev nD ≃ Dev nD := ⟨pr k, pr k, pr_pr k, pr_pr k⟩

omit [FloatOps F] in
/-- A family over devices and an index, re-dealt by a permutation of the devices for each index. -/
theorem deal {J : Type} [Fintype J] (e : J → Dev nD ≃ Dev nD) (Φ : Dev nD → J → sProp 𝕄) :
    (bigSep Finset.univ fun c => bigSep Finset.univ fun j => Φ c j)
      = bigSep Finset.univ fun c => bigSep Finset.univ fun j => Φ (e j c) j := by
  rw [← bigSep_univ_prod (fun cj : Dev nD × J => Φ cj.1 cj.2), ← bigSep_univ_prod (fun cj : Dev nD × J => Φ (e cj.2 cj.1) cj.2)]
  exact bigSep_univ_equiv (⟨fun cj => (e cj.2 cj.1, cj.2), fun cj => ((e cj.2).symm cj.1, cj.2), fun cj => by simp, fun cj => by simp⟩ : Dev nD × J ≃ Dev nD × J) _

omit [FloatOps F] in
theorem toks_around : (bigSep Finset.univ fun c : Dev nD => (toks c : sProp 𝕄)) ⊢ bigSep Finset.univ fun c : Dev nD => payToks c := by
  have hL : (bigSep Finset.univ fun c : Dev nD => (toks c : sProp 𝕄))
      = iprop((bigSep Finset.univ fun c : Dev nD => bigSep Finset.univ fun k : Fin 3 => (dutyTok ER (barCell c) 0 k : sProp 𝕄))
        ∗ (bigSep Finset.univ fun c : Dev nD => bigSep Finset.univ fun j : Fin 9 => (dutyTok ER (sendCell c j) 0 0 : sProp 𝕄))
        ∗ (bigSep Finset.univ fun c : Dev nD => bigSep Finset.univ fun j : Fin 9 => (dutyTok ER (recvCell c j) 0 0 : sProp 𝕄))) := by
    unfold toks; rw [bigSep_sep', bigSep_sep']
  have hR : (bigSep Finset.univ fun c : Dev nD => (payToks c : sProp 𝕄))
      = iprop((bigSep Finset.univ fun c : Dev nD => bigSep Finset.univ fun k : Fin 3 => (dutyTok ER (barCell (pr k c)) 0 k : sProp 𝕄))
        ∗ (bigSep Finset.univ fun c : Dev nD => bigSep Finset.univ fun j : Fin 9 => (dutyTok ER (recvCell (pr (kOf j) c) j) 0 0 : sProp 𝕄))
        ∗ (bigSep Finset.univ fun c : Dev nD => bigSep Finset.univ fun j : Fin 9 => (dutyTok ER (sendCell c j) 0 0 : sProp 𝕄))) := by
    unfold payToks
    rw [bigSep_sep', bigSep_congr (s := Finset.univ) (fun (c : Dev nD) _ => bigSep_sep' Finset.univ
      (fun j : Fin 9 => (dutyTok ER (recvCell (pr (kOf j) c) j) 0 0 : sProp 𝕄)) (fun j => dutyTok ER (sendCell c j) 0 0)), bigSep_sep']
  rw [hL, hR, deal prE (fun c k => (dutyTok ER (barCell c) 0 k : sProp 𝕄)),
    deal (fun j => prE (kOf j)) (fun c j => (dutyTok ER (recvCell c j) 0 0 : sProp 𝕄))]
  iintro ⟨H1, H2, H3⟩
  isplitl [H1]; · iexact H1
  isplitl [H3]; · iexact H3
  iexact H2

/-! ## A device's nineteen cells, listed by kind -/

def cellIxs : List (Fin 19) := iBar :: (allJ.map iSend ++ allJ.map iRecv)

omit [FloatOps F] in
theorem cells_split (c : Dev nD) (Ψ : GSem nD τ sig → sProp 𝕄) :
    (bigSep Finset.univ fun i : Fin 19 => Ψ (kcell (c, i)))
      = iprop(Ψ (barCell c) ∗ (bigSepL allJ fun j => Ψ (sendCell c j)) ∗ (bigSepL allJ fun j => Ψ (recvCell c j))) := by
  rw [bigSep_univ_eq_bigSepL cellIxs (by decide) (by decide)]
  unfold cellIxs
  rw [bigSepL_cons, bigSepL_append, bigSepL_map, bigSepL_map]
  simp only [kcell_send, kcell_recv, kcell_bar]
  rfl

theorem ghost_intro (K : Dev nD × Fin 19 → ℕ) (c : Dev nD) : iprop(records m K ∗ linear (F := F) c) ⊢ G' m c := by
  unfold linear payToks G' ghost gTok
  rw [cells_split c (fun g => atPos ER g 0 ∅ 0), bigSep_univ_eq_bigSepL [(0 : Fin 3), 1, 2] (by decide) (by decide),
    bigSep_univ_eq_bigSepL allJ (by decide) (by decide)]
  iintro ⟨#HR, ⟨HaB, HaS, HaV⟩, HtB, HtJ⟩
  iexists K
  isplitr; · iexact HR
  isplitl [HaB]; · iexact HaB
  isplitl [HaS]; · iexact HaS
  isplitl [HaV]; · iexact HaV
  isplitl [HtB]; · iexact HtB
  iexact HtJ

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (Rd m) κ (kcell (c, i))))
          ∗ (bigSep Finset.univ fun i : Fin 19 => iprop(atPos ER (kcell (c, i)) 0 ∅ 0 ∗ reached ER (kcell (c, i)) 0)) ∗ toks (F := F) c) : sProp 𝕄)
      ⊢ bigSep Finset.univ (G' m) := by
  rw [bigSep_sep', bigSep_sep', ← bigSep_univ_prod (fun ck : Dev nD × Fin 19 => iprop(∃ κ : ℕ, cellInv ER (Rd m) κ (kcell ck))),
    bigSep_congr (s := Finset.univ) (fun (c : Dev nD) _ => bigSep_sep' Finset.univ (fun i : Fin 19 => (atPos ER (kcell (c, i)) 0 ∅ 0 : sProp 𝕄)) (fun i => reached ER (kcell (c, i)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun i : Fin 19 => (atPos ER (kcell (c, i)) 0 ∅ 0 : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.AR

end
-- ==== Proof.K.Steps.lean ====
/-
  The protocol's steps, each stated once: an entry signal, the entry wait, a transfer, a receive wait, a send wait. Each
  takes what the step consumes out of a device's state and hands the continuation what the step leaves.
-/
import proofs.«900696_g7700000000000697_dist_ar_v7x_i8_i_m256_n256_bf16_1_alg».proof.Proof.K.Levels

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- The signal's table entry with the partner's partner resolved and the payload spelt out. -/
private theorem payload_bar_res (k : Fin 3) : (Rd (F := F) m).payload (barCell (pr k c)) 0 k
    = iprop((∃ f : Buf (Elt F) (loc1 c), loc1 c ↦[pieceSet (jOf 0 k)]{fullShare} f) ∗ reached ER (recvCell c (jOf 0 k)) 0
      ∗ (∃ f : Buf (Elt F) (loc1 c), loc1 c ↦[pieceSet (jOf 1 k)]{fullShare} f) ∗ reached ER (recvCell c (jOf 1 k)) 0
      ∗ (∃ f : Buf (Elt F) (loc1 c), loc1 c ↦[pieceSet (jOf 2 k)]{fullShare} f) ∗ reached ER (recvCell c (jOf 2 k)) 0) := by
  rw [payload_bar]
  unfold barPay
  rw [pr_pr]
  unfold slotPay
  have h1 : iprop(((∃ f : Buf (Elt F) (loc1 c), loc1 c ↦[pieceSet (jOf 0 k)]{fullShare} f) ∗ reached ER (recvCell c (jOf 0 k)) 0)
      ∗ ((∃ f : Buf (Elt F) (loc1 c), loc1 c ↦[pieceSet (jOf 1 k)]{fullShare} f) ∗ reached ER (recvCell c (jOf 1 k)) 0)
      ∗ ((∃ f : Buf (Elt F) (loc1 c), loc1 c ↦[pieceSet (jOf 2 k)]{fullShare} f) ∗ (reached ER (recvCell c (jOf 2 k)) 0 : sProp 𝕄)))
      ⊢ iprop((∃ f : Buf (Elt F) (loc1 c), loc1 c ↦[pieceSet (jOf 0 k)]{fullShare} f) ∗ reached ER (recvCell c (jOf 0 k)) 0
      ∗ (∃ f : Buf (Elt F) (loc1 c), loc1 c ↦[pieceSet (jOf 1 k)]{fullShare} f) ∗ reached ER (recvCell c (jOf 1 k)) 0
      ∗ (∃ f : Buf (Elt F) (loc1 c), loc1 c ↦[pieceSet (jOf 2 k)]{fullShare} f) ∗ (reached ER (recvCell c (jOf 2 k)) 0 : sProp 𝕄)) := by
    iintro ⟨⟨A, B⟩, ⟨C, D⟩, ⟨E', G⟩⟩
    isplitl [A]; · iexact A
    isplitl [B]; · iexact B
    isplitl [C]; · iexact C
    isplitl [D]; · iexact D
    isplitl [E']; · iexact E'
    iexact G
  have h2 : iprop((∃ f : Buf (Elt F) (loc1 c), loc1 c ↦[pieceSet (jOf 0 k)]{fullShare} f) ∗ reached ER (recvCell c (jOf 0 k)) 0
      ∗ (∃ f : Buf (Elt F) (loc1 c), loc1 c ↦[pieceSet (jOf 1 k)]{fullShare} f) ∗ reached ER (recvCell c (jOf 1 k)) 0
      ∗ (∃ f : Buf (Elt F) (loc1 c), loc1 c ↦[pieceSet (jOf 2 k)]{fullShare} f) ∗ (reached ER (recvCell c (jOf 2 k)) 0 : sProp 𝕄))
      ⊢ iprop(((∃ f : Buf (Elt F) (loc1 c), loc1 c ↦[pieceSet (jOf 0 k)]{fullShare} f) ∗ reached ER (recvCell c (jOf 0 k)) 0)
      ∗ ((∃ f : Buf (Elt F) (loc1 c), loc1 c ↦[pieceSet (jOf 1 k)]{fullShare} f) ∗ reached ER (recvCell c (jOf 1 k)) 0)
      ∗ ((∃ f : Buf (Elt F) (loc1 c), loc1 c ↦[pieceSet (jOf 2 k)]{fullShare} f) ∗ (reached ER (recvCell c (jOf 2 k)) 0 : sProp 𝕄))) := by
    iintro ⟨A, B, C, D, E', G⟩
    isplitl [A B]
    · isplitl [A]; · iexact A
      iexact B
    isplitl [C D]
    · isplitl [C]; · iexact C
      iexact D
    · isplitl [E']; · iexact E'
      iexact G
  exact equiv_iff.mp ⟨h1, h2⟩

/-- A send cell's expected amount, as its wait states it: the source view's credit. -/
private theorem expect_send_src (j : Fin 9) : (Rd (F := F) m).expect (sendCell c j) 0 = (srcM j).view.dmaCredit := by
  rw [expect_send, NN_src]

attribute [local sl_rounds] duties_bar duties_send duties_recv amount_bar amount_send amount_recv expect_bar expect_send_src expect_recv
  payload_bar_res payload_send payload_recv

/-- The entry signal to the partner of pattern `k`: it pays duty `k` of the partner's barrier cell with this device's
    three landing chunks for the transfers the partner will make by that pattern. -/
theorem step_signal (k : Fin 3) {α : Type} {Q : α → sProp 𝕄} {kk : PUnit → Prog (TpuEff nD τ sig (Elt F) Λ₀ .tc) α}
    (O : CellTallies nD τ sig Unit) (W : Waits sig Unit) (n : ℕ) (hn : 1 = n) :
    iprop(records m K ∗ owes (c : Thread nD τ) (O + barTally c k) W ∗ dutyTok ER (barCell (pr k c)) 0 k
        ∗ (∃ f : Buf (Elt F) (loc1 c), loc1 c ↦[pieceSet (jOf 0 k)]{fullShare} f)
        ∗ (∃ f : Buf (Elt F) (loc1 c), loc1 c ↦[pieceSet (jOf 1 k)]{fullShare} f)
        ∗ (∃ f : Buf (Elt F) (loc1 c), loc1 c ↦[pieceSet (jOf 2 k)]{fullShare} f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal ((pr k c : Dev nD) : Thread nD τ) barS n) kk) Q) := by
  subst hn
  unfold barTally
  iintro ⟨#Hrec, HL, Htok, Hf0, Hf1, Hf2⟩ Hk
  ihave #Hinv := (inv_bar m K (pr k c)) $$ Hrec
  ihave #Hrb := (rch_bar m K (pr k c)) $$ Hrec
  ihave #Hr0 := (rch_recv m K c (jOf 0 k)) $$ Hrec
  ihave #Hr1 := (rch_recv m K c (jOf 1 k)) $$ Hrec
  ihave #Hr2 := (rch_recv m K c (jOf 2 k)) $$ Hrec
  sl_exec
  iapply Hk
  iassumption

/-- The three partners' payloads are the nine lent landing chunks, one per transfer. -/
private theorem bar_rest_slots :
    iprop(barPay (F := F) c 0 ∗ barPay (F := F) c 1 ∗ barPay (F := F) c 2) ⊢ gSlot (F := F) c allJ := by
  show _ ⊢ iprop(slotPay (F := F) (pr (kOf 0) c) 0 ∗ slotPay (F := F) (pr (kOf 1) c) 1 ∗ slotPay (F := F) (pr (kOf 2) c) 2
    ∗ slotPay (F := F) (pr (kOf 3) c) 3 ∗ slotPay (F := F) (pr (kOf 4) c) 4 ∗ slotPay (F := F) (pr (kOf 5) c) 5
    ∗ slotPay (F := F) (pr (kOf 6) c) 6 ∗ slotPay (F := F) (pr (kOf 7) c) 7 ∗ slotPay (F := F) (pr (kOf 8) c) 8)
  unfold barPay
  iintro ⟨⟨H0, H5, H7⟩, ⟨H1, H3, H8⟩, ⟨H2, H4, H6⟩⟩
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  · iexact H8

/-- The entry wait for the three partners' units: their landing chunks come with it. -/
theorem step_barwait {α : Type} {Q : α → sProp 𝕄} {kk : PUnit → Prog (TpuEff nD τ sig (Elt F) Λ₀ .tc) α}
    (W : Waits sig Unit) (n : ℕ) (hn : 3 = n) :
    iprop(records m K ∗ levAts L lv ∗ atPos ER (barCell c) 0 ∅ 0 ∗ cred (tallyAt (barCell c) () 3) ∗ owes (c : Thread nD τ) (OR c 9) W)
      ⊢ iprop(((owes (c : Thread nD τ) (OR c 9) (insert (SemLoc.reg barS, ()) W) ∗ atPos ER (barCell c) 1 ∅ 0 ∗ gSlot (F := F) c allJ)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS n) kk) Q) := by
  subst hn
  have hrest : bigSep Finset.univ (fun d => (Rd (F := F) m).payload (barCell c) 0 d) ⊢ gSlot (F := F) c allJ := by
    rw [bigSep_univ_eq_bigSepL [(0 : Fin 3), 1, 2] (by decide) (by decide), bigSepL_cons_cons, bigSepL_cons_cons, bigSepL_singleton,
      payload_bar, payload_bar, payload_bar]
    exact bar_rest_slots c
  iintro ⟨#Hrec, #Hlev, Hat, Hcr, HL⟩ Hk
  ihave #Hinv := (inv_bar m K c) $$ Hrec
  ihave #Hmw := (mayWait_bar c) $$ Hlev
  sl_exec
  iapply Hk
  isplitl [HL]
  · iexact HL
  isplitl [Hat]
  · iexact Hat
  · iapply hrest $$ Hat_pay1

/-- The stored source chunk makes the send cell's payload. -/
private theorem send_pay (j : Fin 9) :
    (((srcM j).view.loc (c : Thread nD τ)) ↦[(srcM j).view.set]{fullShare} (sbuf m (sOf j) c) : sProp 𝕄)
      ⊢ (Rd (F := F) m).payload (sendCell c j) 0 0 := by
  rw [payload_send, src_set]
  unfold sendPay
  iintro H
  iexists (sbuf m (sOf j) c)
  iexact H

/-- The partner's landing chunk, written with the stored source chunk, makes the partner's receive cell's payload. -/
private theorem recv_pay (j : Fin 9) (fd : Buf (Elt F) (((pr (kOf j) c : Dev nD) : Thread nD τ).loc cc0_scratch1)) :
    (((dstM j).view.loc ((pr (kOf j) c : Dev nD) : Thread nD τ)) ↦[(dstM j).view.set]{fullShare}
        ((dstM j).view.write (Elt F) fd ((srcM j).view.read (Elt F) (sbuf m (sOf j) c)) Finset.univ) : sProp 𝕄)
      ⊢ (Rd (F := F) m).payload (recvCell (pr (kOf j) c) j) 0 0 := by
  rw [payload_recv, dst_set]
  unfold recvPay
  rw [pointsTo_congr (land m j c fd)]

/-- Sending transfer \`j\` with \`r\` transfers still to send after it peels its credit off what is owed. -/
private theorem OR_peel (j : Fin 9) (r : ℕ) (hr : r + j.val = 8) :
    OR c (r + 1) = OR c r + tallyAt (recvCell (pr (kOf j) c) j) () (NN j) := by
  have hj : (⟨9 - (r + 1), by omega⟩ : Fin 9) = j := Fin.ext (by show 9 - (r + 1) = j.val; omega)
  show OR c r + sendTally c ⟨9 - (r + 1), _⟩ = _
  rw [hj]
  rfl

/-- Transfer `j`, addressed to `n = pr (kOf j) c`: the stored source chunk is lent to the send cell, the partner's landing
    chunk is written and handed to its receive cell, the transfer's credit comes off what is owed. -/
theorem step_send (j : Fin 9) (n : Dev nD) (hn : n = pr (kOf j) c)
    {hsc : (dstM j : Memref sig (Dev.tc n : Thread nD τ).2.kind .vmem (chS j) .bf16).view.ref.isScScratch = false}
    {hsrc : (srcM j).view.WordExact} {hdst : (dstM j).view.WordExact}
    {hsem : DmaTarget.Typed .vmem (.dma (rSem j)) (.remote (Dev.tc n : Thread nD τ) (dstM j) (.dma (sSem j)) hsc)}
    {α : Type} {Q : α → sProp 𝕄} {kk : PUnit → Prog (TpuEff nD τ sig (Elt F) Λ₀ .tc) α}
    (r : ℕ) (hr : r + j.val = 8) (W : Waits sig Unit) :
    iprop(records m K ∗ (loc0 c ↦[pieceSet j]{fullShare} sbuf m (sOf j) c) ∗ slotPay (F := F) (pr (kOf j) c) j
        ∗ owes (c : Thread nD τ) (OR c (r + 1)) W
        ∗ dutyTok ER (recvCell (pr (kOf j) c) j) 0 0 ∗ dutyTok ER (sendCell c j) 0 0)
      ⊢ iprop(((cred (tallyAt (sendCell c j) () (NN j)) ∗ owes (c : Thread nD τ) (OR c r) W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (srcM j) (.remote (Dev.tc n : Thread nD τ) (dstM j) (.dma (sSem j)) hsc) (.dma (rSem j)) hsrc hdst hsem) kk) Q) := by
  subst hn
  have hs : (loc0 c ↦[pieceSet j]{fullShare} sbuf m (sOf j) c : sProp 𝕄)
      ⊢ ((srcM j).view.loc (c : Thread nD τ) ↦[(srcM j).view.set]{fullShare} sbuf m (sOf j) c) := by
    rw [src_set]
  have hd : ∀ fd : Buf (Elt F) (((pr (kOf j) c : Dev nD) : Thread nD τ).loc cc0_scratch1),
      ((((pr (kOf j) c : Dev nD) : Thread nD τ).loc cc0_scratch1) ↦[pieceSet j]{fullShare} fd : sProp 𝕄)
        ⊢ ((dstM j).view.loc ((pr (kOf j) c : Dev nD) : Thread nD τ) ↦[(dstM j).view.set]{fullShare} fd) := by
    intro fd
    rw [dst_set]
  iintro ⟨#Hrec, Hsrc, Hslot, HL, Htok2, Htok1⟩ Hk
  unfold slotPay
  icases Hslot with ⟨⟨%fd, Hdst⟩, #Hr2⟩
  iapply (Rounds.wp_send_pointsTo 𝒱₀ ER (Rd (F := F) m) (c : Thread nD τ) none (c' := ((pr (kOf j) c : Dev nD) : Thread nD τ))
    (src := srcM j) (dst := dstM j) (sS := .dma (sSem j)) (sem := .dma (rSem j)) (q := fullShare) (fs := sbuf m (sOf j) c) (fd := fd)
    (κ₁ := K (c, iSend j)) (κ₂ := K (pr (kOf j) c, iRecv j)) (r₁ := 0) (r₂ := 0) (d₁ := 0) (d₂ := 0)
    (by rw [duties_send]; exact Finset.mem_singleton_self _) (by rw [duties_recv]; exact Finset.mem_singleton_self _)
    () () (NN j) rfl (amount_send m c j 0) (amount_recv m (pr (kOf j) c) j 0) (OR c r) (OR_peel c j r hr)
    (send_pay m c j) (recv_pay m c j fd)) $$ [Hsrc Hdst HL Htok1 Htok2] [Hk]
  · isplitr
    · iapply (inv_send m K c j) $$ Hrec
    isplitr
    · iapply (inv_recv m K (pr (kOf j) c) j) $$ Hrec
    isplitl [Hsrc]
    · iapply hs $$ Hsrc
    isplitl [Hdst]
    · iapply (hd fd) $$ Hdst
    isplitl [HL]
    · iexact HL
    isplitl [Htok1]
    · iexact Htok1
    isplitr
    · iapply (rch_send m K c j) $$ Hrec
    isplitl [Htok2]
    · iexact Htok2
    · iexact Hr2
  · iexact Hk

/-- The receive wait of transfer `j`: the landing chunk comes back holding the slab received on its rows. -/
theorem step_rwait (j : Fin 9) {sp' : Space} {s' : Shape} {e' : EltTy} {src : Memref sig .tc sp' s' e'}
    {hsrc : src.view.WordExact} {hdst : (dstM j).view.WordExact}
    {α : Type} {Q : α → sProp 𝕄} {kk : PUnit → Prog (TpuEff nD τ sig (Elt F) Λ₀ .tc) α}
    (O : CellTallies nD τ sig Unit) (hO : O = OR c (6 - 3 * (sOf j).val)) (W : Waits sig Unit) :
    iprop(records m K ∗ levAts L lv ∗ atPos ER (recvCell c j) 0 ∅ 0 ∗ cred (tallyAt (recvCell c j) () (NN j)) ∗ owes (c : Thread nD τ) O W)
      ⊢ iprop(((owes (c : Thread nD τ) O (insert (SemLoc.dma (rSem j), ()) W) ∗ atPos ER (recvCell c j) 1 ∅ 0 ∗ recvPay m c j)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rSem j) src (dstM j) hsrc hdst) kk) Q) := by
  subst hO
  iintro ⟨#Hrec, #Hlev, Hat, Hcr, HL⟩ Hk
  ihave #Hinv := (inv_recv m K c j) $$ Hrec
  ihave #Hmw := (mayWait_recv c j) $$ Hlev
  sl_exec
  iapply Hk
  isplitl [HL]
  · iexact HL
  isplitl [Hat]
  · iexact Hat
  · iexact Hat_pay1

/-- The send wait of transfer `j`, owing nothing: the source chunk comes back. -/
theorem step_swait (j : Fin 9) {sp' : Space} {s' : Shape} {e' : EltTy} {src : Memref sig .tc sp' s' e'}
    {hsrc : src.view.WordExact} {hdst : (srcM j).view.WordExact}
    {α : Type} {Q : α → sProp 𝕄} {kk : PUnit → Prog (TpuEff nD τ sig (Elt F) Λ₀ .tc) α}
    (W : Waits sig Unit) :
    iprop(records m K ∗ atPos ER (sendCell c j) 0 ∅ 0 ∗ cred (tallyAt (sendCell c j) () (NN j)) ∗ owes (c : Thread nD τ) (OR c 0) W)
      ⊢ iprop(((owes (c : Thread nD τ) (OR c 0) (insert (SemLoc.dma (sSem j), ()) W) ∗ atPos ER (sendCell c j) 1 ∅ 0 ∗ sendPay (F := F) c j)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sSem j) src (srcM j) hsrc hdst) kk) Q) := by
  have hmw : ⊢ (MayWait (c : Thread nD τ) (.dma (sSem j)) () (OR c 0) : sProp 𝕄) := by
    have hz : (MayWait (c : Thread nD τ) (.dma (sSem j)) () (OR c 0) : sProp 𝕄) = BI.emp := MayWait_zero _ _ _
    rw [hz]
    exact .rfl
  have hcr : (cred (tallyAt (sendCell c j) () (NN j)) : sProp 𝕄) ⊢ cred (tallyAt (sendCell c j) () (srcM j).view.dmaCredit) := by
    rw [NN_src]
  iintro ⟨#Hrec, Hat, Hcr, HL⟩ Hk
  ihave #Hinv := (inv_send m K c j) $$ Hrec
  ihave #Hmw := hmw
  ihave Hcr := hcr $$ Hcr
  sl_exec
  iapply Hk
  isplitl [HL]
  · iexact HL
  isplitl [Hat]
  · iexact Hat
  · iexact Hat_pay1

end Cert.Kernel.AR

end
-- ==== Proof.K.Init.lean ====
/-
  What the body obligation hands a device's body is the first state: the send buffer cut into its slabs, the receive buffer
  into the nine landing chunks the three entry signals lend out, the ghost state regrouped by transfer.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain is its head beside the chain of the rest; the empty chain is `emp`. -/
private theorem bsl_cc {I : Type} (i j : I) (l : List I) (Φ : I → sProp 𝕄) :
    bigSepL (i :: j :: l) Φ = iprop(Φ i ∗ bigSepL (j :: l) Φ) := rfl
private theorem bsl_nil {I : Type} (Φ : I → sProp 𝕄) : bigSepL [] Φ = iprop(emp) := rfl

/-- The receive buffer whole is its nine landing chunks, grouped by the pattern of the transfer that will write each. -/
private theorem rbuf_chunks (f : Buf (Elt F) (loc1 c)) :
    (loc1 c ↦{fullShare} f : sProp 𝕄) ⊢
      iprop(((loc1 c ↦[pieceSet (jOf 0 0)]{fullShare} f) ∗ (loc1 c ↦[pieceSet (jOf 1 0)]{fullShare} f) ∗ (loc1 c ↦[pieceSet (jOf 2 0)]{fullShare} f))
        ∗ ((loc1 c ↦[pieceSet (jOf 0 1)]{fullShare} f) ∗ (loc1 c ↦[pieceSet (jOf 1 1)]{fullShare} f) ∗ (loc1 c ↦[pieceSet (jOf 2 1)]{fullShare} f))
        ∗ ((loc1 c ↦[pieceSet (jOf 0 2)]{fullShare} f) ∗ (loc1 c ↦[pieceSet (jOf 1 2)]{fullShare} f) ∗ (loc1 c ↦[pieceSet (jOf 2 2)]{fullShare} f))) := by
  have h0 : (loc1 c ↦[slabSet 0]{fullShare} f : sProp 𝕄) ⊢ _ := (rslab_pieces c 0 f).1
  have h1 : (loc1 c ↦[slabSet 1]{fullShare} f : sProp 𝕄) ⊢ _ := (rslab_pieces c 1 f).1
  have h2 : (loc1 c ↦[slabSet 2]{fullShare} f : sProp 𝕄) ⊢ _ := (rslab_pieces c 2 f).1
  rw [show jAt 0 0 = jOf 0 0 from by decide, show jAt 0 1 = jOf 0 1 from by decide, show jAt 0 2 = jOf 0 2 from by decide] at h0
  rw [show jAt 1 0 = jOf 1 1 from by decide, show jAt 1 1 = jOf 1 2 from by decide, show jAt 1 2 = jOf 1 0 from by decide] at h1
  rw [show jAt 2 0 = jOf 2 2 from by decide, show jAt 2 1 = jOf 2 0 from by decide, show jAt 2 2 = jOf 2 1 from by decide] at h2
  have hw : (loc1 c ↦{fullShare} f : sProp 𝕄) ⊢ _ := (rbuf_slabs c f).1
  iintro H
  ihave H := hw $$ H
  icases H with ⟨H0, H1, H2⟩
  ihave H0 := h0 $$ H0
  ihave H1 := h1 $$ H1
  ihave H2 := h2 $$ H2
  icases H0 with ⟨A0, A1, A2⟩
  icases H1 with ⟨B1, B2, B0⟩
  icases H2 with ⟨C2, C0, C1⟩
  isplitl [A0 B0 C0]
  · isplitl [A0]; · iexact A0
    isplitl [B0]; · iexact B0
    iexact C0
  isplitl [A1 B1 C1]
  · isplitl [A1]; · iexact A1
    isplitl [B1]; · iexact B1
    iexact C1
  isplitl [A2]; · iexact A2
  isplitl [B2]; · iexact B2
  iexact C2

theorem init_state : bodyPre m K c ⊢ St m c K (B c 0) := by
  unfold bodyPre ghost St B
  simp only []
  unfold gBar gBarPos gTok gSlot gRW gRD gLand gRSlab gSPiece gSSlab gCred gSW gSD gOut Dat.owesAt Pipeline.owesWithin
  simp only [bsl_cc, bigSepL_singleton, bsl_nil, Bool.false_eq_true, ↓reduceIte]
  have hs : ∀ fs : Buf (Elt F) (loc0 c), (loc0 c ↦{fullShare} fs : sProp 𝕄) ⊢ _ := fun fs => (sbuf_slabs c fs).1
  iintro ⟨⟨⟨#Hrec, Hbar, Hsw, ⟨Hr0, Hr1, Hr2, Hr3, Hr4, Hr5, Hr6, Hr7, Hr8⟩, ⟨Ht0, Ht1, Ht2⟩, HgTok⟩, Hcb,
    ⟨Hc0, Hc1, Hc2, Hc3, Hc4, Hc5, Hc6, Hc7, Hc8⟩, #Hlev, ⟨%fs, Hsb⟩, ⟨%fr, Hrb⟩⟩, ⟨%W, %hW, HO⟩, ⟨%d0, %g0, %hg0, Hx⟩, ⟨%d1, %g1, %hg1, Hout⟩⟩
  have hx : g0 = X m c := by rw [hg0]; unfold Dat.before; rw [if_pos (Gen.fetch0_0 t0_0)]; rfl
  subst hx
  ihave Hs := (hs fs) $$ Hsb
  icases Hs with ⟨HS0, HS1, HS2⟩
  ihave Hr := (rbuf_chunks c fr) $$ Hrb
  icases Hr with ⟨⟨A0, B0, C0⟩, ⟨A1, B1, C1⟩, ⟨A2, B2, C2⟩⟩
  isplitr; · iexact Hrec
  isplitr; · iexact Hlev
  isplitl [HO]; · iexists W; iexact HO
  isplitl [Ht0 Ht1 Ht2 A0 B0 C0 A1 B1 C1 A2 B2 C2]
  · isplitl [Ht0 A0 B0 C0]
    · isplitl [Ht0]; · iexact Ht0
      isplitl [A0]; · iexists fr; iexact A0
      isplitl [B0]; · iexists fr; iexact B0
      iexists fr; iexact C0
    isplitl [Ht1 A1 B1 C1]
    · isplitl [Ht1]; · iexact Ht1
      isplitl [A1]; · iexists fr; iexact A1
      isplitl [B1]; · iexists fr; iexact B1
      iexists fr; iexact C1
    isplitl [Ht2]; · iexact Ht2
    isplitl [A2]; · iexists fr; iexact A2
    isplitl [B2]; · iexists fr; iexact B2
    iexists fr; iexact C2
  isplitl [Hbar Hcb]
  · isplitl [Hbar]; · iexact Hbar
    iexact Hcb
  isplitl [HgTok]; · iexact HgTok
  isplitr; · iempintro
  isplitl [Hr0 Hr1 Hr2 Hr3 Hr4 Hr5 Hr6 Hr7 Hr8 Hc0 Hc1 Hc2 Hc3 Hc4 Hc5 Hc6 Hc7 Hc8]
  · isplitl [Hr0 Hc0]; · (isplitl [Hr0]; · iexact Hr0); iexact Hc0
    isplitl [Hr1 Hc1]; · (isplitl [Hr1]; · iexact Hr1); iexact Hc1
    isplitl [Hr2 Hc2]; · (isplitl [Hr2]; · iexact Hr2); iexact Hc2
    isplitl [Hr3 Hc3]; · (isplitl [Hr3]; · iexact Hr3); iexact Hc3
    isplitl [Hr4 Hc4]; · (isplitl [Hr4]; · iexact Hr4); iexact Hc4
    isplitl [Hr5 Hc5]; · (isplitl [Hr5]; · iexact Hr5); iexact Hc5
    isplitl [Hr6 Hc6]; · (isplitl [Hr6]; · iexact Hr6); iexact Hc6
    isplitl [Hr7 Hc7]; · (isplitl [Hr7]; · iexact Hr7); iexact Hc7
    (isplitl [Hr8]; · iexact Hr8); iexact Hc8
  isplitr; · iempintro
  isplitr; · iempintro
  isplitr; · iempintro
  isplitr; · iempintro
  isplitl [HS0 HS1 HS2]
  · isplitl [HS0]; · iexists fs; iexact HS0
    isplitl [HS1]; · iexists fs; iexact HS1
    iexists fs; iexact HS2
  isplitr; · iempintro
  isplitl [Hsw]; · iexact Hsw
  isplitr; · iempintro
  isplitl [Hx]
  · iexists _; isplitr; · (ipureintro; rfl)
    iexact Hx
  iexists g1; iexact Hout

/-- info: 'Cert.Kernel.AR.init_state' depends on axioms: [propext, Classical.choice, Quot.sound] -/
#guard_msgs in #print axioms init_state

end Cert.Kernel.AR

end
-- ==== Proof.K.Fin.lean ====
/-
  The last state gives the body's post: the eighteen own cells, each a round on with no round left, close and hand their
  counters back at zero; the nine source chunks and the three received slabs rejoin into the two scratch buffers.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain is its head beside the chain of the rest; the empty chain is `emp`. -/
private theorem bsl_cc {I : Type} (i j : I) (l : List I) (Φ : I → sProp 𝕄) :
    bigSepL (i :: j :: l) Φ = iprop(Φ i ∗ bigSepL (j :: l) Φ) := rfl
private theorem bsl_nil {I : Type} (Φ : I → sProp 𝕄) : bigSepL [] Φ = iprop(emp) := rfl

/-- A receive cell a round on, with no round left, closes: its counter comes back at zero. -/
private theorem close_recv (j : Fin 9) :
    iprop(records m K ∗ atPos ER (recvCell c j) 1 ∅ 0) ⊢ (iprop(|={Set.univ}=> semVal (recvCell c j) 0) : sProp 𝕄) := by
  have hi := inv_recv m K c j
  have hc := Rounds.cell_close ER (Rd m) (Set.mem_univ (K (c, iRecv j))) (fun h => h) (R := 0 + 1) (duties_later m (recvCell c j))
  iintro ⟨#Hrec, Hat⟩
  iapply hc
  isplitr
  · iapply hi; iexact Hrec
  iexact Hat

/-- A send cell a round on, with no round left, closes the same way. -/
private theorem close_send (j : Fin 9) :
    iprop(records m K ∗ atPos ER (sendCell c j) 1 ∅ 0) ⊢ (iprop(|={Set.univ}=> semVal (sendCell c j) 0) : sProp 𝕄) := by
  have hi := inv_send m K c j
  have hc := Rounds.cell_close ER (Rd m) (Set.mem_univ (K (c, iSend j))) (fun h => h) (R := 0 + 1) (duties_later m (sendCell c j))
  iintro ⟨#Hrec, Hat⟩
  iapply hc
  isplitr
  · iapply hi; iexact Hrec
  iexact Hat

/-- Every receive cell of a list closes. -/
private theorem close_recvs (js : List (Fin 9)) :
    iprop(records m K ∗ gRD (F := F) c js) ⊢ (iprop(|={Set.univ}=> (bigSepL js fun j => semVal (recvCell c j) 0)) : sProp 𝕄) := by
  unfold gRD
  induction js with
  | nil => iintro -; imodintro; rw [bsl_nil]; iempintro
  | cons j js ih =>
    rw [bigSepL_cons, bigSepL_cons]
    have h1 := close_recv m K c j
    refine (show iprop(records m K ∗ (atPos ER (recvCell c j) 1 ∅ 0) ∗ bigSepL js fun j => atPos ER (recvCell c j) 1 ∅ 0)
      ⊢ iprop(|={Set.univ}=> ((semVal (recvCell c j) 0) ∗ bigSepL js fun j => semVal (recvCell c j) 0)) from ?_)
    iintro ⟨#Hrec, Hat, Hrest⟩
    imod h1 $$ [Hat] with Hz
    · isplitr; · iexact Hrec
      iexact Hat
    imod ih $$ [Hrest] with Hzs
    · isplitr; · iexact Hrec
      iexact Hrest
    imodintro
    isplitl [Hz]; · iexact Hz
    iexact Hzs

/-- Every send cell of a list closes, and the source chunks it handed back stay. -/
private theorem close_sends (js : List (Fin 9)) :
    iprop(records m K ∗ gSD (F := F) c js)
      ⊢ (iprop(|={Set.univ}=> ((bigSepL js fun j => semVal (sendCell c j) 0) ∗ bigSepL js fun j => sendPay (F := F) c j)) : sProp 𝕄) := by
  unfold gSD
  induction js with
  | nil => iintro -; imodintro; rw [bsl_nil, bsl_nil]; isplitr <;> iempintro
  | cons j js ih =>
    rw [bigSepL_cons, bigSepL_cons, bigSepL_cons]
    have h1 := close_send m K c j
    refine (show iprop(records m K ∗ (atPos ER (sendCell c j) 1 ∅ 0 ∗ sendPay (F := F) c j) ∗ bigSepL js fun j => iprop(atPos ER (sendCell c j) 1 ∅ 0 ∗ sendPay (F := F) c j))
      ⊢ iprop(|={Set.univ}=> (((semVal (sendCell c j) 0) ∗ bigSepL js fun j => semVal (sendCell c j) 0) ∗ ((sendPay (F := F) c j) ∗ bigSepL js fun j => sendPay (F := F) c j))) from ?_)
    iintro ⟨#Hrec, ⟨Hat, Hp⟩, Hrest⟩
    imod h1 $$ [Hat] with Hz
    · isplitr; · iexact Hrec
      iexact Hat
    imod ih $$ [Hrest] with ⟨Hzs, Hps⟩
    · isplitr; · iexact Hrec
      iexact Hrest
    imodintro
    isplitl [Hz Hzs]
    · isplitl [Hz]; · iexact Hz
      iexact Hzs
    isplitl [Hp]; · iexact Hp
    iexact Hps

/-- The rows of the three chunks of a slab. -/
private theorem rows0 (s : Fin 3) : row0 (jAt s 0) = 0 ∧ nrow (jAt s 0) = 96 := by revert s; decide
private theorem rows1 (s : Fin 3) : row0 (jAt s 1) = 96 ∧ nrow (jAt s 1) = 80 := by revert s; decide
private theorem rows2 (s : Fin 3) : row0 (jAt s 2) = 176 ∧ nrow (jAt s 2) = 80 := by revert s; decide

/-- Three row chunks of one slab of the send buffer, each at whatever it holds, are the slab at some contents. -/
private theorem join_chunks (s : Fin 3) (fa fb fc : Buf (Elt F) (loc0 c)) :
    iprop((loc0 c ↦[pieceSet (jAt s 0)]{fullShare} fa) ∗ (loc0 c ↦[pieceSet (jAt s 1)]{fullShare} fb) ∗ (loc0 c ↦[pieceSet (jAt s 2)]{fullShare} fc))
      ⊢ (iprop(∃ g : Buf (Elt F) (loc0 c), loc0 c ↦[slabSet s]{fullShare} g) : sProp 𝕄) := by
  let g : Buf (Elt F) (loc0 c) := fun i => if (i 1).val < 96 then fa i else if (i 1).val < 176 then fb i else fc i
  have ea : (loc0 c ↦[pieceSet (jAt s 0)]{fullShare} fa : sProp 𝕄) = loc0 c ↦[pieceSet (jAt s 0)]{fullShare} g :=
    pointsTo_congr fun i hi => by
      have h := (mem_pieceSet (jAt s 0) i).mp hi
      have r := rows0 s
      rw [r.1, r.2] at h
      show fa i = if (i 1).val < 96 then fa i else if (i 1).val < 176 then fb i else fc i
      rw [if_pos (by omega)]
  have eb : (loc0 c ↦[pieceSet (jAt s 1)]{fullShare} fb : sProp 𝕄) = loc0 c ↦[pieceSet (jAt s 1)]{fullShare} g :=
    pointsTo_congr fun i hi => by
      have h := (mem_pieceSet (jAt s 1) i).mp hi
      have r := rows1 s
      rw [r.1, r.2] at h
      show fb i = if (i 1).val < 96 then fa i else if (i 1).val < 176 then fb i else fc i
      rw [if_neg (by omega), if_pos (by omega)]
  have ec : (loc0 c ↦[pieceSet (jAt s 2)]{fullShare} fc : sProp 𝕄) = loc0 c ↦[pieceSet (jAt s 2)]{fullShare} g :=
    pointsTo_congr fun i hi => by
      have h := (mem_pieceSet (jAt s 2) i).mp hi
      have r := rows2 s
      rw [r.1, r.2] at h
      show fc i = if (i 1).val < 96 then fa i else if (i 1).val < 176 then fb i else fc i
      rw [if_neg (by omega), if_neg (by omega)]
  have hj : _ ⊢ (loc0 c ↦[slabSet s]{fullShare} g : sProp 𝕄) := (sslab_pieces c s g).2
  rw [ea, eb, ec]
  iintro H
  iexists g
  iapply hj
  iexact H

/-- The three slabs of the send buffer, each at whatever it holds, are the buffer at some contents. -/
private theorem join_sslabs (f0 f1 f2 : Buf (Elt F) (loc0 c)) :
    iprop((loc0 c ↦[slabSet 0]{fullShare} f0) ∗ (loc0 c ↦[slabSet 1]{fullShare} f1) ∗ (loc0 c ↦[slabSet 2]{fullShare} f2))
      ⊢ (iprop(∃ g : Buf (Elt F) (loc0 c), loc0 c ↦{fullShare} g) : sProp 𝕄) := by
  let g : Buf (Elt F) (loc0 c) := fun i => if (i 0).val = 0 then f0 i else if (i 0).val = 1 then f1 i else f2 i
  have e0 : (loc0 c ↦[slabSet 0]{fullShare} f0 : sProp 𝕄) = loc0 c ↦[slabSet 0]{fullShare} g :=
    pointsTo_congr fun i hi => by
      have h : (i 0).val = 0 := (mem_slabSet 0 i).mp hi
      show f0 i = if (i 0).val = 0 then f0 i else if (i 0).val = 1 then f1 i else f2 i
      rw [if_pos h]
  have e1 : (loc0 c ↦[slabSet 1]{fullShare} f1 : sProp 𝕄) = loc0 c ↦[slabSet 1]{fullShare} g :=
    pointsTo_congr fun i hi => by
      have h : (i 0).val = 1 := (mem_slabSet 1 i).mp hi
      show f1 i = if (i 0).val = 0 then f0 i else if (i 0).val = 1 then f1 i else f2 i
      rw [if_neg (by omega), if_pos h]
  have e2 : (loc0 c ↦[slabSet 2]{fullShare} f2 : sProp 𝕄) = loc0 c ↦[slabSet 2]{fullShare} g :=
    pointsTo_congr fun i hi => by
      have h : (i 0).val = 2 := (mem_slabSet 2 i).mp hi
      show f2 i = if (i 0).val = 0 then f0 i else if (i 0).val = 1 then f1 i else f2 i
      rw [if_neg (by omega), if_neg (by omega)]
  have hj : _ ⊢ (loc0 c ↦{fullShare} g : sProp 𝕄) := (sbuf_slabs c g).2
  rw [e0, e1, e2]
  iintro H
  iexists g
  iapply hj
  iexact H

/-- The three slabs of the receive buffer, each at what it received, are the buffer at some contents. -/
private theorem join_rslabs (f0 f1 f2 : Buf (Elt F) (loc1 c)) :
    iprop((loc1 c ↦[slabSet 0]{fullShare} f0) ∗ (loc1 c ↦[slabSet 1]{fullShare} f1) ∗ (loc1 c ↦[slabSet 2]{fullShare} f2))
      ⊢ (iprop(∃ g : Buf (Elt F) (loc1 c), loc1 c ↦{fullShare} g) : sProp 𝕄) := by
  let g : Buf (Elt F) (loc1 c) := fun i => if (i 0).val = 0 then f0 i else if (i 0).val = 1 then f1 i else f2 i
  have e0 : (loc1 c ↦[slabSet 0]{fullShare} f0 : sProp 𝕄) = loc1 c ↦[slabSet 0]{fullShare} g :=
    pointsTo_congr fun i hi => by
      have h : (i 0).val = 0 := (mem_slabSet 0 i).mp hi
      show f0 i = if (i 0).val = 0 then f0 i else if (i 0).val = 1 then f1 i else f2 i
      rw [if_pos h]
  have e1 : (loc1 c ↦[slabSet 1]{fullShare} f1 : sProp 𝕄) = loc1 c ↦[slabSet 1]{fullShare} g :=
    pointsTo_congr fun i hi => by
      have h : (i 0).val = 1 := (mem_slabSet 1 i).mp hi
      show f1 i = if (i 0).val = 0 then f0 i else if (i 0).val = 1 then f1 i else f2 i
      rw [if_neg (by omega), if_pos h]
  have e2 : (loc1 c ↦[slabSet 2]{fullShare} f2 : sProp 𝕄) = loc1 c ↦[slabSet 2]{fullShare} g :=
    pointsTo_congr fun i hi => by
      have h : (i 0).val = 2 := (mem_slabSet 2 i).mp hi
      show f2 i = if (i 0).val = 0 then f0 i else if (i 0).val = 1 then f1 i else f2 i
      rw [if_neg (by omega), if_neg (by omega)]
  have hj : _ ⊢ (loc1 c ↦{fullShare} g : sProp 𝕄) := (rbuf_slabs c g).2
  rw [e0, e1, e2]
  iintro H
  iexists g
  iapply hj
  iexact H

/-- The nine source chunks back, each at whatever it holds, are the send buffer whole. -/
private theorem join_sends :
    (bigSepL allJ fun j => sendPay (F := F) c j) ⊢ (iprop(∃ g : Buf (Elt F) (loc0 c), loc0 c ↦{fullShare} g) : sProp 𝕄) := by
  unfold sendPay
  simp only [bsl_cc, bigSepL_singleton]
  have h0 := fun fa fb fc => join_chunks (F := F) c 0 fa fb fc
  have h1 := fun fa fb fc => join_chunks (F := F) c 1 fa fb fc
  have h2 := fun fa fb fc => join_chunks (F := F) c 2 fa fb fc
  iintro ⟨⟨%f0, P0⟩, ⟨%f1, P1⟩, ⟨%f2, P2⟩, ⟨%f3, P3⟩, ⟨%f4, P4⟩, ⟨%f5, P5⟩, ⟨%f6, P6⟩, ⟨%f7, P7⟩, ⟨%f8, P8⟩⟩
  ihave S0 := (h0 f0 f1 f2) $$ [P0 P1 P2]
  · isplitl [P0]; · iexact P0
    isplitl [P1]; · iexact P1
    iexact P2
  ihave S1 := (h1 f3 f4 f5) $$ [P3 P4 P5]
  · isplitl [P3]; · iexact P3
    isplitl [P4]; · iexact P4
    iexact P5
  ihave S2 := (h2 f6 f7 f8) $$ [P6 P7 P8]
  · isplitl [P6]; · iexact P6
    isplitl [P7]; · iexact P7
    iexact P8
  icases S0 with ⟨%g0, S0⟩
  icases S1 with ⟨%g1, S1⟩
  icases S2 with ⟨%g2, S2⟩
  iapply (join_sslabs c g0 g1 g2)
  isplitl [S0]; · iexact S0
  isplitl [S1]; · iexact S1
  iexact S2

/-- The three received slabs are the receive buffer whole. -/
private theorem join_recvs :
    gRSlab m c [0, 1, 2] ⊢ (iprop(∃ g : Buf (Elt F) (loc1 c), loc1 c ↦{fullShare} g) : sProp 𝕄) := by
  unfold gRSlab
  simp only [bsl_cc, bigSepL_singleton]
  exact join_rslabs c (rbuf m 0 c) (rbuf m 1 c) (rbuf m 2 c)

theorem fin_state :
    St m c K (B c 12) ⊢ wp frame (wpE (defs₀ (F := F)) 𝒱₀ (c : Thread nD τ) none) Set.univ (Prog.ret ⟨⟩ : Prog (TpuEff nD τ sig (Elt F) Λ₀ .tc) PUnit) (fun _ => bodyPost m c) := by
  rw [wp_ret]
  unfold St B bodyPost Φ₁ Dat.owesAt Pipeline.owesWithin gOut
  simp only [↓reduceIte]
  rw [show (dats m 0 c).owed t0_0.succ = 0 from rfl, show OR c 0 = 0 from rfl]
  have hr := close_recvs m K c allJ
  have hs := close_sends m K c allJ
  have jr := join_recvs m c
  have js := join_sends (F := F) c
  iintro ⟨#Hrec, -, ⟨%W, HO⟩, -, -, -, -, -, Hrd, -, Hrs, -, -, -, -, Hsd, Hx, Hout⟩
  imod hr $$ [Hrd] with Hzr
  · isplitr; · iexact Hrec
    iexact Hrd
  imod hs $$ [Hsd] with ⟨Hzs, Hps⟩
  · isplitr; · iexact Hrec
    iexact Hsd
  imodintro
  ihave Hsb := js $$ Hps
  ihave Hrb := jr $$ Hrs
  isplitl [Hsb Hrb Hzs Hzr]
  · isplitl [Hsb]; · iexact Hsb
    isplitl [Hrb]; · iexact Hrb
    isplitl [Hzs]; · iexact Hzs
    iexact Hzr
  isplitl [HO]
  · iexists W
    isplitr; · ipureintro; exact fun _ _ => Or.inl trivial
    iexact HO
  isplitl [Hx]; · iexact Hx
  iexact Hout

/-- info: 'Cert.Kernel.AR.fin_state' depends on axioms: [propext, Classical.choice, Quot.sound] -/
#guard_msgs in #print axioms fin_state

end Cert.Kernel.AR

end
-- ==== Proof.K.Part1.lean ====
/-
  Part 1 of the body on device c: the three entry signals, the entry wait, the load of the block, and the store of slab 0 (its load first), which is then cut into its three row chunks.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- The model's separating conjunction and unit are the connectives the notation names. -/
private theorem sep_fold (P Q : sProp 𝕄) : _root_.Idealize.SL.BI.sep P Q = iprop(P ∗ Q) := rfl
private theorem emp_fold : (_root_.Idealize.SL.BI.emp : sProp 𝕄) = iprop(emp) := rfl

/-- The slab stored at step 0, cut into its three row chunks. -/
private theorem cut0 (f : Buf (Elt F) (loc0 c)) :
    (loc0 c ↦[slabSet 0]{fullShare} ((sB.access (slabR 0)).write (Elt F) f (k0_pay2 (xM.view.readAt (Elt F) r0.toLoadRect (X m c))) Finset.univ) : sProp 𝕄)
      ⊢ iprop((loc0 c ↦[pieceSet 0]{fullShare} sbuf m (sOf 0) c) ∗ (loc0 c ↦[pieceSet 1]{fullShare} sbuf m (sOf 1) c)
          ∗ (loc0 c ↦[pieceSet 2]{fullShare} sbuf m (sOf 2) c)) := by
  have e : (loc0 c ↦[slabSet 0]{fullShare} ((sB.access (slabR 0)).write (Elt F) f (sent m 0 c) Finset.univ) : sProp 𝕄)
      = (loc0 c ↦[slabSet 0]{fullShare} sbuf m 0 c) := pointsTo_congr (store_slab m 0 c f)
  rw [read_x]
  show (loc0 c ↦[slabSet 0]{fullShare} ((sB.access (slabR 0)).write (Elt F) f (sent m 0 c) Finset.univ) : sProp 𝕄) ⊢ _
  rw [e]
  exact (sslab_pieces c 0 _).1

theorem part1_run  :
    St m c K (B c 0)
      ⊢ wp frame (wpE (defs₀ (F := F)) 𝒱₀ (c : Thread nD τ) none) Set.univ (k0_part1 xM (Memref.isWhole_whole _) oM (Memref.isWhole_whole _) sB (Memref.isWhole_whole _) rB (Memref.isWhole_whole _) cc0_scratch2 cc0_scratch3)
          (fun r => iprop(⌜r.1 = c ∧ r.2.2.1 = A0 m c⌝ ∗ St m c K (B c 1))) := by
  simp only [k0_part1_eq_skeleton]
  unfold k0_part1_skel
  simp only [semSignalWord, semWaitWord, Prog.lift, Prog.bind_op, Prog.bind_ret, Prog.pure_eq_ret, wp_deviceId]
  simp only [dev1_eq c, dev2_eq c, dev3_eq c]
  unfold St
  simp only [B]
  unfold gBar gBarPos gSSlab gSPiece
  simp only [bigSepL_cons_cons, bigSepL_singleton, bigSepL_nil, sep_fold, emp_fold, Bool.false_eq_true, ↓reduceIte]
  rw [show OBr c 3 = OR c 9 + barTally c 2 + barTally c 1 + barTally c 0 from rfl]
  iintro ⟨#Hrec, #Hlev, ⟨%W, HO⟩, ⟨⟨Ht0, Ha0, Hb0, Hc0⟩, ⟨Ht1, Ha1, Hb1, Hc1⟩, ⟨Ht2, Ha2, Hb2, Hc2⟩⟩, ⟨HatB, HcB⟩, Htok, -, HRW, HRD, Hland, Hrslab, -, ⟨⟨%f0, Hs0⟩, Hs1, Hs2⟩, Hcr, Hsw, Hsd, ⟨%fx, %hfx, Hx⟩, Hout⟩
  subst hfx
  iapply (step_signal m K c 0 (OR c 9 + barTally c 2 + barTally c 1) W _ rfl) $$ [HO Ht0 Ha0 Hb0 Hc0]
  · isplitr; · iexact Hrec
    isplitl [HO]; · iexact HO
    isplitl [Ht0]; · iexact Ht0
    isplitl [Ha0]; · iexact Ha0
    isplitl [Hb0]; · iexact Hb0
    iexact Hc0
  iintro HO
  iapply (step_signal m K c 1 (OR c 9 + barTally c 2) W _ rfl) $$ [HO Ht1 Ha1 Hb1 Hc1]
  · isplitr; · iexact Hrec
    isplitl [HO]; · iexact HO
    isplitl [Ht1]; · iexact Ht1
    isplitl [Ha1]; · iexact Ha1
    isplitl [Hb1]; · iexact Hb1
    iexact Hc1
  iintro HO
  iapply (step_signal m K c 2 (OR c 9) W _ rfl) $$ [HO Ht2 Ha2 Hb2 Hc2]
  · isplitr; · iexact Hrec
    isplitl [HO]; · iexact HO
    isplitl [Ht2]; · iexact Ht2
    isplitl [Ha2]; · iexact Ha2
    isplitl [Hb2]; · iexact Hb2
    iexact Hc2
  iintro HO
  iapply (step_barwait m K c W _ rfl) $$ [HatB HcB HO]
  · isplitr; · iexact Hrec
    isplitr; · iexact Hlev
    isplitl [HatB]; · iexact HatB
    isplitl [HcB]; · iexact HcB
    iexact HO
  iintro ⟨HO, HatB, Hslot⟩
  have hx : (c.tc.loc cc0_stg0_0 ↦{fullShare} X m c : sProp 𝕄) ⊢ (xM.view.loc (c : Thread nD τ) ↦{fullShare} X m c) := .rfl
  have hs : (loc0 c ↦[slabSet 0]{fullShare} f0 : sProp 𝕄) ⊢ ((sB.slice (slabR 0) (fun _ => rfl)).view.loc (c : Thread nD τ) ↦[(sB.slice (slabR 0) (fun _ => rfl)).view.set]{fullShare} f0) := by
    simp only [Memref.view_slice, Memref.view_whole, View.set_slice_whole]; exact .rfl
  ihave Hx' := hx $$ Hx
  ihave Hs0' := hs $$ Hs0
  sl_exec
  have hcut : ((sB.slice (slabR 0) (fun _ => rfl)).view.loc (c : Thread nD τ) ↦[(sB.slice (slabR 0) (fun _ => rfl)).view.set]{fullShare} part1_run.sl.Hs0'_w1 m c f0 : sProp 𝕄)
      ⊢ iprop((loc0 c ↦[pieceSet 0]{fullShare} sbuf m (sOf 0) c) ∗ (loc0 c ↦[pieceSet 1]{fullShare} sbuf m (sOf 1) c)
          ∗ (loc0 c ↦[pieceSet 2]{fullShare} sbuf m (sOf 2) c)) := by
    unfold part1_run.sl.Hs0'_w1
    simp only [Memref.view_slice, Memref.view_whole, View.set_slice_whole]
    exact cut0 m c f0
  have hxb : (xM.view.loc (c : Thread nD τ) ↦{fullShare} X m c : sProp 𝕄) ⊢ (c.tc.loc cc0_stg0_0 ↦{fullShare} X m c) := .rfl
  ihave Hp := hcut $$ Hs0'
  icases Hp with ⟨Hp0, Hp1, Hp2⟩
  ihave Hx := hxb $$ Hx'
  iapply (le_wp_ret _ _)
  isplitr
  · ipureintro; exact ⟨rfl, congrArg k0_pay1 (read_x (F := F) (X m c))⟩
  isplitr; · iexact Hrec
  isplitr; · iexact Hlev
  isplitl [HO]; · iexists _; iexact HO
  isplitr; · iempintro
  isplitl [HatB]; · iexact HatB
  isplitl [Htok]; · iexact Htok
  isplitl [Hslot]; · iexact Hslot
  isplitl [HRW]; · iexact HRW
  isplitl [HRD]; · iexact HRD
  isplitl [Hland]; · iexact Hland
  isplitl [Hrslab]; · iexact Hrslab
  isplitl [Hp0 Hp1 Hp2]
  · isplitl [Hp0]; · iexact Hp0
    isplitl [Hp1]; · iexact Hp1
    iexact Hp2
  isplitl [Hs1 Hs2]
  · isplitl [Hs1]; · iexact Hs1
    iexact Hs2
  isplitl [Hcr]; · iexact Hcr
  isplitl [Hsw]; · iexact Hsw
  isplitl [Hsd]; · iexact Hsd
  isplitl [Hx]
  · iexists _; isplitr; · (ipureintro; rfl)
    iexact Hx
  iexact Hout

end Cert.Kernel.AR

end
-- ==== Proof.K.Part2.lean ====
/-
  Part 2 of the body on device c: transfers 0 and 1.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain opened at its head, spelt with the separating conjunction. -/
private theorem sepL_cc {I : Type} (i j : I) (l : List I) (Φ : I → sProp 𝕄) :
    bigSepL (i :: j :: l) Φ = iprop(Φ i ∗ bigSepL (j :: l) Φ) := rfl
private theorem sepL_one {I : Type} (i : I) (Φ : I → sProp 𝕄) : bigSepL [i] Φ = Φ i := rfl
private theorem sepL_nil {I : Type} (Φ : I → sProp 𝕄) : bigSepL [] Φ = iprop(emp) := rfl

theorem part2_run (v2 : BitVec 32) :
    St m c K (B c 1)
      ⊢ wp frame (wpE (defs₀ (F := F)) 𝒱₀ (c : Thread nD τ) none) Set.univ (k0_part2 xM (Memref.isWhole_whole _) oM (Memref.isWhole_whole _) sB (Memref.isWhole_whole _) rB (Memref.isWhole_whole _) cc0_scratch2 cc0_scratch3 c v2)
          (fun _ => St m c K (B c 2)) := by
  simp only [k0_part2_eq_skeleton]
  unfold k0_part2_skel
  simp only [semSignalWord, semWaitWord, Prog.lift, Prog.bind_op, Prog.bind_ret, Prog.pure_eq_ret, wp_deviceId]
  have es0 : ((cc0_scratch2.slice (Rect.unit (s := S3x3) ![0, 0] ![1, 1] inb_S3x3_S1x1_0_0)).squeeze S_ squeezes_S1x1_S_).sem = sSem 0 := sSemP_eq 0
  have er0 : ((cc0_scratch3.slice (Rect.unit (s := S3x3) ![0, 0] ![1, 1] inb_S3x3_S1x1_0_0)).squeeze S_ squeezes_S1x1_S_).sem = rSem 0 := rSemP_eq 0
  have es1 : ((cc0_scratch2.slice (Rect.unit (s := S3x3) ![0, 1] ![1, 1] inb_S3x3_S1x1_0_1)).squeeze S_ squeezes_S1x1_S_).sem = sSem 1 := sSemP_eq 1
  have er1 : ((cc0_scratch3.slice (Rect.unit (s := S3x3) ![0, 1] ![1, 1] inb_S3x3_S1x1_0_1)).squeeze S_ squeezes_S1x1_S_).sem = rSem 1 := rSemP_eq 1
  simp only [es0, er0, es1, er1]
  unfold St B
  simp only []
  unfold gTok gSlot gSPiece gCred
  simp only [sepL_cc, sepL_one, sepL_nil]
  iintro ⟨#Hrec, #Hlev, ⟨%W, HO⟩, Hbar, Hbarpos, ⟨⟨Htr0, Hts0⟩, ⟨Htr1, Hts1⟩, Htok⟩, ⟨Hs0, Hs1, Hslot⟩, Hrw, Hrd, Hland, Hrslab, ⟨Hp0, Hp1, Hp2⟩, Hsslab, -, Hsw, Hsd, Hx, Hout⟩
  iapply (step_send m K c 0 ⟨k0_dev4 c, k0_dev4_lt c⟩ (dev4_eq c) 8 rfl W) $$ [Hp0 Hs0 HO Htr0 Hts0]
  · isplitr; · iexact Hrec
    isplitl [Hp0]; · iexact Hp0
    isplitl [Hs0]; · iexact Hs0
    isplitl [HO]; · iexact HO
    isplitl [Htr0]; · iexact Htr0
    iexact Hts0
  iintro ⟨Hc0, HO⟩
  iapply (step_send m K c 1 ⟨k0_dev5 c, k0_dev5_lt c⟩ (dev5_eq c) 7 rfl W) $$ [Hp1 Hs1 HO Htr1 Hts1]
  · isplitr; · iexact Hrec
    isplitl [Hp1]; · iexact Hp1
    isplitl [Hs1]; · iexact Hs1
    isplitl [HO]; · iexact HO
    isplitl [Htr1]; · iexact Htr1
    iexact Hts1
  iintro ⟨Hc1, HO⟩
  rw [wp_ret]; imodintro
  isplitr; · iexact Hrec
  isplitr; · iexact Hlev
  isplitl [HO]; · iexists W; iexact HO
  isplitl [Hbar]; · iexact Hbar
  isplitl [Hbarpos]; · iexact Hbarpos
  isplitl [Htok]; · iexact Htok
  isplitl [Hslot]; · iexact Hslot
  isplitl [Hrw]; · iexact Hrw
  isplitl [Hrd]; · iexact Hrd
  isplitl [Hland]; · iexact Hland
  isplitl [Hrslab]; · iexact Hrslab
  isplitl [Hp2]; · iexact Hp2
  isplitl [Hsslab]; · iexact Hsslab
  isplitl [Hc0 Hc1]
  · isplitl [Hc0]; · iexact Hc0
    iexact Hc1
  isplitl [Hsw]; · iexact Hsw
  isplitl [Hsd]; · iexact Hsd
  isplitl [Hx]; · iexact Hx
  iexact Hout

end Cert.Kernel.AR

end
-- ==== Proof.K.Part3.lean ====
/-
  Part 3 of the body on device c: transfer 2 and the receive waits of transfers 0 and 1.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain opened at its head, spelt with the separating conjunction. -/
private theorem sepL_cc {I : Type} (i j : I) (l : List I) (Φ : I → sProp 𝕄) :
    bigSepL (i :: j :: l) Φ = iprop(Φ i ∗ bigSepL (j :: l) Φ) := rfl
private theorem sepL_one {I : Type} (i : I) (Φ : I → sProp 𝕄) : bigSepL [i] Φ = Φ i := rfl
private theorem sepL_nil {I : Type} (Φ : I → sProp 𝕄) : bigSepL [] Φ = iprop(emp) := rfl

theorem part3_run (v19 v30 v41 : BitVec 32) :
    St m c K (B c 2)
      ⊢ wp frame (wpE (defs₀ (F := F)) 𝒱₀ (c : Thread nD τ) none) Set.univ (k0_part3 xM (Memref.isWhole_whole _) oM (Memref.isWhole_whole _) sB (Memref.isWhole_whole _) rB (Memref.isWhole_whole _) cc0_scratch2 cc0_scratch3 c v19 v30 v41)
          (fun _ => St m c K (B c 3)) := by
  simp only [k0_part3_eq_skeleton]
  unfold k0_part3_skel
  simp only [semSignalWord, semWaitWord, Prog.lift, Prog.bind_op, Prog.bind_ret, Prog.pure_eq_ret, wp_deviceId]
  have es2 : ((cc0_scratch2.slice (Rect.unit (s := S3x3) ![0, 2] ![1, 1] inb_S3x3_S1x1_0_2)).squeeze S_ squeezes_S1x1_S_).sem = sSem 2 := sSemP_eq 2
  have er2 : ((cc0_scratch3.slice (Rect.unit (s := S3x3) ![0, 2] ![1, 1] inb_S3x3_S1x1_0_2)).squeeze S_ squeezes_S1x1_S_).sem = rSem 2 := rSemP_eq 2
  have er0 : ((cc0_scratch3.slice (Rect.unit (s := S3x3) ![0, 0] ![1, 1] inb_S3x3_S1x1_0_0)).squeeze S_ squeezes_S1x1_S_).sem = rSem 0 := rSemP_eq 0
  have er1 : ((cc0_scratch3.slice (Rect.unit (s := S3x3) ![0, 1] ![1, 1] inb_S3x3_S1x1_0_1)).squeeze S_ squeezes_S1x1_S_).sem = rSem 1 := rSemP_eq 1
  simp only [es2, er2, er0, er1]
  unfold St B
  simp only []
  unfold gTok gSlot gSPiece gCred gRW gRD gLand
  simp only [sepL_cc, sepL_one, sepL_nil]
  iintro ⟨#Hrec, #Hlev, ⟨%W, HO⟩, Hbar, Hbarpos, ⟨⟨Htr2, Hts2⟩, Htok⟩, ⟨Hs2, Hslot⟩, ⟨⟨Hat0, Hrc0⟩, ⟨Hat1, Hrc1⟩, Hrw⟩, -, -, Hrslab, Hp2, Hsslab, ⟨Hc0, Hc1⟩, Hsw, Hsd, Hx, Hout⟩
  iapply (step_send m K c 2 ⟨k0_dev6 c, k0_dev6_lt c⟩ (dev6_eq c) 6 rfl W) $$ [Hp2 Hs2 HO Htr2 Hts2]
  · isplitr; · iexact Hrec
    isplitl [Hp2]; · iexact Hp2
    isplitl [Hs2]; · iexact Hs2
    isplitl [HO]; · iexact HO
    isplitl [Htr2]; · iexact Htr2
    iexact Hts2
  iintro ⟨Hc2, HO⟩
  iapply (step_rwait m K c 0 (OR c 6) rfl W) $$ [Hat0 Hrc0 HO]
  · isplitr; · iexact Hrec
    isplitr; · iexact Hlev
    isplitl [Hat0]; · iexact Hat0
    isplitl [Hrc0]; · iexact Hrc0
    iexact HO
  iintro ⟨HO, Hat0, Hl0⟩
  iapply (step_rwait m K c 1 (OR c 6) rfl (insert (SemLoc.dma (rSem 0), ()) W)) $$ [Hat1 Hrc1 HO]
  · isplitr; · iexact Hrec
    isplitr; · iexact Hlev
    isplitl [Hat1]; · iexact Hat1
    isplitl [Hrc1]; · iexact Hrc1
    iexact HO
  iintro ⟨HO, Hat1, Hl1⟩
  rw [wp_ret]; imodintro
  isplitr; · iexact Hrec
  isplitr; · iexact Hlev
  isplitl [HO]; · iexists _; iexact HO
  isplitl [Hbar]; · iexact Hbar
  isplitl [Hbarpos]; · iexact Hbarpos
  isplitl [Htok]; · iexact Htok
  isplitl [Hslot]; · iexact Hslot
  isplitl [Hrw]; · iexact Hrw
  isplitl [Hat0 Hat1]
  · isplitl [Hat0]; · iexact Hat0
    iexact Hat1
  isplitl [Hl0 Hl1]
  · isplitl [Hl0]; · iexact Hl0
    iexact Hl1
  isplitl [Hrslab]; · iexact Hrslab
  isplitr; · iempintro
  isplitl [Hsslab]; · iexact Hsslab
  isplitl [Hc0 Hc1 Hc2]
  · isplitl [Hc0]; · iexact Hc0
    isplitl [Hc1]; · iexact Hc1
    iexact Hc2
  isplitl [Hsw]; · iexact Hsw
  isplitl [Hsd]; · iexact Hsd
  isplitl [Hx]; · iexact Hx
  iexact Hout

end Cert.Kernel.AR

end
-- ==== Proof.K.Part4.lean ====
/-
  Part 4 of the body on device c: the receive wait of transfer 2, the three landed chunks joined into slab 0 and loaded, slab 1 stored and cut, transfer 3.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain, spelt with the separating conjunction of the logic. -/
private theorem chain_cons {I : Type} (i j : I) (l : List I) (Φ : I → sProp 𝕄) :
    bigSepL (i :: j :: l) Φ = iprop(Φ i ∗ bigSepL (j :: l) Φ) := rfl
private theorem chain_nil {I : Type} (Φ : I → sProp 𝕄) : bigSepL [] Φ = iprop(emp) := rfl

/-- The three chunks landed at step 0 are slab 0 of the receive buffer, holding the slab received. -/
private theorem join0 :
    iprop(recvPay m c 0 ∗ recvPay m c 1 ∗ recvPay m c 2) ⊢ (loc1 c ↦[slabSet 0]{fullShare} rbuf m 0 c : sProp 𝕄) :=
  (rslab_pieces c 0 (rbuf m 0 c)).2

/-- Slab 1 of the send buffer, stored with the slab of step 1, cut into its three row chunks. -/
private theorem cut1 (f : Buf (Elt F) (loc0 c)) (w : FVec F S1x256x256 .bf16) (hw : w = sent m 1 c) :
    (loc0 c ↦[slabSet 1]{fullShare} ((sB.access (slabR 1)).write (Elt F) f w Finset.univ) : sProp 𝕄)
      ⊢ iprop((loc0 c ↦[pieceSet 3]{fullShare} sbuf m (sOf 3) c) ∗ (loc0 c ↦[pieceSet 4]{fullShare} sbuf m (sOf 4) c)
          ∗ (loc0 c ↦[pieceSet 5]{fullShare} sbuf m (sOf 5) c)) := by
  subst hw
  rw [pointsTo_congr (store_slab m 1 c f)]
  exact (sslab_pieces c 1 (sbuf m 1 c)).1

theorem part4_run (v2 : BitVec 32) :
    St m c K (B c 3)
      ⊢ wp frame (wpE (defs₀ (F := F)) 𝒱₀ (c : Thread nD τ) none) Set.univ (k0_part4 xM (Memref.isWhole_whole _) oM (Memref.isWhole_whole _) sB (Memref.isWhole_whole _) rB (Memref.isWhole_whole _) cc0_scratch2 cc0_scratch3 c v2 (A0 m c))
          (fun r => iprop(⌜r.1 = A1 m c⌝ ∗ St m c K (B c 4))) := by
  simp only [k0_part4_eq_skeleton]
  unfold k0_part4_skel
  simp only [semSignalWord, semWaitWord, Prog.lift, Prog.bind_op, Prog.bind_ret, Prog.pure_eq_ret, wp_deviceId]
  unfold St B gTok gSlot gRW gRD gLand gRSlab gSPiece gSSlab gCred
  simp only [chain_cons, bigSepL_singleton, chain_nil]
  -- the semaphores of the receive wait of transfer 2 and of transfer 3, in closed form
  have er2 : ((SemArray.slice cc0_scratch3 (Rect.unit (s := S3x3) ![0, 2] S1x1.size inb_S3x3_S1x1_0_2)).squeeze S_ squeezes_S1x1_S_).sem = rSem 2 := rSemP_eq 2
  have es3 : ((SemArray.slice cc0_scratch2 (Rect.unit (s := S3x3) ![1, 0] S1x1.size inb_S3x3_S1x1_1_0)).squeeze S_ squeezes_S1x1_S_).sem = sSem 3 := sSemP_eq 3
  have er3 : ((SemArray.slice cc0_scratch3 (Rect.unit (s := S3x3) ![1, 0] S1x1.size inb_S3x3_S1x1_1_0)).squeeze S_ squeezes_S1x1_S_).sem = rSem 3 := rSemP_eq 3
  simp only [er2, es3, er3]
  iintro ⟨#Hrec, #Hlev, ⟨%W, HO⟩, HgBar, HgBarPos, ⟨⟨HtR3, HtS3⟩, Htok⟩, ⟨Hsl3, Hslot⟩, ⟨⟨Hat2, Hrc2⟩, Hrw⟩, ⟨Hrd0, Hrd1⟩,
    ⟨Hl0, Hl1⟩, -, -, ⟨⟨%f1, Hss1⟩, Hss2⟩, ⟨Hcr0, Hcr1, Hcr2⟩, Hsw, Hsd, Hx, Hout⟩
  -- the receive wait of transfer 2: the last landing chunk of step 0 comes back
  iapply (step_rwait m K c 2 (OR c 6) rfl W) $$ [HO Hat2 Hrc2]
  · isplitr; · iexact Hrec
    isplitr; · iexact Hlev
    isplitl [Hat2]; · iexact Hat2
    isplitl [Hrc2]; · iexact Hrc2
    iexact HO
  iintro ⟨HO, Hrd2, Hl2⟩
  -- the three landed chunks are slab 0 of the receive buffer
  ihave Hrs := (join0 m c) $$ [Hl0 Hl1 Hl2]
  · isplitl [Hl0]; · iexact Hl0
    isplitl [Hl1]; · iexact Hl1
    iexact Hl2
  -- the load of slab 0 of the receive buffer: the slab received at step 0
  iapply (wp_load 𝒱₀ (c : Thread nD τ) none Set.univ (m := rB) (loadR_sub 0)) $$ Hrs; iintro Hrs
  -- the load of slab 1 of the send buffer, whose value is not used
  iapply (wp_load 𝒱₀ (c : Thread nD τ) none Set.univ (m := sB) (loadS_sub 1)) $$ Hss1; iintro Hss1
  -- the store of the slab of step 1, then its three row chunks
  iapply (wp_store 𝒱₀ (c : Thread nD τ) none Set.univ (m := sB) (r := slabR 1) (Mk := Finset.univ) (storeS_sub 1)) $$ Hss1; iintro Hss1
  ihave Hp := (cut1 m c f1 _ (congrArg (k0_pay4 (A0 m c)) (load_slab m 0 c))) $$ Hss1
  icases Hp with ⟨Hsp3, Hsp4, Hsp5⟩
  -- transfer 3: row chunk 0 of slab 1, to the partner of pattern 1
  iapply (step_send m K c 3 ⟨k0_dev7 c, k0_dev7_lt c⟩ (dev7_eq c) 5 rfl (insert (SemLoc.dma (rSem 2), ()) W)) $$ [HO Hsp3 Hsl3 HtR3 HtS3]
  · isplitr; · iexact Hrec
    isplitl [Hsp3]; · iexact Hsp3
    isplitl [Hsl3]; · iexact Hsl3
    isplitl [HO]; · iexact HO
    isplitl [HtR3]; · iexact HtR3
    iexact HtS3
  iintro ⟨Hcr3, HO⟩
  rw [wp_ret]; imodintro
  isplitr; · ipureintro; exact congrArg (k0_pay3 (A0 m c)) (load_slab m 0 c)
  isplitr; · iexact Hrec
  isplitr; · iexact Hlev
  isplitl [HO]; · iexists _; iexact HO
  isplitl [HgBar]; · iexact HgBar
  isplitl [HgBarPos]; · iexact HgBarPos
  isplitl [Htok]; · iexact Htok
  isplitl [Hslot]; · iexact Hslot
  isplitl [Hrw]; · iexact Hrw
  isplitl [Hrd0 Hrd1 Hrd2]
  · isplitl [Hrd0]; · iexact Hrd0
    isplitl [Hrd1]; · iexact Hrd1
    iexact Hrd2
  isplitr; · iempintro
  isplitl [Hrs]; · iexact Hrs
  isplitl [Hsp4 Hsp5]
  · isplitl [Hsp4]; · iexact Hsp4
    iexact Hsp5
  isplitl [Hss2]; · iexact Hss2
  isplitl [Hcr0 Hcr1 Hcr2 Hcr3]
  · isplitl [Hcr0]; · iexact Hcr0
    isplitl [Hcr1]; · iexact Hcr1
    isplitl [Hcr2]; · iexact Hcr2
    iexact Hcr3
  isplitl [Hsw]; · iexact Hsw
  isplitl [Hsd]; · iexact Hsd
  isplitl [Hx]; · iexact Hx
  iexact Hout

end Cert.Kernel.AR

end
-- ==== Proof.K.Part5.lean ====
/-
  Part 5 of the body on device c: transfers 4 and 5 and the receive wait of transfer 3.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain, spelt with the separating conjunction of the logic. -/
private theorem chain_cons {I : Type} (i j : I) (l : List I) (Φ : I → sProp 𝕄) :
    bigSepL (i :: j :: l) Φ = iprop(Φ i ∗ bigSepL (j :: l) Φ) := rfl
private theorem chain_nil {I : Type} (Φ : I → sProp 𝕄) : bigSepL [] Φ = iprop(emp) := rfl

theorem part5_run (v2 v84 : BitVec 32) :
    St m c K (B c 4)
      ⊢ wp frame (wpE (defs₀ (F := F)) 𝒱₀ (c : Thread nD τ) none) Set.univ (k0_part5 xM (Memref.isWhole_whole _) oM (Memref.isWhole_whole _) sB (Memref.isWhole_whole _) rB (Memref.isWhole_whole _) cc0_scratch2 cc0_scratch3 c v2 v84)
          (fun _ => St m c K (B c 5)) := by
  simp only [k0_part5_eq_skeleton]
  unfold k0_part5_skel
  simp only [semSignalWord, semWaitWord, Prog.lift, Prog.bind_op, Prog.bind_ret, Prog.pure_eq_ret, wp_deviceId]
  unfold St B gTok gSlot gRW gRD gLand gSPiece gCred
  simp only [chain_cons, bigSepL_singleton, chain_nil]
  -- the semaphores of transfers 4, 5 and 3, in closed form
  have es4 : ((SemArray.slice cc0_scratch2 (Rect.unit (s := S3x3) ![1, 1] S1x1.size inb_S3x3_S1x1_1_1)).squeeze S_ squeezes_S1x1_S_).sem = sSem 4 := sSemP_eq 4
  have er4 : ((SemArray.slice cc0_scratch3 (Rect.unit (s := S3x3) ![1, 1] S1x1.size inb_S3x3_S1x1_1_1)).squeeze S_ squeezes_S1x1_S_).sem = rSem 4 := rSemP_eq 4
  have es5 : ((SemArray.slice cc0_scratch2 (Rect.unit (s := S3x3) ![1, 2] S1x1.size inb_S3x3_S1x1_1_2)).squeeze S_ squeezes_S1x1_S_).sem = sSem 5 := sSemP_eq 5
  have er5 : ((SemArray.slice cc0_scratch3 (Rect.unit (s := S3x3) ![1, 2] S1x1.size inb_S3x3_S1x1_1_2)).squeeze S_ squeezes_S1x1_S_).sem = rSem 5 := rSemP_eq 5
  have er3 : ((SemArray.slice cc0_scratch3 (Rect.unit (s := S3x3) ![1, 0] S1x1.size inb_S3x3_S1x1_1_0)).squeeze S_ squeezes_S1x1_S_).sem = rSem 3 := rSemP_eq 3
  simp only [es4, er4, es5, er5, er3]
  iintro ⟨#Hrec, #Hlev, ⟨%W, HO⟩, HgBar, HgBarPos, ⟨⟨HtR4, HtS4⟩, ⟨HtR5, HtS5⟩, Htok⟩, ⟨Hsl4, Hsl5, Hslot⟩,
    ⟨⟨Hat3, Hrc3⟩, Hrw⟩, ⟨Hrd0, Hrd1, Hrd2⟩, -, Hrslab, ⟨Hsp4, Hsp5⟩, Hsslab, ⟨Hcr0, Hcr1, Hcr2, Hcr3⟩, Hsw, Hsd, Hx, Hout⟩
  -- transfer 4: row chunk 1 of slab 1, to the partner of pattern 2
  iapply (step_send m K c 4 ⟨k0_dev8 c, k0_dev8_lt c⟩ (dev8_eq c) 4 rfl W) $$ [HO Hsp4 Hsl4 HtR4 HtS4]
  · isplitr; · iexact Hrec
    isplitl [Hsp4]; · iexact Hsp4
    isplitl [Hsl4]; · iexact Hsl4
    isplitl [HO]; · iexact HO
    isplitl [HtR4]; · iexact HtR4
    iexact HtS4
  iintro ⟨Hcr4, HO⟩
  -- transfer 5: row chunk 2 of slab 1, to the partner of pattern 0
  iapply (step_send m K c 5 ⟨k0_dev9 c, k0_dev9_lt c⟩ (dev9_eq c) 3 rfl W) $$ [HO Hsp5 Hsl5 HtR5 HtS5]
  · isplitr; · iexact Hrec
    isplitl [Hsp5]; · iexact Hsp5
    isplitl [Hsl5]; · iexact Hsl5
    isplitl [HO]; · iexact HO
    isplitl [HtR5]; · iexact HtR5
    iexact HtS5
  iintro ⟨Hcr5, HO⟩
  -- the receive wait of transfer 3: its landing chunk comes back holding the slab received on rows 0–95
  iapply (step_rwait m K c 3 (OR c 3) rfl W) $$ [HO Hat3 Hrc3]
  · isplitr; · iexact Hrec
    isplitr; · iexact Hlev
    isplitl [Hat3]; · iexact Hat3
    isplitl [Hrc3]; · iexact Hrc3
    iexact HO
  iintro ⟨HO, Hrd3, Hland3⟩
  rw [wp_ret]; imodintro
  isplitr; · iexact Hrec
  isplitr; · iexact Hlev
  isplitl [HO]; · iexists _; iexact HO
  isplitl [HgBar]; · iexact HgBar
  isplitl [HgBarPos]; · iexact HgBarPos
  isplitl [Htok]; · iexact Htok
  isplitl [Hslot]; · iexact Hslot
  isplitl [Hrw]; · iexact Hrw
  isplitl [Hrd0 Hrd1 Hrd2 Hrd3]
  · isplitl [Hrd0]; · iexact Hrd0
    isplitl [Hrd1]; · iexact Hrd1
    isplitl [Hrd2]; · iexact Hrd2
    iexact Hrd3
  isplitl [Hland3]; · iexact Hland3
  isplitl [Hrslab]; · iexact Hrslab
  isplitr; · iempintro
  isplitl [Hsslab]; · iexact Hsslab
  isplitl [Hcr0 Hcr1 Hcr2 Hcr3 Hcr4 Hcr5]
  · isplitl [Hcr0]; · iexact Hcr0
    isplitl [Hcr1]; · iexact Hcr1
    isplitl [Hcr2]; · iexact Hcr2
    isplitl [Hcr3]; · iexact Hcr3
    isplitl [Hcr4]; · iexact Hcr4
    iexact Hcr5
  isplitl [Hsw]; · iexact Hsw
  isplitl [Hsd]; · iexact Hsd
  isplitl [Hx]; · iexact Hx
  iexact Hout

end Cert.Kernel.AR

end
-- ==== Proof.K.Part6.lean ====
/-
  Part 6 of the body on device c: the receive waits of transfers 4 and 5, slab 1 joined and loaded, slab 2 stored and cut.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain opened at its head, spelt with the separating conjunction. -/
private theorem sepL_cc {I : Type} (i j : I) (l : List I) (Φ : I → sProp 𝕄) :
    bigSepL (i :: j :: l) Φ = iprop(Φ i ∗ bigSepL (j :: l) Φ) := rfl
private theorem sepL_one {I : Type} (i : I) (Φ : I → sProp 𝕄) : bigSepL [i] Φ = Φ i := rfl
private theorem sepL_nil {I : Type} (Φ : I → sProp 𝕄) : bigSepL [] Φ = iprop(emp) := rfl

theorem part6_run (v2 v95 v106 : BitVec 32) :
    St m c K (B c 5)
      ⊢ wp frame (wpE (defs₀ (F := F)) 𝒱₀ (c : Thread nD τ) none) Set.univ (k0_part6 xM (Memref.isWhole_whole _) oM (Memref.isWhole_whole _) sB (Memref.isWhole_whole _) rB (Memref.isWhole_whole _) cc0_scratch2 cc0_scratch3 v2 (A1 m c) v95 v106)
          (fun r => iprop(⌜r.1 = A2 m c⌝ ∗ St m c K (B c 6))) := by
  simp only [k0_part6_eq_skeleton]
  unfold k0_part6_skel
  simp only [semSignalWord, semWaitWord, Prog.lift, Prog.bind_op, Prog.bind_ret, Prog.pure_eq_ret, wp_deviceId]
  have er4 : ((cc0_scratch3.slice (Rect.unit (s := S3x3) ![1, 1] ![1, 1] inb_S3x3_S1x1_1_1)).squeeze S_ squeezes_S1x1_S_).sem = rSem 4 := rSemP_eq 4
  have er5 : ((cc0_scratch3.slice (Rect.unit (s := S3x3) ![1, 2] ![1, 1] inb_S3x3_S1x1_1_2)).squeeze S_ squeezes_S1x1_S_).sem = rSem 5 := rSemP_eq 5
  simp only [er4, er5]
  have hjoin : iprop(recvPay m c 3 ∗ recvPay m c 4 ∗ recvPay m c 5) ⊢ (loc1 c ↦[slabSet 1]{fullShare} rbuf m 1 c : sProp 𝕄) :=
    (rslab_pieces c 1 (rbuf m 1 c)).2
  have hcut : ∀ f : Buf (Elt F) (loc0 c),
      (loc0 c ↦[slabSet 2]{fullShare} ((sB.access (slabR 2)).write (Elt F) f (sent m 2 c) Finset.univ) : sProp 𝕄)
        ⊢ iprop((loc0 c ↦[pieceSet 6]{fullShare} sbuf m (sOf 6) c) ∗ (loc0 c ↦[pieceSet 7]{fullShare} sbuf m (sOf 7) c)
            ∗ (loc0 c ↦[pieceSet 8]{fullShare} sbuf m (sOf 8) c)) := by
    intro f
    rw [pointsTo_congr (store_slab m 2 c f)]
    exact (sslab_pieces c 2 (sbuf m 2 c)).1
  unfold St B
  simp only []
  unfold gRW gRD gLand gRSlab gSPiece gSSlab
  simp only [sepL_cc, sepL_one, sepL_nil]
  iintro ⟨#Hrec, #Hlev, ⟨%W, HO⟩, Hbar, Hbarpos, Htok, Hslot, ⟨⟨Hat4, Hrc4⟩, ⟨Hat5, Hrc5⟩, Hrw⟩, ⟨Hd0, Hd1, Hd2, Hd3⟩, Hl3, Hrs0, -, ⟨%f2, Hss⟩, Hcr, Hsw, Hsd, Hx, Hout⟩
  iapply (step_rwait m K c 4 (OR c 3) rfl W) $$ [Hat4 Hrc4 HO]
  · isplitr; · iexact Hrec
    isplitr; · iexact Hlev
    isplitl [Hat4]; · iexact Hat4
    isplitl [Hrc4]; · iexact Hrc4
    iexact HO
  iintro ⟨HO, Hat4, Hl4⟩
  iapply (step_rwait m K c 5 (OR c 3) rfl (insert (SemLoc.dma (rSem 4), ()) W)) $$ [Hat5 Hrc5 HO]
  · isplitr; · iexact Hrec
    isplitr; · iexact Hlev
    isplitl [Hat5]; · iexact Hat5
    isplitl [Hrc5]; · iexact Hrc5
    iexact HO
  iintro ⟨HO, Hat5, Hl5⟩
  ihave Hrs1 := hjoin $$ [Hl3 Hl4 Hl5]
  · isplitl [Hl3]; · iexact Hl3
    isplitl [Hl4]; · iexact Hl4
    iexact Hl5
  iapply (wp_load 𝒱₀ (c : Thread nD τ) none Set.univ (m := rB) (loadR_sub 1)) $$ Hrs1; iintro Hrs1
  rw [load_slab m 1 c]
  iapply (wp_load 𝒱₀ (c : Thread nD τ) none Set.univ (m := sB) (loadS_sub 2)) $$ Hss; iintro Hss
  iapply (wp_store 𝒱₀ (c : Thread nD τ) none Set.univ (m := sB) (r := slabR 2) (Mk := Finset.univ) (storeS_sub 2)) $$ Hss; iintro Hss
  ihave Hps := (hcut f2) $$ [Hss]
  · iexact Hss
  icases Hps with ⟨Hp6, Hp7, Hp8⟩
  rw [wp_ret]; imodintro
  isplitr; · ipureintro; rfl
  isplitr; · iexact Hrec
  isplitr; · iexact Hlev
  isplitl [HO]; · iexists _; iexact HO
  isplitl [Hbar]; · iexact Hbar
  isplitl [Hbarpos]; · iexact Hbarpos
  isplitl [Htok]; · iexact Htok
  isplitl [Hslot]; · iexact Hslot
  isplitl [Hrw]; · iexact Hrw
  isplitl [Hd0 Hd1 Hd2 Hd3 Hat4 Hat5]
  · isplitl [Hd0]; · iexact Hd0
    isplitl [Hd1]; · iexact Hd1
    isplitl [Hd2]; · iexact Hd2
    isplitl [Hd3]; · iexact Hd3
    isplitl [Hat4]; · iexact Hat4
    iexact Hat5
  isplitr; · iempintro
  isplitl [Hrs0 Hrs1]
  · isplitl [Hrs0]; · iexact Hrs0
    iexact Hrs1
  isplitl [Hp6 Hp7 Hp8]
  · isplitl [Hp6]; · iexact Hp6
    isplitl [Hp7]; · iexact Hp7
    iexact Hp8
  isplitr; · iempintro
  isplitl [Hcr]; · iexact Hcr
  isplitl [Hsw]; · iexact Hsw
  isplitl [Hsd]; · iexact Hsd
  isplitl [Hx]; · iexact Hx
  iexact Hout

end Cert.Kernel.AR

end
-- ==== Proof.K.Part7.lean ====
/-
  Part 7 of the body on device c: transfers 6 and 7.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed separating product, one factor at a time. -/
private theorem bsl_cc {I : Type} (i j : I) (l : List I) (Φ : I → sProp 𝕄) :
    bigSepL (i :: j :: l) Φ = iprop(Φ i ∗ bigSepL (j :: l) Φ) := rfl
private theorem bsl_nil {I : Type} (Φ : I → sProp 𝕄) : bigSepL [] Φ = iprop(emp) := rfl

theorem part7_run (v2 v149 : BitVec 32) :
    St m c K (B c 6)
      ⊢ wp frame (wpE (defs₀ (F := F)) 𝒱₀ (c : Thread nD τ) none) Set.univ (k0_part7 xM (Memref.isWhole_whole _) oM (Memref.isWhole_whole _) sB (Memref.isWhole_whole _) rB (Memref.isWhole_whole _) cc0_scratch2 cc0_scratch3 c v2 v149)
          (fun _ => St m c K (B c 7)) := by
  simp only [k0_part7_eq_skeleton]
  unfold k0_part7_skel
  simp only [semSignalWord, semWaitWord, Prog.lift, Prog.bind_op, Prog.bind_ret, Prog.pure_eq_ret, wp_deviceId]
  have e6s : ((cc0_scratch2.slice (Rect.unit (s := S3x3) ![2, 0] S1x1.size inb_S3x3_S1x1_2_0)).squeeze S_ squeezes_S1x1_S_).sem = sSem 6 := sSemP_eq 6
  have e6r : ((cc0_scratch3.slice (Rect.unit (s := S3x3) ![2, 0] S1x1.size inb_S3x3_S1x1_2_0)).squeeze S_ squeezes_S1x1_S_).sem = rSem 6 := rSemP_eq 6
  have e7s : ((cc0_scratch2.slice (Rect.unit (s := S3x3) ![2, 1] S1x1.size inb_S3x3_S1x1_2_1)).squeeze S_ squeezes_S1x1_S_).sem = sSem 7 := sSemP_eq 7
  have e7r : ((cc0_scratch3.slice (Rect.unit (s := S3x3) ![2, 1] S1x1.size inb_S3x3_S1x1_2_1)).squeeze S_ squeezes_S1x1_S_).sem = rSem 7 := rSemP_eq 7
  simp only [e6s, e6r, e7s, e7r]
  unfold St B
  unfold gTok gSlot gSPiece gCred
  simp only [bsl_cc, bigSepL_singleton]
  iintro ⟨#Hrec, #Hlev, ⟨%W, HO⟩, Hbar, Hbp, ⟨⟨Ht6r, Ht6s⟩, ⟨Ht7r, Ht7s⟩, Ht8⟩, ⟨Hs6, Hs7, Hs8⟩, Hrw, Hrd, Hland, Hrslab, ⟨Hp6, Hp7, Hp8⟩, Hsslab,
    ⟨Hc0, Hc1, Hc2, Hc3, Hc4, Hc5⟩, Hsw, Hsd, Hx, Hout⟩
  -- transfer 6: rows 0–95 of slab 2, to the partner of pattern 2
  iapply (step_send m K c 6 ⟨k0_dev10 c, k0_dev10_lt c⟩ (dev10_eq c) 2 rfl W) $$ [Hp6 Hs6 HO Ht6r Ht6s]
  · isplitr; · iexact Hrec
    isplitl [Hp6]; · iexact Hp6
    isplitl [Hs6]; · iexact Hs6
    isplitl [HO]; · iexact HO
    isplitl [Ht6r]; · iexact Ht6r
    iexact Ht6s
  iintro ⟨Hc6, HO⟩
  -- transfer 7: rows 96–175 of slab 2, to the partner of pattern 0
  iapply (step_send m K c 7 ⟨k0_dev11 c, k0_dev11_lt c⟩ (dev11_eq c) 1 rfl W) $$ [Hp7 Hs7 HO Ht7r Ht7s]
  · isplitr; · iexact Hrec
    isplitl [Hp7]; · iexact Hp7
    isplitl [Hs7]; · iexact Hs7
    isplitl [HO]; · iexact HO
    isplitl [Ht7r]; · iexact Ht7r
    iexact Ht7s
  iintro ⟨Hc7, HO⟩
  rw [wp_ret]; imodintro
  isplitr; · iexact Hrec
  isplitr; · iexact Hlev
  isplitl [HO]; · iexists W; iexact HO
  isplitl [Hbar]; · iexact Hbar
  isplitl [Hbp]; · iexact Hbp
  isplitl [Ht8]; · iexact Ht8
  isplitl [Hs8]; · iexact Hs8
  isplitl [Hrw]; · iexact Hrw
  isplitl [Hrd]; · iexact Hrd
  isplitl [Hland]; · iexact Hland
  isplitl [Hrslab]; · iexact Hrslab
  isplitl [Hp8]; · iexact Hp8
  isplitl [Hsslab]; · iexact Hsslab
  isplitl [Hc0 Hc1 Hc2 Hc3 Hc4 Hc5 Hc6 Hc7]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  isplitl [Hsw]; · iexact Hsw
  isplitl [Hsd]; · iexact Hsd
  isplitl [Hx]; · iexact Hx
  iexact Hout

end Cert.Kernel.AR

end
-- ==== Proof.K.Part8.lean ====
/-
  Part 8 of the body on device c: transfer 8 and the receive waits of transfers 6 and 7.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed separating product, one factor at a time. -/
private theorem bsl_cc {I : Type} (i j : I) (l : List I) (Φ : I → sProp 𝕄) :
    bigSepL (i :: j :: l) Φ = iprop(Φ i ∗ bigSepL (j :: l) Φ) := rfl
private theorem bsl_nil {I : Type} (Φ : I → sProp 𝕄) : bigSepL [] Φ = iprop(emp) := rfl

theorem part8_run (v149 v160 v171 : BitVec 32) :
    St m c K (B c 7)
      ⊢ wp frame (wpE (defs₀ (F := F)) 𝒱₀ (c : Thread nD τ) none) Set.univ (k0_part8 xM (Memref.isWhole_whole _) oM (Memref.isWhole_whole _) sB (Memref.isWhole_whole _) rB (Memref.isWhole_whole _) cc0_scratch2 cc0_scratch3 c v149 v160 v171)
          (fun _ => St m c K (B c 8)) := by
  simp only [k0_part8_eq_skeleton]
  unfold k0_part8_skel
  simp only [semSignalWord, semWaitWord, Prog.lift, Prog.bind_op, Prog.bind_ret, Prog.pure_eq_ret, wp_deviceId]
  have e8s : ((cc0_scratch2.slice (Rect.unit (s := S3x3) ![2, 2] S1x1.size inb_S3x3_S1x1_2_2)).squeeze S_ squeezes_S1x1_S_).sem = sSem 8 := sSemP_eq 8
  have e8r : ((cc0_scratch3.slice (Rect.unit (s := S3x3) ![2, 2] S1x1.size inb_S3x3_S1x1_2_2)).squeeze S_ squeezes_S1x1_S_).sem = rSem 8 := rSemP_eq 8
  have e6r : ((cc0_scratch3.slice (Rect.unit (s := S3x3) ![2, 0] S1x1.size inb_S3x3_S1x1_2_0)).squeeze S_ squeezes_S1x1_S_).sem = rSem 6 := rSemP_eq 6
  have e7r : ((cc0_scratch3.slice (Rect.unit (s := S3x3) ![2, 1] S1x1.size inb_S3x3_S1x1_2_1)).squeeze S_ squeezes_S1x1_S_).sem = rSem 7 := rSemP_eq 7
  simp only [e8s, e8r, e6r, e7r]
  unfold St B
  unfold gTok gSlot gRW gRD gLand gSPiece gCred allJ
  simp only [bsl_cc, bigSepL_singleton, bsl_nil]
  iintro ⟨#Hrec, #Hlev, ⟨%W, HO⟩, Hbar, Hbp, ⟨Ht8r, Ht8s⟩, Hs8, ⟨⟨Hat6, Hcr6⟩, ⟨Hat7, Hcr7⟩, Hrw8⟩, ⟨Hd0, Hd1, Hd2, Hd3, Hd4, Hd5⟩, -, Hrslab, Hp8, Hsslab,
    ⟨Hc0, Hc1, Hc2, Hc3, Hc4, Hc5, Hc6, Hc7⟩, Hsw, Hsd, Hx, Hout⟩
  -- transfer 8: rows 176–255 of slab 2, to the partner of pattern 1
  iapply (step_send m K c 8 ⟨k0_dev12 c, k0_dev12_lt c⟩ (dev12_eq c) 0 rfl W) $$ [Hp8 Hs8 HO Ht8r Ht8s]
  · isplitr; · iexact Hrec
    isplitl [Hp8]; · iexact Hp8
    isplitl [Hs8]; · iexact Hs8
    isplitl [HO]; · iexact HO
    isplitl [Ht8r]; · iexact Ht8r
    iexact Ht8s
  iintro ⟨Hc8, HO⟩
  -- the receive wait of transfer 6: rows 0–95 of slab 2 have landed
  iapply (step_rwait m K c 6 (OR c 0) rfl W) $$ [Hat6 Hcr6 HO]
  · isplitr; · iexact Hrec
    isplitr; · iexact Hlev
    isplitl [Hat6]; · iexact Hat6
    isplitl [Hcr6]; · iexact Hcr6
    iexact HO
  iintro ⟨HO, Hat6, Hl6⟩
  -- the receive wait of transfer 7: rows 96–175 of slab 2 have landed
  iapply (step_rwait m K c 7 (OR c 0) rfl (insert (SemLoc.dma (rSem 6), ()) W)) $$ [Hat7 Hcr7 HO]
  · isplitr; · iexact Hrec
    isplitr; · iexact Hlev
    isplitl [Hat7]; · iexact Hat7
    isplitl [Hcr7]; · iexact Hcr7
    iexact HO
  iintro ⟨HO, Hat7, Hl7⟩
  rw [wp_ret]; imodintro
  isplitr; · iexact Hrec
  isplitr; · iexact Hlev
  isplitl [HO]; · iexists _; iexact HO
  isplitl [Hbar]; · iexact Hbar
  isplitl [Hbp]; · iexact Hbp
  isplitr; · iempintro
  isplitr; · iempintro
  isplitl [Hrw8]; · iexact Hrw8
  isplitl [Hd0 Hd1 Hd2 Hd3 Hd4 Hd5 Hat6 Hat7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hat6]; · iexact Hat6
    iexact Hat7
  isplitl [Hl6 Hl7]
  · isplitl [Hl6]; · iexact Hl6
    iexact Hl7
  isplitl [Hrslab]; · iexact Hrslab
  isplitr; · iempintro
  isplitl [Hsslab]; · iexact Hsslab
  isplitl [Hc0 Hc1 Hc2 Hc3 Hc4 Hc5 Hc6 Hc7 Hc8]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hc8
  isplitl [Hsw]; · iexact Hsw
  isplitl [Hsd]; · iexact Hsd
  isplitl [Hx]; · iexact Hx
  iexact Hout

end Cert.Kernel.AR

end
-- ==== Proof.K.Part9.lean ====
/-
  Part 9 of the body on device c: the receive wait of transfer 8, slab 2 joined and loaded, the result stored, the send waits of transfers 0 and 1.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain's head splits off as a separating conjunct. -/
private theorem sepL_cc {I : Type} (i j : I) (l : List I) (Φ : I → sProp 𝕄) :
    bigSepL (i :: j :: l) Φ = iprop(Φ i ∗ bigSepL (j :: l) Φ) := rfl
private theorem sepL_nil {I : Type} (Φ : I → sProp 𝕄) : bigSepL [] Φ = iprop(emp) := rfl

/-- The result's staging buffer before and after the final store. -/
private theorem gOut_false : gOut m c false
    = iprop(∃ f : Buf (Elt F) ((c : Thread nD τ).loc cc0_stg1_0), ((c : Thread nD τ).loc cc0_stg1_0) ↦{fullShare} f) := rfl
private theorem gOut_true : gOut m c true = stg c cc0_stg1_0 (A3 m c) := rfl

/-- The three chunks landed at step 2 are slab 2 of the receive buffer. -/
private theorem join2 : iprop(recvPay m c 6 ∗ recvPay m c 7 ∗ recvPay m c 8)
    ⊢ ((loc1 c) ↦[slabSet 2]{fullShare} rbuf m 2 c : sProp 𝕄) :=
  (rslab_pieces c 2 (rbuf m 2 c)).2

theorem part9_run  :
    St m c K (B c 8)
      ⊢ wp frame (wpE (defs₀ (F := F)) 𝒱₀ (c : Thread nD τ) none) Set.univ (k0_part9 xM (Memref.isWhole_whole _) oM (Memref.isWhole_whole _) sB (Memref.isWhole_whole _) rB (Memref.isWhole_whole _) cc0_scratch2 cc0_scratch3 (A2 m c))
          (fun _ => St m c K (B c 9)) := by
  simp only [k0_part9_eq_skeleton]
  unfold k0_part9_skel
  simp only [semSignalWord, semWaitWord, Prog.lift, Prog.bind_op, Prog.bind_ret, Prog.pure_eq_ret, wp_deviceId]
  unfold St B gRW gRD gLand gRSlab gCred gSW gSD
  simp only [allJ, gOut_false, gOut_true, sepL_cc, bigSepL_singleton, sepL_nil]
  iintro ⟨#Hrec, #Hlev, ⟨%W, HO⟩, Hbar, Hbp, Htok, Hslot, ⟨Hrw8, Hrc8⟩, ⟨Hr0, Hr1, Hr2, Hr3, Hr4, Hr5, Hr6, Hr7⟩, ⟨Hl6, Hl7⟩, ⟨Hs0, Hs1⟩, Hsp, Hss, ⟨Hc0, Hc1, Hc2⟩, ⟨Hw0, Hw1, Hw2⟩, -, Hx, ⟨%fo, Hout⟩⟩
  -- the receive wait of transfer 8: its landing chunk comes back holding the slab received on its rows
  iapply (step_rwait m K c 8 (OR c 0) rfl W) $$ [Hrw8 Hrc8 HO]
  · isplitr; · iexact Hrec
    isplitr; · iexact Hlev
    isplitl [Hrw8]; · iexact Hrw8
    isplitl [Hrc8]; · iexact Hrc8
    iexact HO
  iintro ⟨HO, Hr8, Hl8⟩
  -- the three chunks of step 2 joined
  ihave Hslab := (join2 m c) $$ [Hl6 Hl7 Hl8]
  · isplitl [Hl6]; · iexact Hl6
    isplitl [Hl7]; · iexact Hl7
    iexact Hl8
  -- slab 2 of the receive buffer read, the result's buffer read and written whole
  iapply (wp_load 𝒱₀ (c : Thread nD τ) none Set.univ (m := rB) (loadR_sub 2)) $$ Hslab; iintro Hslab
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  -- the send waits of transfers 0 and 1
  iapply (step_swait m K c 0 _) $$ [Hw0 Hc0 HO]
  · isplitr; · iexact Hrec
    isplitl [Hw0]; · iexact Hw0
    isplitl [Hc0]; · iexact Hc0
    iexact HO
  iintro ⟨HO, Hw0, Hp0⟩
  iapply (step_swait m K c 1 _) $$ [Hw1 Hc1 HO]
  · isplitr; · iexact Hrec
    isplitl [Hw1]; · iexact Hw1
    isplitl [Hc1]; · iexact Hc1
    iexact HO
  iintro ⟨HO, Hw1, Hp1⟩
  rw [wp_ret]; imodintro
  isplitr; · iexact Hrec
  isplitr; · iexact Hlev
  isplitl [HO]; · iexists _; iexact HO
  isplitl [Hbar]; · iexact Hbar
  isplitl [Hbp]; · iexact Hbp
  isplitl [Htok]; · iexact Htok
  isplitl [Hslot]; · iexact Hslot
  isplitr; · iempintro
  isplitl [Hr0 Hr1 Hr2 Hr3 Hr4 Hr5 Hr6 Hr7 Hr8]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    iexact Hr8
  isplitr; · iempintro
  isplitl [Hs0 Hs1 Hslab]
  · isplitl [Hs0]; · iexact Hs0
    isplitl [Hs1]; · iexact Hs1
    iexact Hslab
  isplitl [Hsp]; · iexact Hsp
  isplitl [Hss]; · iexact Hss
  isplitl [Hc2]; · iexact Hc2
  isplitl [Hw2]; · iexact Hw2
  isplitl [Hw0 Hp0 Hw1 Hp1]
  · isplitl [Hw0 Hp0]; · isplitl [Hw0]; · iexact Hw0
                         iexact Hp0
    isplitl [Hw1]; · iexact Hw1
    iexact Hp1
  isplitl [Hx]; · iexact Hx
  iexists _
  isplitr
  rotate_left
  · iexact Hout
  · ipureintro
    exact (write_out _ _).trans (congrArg (k0_pay7 (A2 m c)) (load_slab m 2 c))

end Cert.Kernel.AR

end
-- ==== Proof.K.Part10.lean ====
/-
  Part 10 of the body on device c: the send waits of transfers 2, 3 and 4.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain's head splits off as a separating conjunct. -/
private theorem sepL_cc {I : Type} (i j : I) (l : List I) (Φ : I → sProp 𝕄) :
    bigSepL (i :: j :: l) Φ = iprop(Φ i ∗ bigSepL (j :: l) Φ) := rfl

theorem part10_run  :
    St m c K (B c 9)
      ⊢ wp frame (wpE (defs₀ (F := F)) 𝒱₀ (c : Thread nD τ) none) Set.univ (k0_part10 xM (Memref.isWhole_whole _) oM (Memref.isWhole_whole _) sB (Memref.isWhole_whole _) rB (Memref.isWhole_whole _) cc0_scratch2 cc0_scratch3)
          (fun _ => St m c K (B c 10)) := by
  simp only [k0_part10_eq_skeleton]
  unfold k0_part10_skel
  simp only [semSignalWord, semWaitWord, Prog.lift, Prog.bind_op, Prog.bind_ret, Prog.pure_eq_ret, wp_deviceId]
  unfold St B gCred gSW gSD
  simp only [sepL_cc, bigSepL_singleton, bigSepL_nil]
  iintro ⟨#Hrec, #Hlev, ⟨%W, HO⟩, Hbar, Hbp, Htok, Hslot, Hrw, Hrd, Hland, Hrslab, Hsp, Hss, ⟨Hc2, Hc3, Hc4, Hc5⟩, ⟨Hw2, Hw3, Hw4, Hw5⟩, ⟨Hd0, Hd1⟩, Hx, Hout⟩
  -- the send wait of transfer 2: its source chunk comes back
  iapply (step_swait m K c 2 W) $$ [Hw2 Hc2 HO]
  · isplitr; · iexact Hrec
    isplitl [Hw2]; · iexact Hw2
    isplitl [Hc2]; · iexact Hc2
    iexact HO
  iintro ⟨HO, Hw2, Hp2⟩
  -- of transfer 3
  iapply (step_swait m K c 3 _) $$ [Hw3 Hc3 HO]
  · isplitr; · iexact Hrec
    isplitl [Hw3]; · iexact Hw3
    isplitl [Hc3]; · iexact Hc3
    iexact HO
  iintro ⟨HO, Hw3, Hp3⟩
  -- of transfer 4
  iapply (step_swait m K c 4 _) $$ [Hw4 Hc4 HO]
  · isplitr; · iexact Hrec
    isplitl [Hw4]; · iexact Hw4
    isplitl [Hc4]; · iexact Hc4
    iexact HO
  iintro ⟨HO, Hw4, Hp4⟩
  rw [wp_ret]; imodintro
  isplitr; · iexact Hrec
  isplitr; · iexact Hlev
  isplitl [HO]; · iexists _; iexact HO
  isplitl [Hbar]; · iexact Hbar
  isplitl [Hbp]; · iexact Hbp
  isplitl [Htok]; · iexact Htok
  isplitl [Hslot]; · iexact Hslot
  isplitl [Hrw]; · iexact Hrw
  isplitl [Hrd]; · iexact Hrd
  isplitl [Hland]; · iexact Hland
  isplitl [Hrslab]; · iexact Hrslab
  isplitl [Hsp]; · iexact Hsp
  isplitl [Hss]; · iexact Hss
  isplitl [Hc5]; · iexact Hc5
  isplitl [Hw5]; · iexact Hw5
  isplitr [Hx Hout]
  · isplitl [Hd0]; · iexact Hd0
    isplitl [Hd1]; · iexact Hd1
    isplitl [Hw2 Hp2]; · isplitl [Hw2]; · iexact Hw2
                         iexact Hp2
    isplitl [Hw3 Hp3]; · isplitl [Hw3]; · iexact Hw3
                         iexact Hp3
    isplitl [Hw4]; · iexact Hw4
    iexact Hp4
  isplitl [Hx]; · iexact Hx
  iexact Hout

end Cert.Kernel.AR

end
-- ==== Proof.K.Part11.lean ====
/-
  Part 11 of the body on device c: the send waits of transfers 5, 6 and 7.
-/
import proofs.«900696_g7700000000000697_dist_ar_v7x_i8_i_m256_n256_bf16_1_alg».proof.Proof.K.Steps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A listed chain's head splits off as a separating conjunct. -/
private theorem sepL_cc {I : Type} (i j : I) (l : List I) (Φ : I → sProp 𝕄) :
    bigSepL (i :: j :: l) Φ = iprop(Φ i ∗ bigSepL (j :: l) Φ) := rfl

theorem part11_run  :
    St m c K (B c 10)
      ⊢ wp frame (wpE (defs₀ (F := F)) 𝒱₀ (c : Thread nD τ) none) Set.univ (k0_part11 xM (Memref.isWhole_whole _) oM (Memref.isWhole_whole _) sB (Memref.isWhole_whole _) rB (Memref.isWhole_whole _) cc0_scratch2 cc0_scratch3)
          (fun _ => St m c K (B c 11)) := by
  simp only [k0_part11_eq_skeleton]
  unfold k0_part11_skel
  simp only [semSignalWord, semWaitWord, Prog.lift, Prog.bind_op, Prog.bind_ret, Prog.pure_eq_ret, wp_deviceId]
  unfold St B gCred gSW gSD
  simp only [sepL_cc, bigSepL_singleton, bigSepL_nil]
  iintro ⟨#Hrec, #Hlev, ⟨%W, HO⟩, Hbar, Hbp, Htok, Hslot, Hrw, Hrd, Hland, Hrslab, Hsp, Hss, ⟨Hc5, Hc6, Hc7, Hc8⟩, ⟨Hw5, Hw6, Hw7, Hw8⟩, ⟨Hd0, Hd1, Hd2, Hd3, Hd4⟩, Hx, Hout⟩
  -- the send wait of transfer 5: its source chunk comes back
  iapply (step_swait m K c 5 W) $$ [Hw5 Hc5 HO]
  · isplitr; · iexact Hrec
    isplitl [Hw5]; · iexact Hw5
    isplitl [Hc5]; · iexact Hc5
    iexact HO
  iintro ⟨HO, Hw5, Hp5⟩
  -- of transfer 6
  iapply (step_swait m K c 6 _) $$ [Hw6 Hc6 HO]
  · isplitr; · iexact Hrec
    isplitl [Hw6]; · iexact Hw6
    isplitl [Hc6]; · iexact Hc6
    iexact HO
  iintro ⟨HO, Hw6, Hp6⟩
  -- of transfer 7
  iapply (step_swait m K c 7 _) $$ [Hw7 Hc7 HO]
  · isplitr; · iexact Hrec
    isplitl [Hw7]; · iexact Hw7
    isplitl [Hc7]; · iexact Hc7
    iexact HO
  iintro ⟨HO, Hw7, Hp7⟩
  rw [wp_ret]; imodintro
  isplitr; · iexact Hrec
  isplitr; · iexact Hlev
  isplitl [HO]; · iexists _; iexact HO
  isplitl [Hbar]; · iexact Hbar
  isplitl [Hbp]; · iexact Hbp
  isplitl [Htok]; · iexact Htok
  isplitl [Hslot]; · iexact Hslot
  isplitl [Hrw]; · iexact Hrw
  isplitl [Hrd]; · iexact Hrd
  isplitl [Hland]; · iexact Hland
  isplitl [Hrslab]; · iexact Hrslab
  isplitl [Hsp]; · iexact Hsp
  isplitl [Hss]; · iexact Hss
  isplitl [Hc8]; · iexact Hc8
  isplitl [Hw8]; · iexact Hw8
  isplitr [Hx Hout]
  · isplitl [Hd0]; · iexact Hd0
    isplitl [Hd1]; · iexact Hd1
    isplitl [Hd2]; · iexact Hd2
    isplitl [Hd3]; · iexact Hd3
    isplitl [Hd4]; · iexact Hd4
    isplitl [Hw5 Hp5]; · isplitl [Hw5]; · iexact Hw5
                         iexact Hp5
    isplitl [Hw6 Hp6]; · isplitl [Hw6]; · iexact Hw6
                         iexact Hp6
    isplitl [Hw7]; · iexact Hw7
    iexact Hp7
  isplitl [Hx]; · iexact Hx
  iexact Hout

end Cert.Kernel.AR

end
-- ==== Proof.K.Body.lean ====
/-
  The body of one device, composed of its parts along the printed root sequence, and the library's body obligation.
-/
import proofs.«900696_g7700000000000697_dist_ar_v7x_i8_i_m256_n256_bf16_1_alg».proof.Proof.K.Init
import proofs.«900696_g7700000000000697_dist_ar_v7x_i8_i_m256_n256_bf16_1_alg».proof.Proof.K.Fin
import proofs.«900696_g7700000000000697_dist_ar_v7x_i8_i_m256_n256_bf16_1_alg».proof.Proof.K.Part1
import proofs.«900696_g7700000000000697_dist_ar_v7x_i8_i_m256_n256_bf16_1_alg».proof.Proof.K.Part2
import proofs.«900696_g7700000000000697_dist_ar_v7x_i8_i_m256_n256_bf16_1_alg».proof.Proof.K.Part3
import proofs.«900696_g7700000000000697_dist_ar_v7x_i8_i_m256_n256_bf16_1_alg».proof.Proof.K.Part4
import proofs.«900696_g7700000000000697_dist_ar_v7x_i8_i_m256_n256_bf16_1_alg».proof.Proof.K.Part5
import proofs.«900696_g7700000000000697_dist_ar_v7x_i8_i_m256_n256_bf16_1_alg».proof.Proof.K.Part6
import proofs.«900696_g7700000000000697_dist_ar_v7x_i8_i_m256_n256_bf16_1_alg».proof.Proof.K.Part7
import proofs.«900696_g7700000000000697_dist_ar_v7x_i8_i_m256_n256_bf16_1_alg».proof.Proof.K.Part8
import proofs.«900696_g7700000000000697_dist_ar_v7x_i8_i_m256_n256_bf16_1_alg».proof.Proof.K.Part9
import proofs.«900696_g7700000000000697_dist_ar_v7x_i8_i_m256_n256_bf16_1_alg».proof.Proof.K.Part10
import proofs.«900696_g7700000000000697_dist_ar_v7x_i8_i_m256_n256_bf16_1_alg».proof.Proof.K.Part11

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 19 → ℕ) (c : Dev nD)

/-- A pure fact beside a state is used and dropped. -/
theorem pure_sep_elim {φ : Prop} {P Q : sProp 𝕄} (h : φ → P ⊢ Q) : iprop(⌜φ⌝ ∗ P) ⊢ Q := by
  iintro ⟨%hφ, H⟩
  iapply (h hφ) $$ H

/-- A listed chain, spelt with the separating conjunction of the logic. -/
private theorem chain_cons {I : Type} (i j : I) (l : List I) (Φ : I → sProp 𝕄) :
    bigSepL (i :: j :: l) Φ = iprop(Φ i ∗ bigSepL (j :: l) Φ) := rfl
private theorem chain_nil {I : Type} (Φ : I → sProp 𝕄) : bigSepL [] Φ = iprop(emp) := rfl

/-- The last effect: the send wait of transfer 8; then the cells close. -/
theorem tail_run
    {hsrc : (dstM 8).view.WordExact} {hdst : (srcM 8).view.WordExact} :
    St m c K (B c 11)
      ⊢ wp frame (wpE (defs₀ (F := F)) 𝒱₀ (c : Thread nD τ) none) Set.univ
          (Prog.lift (TpuEff.waitDma2 (sSemP 8) (dstM 8) (srcM 8) hsrc hdst))
          (fun _ => wp frame (wpE (defs₀ (F := F)) 𝒱₀ (c : Thread nD τ) none) Set.univ (Pure.pure PUnit.unit : Prog (TpuEff nD τ sig (Elt F) Λ₀ .tc) PUnit) (fun _ => bodyPost m c)) := by
  simp only [Prog.lift, Prog.pure_eq_ret]
  rw [sSemP_eq]
  unfold St B gCred gSW gSD
  simp only [chain_cons, bigSepL_singleton, chain_nil]
  iintro ⟨#Hrec, #Hlev, ⟨%W, HO⟩, HgBar, HgBarPos, Htok, Hslot, Hrw, Hrd, Hland, Hrslab, Hsp, Hsslab, Hcr8, Hsw8,
    ⟨Hsd0, Hsd1, Hsd2, Hsd3, Hsd4, Hsd5, Hsd6, Hsd7⟩, Hx, Hout⟩
  -- the send wait of transfer 8: its source chunk comes back
  iapply (step_swait m K c 8 W) $$ [HO Hsw8 Hcr8]
  · isplitr; · iexact Hrec
    isplitl [Hsw8]; · iexact Hsw8
    isplitl [Hcr8]; · iexact Hcr8
    iexact HO
  iintro ⟨HO, Hat8, Hpay8⟩
  rw [wp_ret]; imodintro
  iapply (fin_state m K c)
  unfold St B gCred gSW gSD
  simp only [chain_cons, bigSepL_singleton, chain_nil]
  isplitr; · iexact Hrec
  isplitr; · iexact Hlev
  isplitl [HO]; · iexists _; iexact HO
  isplitl [HgBar]; · iexact HgBar
  isplitl [HgBarPos]; · iexact HgBarPos
  isplitl [Htok]; · iexact Htok
  isplitl [Hslot]; · iexact Hslot
  isplitl [Hrw]; · iexact Hrw
  isplitl [Hrd]; · iexact Hrd
  isplitl [Hland]; · iexact Hland
  isplitl [Hrslab]; · iexact Hrslab
  isplitl [Hsp]; · iexact Hsp
  isplitl [Hsslab]; · iexact Hsslab
  isplitr; · iempintro
  isplitr; · iempintro
  isplitl [Hsd0 Hsd1 Hsd2 Hsd3 Hsd4 Hsd5 Hsd6 Hsd7 Hat8 Hpay8]
  · isplitl [Hsd0]; · iexact Hsd0
    isplitl [Hsd1]; · iexact Hsd1
    isplitl [Hsd2]; · iexact Hsd2
    isplitl [Hsd3]; · iexact Hsd3
    isplitl [Hsd4]; · iexact Hsd4
    isplitl [Hsd5]; · iexact Hsd5
    isplitl [Hsd6]; · iexact Hsd6
    isplitl [Hsd7]; · iexact Hsd7
    isplitl [Hat8]; · iexact Hat8
    iexact Hpay8
  isplitl [Hx]; · iexact Hx
  iexact Hout

set_option maxRecDepth 8000 in
/-- The body from what the obligation hands it to its post. -/
theorem sound_body :
    bodyPre m K c ⊢ wp frame (wpE (defs₀ (F := F)) 𝒱₀ (c : Thread nD τ) none) Set.univ (cc0_body xM (Memref.isWhole_whole _) oM (Memref.isWhole_whole _) sB (Memref.isWhole_whole _) rB (Memref.isWhole_whole _) cc0_scratch2 cc0_scratch3) (fun _ => bodyPost m c) := by
  refine (init_state m K c).trans ?_
  simp only [cc0_body_eq_skeleton]
  unfold cc0_body_skel
  simp only [wp_bind]
  refine (part1_run m K c).trans (wp_mono _ _ _ fun r => ?_)
  obtain ⟨d0, v2, v14, v19⟩ := r
  refine pure_sep_elim fun h => ?_
  obtain ⟨h1, h2⟩ := h
  simp only at h1 h2
  subst h1; subst h2
  dsimp only
  refine (part2_run m K d0 v2).trans (wp_mono _ _ _ fun r2 => ?_)
  refine (part3_run m K d0 v19 r2.1 r2.2).trans (wp_mono _ _ _ fun _ => ?_)
  refine (part4_run m K d0 v2).trans (wp_mono _ _ _ fun r4 => ?_)
  obtain ⟨v79, v84, v95⟩ := r4
  refine pure_sep_elim fun h => ?_
  simp only at h
  subst h
  dsimp only
  refine (part5_run m K d0 v2 v84).trans (wp_mono _ _ _ fun v106 => ?_)
  refine (part6_run m K d0 v2 v95 v106).trans (wp_mono _ _ _ fun r6 => ?_)
  obtain ⟨v144, v149⟩ := r6
  refine pure_sep_elim fun h => ?_
  simp only at h
  subst h
  dsimp only
  refine (part7_run m K d0 v2 v149).trans (wp_mono _ _ _ fun r7 => ?_)
  refine (part8_run m K d0 v149 r7.1 r7.2).trans (wp_mono _ _ _ fun _ => ?_)
  refine (part9_run m K d0).trans (wp_mono _ _ _ fun _ => ?_)
  refine (part10_run m K d0).trans (wp_mono _ _ _ fun _ => ?_)
  refine (part11_run m K d0).trans (wp_mono _ _ _ fun _ => ?_)
  exact tail_run m K d0

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ (c : Thread nD τ) none) Set.univ (cc0_body xM (Memref.isWhole_whole _) oM (Memref.isWhole_whole _) sB (Memref.isWhole_whole _) rB (Memref.isWhole_whole _) cc0_scratch2 cc0_scratch3) (fun _ => bodyPost m c)
  unfold bodyPre' Φ₀ start
  iintro ⟨⟨⟨⟨%K, Hg⟩, Hc1, Hc2, Hlev⟩, Hs0, Hs1⟩, Ho, Hx, Hout⟩
  iapply (sound_body m K c)
  unfold bodyPre
  isplitl [Hg Hc1 Hc2 Hlev Hs0 Hs1]
  · isplitl [Hg]; · iexact Hg
    isplitl [Hc1]; · iexact Hc1
    isplitl [Hc2]; · iexact Hc2
    isplitl [Hlev]; · iexact Hlev
    isplitl [Hs0]; · iexact Hs0
    iexact Hs1
  isplitl [Ho]; · iexact Ho
  isplitl [Hx] <;> iassumption

end Cert.Kernel.AR

end
-- ==== Proof.K.Run.lean ====
/-
  The run of the all-reduce on the eight devices: every fair interleaving terminates, nothing faults, every device's
  result array ends at the three-step sum and its block of `x` unchanged.

  The launch deals every device the credit its partners owe its barrier cell and its nine receive cells, the ghost
  allocation hands it its starting ghost state, and the one point's body does the rest; the result array is then the
  body's result written back whole, and the argument array is never written.
-/
import proofs.«900696_g7700000000000697_dist_ar_v7x_i8_i_m256_n256_bf16_1_alg».proof.Proof.K.Alloc
import proofs.«900696_g7700000000000697_dist_ar_v7x_i8_i_m256_n256_bf16_1_alg».proof.Proof.K.Body

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch credit -/

omit [FloatOps F] in
/-- What every device owes at launch, summand by summand. -/
theorem O₀_eq : (O₀ : Dev nD → CellTallies nD τ sig Unit) = fun d =>
    ((((((((((((0 + sendTally d 8) + sendTally d 7) + sendTally d 6) + sendTally d 5) + sendTally d 4) + sendTally d 3)
      + sendTally d 2) + sendTally d 1) + sendTally d 0) + barTally d 2) + barTally d 1) + barTally d 0) := rfl

omit [FloatOps F] in
/-- The partners of pattern `k` owe a device's barrier cell one unit, one each. -/
theorem bar_cred (k : Fin 3) (c : Dev nD) :
    (Pipeline.launchCred (fun d => barTally d k) c : sProp 𝕄) ⊢ cred (tallyAt (barCell c) () 1) :=
  Pipeline.launchCred_tallyAt (.reg barS) (pr k) (pr k) (pr_pr k) (pr_pr k) () 1 c

omit [FloatOps F] in
/-- The partner of transfer `j`'s pattern owes a device's receive cell of `j` the transfer's credit. -/
theorem recv_cred (j : Fin 9) (c : Dev nD) :
    (Pipeline.launchCred (fun d => sendTally d j) c : sProp 𝕄) ⊢ cred (tallyAt (recvCell c j) () (NN j)) :=
  Pipeline.launchCred_tallyAt (.dma (rSem j)) (pr (kOf j)) (pr (kOf j)) (pr_pr _) (pr_pr _) () (NN j) c

omit [FloatOps F] in
theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  exact (sep_mono_right (cred_add _ _).2).trans (cred_add _ _).2

omit [FloatOps F] in
theorem creds (c : Dev nD) :
    (Pipeline.launchCred O₀ c : sProp 𝕄)
      ⊢ iprop(cred (tallyAt (barCell c) () 3) ∗ bigSepL allJ fun j => cred (tallyAt (recvCell c j) () (NN j))) := by
  rw [O₀_eq]
  simp only [Pipeline.launchCred_add]
  show _ ⊢ iprop(cred (tallyAt (barCell c) () 3) ∗ cred (tallyAt (recvCell c 0) () (NN 0)) ∗ cred (tallyAt (recvCell c 1) () (NN 1))
    ∗ cred (tallyAt (recvCell c 2) () (NN 2)) ∗ cred (tallyAt (recvCell c 3) () (NN 3)) ∗ cred (tallyAt (recvCell c 4) () (NN 4))
    ∗ cred (tallyAt (recvCell c 5) () (NN 5)) ∗ cred (tallyAt (recvCell c 6) () (NN 6)) ∗ cred (tallyAt (recvCell c 7) () (NN 7))
    ∗ cred (tallyAt (recvCell c 8) () (NN 8)))
  iintro ⟨⟨⟨⟨⟨⟨⟨⟨⟨⟨⟨⟨-, H8⟩, H7⟩, H6⟩, H5⟩, H4⟩, H3⟩, H2⟩, H1⟩, H0⟩, B2⟩, B1⟩, B0⟩
  ihave B0' := (bar_cred (F := F) 0 c) $$ B0
  ihave B1' := (bar_cred (F := F) 1 c) $$ B1
  ihave B2' := (bar_cred (F := F) 2 c) $$ B2
  ihave H0' := (recv_cred (F := F) 0 c) $$ H0
  ihave H1' := (recv_cred (F := F) 1 c) $$ H1
  ihave H2' := (recv_cred (F := F) 2 c) $$ H2
  ihave H3' := (recv_cred (F := F) 3 c) $$ H3
  ihave H4' := (recv_cred (F := F) 4 c) $$ H4
  ihave H5' := (recv_cred (F := F) 5 c) $$ H5
  ihave H6' := (recv_cred (F := F) 6 c) $$ H6
  ihave H7' := (recv_cred (F := F) 7 c) $$ H7
  ihave H8' := (recv_cred (F := F) 8 c) $$ H8
  isplitl [B0' B1' B2']
  · iapply (cred_three (F := F) (barCell c))
    isplitl [B0']; · iexact B0'
    isplitl [B1']; · iexact B1'
    iexact B2'
  isplitl [H0']; · iexact H0'
  isplitl [H1']; · iexact H1'
  isplitl [H2']; · iexact H2'
  isplitl [H3']; · iexact H3'
  isplitl [H4']; · iexact H4'
  isplitl [H5']; · iexact H5'
  isplitl [H6']; · iexact H6'
  isplitl [H7']; · iexact H7'
  iexact H8'

/-! ## The launch theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨H0, H1⟩⟩
  isplitl [Hs]; · iexact Hs
  isplitl [H0]; · iexact H0
  iexact H1

/-- The eighteen own cells, listed by kind. -/
def iS (j : Fin 9) : Fin 18 := ⟨j.val, by omega⟩
def iR (j : Fin 9) : Fin 18 := ⟨9 + j.val, by omega⟩
theorem succ_iS (j : Fin 9) : (iS j).succ = iSend j := Fin.ext (Nat.add_comm _ _)
theorem succ_iR (j : Fin 9) : (iR j).succ = iRecv j := Fin.ext (by show 9 + j.val + 1 = 10 + j.val; omega)
def ownIxs : List (Fin 18) := allJ.map iS ++ allJ.map iR

omit [FloatOps F] in
theorem own_split (c : Dev nD) (Ψ : GSem nD τ sig → sProp 𝕄) :
    (bigSep Finset.univ fun k : Fin 18 => Ψ (kcell (c, k.succ)))
      = iprop((bigSepL allJ fun j => Ψ (sendCell c j)) ∗ (bigSepL allJ fun j => Ψ (recvCell c j))) := by
  rw [bigSep_univ_eq_bigSepL ownIxs (by decide) (by decide)]
  unfold ownIxs
  rw [bigSepL_append, bigSepL_map, bigSepL_map]
  simp only [succ_iS, succ_iR, kcell_send, kcell_recv]

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq,
    show (Pipeline.ownSems0 (Ix := Unit) (Name := ℕ) (U := UU) (Lvl := ℕ) (Val := Elt F) (τ := τ) osem c : sProp 𝕄)
      = bigSep Finset.univ fun k : Fin 18 => semVal (kcell (c, k.succ)) 0 from rfl,
    own_split c (fun g => semVal g 0)]
  unfold Φ₁
  iintro ⟨H0, H1, HzS, HzV⟩
  isplitr; · iempintro
  isplitl [HzS HzV]
  · isplitl [HzS] <;> iassumption
  isplitl [H0]; · iexact H0
  iexact H1

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The arrays after the run -/

/-- The result array ends at the body's result: the one point writes its whole block back. -/
theorem final_out (c : Dev nD) : (dats m 0 c).arrAt (1 : Fin 2) cfg0.N = A3 m c := by
  have h := (dats m 0 c).arrAt_succ (1 : Fin 2) t0_0
  rw [flush0_1 t0_0, if_pos rfl] at h
  refine (show (dats m 0 c).arrAt (1 : Fin 2) cfg0.N = (dats m 0 c).arrAt (1 : Fin 2) (t0_0.val + 1) from rfl).trans (h.trans ?_)
  exact Memref.write_access_unit_zero_univ (Elt F) main_v1 (funext fun a => Nat.zero_mul _) _ _ _

/-- The argument array ends as it was: an input window is never written back. -/
theorem final_in (c : Dev nD) : (dats m 0 c).arrAt (0 : Fin 2) cfg0.N = m ((c.tc : Thread nD τ).loc main_arg0) :=
  (dats m 0 c).arrAt_in (0 : Fin 2) rfl _

/-! ## The run -/

set_option maxRecDepth 8000 in
/-- The run, from the body obligation of every device. -/
theorem run_of_body (hb : ∀ c : Dev nD, BodyObligation (dats (F := F) m 0 c) (defs₀ (F := F)) 𝒱₀ () Set.univ) (ρ : Dev nD → PrngReg) :
    θ_run (defs (F := F)) (onTc (τ := τ) (main (F := F))) ⟨m, fun _ => 0, ρ⟩ (fun r => ∀ c : Dev nD,
      r.2.mem ((c.tc : Thread nD τ).loc main_v1) = A3 m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hb c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨((h c).1 1).trans (final_out m c), ((h c).1 0).trans (final_in m c)⟩)

/-- info: 'Cert.Kernel.AR.run_of_body' depends on axioms: [propext, Classical.choice, Quot.sound] -/
#guard_msgs in #print axioms run_of_body

/-- At the compiled mesh of eight devices, for any float values, from any memory with zero counters: every weakly fair
    execution of @main terminates, and every final state has each device's result array at the three-step sum and its
    block of `x` unchanged. -/
theorem run_main (ρ : Dev nD → PrngReg) :
    θ_run (defs (F := F)) (onTc (τ := τ) (main (F := F))) ⟨m, fun _ => 0, ρ⟩ (fun r => ∀ c : Dev nD,
      r.2.mem ((c.tc : Thread nD τ).loc main_v1) = A3 m c
      ∧ r.2.mem ((c.tc : Thread nD τ).loc main_arg0) = m ((c.tc : Thread nD τ).loc main_arg0)) :=
  run_of_body m (fun c => body_obligation m c) ρ

end Cert.Kernel.AR

end
-- ==== Proof.ValueIdeal.lean ====
/-
  At the ideal instance the three-step sum on every device is the sum of the eight devices' blocks, which is what the
  reference computes from the whole array.

  Entry by entry: format changes are the identity and a cast between `[256, 256]` and `[1, 256, 256]` reads the same
  entry, so each step adds to a device's running sum the running sum of the partner its row chunk exchanges with at that
  step. The three steps of a row chunk use the three patterns, each once, and the eight combinations of the three
  exchanges are the eight devices; the sum of extended reals is commutative and associative, so every device ends with
  the sum of all eight blocks. The reference reshapes the whole array into its eight row blocks and sums them from zero.
-/
import proofs.«900696_g7700000000000697_dist_ar_v7x_i8_i_m256_n256_bf16_1_alg».proof.Proof.Run
import proofs.«900696_g7700000000000697_dist_ar_v7x_i8_i_m256_n256_bf16_1_alg».proof.Proof.Gen.ReferenceIdeal.Run
import proofs.«900696_g7700000000000697_dist_ar_v7x_i8_i_m256_n256_bf16_1_alg».proof.Proof.Gen.ReferenceIdeal.Read
import proofs.«900696_g7700000000000697_dist_ar_v7x_i8_i_m256_n256_bf16_1_alg».proof.Defs
import Idealize.ShloMosaic.Lib.ValueIdx
import Idealize.ShloMosaic.Lib.ValueLayout
import Idealize.ShloMosaic.Lib.Layout
import Idealize.ShloMosaic.Lib.Pipeline.Value
import Idealize.ShloMosaic.PureOps.Ideal.Laws

noncomputable section

namespace Cert.ARValue

open Cert.KernelIdeal Cert.KernelIdeal.Gen Cert.KernelIdeal.AR
open Idealize.ShloMosaic Idealize.ShloMosaic.TcCoe Idealize.SL.Sem Idealize.ShloMosaic.ValueIdx

/-! ## The seven payloads at an index, at the ideal instance

  Narrowing and widening are the identity, a cast between `[256, 256]` and `[1, 256, 256]` reads the same entry, and
  the vector sum is the sum of the extended reals. -/

section Payloads

variable [hK : Cert.KernelIdeal.Facts]

/-- The running sum before the first step is the block itself. -/
theorem pay1_eq (x : Vec Ideal S256x256 .f32) : k0_pay1 (F := Ideal) x = x := by
  unfold k0_pay1; exact shapeCast_self _ _

/-- The slab stored at the first step holds the block's entries. -/
theorem pay2_apply (x : Vec Ideal S256x256 .f32) (u : Fin 1) (r col : Fin 256) :
    k0_pay2 (F := Ideal) x (ix3 u r col) = x (ix2 r col) := by
  unfold k0_pay2
  show shapeCast S1x256x256 (truncf .bf16 (k0_pay1 x) bitsLt_bf16_f32) shapeCasts_S256x256_S1x256x256 (ix3 u r col) = _
  rw [shapeCast_ab_1ab_apply, truncf_apply, pay1_eq]

/-- A step's new running sum: the old one plus the received slab, entry by entry. -/
theorem pay3_apply (a : FVec Ideal S256x256 .f32) (v : Vec Ideal S1x256x256 .bf16) (r col : Fin 256) :
    k0_pay3 (F := Ideal) a v (ix2 r col) = (show EReal from a (ix2 r col)) + (show EReal from v (ix3 (0 : Fin 1) r col)) := by
  unfold k0_pay3
  show addf a (extf .f32 (shapeCast S256x256 v shapeCasts_S1x256x256_S256x256) bitsLt_bf16_f32) (ix2 r col) = _
  rw [addf_apply, extf_apply, shapeCast_1ab_ab_apply]

/-- The slab stored at the second step holds the new running sum's entries. -/
theorem pay4_apply (a : FVec Ideal S256x256 .f32) (v : Vec Ideal S1x256x256 .bf16) (u : Fin 1) (r col : Fin 256) :
    k0_pay4 (F := Ideal) a v (ix3 u r col) = k0_pay3 (F := Ideal) a v (ix2 r col) := by
  unfold k0_pay4
  show shapeCast S1x256x256 (truncf .bf16 (k0_pay3 a v) bitsLt_bf16_f32) shapeCasts_S256x256_S1x256x256 (ix3 u r col) = _
  rw [shapeCast_ab_1ab_apply, truncf_apply]

theorem pay5_apply (a : FVec Ideal S256x256 .f32) (v : Vec Ideal S1x256x256 .bf16) (r col : Fin 256) :
    k0_pay5 (F := Ideal) a v (ix2 r col) = (show EReal from a (ix2 r col)) + (show EReal from v (ix3 (0 : Fin 1) r col)) := by
  unfold k0_pay5
  show addf a (extf .f32 (shapeCast S256x256 v shapeCasts_S1x256x256_S256x256) bitsLt_bf16_f32) (ix2 r col) = _
  rw [addf_apply, extf_apply, shapeCast_1ab_ab_apply]

theorem pay6_apply (a : FVec Ideal S256x256 .f32) (v : Vec Ideal S1x256x256 .bf16) (u : Fin 1) (r col : Fin 256) :
    k0_pay6 (F := Ideal) a v (ix3 u r col) = k0_pay5 (F := Ideal) a v (ix2 r col) := by
  unfold k0_pay6
  show shapeCast S1x256x256 (truncf .bf16 (k0_pay5 a v) bitsLt_bf16_f32) shapeCasts_S256x256_S1x256x256 (ix3 u r col) = _
  rw [shapeCast_ab_1ab_apply, truncf_apply]

theorem pay7_apply (a : FVec Ideal S256x256 .f32) (v : Vec Ideal S1x256x256 .bf16) (r col : Fin 256) :
    k0_pay7 (F := Ideal) a v (ix2 r col) = (show EReal from a (ix2 r col)) + (show EReal from v (ix3 (0 : Fin 1) r col)) := by
  unfold k0_pay7
  show addf a (extf .f32 (shapeCast S256x256 v shapeCasts_S1x256x256_S256x256) bitsLt_bf16_f32) (ix2 r col) = _
  rw [addf_apply, extf_apply, shapeCast_1ab_ab_apply]

end Payloads

/-! ## A device's block is its argument buffer read whole -/

section Block

variable {F : FTy → Type} [FloatOps F] [hK : Cert.KernelIdeal.Facts]

theorem X_eq (m : (ℓ : Loc nD τ sig) → Buf (Elt F) ℓ) (c : Dev nD) :
    X m c = m ((c.tc : Thread nD τ).loc main_arg0) := by
  unfold X Gen.iblk
  exact Memref.read_access_unit_zero (Elt F) main_arg0 (funext fun a => Nat.zero_mul _) _ _

end Block

/-! ## The three patterns of a row chunk reach all eight devices -/

section Orbit

/-- The pattern of row chunk `ch` at step `s`. -/
def kk (s ch : Fin 3) : Fin 3 := ⟨(ch.val + s.val) % 3, Nat.mod_lt _ (by decide)⟩

theorem chunk_lt (r : ℕ) : chunkOfRow r < 3 := by unfold chunkOfRow; split_ifs <;> decide

theorem kRow_eq (s : Fin 3) (r : ℕ) : kRow s r = kk s ⟨chunkOfRow r, chunk_lt r⟩ := rfl

/-- From any device, the eight combinations of a chunk's three exchanges are the eight devices, each once. -/
theorem orbit_perm (ch : Fin 3) (c : Dev nD) :
    List.Perm
      [c, pr (kk 0 ch) c, pr (kk 1 ch) c, pr (kk 0 ch) (pr (kk 1 ch) c),
        pr (kk 2 ch) c, pr (kk 0 ch) (pr (kk 2 ch) c), pr (kk 1 ch) (pr (kk 2 ch) c),
        pr (kk 0 ch) (pr (kk 1 ch) (pr (kk 2 ch) c))]
      (List.finRange 8) := by
  revert ch c; decide

/-- So the three-step sum of any function of the device is its sum over all devices. -/
theorem orbit_sum (f : Dev nD → EReal) (ch : Fin 3) (c : Dev nD) :
    ((f c + f (pr (kk 0 ch) c)) + (f (pr (kk 1 ch) c) + f (pr (kk 0 ch) (pr (kk 1 ch) c))))
      + ((f (pr (kk 2 ch) c) + f (pr (kk 0 ch) (pr (kk 2 ch) c)))
        + (f (pr (kk 1 ch) (pr (kk 2 ch) c)) + f (pr (kk 0 ch) (pr (kk 1 ch) (pr (kk 2 ch) c)))))
      = ∑ d : Fin 8, f d := by
  have h := ((orbit_perm ch c).map f).sum_eq
  rw [Fin.sum_univ_def, ← h]
  simp only [List.map_cons, List.map_nil, List.sum_cons, List.sum_nil, add_zero]
  ac_rfl

end Orbit

/-! ## The running sums, entry by entry -/

section Chain

variable [hK : Cert.KernelIdeal.Facts]
variable (m : (ℓ : Loc nD τ sig) → Buf (Elt Ideal) ℓ)

/-- Entry `(r, col)` of device `d`'s block. -/
def ent (r col : Fin 256) (d : Dev nD) : EReal := X m d (ix2 r col)

theorem A0_apply (c : Dev nD) (r col : Fin 256) : A0 m c (ix2 r col) = ent m r col c := by
  unfold A0 ent; rw [pay1_eq]

theorem sent0_apply (c : Dev nD) (u : Fin 1) (r col : Fin 256) : sent0 m c (ix3 u r col) = ent m r col c := by
  unfold sent0 ent; exact pay2_apply _ u r col

theorem R0_apply (c : Dev nD) (u : Fin 1) (r col : Fin 256) :
    R0 m c (ix3 u r col) = ent m r col (pr (kRow 0 r.val) c) :=
  sent0_apply m _ u r col

theorem A1_apply (c : Dev nD) (r col : Fin 256) :
    A1 m c (ix2 r col) = ent m r col c + ent m r col (pr (kRow 0 r.val) c) := by
  unfold A1; rw [pay3_apply, A0_apply, R0_apply]

theorem sent1_apply (c : Dev nD) (u : Fin 1) (r col : Fin 256) : sent1 m c (ix3 u r col) = A1 m c (ix2 r col) :=
  pay4_apply _ _ u r col

theorem R1_apply (c : Dev nD) (u : Fin 1) (r col : Fin 256) :
    R1 m c (ix3 u r col) = A1 m (pr (kRow 1 r.val) c) (ix2 r col) :=
  sent1_apply m _ u r col

theorem A2_apply (c : Dev nD) (r col : Fin 256) :
    A2 m c (ix2 r col)
      = (ent m r col c + ent m r col (pr (kRow 0 r.val) c))
        + (ent m r col (pr (kRow 1 r.val) c) + ent m r col (pr (kRow 0 r.val) (pr (kRow 1 r.val) c))) := by
  unfold A2; rw [pay5_apply, R1_apply, A1_apply, A1_apply]

theorem sent2_apply (c : Dev nD) (u : Fin 1) (r col : Fin 256) : sent2 m c (ix3 u r col) = A2 m c (ix2 r col) :=
  pay6_apply _ _ u r col

theorem R2_apply (c : Dev nD) (u : Fin 1) (r col : Fin 256) :
    R2 m c (ix3 u r col) = A2 m (pr (kRow 2 r.val) c) (ix2 r col) :=
  sent2_apply m _ u r col

theorem A3_apply (c : Dev nD) (r col : Fin 256) :
    A3 m c (ix2 r col)
      = ((ent m r col c + ent m r col (pr (kRow 0 r.val) c))
          + (ent m r col (pr (kRow 1 r.val) c) + ent m r col (pr (kRow 0 r.val) (pr (kRow 1 r.val) c))))
        + ((ent m r col (pr (kRow 2 r.val) c) + ent m r col (pr (kRow 0 r.val) (pr (kRow 2 r.val) c)))
          + (ent m r col (pr (kRow 1 r.val) (pr (kRow 2 r.val) c))
            + ent m r col (pr (kRow 0 r.val) (pr (kRow 1 r.val) (pr (kRow 2 r.val) c))))) := by
  unfold A3; rw [pay7_apply, R2_apply, A2_apply, A2_apply]

/-- Every device's result is, entry by entry, the sum of the eight blocks. -/
theorem A3_sum (c : Dev nD) (r col : Fin 256) : A3 m c (ix2 r col) = ∑ d : Fin 8, ent m r col d :=
  (A3_apply m c r col).trans (orbit_sum (ent m r col) ⟨chunkOfRow r.val, chunk_lt r.val⟩ c)

end Chain

/-! ## The reference: the whole array's eight row blocks summed, entry by entry -/

section Reference

variable [hR : Cert.ReferenceIdeal.Facts]

/-- Row `r` of block `d` is row `256 d + r` of the whole array. -/
theorem row_lt (d : Fin 8) (r : Fin 256) : d.val * 256 + r.val < 2048 := by
  have := d.isLt; have := r.isLt; omega

theorem ref_apply (w : (⟨Cert.ReferenceIdeal.S2048x256, .f32⟩ : BufTy).Contents (Elt Ideal)) (r col : Fin 256) :
    Cert.ReferenceIdeal.Read.val_main_v1 (F := Ideal) w (ix2 r col)
      = ∑ d : Fin 8, (show EReal from w (ix2 (⟨d.val * 256 + r.val, row_lt d r⟩ : Fin 2048) col)) := by
  rw [Cert.ReferenceIdeal.Read.val_main_v1_apply, Cert.ReferenceIdeal.Read.val_main_cst_apply, Ideal.ofBits_def,
    Ideal.ofBits_zero_f32, zero_add]
  refine Finset.sum_congr rfl fun d _ => ?_
  rw [Cert.ReferenceIdeal.Read.val_main_v0_apply]
  refine congrArg w (funext fun a => Fin.ext ?_)
  have := d.isLt; have := r.isLt; have := col.isLt
  match a with
  | ⟨0, _⟩ => show ((d.val * 256 + r.val) * 256 + col.val) / 256 = d.val * 256 + r.val; omega
  | ⟨1, _⟩ => show ((d.val * 256 + r.val) * 256 + col.val) % 256 = col.val; omega

/-- Block `d` of the whole array, entry by entry. -/
theorem block_entry (w : (⟨2, ![2048, 256]⟩ : Shape).Idx → EReal) (d : Fin 8) (r col : Fin 256) :
    Layout.block ⟨2, ![256, 256]⟩ ⟨2, ![2048, 256]⟩ 0 8 d w (by decide) (ix2 r col)
      = w (ix2 (⟨d.val * 256 + r.val, row_lt d r⟩ : Fin 2048) col) := by
  rw [Layout.block_apply]
  refine congrArg w (funext fun a => Fin.ext ?_)
  match a with
  | ⟨0, _⟩ => rfl
  | ⟨1, _⟩ => rfl

end Reference

/-! ## The two programs' results -/

section Join

variable [hK : Cert.KernelIdeal.Facts] [hR : Cert.ReferenceIdeal.Facts]

/-- Where every device's argument buffer is its block of the whole array, every device's three-step sum is the
    reference's reduction of the whole array. -/
theorem A3_eq_ref (m : (ℓ : Loc Cert.KernelIdeal.nD Cert.KernelIdeal.τ Cert.KernelIdeal.sig) → Buf (Elt Ideal) ℓ)
    (w : (⟨Cert.ReferenceIdeal.S2048x256, .f32⟩ : BufTy).Contents (Elt Ideal))
    (hagree : ∀ c : Dev Cert.KernelIdeal.nD,
      m ((c.tc : Thread Cert.KernelIdeal.nD Cert.KernelIdeal.τ).loc Cert.KernelIdeal.main_arg0)
        = Layout.block ⟨2, ![256, 256]⟩ ⟨2, ![2048, 256]⟩ 0 8 c w)
    (c : Dev Cert.KernelIdeal.nD) :
    A3 m c = Cert.ReferenceIdeal.Read.val_main_v1 (F := Ideal) w := by
  funext i
  obtain ⟨r, col, rfl⟩ : ∃ (r col : Fin 256), i = ix2 r col := ⟨i 0, i 1, eq_ix2 i⟩
  rw [A3_sum, ref_apply]
  refine Finset.sum_congr rfl fun d _ => ?_
  unfold ent
  rw [X_eq, hagree d]
  exact block_entry w d r col

end Join

/-- Both programs run; every device's result and the reference's are the reference's reduction of the whole array. -/
theorem algebraic [hKernelIdeal : Cert.KernelIdeal.Facts] [hReferenceIdeal : Cert.ReferenceIdeal.Facts] [hPre : Cert.Pre_finite_inputs_Kernel.Facts] :
    Cert.algebraic_KernelIdeal_ReferenceIdeal := by
  intro m g m' g' _ hagree
  refine ⟨Cert.ReferenceIdeal.Read.val_main_v1 (F := Ideal)
      (m' (((0 : Dev Cert.ReferenceIdeal.nD).tc : Thread Cert.ReferenceIdeal.nD Cert.ReferenceIdeal.τ).loc Cert.ReferenceIdeal.main_arg0)),
    ?_, ?_⟩
  · exact (θ_run (Cert.KernelIdeal.defs (F := Ideal)) _ _).mono
      (fun _ h c => ⟨(h c).1.trans (A3_eq_ref m _ hagree c), (h c).2⟩)
      (Cert.KernelIdeal.AR.run_main (F := Ideal) m g)
  · exact (θ_run (Cert.ReferenceIdeal.defs (F := Ideal)) _ _).mono
      (fun _ h => ⟨(h 0).1.trans (Cert.ReferenceIdeal.Read.val_main_v1_eq _), (h 0).2⟩)
      (Cert.ReferenceIdeal.Value.run (F := Ideal) m' g')

/-- info: 'Cert.ARValue.A3_eq_ref' depends on axioms: [propext, Classical.choice, Quot.sound] -/
#guard_msgs in #print axioms A3_eq_ref

end Cert.ARValue

end
-- ==== Proof.lean ====
/-
  The certificate of the eight-device all-reduce against `x.reshape(8, 256, 256).sum(axis=0)`.

  Every device holds a 256 × 256 block of `x`. After an entry handshake with the three devices whose position differs
  from its own by the bit patterns 1, 3 and 4, it runs three steps: it stores its running sum, narrowed to the half-width
  format, as a slab of its send buffer, sends the slab's three row chunks to the three partners — chunk `ch` of step `s` to
  the partner of pattern `(ch + s) mod 3` —, waits for the three chunks the partners send it, and adds the received slab,
  widened again. The three patterns are linearly independent over the two-element field and every row chunk meets each
  once, so after three steps every device holds the sum of all eight blocks: over the extended reals, where a change
  of format is the identity and addition is commutative and associative with no finiteness needed, that is the
  reference's reduction of the whole array, entry by entry.

  The three frames are the runs with the values dropped; the idealization rewrote nothing, so `preserves` is trivial.
-/
import proofs.«900696_g7700000000000697_dist_ar_v7x_i8_i_m256_n256_bf16_1_alg».proof.Defs
import proofs.«900696_g7700000000000697_dist_ar_v7x_i8_i_m256_n256_bf16_1_alg».proof.Proof.Gen.Kernel
import proofs.«900696_g7700000000000697_dist_ar_v7x_i8_i_m256_n256_bf16_1_alg».proof.Proof.Gen.KernelIdeal
import proofs.«900696_g7700000000000697_dist_ar_v7x_i8_i_m256_n256_bf16_1_alg».proof.Proof.Gen.ReferenceIdeal
import proofs.«900696_g7700000000000697_dist_ar_v7x_i8_i_m256_n256_bf16_1_alg».proof.Proof.Gen.Pre_finite_inputs_Kernel
import proofs.«900696_g7700000000000697_dist_ar_v7x_i8_i_m256_n256_bf16_1_alg».proof.Proof.Gen.Pre_finite_inputs_ReferenceIdeal
import proofs.«900696_g7700000000000697_dist_ar_v7x_i8_i_m256_n256_bf16_1_alg».proof.Proof.Gen.ReferenceIdeal.Run
import proofs.«900696_g7700000000000697_dist_ar_v7x_i8_i_m256_n256_bf16_1_alg».proof.Proof.Run
import proofs.«900696_g7700000000000697_dist_ar_v7x_i8_i_m256_n256_bf16_1_alg».proof.Proof.K.Run
import proofs.«900696_g7700000000000697_dist_ar_v7x_i8_i_m256_n256_bf16_1_alg».proof.Proof.ValueIdeal
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    fun m ρ _ => (θ_run (Cert.Kernel.defs (F := Bits)) _ _).mono (fun _ h c => (h c).2) (Cert.Kernel.AR.run_main (F := Bits) m ρ),
    fun m ρ _ => (θ_run (Cert.KernelIdeal.defs (F := Ideal)) _ _).mono (fun _ h c => (h c).2) (Cert.KernelIdeal.AR.run_main (F := Ideal) m ρ),
    fun m ρ _ => (θ_run (Cert.ReferenceIdeal.defs (F := Ideal)) _ _).mono (fun _ h c => (h c).2) (Cert.ReferenceIdeal.Value.run (F := Ideal) m ρ),
    trivial,
    Cert.ARValue.algebraic⟩

end Cert.Proof

end
